-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192x2 : Shape := ⟨2, ![8192, 2]⟩
abbrev S8192 : Shape := ⟨1, ![8192]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x2 : S_.BroadcastsInDim S8192x2 (![] : Fin 0 → Fin S8192x2.rank)
  reducesTo_S8192x2_S_d0_1 : S8192x2.ReducesTo [0, 1] S_
  bcast_S_S8192 : S_.BroadcastsInDim S8192 (![] : Fin 0 → Fin S8192.rank)
  reducesTo_S8192_S_d0 : S8192.ReducesTo [0] S_

variable [Facts]

def fn_part1 {F : FTy → Type} [FloatOps F] (main_arg4 : IVec S8192 32) (main_v13 : IVec S_ 1) (main_v16 : IVec S8192x2 1) : IVec S_ 1 :=
  let main_c_5 : IVec S_ 1 := constantI S_ 1 1#1
  let main_v17 : IVec S_ 1 := (fun x v => Host.reduce IntOp.andi x v reducesTo_S8192x2_S_d0_1 h_S_) main_v16 main_c_5
  let main_v18 : IVec S_ 1 := andi main_v13 main_v17
  let main_c_6 : IVec S_ 32 := constantI S_ 32 0#32
  let main_v19 : IVec S8192 32 := broadcastInDim S8192 ![] bcast_S_S8192 main_c_6
  let main_v20 : IVec S8192 1 := cmpi .sge main_arg4 main_v19
  let main_c_7 : IVec S_ 1 := constantI S_ 1 1#1
  let main_v21 : IVec S_ 1 := (fun x v => Host.reduce IntOp.andi x v reducesTo_S8192_S_d0 h_S_) main_v20 main_c_7
  let main_v22 : IVec S_ 1 := andi main_v18 main_v21
  main_v22

def fn {F : FTy → Type} [FloatOps F] (main_arg0 : FVec F S8192x512 .f32) (main_arg1 : FVec F S8192x512 .f32) (main_arg2 : FVec F S8192x2 .f32) (main_arg3 : FVec F S8192x2 .f32) (main_arg4 : IVec S8192 32) (main_arg5 : IVec S8192 1) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  let main_v9 : FVec F S8192x2 .f32 := Host.absf main_arg2
  let main_cst_2 : FVec F S_ .f32 := constant S_ .f32 0x7F800000#32
  let main_v10 : FVec F S8192x2 .f32 := broadcastInDim S8192x2 ![] bcast_S_S8192x2 main_cst_2
  let main_v11 : IVec S8192x2 1 := cmpf .olt main_v9 main_v10
  let main_c_3 : IVec S_ 1 := constantI S_ 1 1#1
  let main_v12 : IVec S_ 1 := (fun x v => Host.reduce IntOp.andi x v reducesTo_S8192x2_S_d0_1 h_S_) main_v11 main_c_3
  let main_v13 : IVec S_ 1 := andi main_v8 main_v12
  let main_v14 : FVec F S8192x2 .f32 := Host.absf main_arg3
  let main_cst_4 : FVec F S_ .f32 := constant S_ .f32 0x7F800000#32
  let main_v15 : FVec F S8192x2 .f32 := broadcastInDim S8192x2 ![] bcast_S_S8192x2 main_cst_4
  let main_v16 : IVec S8192x2 1 := cmpf .olt main_v14 main_v15
  fn_part1 (F := F) main_arg4 main_v13 main_v16
-- ==== Kernel.lean ====
abbrev S8192x512 : Shape := ⟨2, ![8192, 512]⟩
abbrev S8192x2 : Shape := ⟨2, ![8192, 2]⟩
abbrev S8192 : Shape := ⟨1, ![8192]⟩
abbrev S8192x1 : Shape := ⟨2, ![8192, 1]⟩
abbrev S1024x512 : Shape := ⟨2, ![1024, 512]⟩
abbrev S1024x2 : Shape := ⟨2, ![1024, 2]⟩
abbrev S1024x1 : Shape := ⟨2, ![1024, 1]⟩
abbrev S1024 : Shape := ⟨1, ![1024]⟩
abbrev S_ : Shape := ⟨0, ![]⟩
abbrev S16x512 : Shape := ⟨2, ![16, 512]⟩
abbrev S16 : Shape := ⟨1, ![16]⟩
abbrev S1x8192 : Shape := ⟨2, ![1, 8192]⟩
abbrev S1x1 : Shape := ⟨2, ![1, 1]⟩
abbrev S512x1 : Shape := ⟨2, ![512, 1]⟩
abbrev S1x512 : Shape := ⟨2, ![1, 512]⟩
abbrev S1 : Shape := ⟨1, ![1]⟩
abbrev S512x512 : Shape := ⟨2, ![512, 512]⟩
abbrev S512 : Shape := ⟨1, ![512]⟩

abbrev nBuf : Space → Nat
  | .hbm => 31
  | .vmem => 26
  | .smem => 2
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x2, .f32⟩
  | .hbm, ⟨3, _⟩ => ⟨S8192x2, .f32⟩
  | .hbm, ⟨4, _⟩ => ⟨S8192, .i32⟩
  | .hbm, ⟨5, _⟩ => ⟨S8192, .i1⟩
  | .hbm, ⟨6, _⟩ => ⟨S8192x1, .f32⟩
  | .hbm, ⟨7, _⟩ => ⟨S8192x1, .f32⟩
  | .hbm, ⟨8, _⟩ => ⟨S8192, .i32⟩
  | .hbm, ⟨9, _⟩ => ⟨S_, .i32⟩
  | .hbm, ⟨10, _⟩ => ⟨S8192, .i32⟩
  | .hbm, ⟨11, _⟩ => ⟨S8192, .i32⟩
  | .hbm, ⟨12, _⟩ => ⟨S8192, .i32⟩
  | .hbm, ⟨13, _⟩ => ⟨S16x512, .i32⟩
  | .hbm, ⟨14, _⟩ => ⟨S_, .i32⟩
  | .hbm, ⟨15, _⟩ => ⟨S_, .i32⟩
  | .hbm, ⟨16, _⟩ => ⟨S1x8192, .f32⟩
  | .hbm, ⟨17, _⟩ => ⟨S1x8192, .f32⟩
  | .hbm, ⟨18, _⟩ => ⟨S8192x1, .i32⟩
  | .hbm, ⟨19, _⟩ => ⟨S1x8192, .i32⟩
  | .hbm, ⟨20, _⟩ => ⟨S1x1, .f32⟩
  | .hbm, ⟨21, _⟩ => ⟨S1x1, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .i1⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x2, .f32⟩
  | .local _ .vmem, ⟨5, _⟩ => ⟨S1024x2, .f32⟩
  | .local _ .vmem, ⟨6, _⟩ => ⟨S1024x2, .f32⟩
  | .local _ .vmem, ⟨7, _⟩ => ⟨S1024x2, .f32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | .local _ .vmem, ⟨11, _⟩ => ⟨S1024x1, .f32⟩
  | .local _ .vmem, ⟨12, _⟩ => ⟨S512x1, .f32⟩
  | .local _ .vmem, ⟨13, _⟩ => ⟨S512x1, .f32⟩
  | .local _ .vmem, ⟨14, _⟩ => ⟨S1x512, .f32⟩
  | .local _ .vmem, ⟨15, _⟩ => ⟨S1x512, .f32⟩
  | .local _ .vmem, ⟨16, _⟩ => ⟨S512x1, .f32⟩
  | .local _ .vmem, ⟨17, _⟩ => ⟨S512x1, .f32⟩
  | .local _ .vmem, ⟨18, _⟩ => ⟨S1x512, .f32⟩
  | .local _ .vmem, ⟨19, _⟩ => ⟨S1x512, .f32⟩
  | .local _ .vmem, ⟨20, _⟩ => ⟨S512x1, .i32⟩
  | .local _ .vmem, ⟨21, _⟩ => ⟨S512x1, .i32⟩
  | .local _ .vmem, ⟨22, _⟩ => ⟨S1x512, .i32⟩
  | .local _ .vmem, ⟨23, _⟩ => ⟨S1x512, .i32⟩
  | .local _ .vmem, ⟨24, _⟩ => ⟨S1x1, .f32⟩
  | .local _ .vmem, ⟨25, _⟩ => ⟨S1x1, .f32⟩
  | .local _ .smem, ⟨0, _⟩ => ⟨S16, .i32⟩
  | .local _ .smem, ⟨1, _⟩ => ⟨S16, .i32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12_0 : Ref sig .tc := ⟨.hbm, 20, rfl⟩
abbrev main_v12_1 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v6 : Ref sig .tc := ⟨.smem, 0, rfl⟩
abbrev main_v7 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc1_stg6_0 : Ref sig .tc := ⟨.vmem, 24, rfl⟩
abbrev cc1_stg7_0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23
abbrev cc1_sem6_0 : DmaSem sig := 24
abbrev cc1_sem7_0 : DmaSem sig := 25

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x2 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![16, 16], ![false, false]⟩

abbrev pre1 : Pipeline.Prefetch sig := ⟨2, ![main_v6.idx, main_v7.idx], fun | 0 => main_v6.names | 1 => main_v7.names | ⟨_ + 2, h⟩ => absurd h (Nat.not_lt.2 (Nat.le_add_left _ _)), fun | 0 => rfl | 1 => rfl | ⟨_ + 2, h⟩ => absurd h (Nat.not_lt.2 (Nat.le_add_left _ _))⟩

def k1_off1 (i : grid1.Coords) : Fin 1 → Nat :=
  let arg0 : BitVec 32 := BitVec.ofNat 32 (i 0).val
  let v5 : Index := Scalar.indexCast arg0
  ![v5.toNat]
def k1_off2 (i : grid1.Coords) : Fin 1 → Nat :=
  let arg1 : BitVec 32 := BitVec.ofNat 32 (i 1).val
  let v7 : Index := Scalar.indexCast arg1
  ![v7.toNat]
def k1_cond1 (i : grid1.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def k1_cond2 (v6 : BitVec 32) (v8 : BitVec 32) (v11 : BitVec 32) (v13 : BitVec 32) : BitVec 1 :=
  let v9 : BitVec 1 := Scalar.cmpi .sge v6 v8
  let v14 : BitVec 1 := Scalar.cmpi .sle v11 v13
  let v15 : BitVec 1 := Scalar.andi v9 v14
  let v16 : BitVec 32 := Scalar.extui v15
  let c0_i32_2 : BitVec 32 := 0#32
  let v17 : BitVec 1 := Scalar.cmpi .ne v16 c0_i32_2
  v17

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S512x1 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x512 .i32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true]

abbrev stage1_6 : Fin 1 → Memref sig .tc .vmem S1x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S1x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

class Facts₀ : Prop where
  inb_S1024x512_S1024x512_0_0 : ∀ a, (![0, 0] : Fin 2 → Nat) a + S1024x512.size a ≤ S1024x512.size a
  h_S1024x512 : 0 < S1024x512.numel
  reduces_S1024x512_S1024 : S1024x512.Reduces [1] S1024
  shapeCasts_S1024_S1024x1 : S1024.ShapeCasts S1024x1
  inb_S1024x1_S1024x1_0_0 : ∀ a, (![0, 0] : Fin 2 → Nat) a + S1024x1.size a ≤ S1024x1.size a
  h_S1024x1 : 0 < S1024x1.numel
  inb_S1024x2_S1024x2_0_0 : ∀ a, (![0, 0] : Fin 2 → Nat) a + S1024x2.size a ≤ S1024x2.size a
  h_S1024x2 : 0 < S1024x2.numel
  reduces_S1024x2_S1024 : S1024x2.Reduces [1] S1024
  bcast_S_S8192 : S_.BroadcastsInDim S8192 (![] : Fin 0 → Fin S8192.rank)
  shapeCasts_S8192_S16x512 : S8192.ShapeCasts S16x512
  reducesTo_S16x512_S16_d1 : S16x512.ReducesTo [1] S16
  h_S_ : 0 < S_.numel
  shapeCasts_S8192x1_S1x8192 : S8192x1.ShapeCasts S1x8192
  shapeCasts_S8192_S8192x1 : S8192.ShapeCasts S8192x1
  shapeCasts_S8192_S1x8192 : S8192.ShapeCasts S1x8192
  inb_S1x1_S1x1_0_0 : ∀ a, (![0, 0] : Fin 2 → Nat) a + S1x1.size a ≤ S1x1.size a
  h_S1x1 : 0 < S1x1.numel
  numel1_S1 : S1.numel = 1
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S512x1_S512x512 : S512x1.Broadcasts S512x512
  broadcasts_S1x512_S512x512 : S1x512.Broadcasts S512x512
  natLt_1_32 : 1 < 32
  reduces_S512x512_S512 : S512x512.Reduces [1] S512
  shapeCasts_S512_S512x1 : S512.ShapeCasts S512x1
  reduces_S512x1_S1 : S512x1.Reduces [0] S1
  shapeCasts_S1_S1x1 : S1.ShapeCasts S1x1
  shapeCasts_S1x1_S1x1 : S1x1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S8192x512.size a
  hwx0_1 : ∀ i : grid0.Coords, EltTy.bits .f32 = 32 ∨ (Rect.block (s := S8192x512) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x2.size a ≤ S8192x2.size a
  hwx0_2 : ∀ i : grid0.Coords, EltTy.bits .f32 = 32 ∨ (Rect.block (s := S8192x2) S1024x2.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x2.size a ≤ S8192x2.size a
  hwx0_3 : ∀ i : grid0.Coords, EltTy.bits .f32 = 32 ∨ (Rect.block (s := S8192x2) S1024x2.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S8192x1.size a
  hwx0_4 : ∀ i : grid0.Coords, EltTy.bits .f32 = 32 ∨ (Rect.block (s := S8192x1) S1024x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1.size a ≤ S8192x1.size a
  hwx0_5 : ∀ i : grid0.Coords, EltTy.bits .f32 = 32 ∨ (Rect.block (s := S8192x1) S1024x1.size (cc0_transform_5 i) (hinb0_5 i)).WholeWords (EltTy.packing .f32)
  hrank1 : 0 < grid1.rank
  k1_off1_inb : ∀ i : grid1.Coords, ∀ a, (k1_off1 i) a + S1.size a ≤ S16.size a
  k1_off2_inb : ∀ i : grid1.Coords, ∀ a, (k1_off2 i) a + S1.size a ≤ S16.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1.size a ≤ S8192x1.size a
  hwx1_0 : ∀ i : grid1.Coords, EltTy.bits .f32 = 32 ∨ (Rect.block (s := S8192x1) S512x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512.size a ≤ S1x8192.size a
  hwx1_1 : ∀ i : grid1.Coords, EltTy.bits .f32 = 32 ∨ (Rect.block (s := S1x8192) S1x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1.size a ≤ S8192x1.size a
  hwx1_2 : ∀ i : grid1.Coords, EltTy.bits .f32 = 32 ∨ (Rect.block (s := S8192x1) S512x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x8192.size a
  hwx1_3 : ∀ i : grid1.Coords, EltTy.bits .f32 = 32 ∨ (Rect.block (s := S1x8192) S1x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x1.size a ≤ S8192x1.size a
  hwx1_4 : ∀ i : grid1.Coords, EltTy.bits .i32 = 32 ∨ (Rect.block (s := S8192x1) S512x1.size (cc1_transform_4 i) (hinb1_4 i)).WholeWords (EltTy.packing .i32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x512.size a ≤ S1x8192.size a
  hwx1_5 : ∀ i : grid1.Coords, EltTy.bits .i32 = 32 ∨ (Rect.block (s := S1x8192) S1x512.size (cc1_transform_5 i) (hinb1_5 i)).WholeWords (EltTy.packing .i32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x1.size a ≤ S1x1.size a
  hwx1_6 : ∀ i : grid1.Coords, EltTy.bits .f32 = 32 ∨ (Rect.block (s := S1x1) S1x1.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x1.size a ≤ S1x1.size a
  hwx1_7 : ∀ i : grid1.Coords, EltTy.bits .f32 = 32 ∨ (Rect.block (s := S1x1) S1x1.size (cc1_transform_7 i) (hinb1_7 i)).WholeWords (EltTy.packing .f32)

variable [Facts₀]

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x2.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x2.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S1024x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S1024x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev spec1_0 : Pipeline.WinSpec sig grid1.rank :=
  Pipeline.WinSpec.ofSpec (Memref.whole main_v0_0) S512x1.size reads1_0 false false 2 stage1_0 sem1_0 nbuf1_0 hstage1_0

abbrev spec1_1 : Pipeline.WinSpec sig grid1.rank :=
  Pipeline.WinSpec.ofSpec (Memref.whole main_v8) S1x512.size reads1_1 false false 2 stage1_1 sem1_1 nbuf1_1 hstage1_1

abbrev spec1_2 : Pipeline.WinSpec sig grid1.rank :=
  Pipeline.WinSpec.ofSpec (Memref.whole main_v0_1) S512x1.size reads1_2 false false 2 stage1_2 sem1_2 nbuf1_2 hstage1_2

abbrev spec1_3 : Pipeline.WinSpec sig grid1.rank :=
  Pipeline.WinSpec.ofSpec (Memref.whole main_v9) S1x512.size reads1_3 false false 2 stage1_3 sem1_3 nbuf1_3 hstage1_3

abbrev spec1_4 : Pipeline.WinSpec sig grid1.rank :=
  Pipeline.WinSpec.ofSpec (Memref.whole main_v10) S512x1.size reads1_4 false false 2 stage1_4 sem1_4 nbuf1_4 hstage1_4

abbrev spec1_5 : Pipeline.WinSpec sig grid1.rank :=
  Pipeline.WinSpec.ofSpec (Memref.whole main_v11) S1x512.size reads1_5 false false 2 stage1_5 sem1_5 nbuf1_5 hstage1_5

abbrev spec1_6 : Pipeline.WinSpec sig grid1.rank :=
  Pipeline.WinSpec.ofSpec (Memref.whole main_v12_0) S1x1.size reads1_6 true true 1 stage1_6 sem1_6 nbuf1_6 hstage1_6

abbrev spec1_7 : Pipeline.WinSpec sig grid1.rank :=
  Pipeline.WinSpec.ofSpec (Memref.whole main_v12_1) S1x1.size reads1_7 true true 1 stage1_7 sem1_7 nbuf1_7 hstage1_7

abbrev spec1 : Fin 8 → Pipeline.WinSpec sig grid1.rank := fun | 0 => spec1_0 | 1 => spec1_1 | 2 => spec1_2 | 3 => spec1_3 | 4 => spec1_4 | 5 => spec1_5 | 6 => spec1_6 | 7 => spec1_7 | ⟨_ + 8, h⟩ => absurd h (Nat.not_lt.2 (Nat.le_add_left _ _))
theorem hcount1 : ∀ w, grid1.bufCount (spec1 w).reads (spec1 w).sync = (spec1 w).nbuf := fun | 0 => nbuf1_0 | 1 => nbuf1_1 | 2 => nbuf1_2 | 3 => nbuf1_3 | 4 => nbuf1_4 | 5 => nbuf1_5 | 6 => nbuf1_6 | 7 => nbuf1_7 | ⟨_ + 8, h⟩ => absurd h (Nat.not_lt.2 (Nat.le_add_left _ _))
abbrev ix1 (pf : pre1.Contents (Elt F)) : (w : Fin 8) → grid1.Coords → Fin (spec1 w).shape.rank → Nat := fun | 0 => cc1_transform_0 | 1 => cc1_transform_1 | 2 => cc1_transform_2 | 3 => cc1_transform_3 | 4 => cc1_transform_4 | 5 => cc1_transform_5 | 6 => cc1_transform_6 | 7 => cc1_transform_7 | ⟨_ + 8, h⟩ => absurd h (Nat.not_lt.2 (Nat.le_add_left _ _))
theorem hreads1 : ∀ (pf : pre1.Contents (Elt F)) w (i i' : grid1.Coords), (∀ a, (spec1 w).reads a = true → i a = i' a) → ix1 pf w i = ix1 pf w i' := fun pf => fun | 0 => hreads1_0 | 1 => hreads1_1 | 2 => hreads1_2 | 3 => hreads1_3 | 4 => hreads1_4 | 5 => hreads1_5 | 6 => hreads1_6 | 7 => hreads1_7 | ⟨_ + 8, h⟩ => absurd h (Nat.not_lt.2 (Nat.le_add_left _ _))
def ok1 (_ : pre1.Contents (Elt F)) : Prop :=
  True
instance (pf : pre1.Contents (Elt F)) : Decidable (ok1 pf) := decidable_of_iff' _ (Iff.of_eq (ok1.eq_1 pf))
theorem hinb1 : ∀ (pf : pre1.Contents (Elt F)), ok1 pf → ∀ w (i : grid1.Coords) a, (ix1 pf w i a + 1) * (spec1 w).size a ≤ (spec1 w).shape.size a :=
  fun _ _ => fun | 0 => hinb1_0 | 1 => hinb1_1 | 2 => hinb1_2 | 3 => hinb1_3 | 4 => hinb1_4 | 5 => hinb1_5 | 6 => hinb1_6 | 7 => hinb1_7 | ⟨_ + 8, h⟩ => absurd h (Nat.not_lt.2 (Nat.le_add_left _ _))
theorem hwx1 : ∀ (pf : pre1.Contents (Elt F)) (hok : ok1 pf) w (i : grid1.Coords), (spec1 w).elt.bits = 32 ∨ (Rect.block (spec1 w).size (ix1 pf w i) (hinb1 pf hok w i)).WholeWords (spec1 w).elt.packing :=
  fun _ _ => fun | 0 => hwx1_0 | 1 => hwx1_1 | 2 => hwx1_2 | 3 => hwx1_3 | 4 => hwx1_4 | 5 => hwx1_5 | 6 => hwx1_6 | 7 => hwx1_7 | ⟨_ + 8, h⟩ => absurd h (Nat.not_lt.2 (Nat.le_add_left _ _))
abbrev idle1 (pf : pre1.Contents (Elt F)) : Fin 8 → grid1.Coords → Bool := fun | 0 => fun _ => false | 1 => fun _ => false | 2 => fun _ => false | 3 => fun _ => false | 4 => fun _ => false | 5 => fun _ => false | 6 => fun i => !(k1_cond1 i == 1#1) && !(k1_cond2 (pf.atD 1 (k1_off1 i)) (pf.atD 0 (k1_off2 i)) (pf.atD 0 (k1_off1 i)) (pf.atD 1 (k1_off2 i)) == 1#1) | 7 => fun i => !(k1_cond1 i == 1#1) && !(k1_cond2 (pf.atD 1 (k1_off1 i)) (pf.atD 0 (k1_off2 i)) (pf.atD 0 (k1_off1 i)) (pf.atD 1 (k1_off2 i)) == 1#1) | ⟨_ + 8, h⟩ => absurd h (Nat.not_lt.2 (Nat.le_add_left _ _))

class Facts : Prop extends Facts₀ where
  harr1 : ∀ w, (spec1 w).arr.IsWhole

variable [Facts]
-- ==== ReferenceIdeal.lean ====
abbrev S8192x512 : Shape := ⟨2, ![8192, 512]⟩
abbrev S8192x2 : Shape := ⟨2, ![8192, 2]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S8192x8192 : Shape := ⟨2, ![8192, 8192]⟩

abbrev nBuf : Space → Nat
  | .hbm => 58
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x2, .f32⟩
  | .hbm, ⟨3, _⟩ => ⟨S8192x2, .f32⟩
  | .hbm, ⟨4, _⟩ => ⟨S8192, .i32⟩
  | .hbm, ⟨5, _⟩ => ⟨S8192, .i1⟩
  | .hbm, ⟨6, _⟩ => ⟨S8192x512, .f32⟩
  | .hbm, ⟨7, _⟩ => ⟨S8192x512, .f32⟩
  | .hbm, ⟨8, _⟩ => ⟨S_, .f32⟩
  | .hbm, ⟨9, _⟩ => ⟨S8192, .f32⟩
  | .hbm, ⟨10, _⟩ => ⟨S8192, .f32⟩
  | .hbm, ⟨11, _⟩ => ⟨S8192x2, .f32⟩
  | .hbm, ⟨12, _⟩ => ⟨S8192x2, .f32⟩
  | .hbm, ⟨13, _⟩ => ⟨S_, .f32⟩
  | .hbm, ⟨14, _⟩ => ⟨S8192, .f32⟩
  | .hbm, ⟨15, _⟩ => ⟨S8192, .f32⟩
  | .hbm, ⟨16, _⟩ => ⟨S8192x1, .i32⟩
  | .hbm, ⟨17, _⟩ => ⟨S1x8192, .i32⟩
  | .hbm, ⟨18, _⟩ => ⟨S8192x8192, .i32⟩
  | .hbm, ⟨19, _⟩ => ⟨S8192x8192, .i32⟩
  | .hbm, ⟨20, _⟩ => ⟨S8192x8192, .i1⟩
  | .hbm, ⟨21, _⟩ => ⟨S8192x1, .i1⟩
  | .hbm, ⟨22, _⟩ => ⟨S1x8192, .i1⟩
  | .hbm, ⟨23, _⟩ => ⟨S8192x8192, .i1⟩
  | .hbm, ⟨24, _⟩ => ⟨S8192x8192, .i1⟩
  | .hbm, ⟨25, _⟩ => ⟨S8192x8192, .i1⟩
  | .hbm, ⟨26, _⟩ => ⟨S8192x1, .f32⟩
  | .hbm, ⟨27, _⟩ => ⟨S1x8192, .f32⟩
  | .hbm, ⟨28, _⟩ => ⟨S8192x8192, .f32⟩
  | .hbm, ⟨29, _⟩ => ⟨S8192x8192, .f32⟩
  | .hbm, ⟨30, _⟩ => ⟨S8192x8192, .i1⟩
  | .hbm, ⟨31, _⟩ => ⟨S8192x1, .f32⟩
  | .hbm, ⟨32, _⟩ => ⟨S1x8192, .f32⟩
  | .hbm, ⟨33, _⟩ => ⟨S8192x8192, .f32⟩
  | .hbm, ⟨34, _⟩ => ⟨S8192x8192, .f32⟩
  | .hbm, ⟨35, _⟩ => ⟨S8192x8192, .i1⟩
  | .hbm, ⟨36, _⟩ => ⟨S8192x8192, .i1⟩
  | .hbm, ⟨37, _⟩ => ⟨S8192x8192, .i1⟩
  | .hbm, ⟨38, _⟩ => ⟨S8192x8192, .i1⟩
  | .hbm, ⟨39, _⟩ => ⟨S8192x1, .f32⟩
  | .hbm, ⟨40, _⟩ => ⟨S1x8192, .f32⟩
  | .hbm, ⟨41, _⟩ => ⟨S8192x8192, .f32⟩
  | .hbm, ⟨42, _⟩ => ⟨S8192x8192, .f32⟩
  | .hbm, ⟨43, _⟩ => ⟨S8192x8192, .f32⟩
  | .hbm, ⟨44, _⟩ => ⟨S8192x8192, .i32⟩
  | .hbm, ⟨45, _⟩ => ⟨S_, .i32⟩
  | .hbm, ⟨46, _⟩ => ⟨S_, .i32⟩
  | .hbm, ⟨47, _⟩ => ⟨S_, .f32⟩
  | .hbm, ⟨48, _⟩ => ⟨S8192x8192, .f32⟩
  | .hbm, ⟨49, _⟩ => ⟨S8192x8192, .f32⟩
  | .hbm, ⟨50, _⟩ => ⟨S_, .f32⟩
  | .hbm, ⟨51, _⟩ => ⟨S_, .f32⟩
  | .hbm, ⟨52, _⟩ => ⟨S_, .i32⟩
  | .hbm, ⟨53, _⟩ => ⟨S_, .i1⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_v0 : Ref sig .tc := ⟨.hbm, 7, rfl⟩
abbrev main_call0_cst : Ref sig .tc := ⟨.hbm, 8, rfl⟩
abbrev main_call0_v1 : Ref sig .tc := ⟨.hbm, 9, rfl⟩
abbrev main_v1 : Ref sig .tc := ⟨.hbm, 10, rfl⟩
abbrev main_v2 : Ref sig .tc := ⟨.hbm, 11, rfl⟩
abbrev main_call1_v0 : Ref sig .tc := ⟨.hbm, 12, rfl⟩
abbrev main_call1_cst : Ref sig .tc := ⟨.hbm, 13, rfl⟩
abbrev main_call1_v1 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_c : Ref sig .tc := ⟨.hbm, 45, rfl⟩
abbrev main_v33 : Ref sig .tc := ⟨.hbm, 46, rfl⟩
abbrev main_cst : Ref sig .tc := ⟨.hbm, 47, rfl⟩
abbrev main_call2_v0 : Ref sig .tc := ⟨.hbm, 48, rfl⟩
abbrev main_v34 : Ref sig .tc := ⟨.hbm, 49, rfl⟩
abbrev main_cst_0 : Ref sig .tc := ⟨.hbm, 50, rfl⟩
abbrev main_v35 : Ref sig .tc := ⟨.hbm, 51, rfl⟩
abbrev main_c_1 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_2 : Ref sig .tc := ⟨.hbm, 56, rfl⟩
abbrev main_v39 : Ref sig .tc := ⟨.hbm, 57, rfl⟩

abbrev nD : Nat := 1
abbrev τ : Topo := Topo.v7x

variable {F : FTy → Type} [FloatOps F]

class Facts₀ : Prop where
  reducesTo_S8192x512_S8192_d1 : S8192x512.ReducesTo [1] S8192
  h_S_ : 0 < S_.numel
  reducesTo_S8192x2_S8192_d1 : S8192x2.ReducesTo [1] S8192
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  natLt_1_32 : 1 < 32
  reducesTo_S8192x8192_S_d0_1 : S8192x8192.ReducesTo [0, 1] S_
  bcast_S_S8192x8192 : S_.BroadcastsInDim S8192x8192 (![] : Fin 0 → Fin S8192x8192.rank)

variable [Facts₀]

class Facts : Prop extends Facts₀ where

variable [Facts]
-- ==== Proof.KReg0.lean ====
import proofs.«413598_j523986010373_2_alg».proof.Proof.Gen.Kernel.Launch
import proofs.«413598_j523986010373_2_alg».proof.Proof.Gen.Kernel.Skeleton
import proofs.«413598_j523986010373_2_alg».proof.Proof.Gen.Kernel.Points
import proofs.«413598_j523986010373_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0 of the program: the first kernel call (row-wise squared distances of two pairs of
    arrays), stated at the buffer contents `V` the TensorCore holds when the region is entered. -/

variable (V : (c : Dev nD) → (b : Ref sig .tc) → Buf (Elt F) ((c : Thread nD τ).loc b))

/-- The block of window `w` at grid point `t`: rows `1024·t … 1024·t+1023` of the window's array as `V` has it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The rectangles the body touches: each is the whole staging buffer -/

abbrev rIn512 : Rect S1024x512 := Rect.unit (s := S1024x512) ![0, 0] S1024x512.size inb_S1024x512_S1024x512_0_0
abbrev rIn2 : Rect S1024x2 := Rect.unit (s := S1024x2) ![0, 0] S1024x2.size inb_S1024x2_S1024x2_0_0
abbrev rOut : Rect S1024x1 := Rect.unit (s := S1024x1) ![0, 0] S1024x1.size inb_S1024x1_S1024x1_0_0

/-! ## What the body leaves in the two output buffers -/

/-- The first output's buffer after the body: one store over the whole buffer, of the row sums of the squared
    differences of the two wide inputs. -/
def out0_4 (x0 x1 : Vec F S1024x512 .f32) : Vec F S1024x1 .f32 :=
  View.canon [⟨rOut, k0_pay1 (View.ld x0 rIn512) (View.ld x1 rIn512)⟩]

/-- The second output's buffer after the body: one store over the whole buffer, of the square roots of the row sums of
    the squared differences of the two narrow inputs. -/
def out0_5 (x2 x3 : Vec F S1024x2 .f32) : Vec F S1024x1 .f32 :=
  View.canon [⟨rOut, k0_pay2 (View.ld x2 rIn2) (View.ld x3 rIn2)⟩]

/-- A single store over the whole of a 1024×1 buffer covers every index of it. -/
theorem coverOut (p : Vec F S1024x1 .f32) (y : S1024x1.Idx) :
    ∃ pc ∈ ([⟨rOut, p⟩] : List (View.Piece (Elt F) S1024x1 .f32)), y ∈ pc.1.set :=
  View.cover_of_tiled [⟨rOut, p⟩] S1024x1.size (by rfl) y

/-! ## The body's triple -/

set_option maxHeartbeats 1000000 in
/-- The body on whole staging memrefs — the four inputs' at read contents `x0 … x3`, the two outputs' at anything — runs
    to the continuation with the inputs' as they were and the outputs' at `out0_4 x0 x1` and `out0_5 x2 x3`. The body
    also reads each output buffer once before it stores there; the value read is not used. -/
theorem sound_kernel0 (c : Dev nD) (E : Set ℕ) (i : grid0.Coords)
    (arg1 : Memref sig .tc .vmem S1024x512 .f32) (harg1 : arg1.IsWhole) (arg2 : Memref sig .tc .vmem S1024x512 .f32) (harg2 : arg2.IsWhole)
    (arg3 : Memref sig .tc .vmem S1024x2 .f32) (harg3 : arg3.IsWhole) (arg4 : Memref sig .tc .vmem S1024x2 .f32) (harg4 : arg4.IsWhole)
    (arg5 : Memref sig .tc .vmem S1024x1 .f32) (harg5 : arg5.IsWhole) (arg6 : Memref sig .tc .vmem S1024x1 .f32) (harg6 : arg6.IsWhole)
    (x0 x1 : Vec F S1024x512 .f32) (x2 x3 : Vec F S1024x2 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out0_4 x0 x1) ∗ owns (c : Thread nD τ) arg6 fullShare (out0_5 x2 x3)) -∗ K ⟨⟩))
      ⊢ wp frame (wpE (defs₀ (F := F)) Variants.none c none) E (cc0__kernel_a i arg1 harg1 arg2 harg2 arg3 harg3 arg4 harg4 arg5 harg5 arg6 harg6) K := by
  simp only [cc0__kernel_a_eq_skeleton]; unfold cc0__kernel_a_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf1 hf2 hf3 hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (coverOut _)
  · iexists _; isplitr
    swap; · iexact H6
    ipureintro
    exact View.read_writes_eq_canon _ _ _ (coverOut _)

/-! ## The inputs' staging buffers hold their blocks -/

/-- An input window's current staging buffer holds its block at every point, whether the pipeline fetched it at that
    point or not (an unfetched input's block index has not moved): for any proof data whose array for the window is
    `V`'s and whose body leaves the block in place. The four inputs tile their arrays and are never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The pipeline's proof data -/

/-- The proof data of the region's pipeline on core `c`: the arrays as the region finds them (`V`); after the body at
    point `t` each input's buffer still at its block, the first output's at `out0_4` of the wide inputs' blocks and the
    second's at `out0_5` of the narrow inputs' blocks; the invariant is the scoped rest and the generator register,
    untouched; nothing is owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 2 t) (iblk0 V c 3 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 2 t) (iblk0 V c 3 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`: the invariant, what the core owes, and the six windows' current staging
    buffers one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it hands back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' buffers hold their blocks, so the body's triple applies at those blocks; the
    invariant and what the core owes do not change from a point to the next and pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation for the region's pipeline, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KReg1Defs.lean ====
/- Region 1 (the second kernel call): its proof data.  The kernel walks a 16 x 16 grid of tile pairs;
   at the first point it clears two one-element accumulators, and at every point whose two tiles' label
   ranges overlap (a test on four words of the two prefetched tables) it adds the tile pair's two sums to
   them.  Everything here is stated at any contents `pf` of the tables and any contents `V` of the
   core's buffers when the region is entered. -/
import proofs.«413598_j523986010373_2_alg».proof.Proof.Gen.Kernel.Launch
import proofs.«413598_j523986010373_2_alg».proof.Proof.Gen.Kernel.Skeleton
import proofs.«413598_j523986010373_2_alg».proof.Proof.Gen.Kernel.Points
import proofs.«413598_j523986010373_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

variable (pf : pre1.Contents (Elt F)) (V : (c : Dev nD) → (b : Ref sig .tc) → Buf (Elt F) ((c : Thread nD τ).loc b))

/-- The tables' contents as admissible contents: the pipeline asks nothing of them. -/
abbrev adm1 : (pcfg1 (F := F)).Adm := ⟨pf, trivial⟩
/-- The pipeline at those contents. -/
abbrev cfgT : Pipeline.Cfg sig Λ₀ := cfg1 (adm1 pf)

/-- Window `w`'s block at point `t`, read off its array as the region finds it. -/
def iblk1 (c : Dev nD) (w : Fin (cfgT pf).W) (t : Fin (cfgT pf).N) :
    (((cfgT pf).win w).xblock ((cfgT pf).grid.coords t)).Idx → Elt F ((cfgT pf).win w).elt :=
  (((cfgT pf).win w).blk t).view.read (Elt F) (V c (Pipeline.arrRef spec1 w))

/-- The overlap test at point `t`: row tile's largest label is at least the column tile's smallest, and the
    row tile's smallest at most the column tile's largest (the four words are read from the two tables at
    the point's two coordinates). -/
def ovAt (t : Fin (cfgT pf).N) : Prop :=
  k1_cond2 (pf.atD 1 (k1_off1 ((cfgT pf).grid.coords t))) (pf.atD 0 (k1_off2 ((cfgT pf).grid.coords t)))
    (pf.atD 0 (k1_off1 ((cfgT pf).grid.coords t))) (pf.atD 1 (k1_off2 ((cfgT pf).grid.coords t))) = 1#1

instance (t : Fin (cfgT pf).N) : Decidable (ovAt pf t) := by unfold ovAt; infer_instance

/-- THE TWO RUNNING SUMS.  What the two accumulators hold after the body at position `n`: cleared at the
    first point, and at every point that passes the overlap test the tile pair's weighted sum added to the
    first and its count added to the second; at the other points unchanged. -/
def accs1 (c : Dev nD) : (n : ℕ) → n < (cfgT pf).N → Vec F S1x1 .f32 × Vec F S1x1 .f32
  | 0, h0 =>
    if ovAt pf ⟨0, h0⟩ then
      (k1_pay8 (iblk1 pf V c 0 ⟨0, h0⟩) (iblk1 pf V c 1 ⟨0, h0⟩) (iblk1 pf V c 2 ⟨0, h0⟩) (iblk1 pf V c 3 ⟨0, h0⟩)
          (iblk1 pf V c 4 ⟨0, h0⟩) (iblk1 pf V c 5 ⟨0, h0⟩) k1_pay1,
        k1_pay3 (k1_pay7 (iblk1 pf V c 0 ⟨0, h0⟩) (iblk1 pf V c 1 ⟨0, h0⟩) (iblk1 pf V c 2 ⟨0, h0⟩) (iblk1 pf V c 3 ⟨0, h0⟩)
          (iblk1 pf V c 4 ⟨0, h0⟩) (iblk1 pf V c 5 ⟨0, h0⟩)) k1_pay2)
    else (k1_pay1, k1_pay2)
  | n + 1, h =>
    if ovAt pf ⟨n + 1, h⟩ then
      (k1_pay8 (iblk1 pf V c 0 ⟨n + 1, h⟩) (iblk1 pf V c 1 ⟨n + 1, h⟩) (iblk1 pf V c 2 ⟨n + 1, h⟩) (iblk1 pf V c 3 ⟨n + 1, h⟩)
          (iblk1 pf V c 4 ⟨n + 1, h⟩) (iblk1 pf V c 5 ⟨n + 1, h⟩) (accs1 c n (Nat.lt_of_succ_lt h)).1,
        k1_pay3 (k1_pay7 (iblk1 pf V c 0 ⟨n + 1, h⟩) (iblk1 pf V c 1 ⟨n + 1, h⟩) (iblk1 pf V c 2 ⟨n + 1, h⟩) (iblk1 pf V c 3 ⟨n + 1, h⟩)
          (iblk1 pf V c 4 ⟨n + 1, h⟩) (iblk1 pf V c 5 ⟨n + 1, h⟩)) (accs1 c n (Nat.lt_of_succ_lt h)).2)
    else accs1 c n (Nat.lt_of_succ_lt h)

theorem accs1_zero (c : Dev nD) (h0 : 0 < (cfgT pf).N) :
    accs1 pf V c 0 h0 =
      (if ovAt pf ⟨0, h0⟩ then
        (k1_pay8 (iblk1 pf V c 0 ⟨0, h0⟩) (iblk1 pf V c 1 ⟨0, h0⟩) (iblk1 pf V c 2 ⟨0, h0⟩) (iblk1 pf V c 3 ⟨0, h0⟩)
            (iblk1 pf V c 4 ⟨0, h0⟩) (iblk1 pf V c 5 ⟨0, h0⟩) k1_pay1,
          k1_pay3 (k1_pay7 (iblk1 pf V c 0 ⟨0, h0⟩) (iblk1 pf V c 1 ⟨0, h0⟩) (iblk1 pf V c 2 ⟨0, h0⟩) (iblk1 pf V c 3 ⟨0, h0⟩)
            (iblk1 pf V c 4 ⟨0, h0⟩) (iblk1 pf V c 5 ⟨0, h0⟩)) k1_pay2)
      else (k1_pay1, k1_pay2)) := by
  rw [accs1]

theorem accs1_succ (c : Dev nD) (n : ℕ) (h : n + 1 < (cfgT pf).N) :
    accs1 pf V c (n + 1) h =
      (if ovAt pf ⟨n + 1, h⟩ then
        (k1_pay8 (iblk1 pf V c 0 ⟨n + 1, h⟩) (iblk1 pf V c 1 ⟨n + 1, h⟩) (iblk1 pf V c 2 ⟨n + 1, h⟩) (iblk1 pf V c 3 ⟨n + 1, h⟩)
            (iblk1 pf V c 4 ⟨n + 1, h⟩) (iblk1 pf V c 5 ⟨n + 1, h⟩) (accs1 pf V c n (Nat.lt_of_succ_lt h)).1,
          k1_pay3 (k1_pay7 (iblk1 pf V c 0 ⟨n + 1, h⟩) (iblk1 pf V c 1 ⟨n + 1, h⟩) (iblk1 pf V c 2 ⟨n + 1, h⟩) (iblk1 pf V c 3 ⟨n + 1, h⟩)
            (iblk1 pf V c 4 ⟨n + 1, h⟩) (iblk1 pf V c 5 ⟨n + 1, h⟩)) (accs1 pf V c n (Nat.lt_of_succ_lt h)).2)
      else accs1 pf V c n (Nat.lt_of_succ_lt h)) := by
  rw [accs1]

/-- The proof data of the second pipeline on core `c`: the arrays as the region finds them; after the body at
    point `t` each input's buffer at its block and the two accumulators at the running sums; the invariant is
    the core's scoped rest with the generator register, and the tables' halves; nothing owed; full shares. -/
def dat1 (c : Dev nD) : Dat τ (Elt F) Unit ℕ (UR sig nD τ) ℕ (cfgT pf) c where
  A w := V c (Pipeline.arrRef spec1 w)
  after w t := match w with
    | ⟨0, _⟩ => iblk1 pf V c 0 t
    | ⟨1, _⟩ => iblk1 pf V c 1 t
    | ⟨2, _⟩ => iblk1 pf V c 2 t
    | ⟨3, _⟩ => iblk1 pf V c 3 t
    | ⟨4, _⟩ => iblk1 pf V c 4 t
    | ⟨5, _⟩ => iblk1 pf V c 5 t
    | ⟨6, _⟩ => (accs1 pf V c t.val t.isLt).1
    | ⟨7, _⟩ => (accs1 pf V c t.val t.isLt).2
  Φ _ := iprop(Pipeline.ΦA spec1 c ∗ Pipeline.ΦT pre1 pf c)
  q _ := fullShare
  owed _ := 0

theorem A_eq1 (c : Dev nD) (w : Fin (cfgT pf).W) : (dat1 pf V c).A w = V c (Pipeline.arrRef spec1 w) := by
  dsimp only [dat1]

theorem after1_0 (c : Dev nD) (t : Fin (cfgT pf).N) : (dat1 pf V c).after 0 t = iblk1 pf V c 0 t := by dsimp only [dat1]; try rfl
theorem after1_1 (c : Dev nD) (t : Fin (cfgT pf).N) : (dat1 pf V c).after 1 t = iblk1 pf V c 1 t := by dsimp only [dat1]; try rfl
theorem after1_2 (c : Dev nD) (t : Fin (cfgT pf).N) : (dat1 pf V c).after 2 t = iblk1 pf V c 2 t := by dsimp only [dat1]; try rfl
theorem after1_3 (c : Dev nD) (t : Fin (cfgT pf).N) : (dat1 pf V c).after 3 t = iblk1 pf V c 3 t := by dsimp only [dat1]; try rfl
theorem after1_4 (c : Dev nD) (t : Fin (cfgT pf).N) : (dat1 pf V c).after 4 t = iblk1 pf V c 4 t := by dsimp only [dat1]; try rfl
theorem after1_5 (c : Dev nD) (t : Fin (cfgT pf).N) : (dat1 pf V c).after 5 t = iblk1 pf V c 5 t := by dsimp only [dat1]; try rfl
theorem after1_6 (c : Dev nD) (t : Fin (cfgT pf).N) : (dat1 pf V c).after 6 t = (accs1 pf V c t.val t.isLt).1 := by dsimp only [dat1]; try rfl
theorem after1_7 (c : Dev nD) (t : Fin (cfgT pf).N) : (dat1 pf V c).after 7 t = (accs1 pf V c t.val t.isLt).2 := by dsimp only [dat1]; try rfl

end Cert.Kernel.Hand

end
-- ==== Proof.KReg1a.lean ====
/- Region 1, the kernel body as a program: what one call of it does to the buffers it is handed, case by case.
   The body first tests whether the grid point is the first one (then it clears the two accumulators), then
   loads four words of the two prefetched tables and tests whether the row tile's and the column tile's label
   ranges overlap (then it adds the tile pair's two sums to the accumulators).  This module holds what the
   four cases share and the two cases that do no arithmetic; the two that do are siblings of it. -/
import proofs.«413598_j523986010373_2_alg».proof.Proof.Gen.Kernel.Launch
import proofs.«413598_j523986010373_2_alg».proof.Proof.Gen.Kernel.Skeleton
import proofs.«413598_j523986010373_2_alg».proof.Proof.Gen.Kernel.Points
import proofs.«413598_j523986010373_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import Idealize.ShloMosaic.Lib.Pipeline.TableIdle
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

abbrev tbM1_0 : Memref sig .tc .smem S16 .i32 := Memref.whole main_v6
abbrev htbM1_0 : tbM1_0.IsWhole := Memref.isWhole_whole _
abbrev tbM1_1 : Memref sig .tc .smem S16 .i32 := Memref.whole main_v7
abbrev htbM1_1 : tbM1_1.IsWhole := Memref.isWhole_whole _
abbrev TbBuf1 (c : Dev nD) {S : Shape} {e : EltTy} (M : Memref sig .tc .smem S e) : Type := Buf (Elt F) (M.view.loc (c : Thread nD τ))
abbrev tbPt1 (c : Dev nD) {S : Shape} {e : EltTy} (M : Memref sig .tc .smem S e) (f : TbBuf1 (F := F) c M) : sProp 𝕄 :=
  M.view.loc (c : Thread nD τ) ↦{fullShare.right} f

/-- The word of a table at one offset, as a scalar load of the body reads it. -/
abbrev tword (c : Dev nD) (M : Memref sig .tc .smem S16 .i32) (xt : TbBuf1 (F := F) c M) (off : Fin 1 → ℕ)
    (h : ∀ a, off a + S1.size a ≤ S16.size a) : Elt F .i32 :=
  M.view.readAt (Elt F) (Rect.unit (s := S16) off S1.size h).toLoadRect xt (Shape.Idx.first (numel1_S1.symm ▸ Nat.one_pos))

/-- The overlap test on the four words the body loads at point `i`. -/
abbrev ovW (c : Dev nD) (i : grid1.Coords) (xt0 : TbBuf1 (F := F) c tbM1_0) (xt1 : TbBuf1 (F := F) c tbM1_1) : Prop :=
  k1_cond2 (tword c tbM1_1 xt1 (k1_off1 i) (k1_off1_inb i)) (tword c tbM1_0 xt0 (k1_off2 i) (k1_off2_inb i))
    (tword c tbM1_0 xt0 (k1_off1 i) (k1_off1_inb i)) (tword c tbM1_1 xt1 (k1_off2 i) (k1_off2_inb i)) = 1#1

theorem hz2 : (![0, 0] : Fin 2 → ℕ) = fun _ => 0 := funext fun a => by
  match a with
  | ⟨0, _⟩ => rfl
  | ⟨1, _⟩ => rfl

set_option maxHeartbeats 1000000 in
/-- The body at a point that neither clears nor passes the overlap test: it loads the four table words and
    touches nothing else. -/
theorem runD (c : Dev nD) (i : grid1.Coords)
    (arg4 : Memref sig .tc .vmem S512x1 .f32) (harg4 : arg4.IsWhole) (arg5 : Memref sig .tc .vmem S1x512 .f32) (harg5 : arg5.IsWhole)
    (arg6 : Memref sig .tc .vmem S512x1 .f32) (harg6 : arg6.IsWhole) (arg7 : Memref sig .tc .vmem S1x512 .f32) (harg7 : arg7.IsWhole)
    (arg8 : Memref sig .tc .vmem S512x1 .i32) (harg8 : arg8.IsWhole) (arg9 : Memref sig .tc .vmem S1x512 .i32) (harg9 : arg9.IsWhole)
    (arg10 : Memref sig .tc .vmem S1x1 .f32) (harg10 : arg10.IsWhole) (arg11 : Memref sig .tc .vmem S1x1 .f32) (harg11 : arg11.IsWhole)
    (xt0 : TbBuf1 (F := F) c tbM1_0) (xt1 : TbBuf1 (F := F) c tbM1_1)
    (hc1 : ¬ k1_cond1 i = 1#1) (hc2 : ¬ ovW c i xt0 xt1)
    (E : Set ℕ) (K : PUnit → sProp 𝕄) :
    iprop(tbPt1 c tbM1_0 xt0 ∗ tbPt1 c tbM1_1 xt1
        ∗ (iprop(tbPt1 c tbM1_0 xt0 ∗ tbPt1 c tbM1_1 xt1) -∗ K ⟨⟩))
      ⊢ wp frame (wpE (defs₀ (F := F)) Variants.none c none) E
          (cc1__kernel_b i tbM1_0 htbM1_0 tbM1_1 htbM1_1 arg4 harg4 arg5 harg5 arg6 harg6 arg7 harg7 arg8 harg8 arg9 harg9 arg10 harg10 arg11 harg11) K := by
  simp only [cc1__kernel_b_eq_skeleton]; unfold cc1__kernel_b_skel
  simp only [k1_part1_eq_skeleton]
  iintro ⟨HT0, HT1, Hk⟩
  sl_exec (disch := first | exact hc1 | (sl_unfold_run_names; exact hc2))
  sl_step
  iapply Hk
  isplitl [HT0]; · iexact HT0
  iexact HT1

set_option maxHeartbeats 1000000 in
/-- The body at the first point when the overlap test fails there: both accumulators are cleared. -/
theorem runC (c : Dev nD) (i : grid1.Coords)
    (arg4 : Memref sig .tc .vmem S512x1 .f32) (harg4 : arg4.IsWhole) (arg5 : Memref sig .tc .vmem S1x512 .f32) (harg5 : arg5.IsWhole)
    (arg6 : Memref sig .tc .vmem S512x1 .f32) (harg6 : arg6.IsWhole) (arg7 : Memref sig .tc .vmem S1x512 .f32) (harg7 : arg7.IsWhole)
    (arg8 : Memref sig .tc .vmem S512x1 .i32) (harg8 : arg8.IsWhole) (arg9 : Memref sig .tc .vmem S1x512 .i32) (harg9 : arg9.IsWhole)
    (arg10 : Memref sig .tc .vmem S1x1 .f32) (harg10 : arg10.IsWhole) (arg11 : Memref sig .tc .vmem S1x1 .f32) (harg11 : arg11.IsWhole)
    (xt0 : TbBuf1 (F := F) c tbM1_0) (xt1 : TbBuf1 (F := F) c tbM1_1)
    (hc1 : k1_cond1 i = 1#1) (hc2 : ¬ ovW c i xt0 xt1)
    (E : Set ℕ) (K : PUnit → sProp 𝕄) :
    iprop((∃ d, owns (c : Thread nD τ) arg10 fullShare d) ∗ (∃ d, owns (c : Thread nD τ) arg11 fullShare d)
        ∗ tbPt1 c tbM1_0 xt0 ∗ tbPt1 c tbM1_1 xt1
        ∗ (iprop(owns (c : Thread nD τ) arg10 fullShare (k1_pay1 (F := F)) ∗ owns (c : Thread nD τ) arg11 fullShare (k1_pay2 (F := F))
            ∗ tbPt1 c tbM1_0 xt0 ∗ tbPt1 c tbM1_1 xt1) -∗ K ⟨⟩))
      ⊢ wp frame (wpE (defs₀ (F := F)) Variants.none c none) E
          (cc1__kernel_b i tbM1_0 htbM1_0 tbM1_1 htbM1_1 arg4 harg4 arg5 harg5 arg6 harg6 arg7 harg7 arg8 harg8 arg9 harg9 arg10 harg10 arg11 harg11) K := by
  simp only [cc1__kernel_b_eq_skeleton]; unfold cc1__kernel_b_skel
  simp only [k1_part1_eq_skeleton]
  unfold owns
  iintro ⟨⟨%d6, %f6, -, H6⟩, ⟨%d7, %f7, -, H7⟩, HT0, HT1, Hk⟩
  sl_exec (disch := first | exact hc1 | (sl_unfold_run_names; exact hc2))
  sl_step
  iapply Hk
  isplitl [H6]
  · iexists _; isplitr
    swap; · iexact H6
    ipureintro
    rw [View.read_writes_eq_canon _ _ _ (fun y => ⟨_, List.mem_singleton_self _, View.mem_set_unit_zero hz2 inb_S1x1_S1x1_0_0 y⟩)]
    exact View.canon_unit_zero hz2 _ _
  isplitl [H7]
  · iexists _; isplitr
    swap; · iexact H7
    ipureintro
    rw [View.read_writes_eq_canon _ _ _ (fun y => ⟨_, List.mem_singleton_self _, View.mem_set_unit_zero hz2 inb_S1x1_S1x1_0_0 y⟩)]
    exact View.canon_unit_zero hz2 _ _
  isplitl [HT0]; · iexact HT0
  iexact HT1

end Cert.Kernel.Hand

end
-- ==== Proof.KReg1b.lean ====
/- Region 1, the kernel body at a later point that passes the overlap test: each accumulator is read, the tile
   pair's sum added, and the result stored back. -/
import proofs.«413598_j523986010373_2_alg».proof.Proof.KReg1a
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

set_option maxHeartbeats 1000000 in
/-- The body at a later point whose two tiles' label ranges overlap: the accumulators hold `a6`, `a7` when it is
    called and the two updated sums when it returns; the input blocks and the tables are handed back as found. -/
theorem runB (c : Dev nD) (i : grid1.Coords)
    (arg4 : Memref sig .tc .vmem S512x1 .f32) (harg4 : arg4.IsWhole) (arg5 : Memref sig .tc .vmem S1x512 .f32) (harg5 : arg5.IsWhole)
    (arg6 : Memref sig .tc .vmem S512x1 .f32) (harg6 : arg6.IsWhole) (arg7 : Memref sig .tc .vmem S1x512 .f32) (harg7 : arg7.IsWhole)
    (arg8 : Memref sig .tc .vmem S512x1 .i32) (harg8 : arg8.IsWhole) (arg9 : Memref sig .tc .vmem S1x512 .i32) (harg9 : arg9.IsWhole)
    (arg10 : Memref sig .tc .vmem S1x1 .f32) (harg10 : arg10.IsWhole) (arg11 : Memref sig .tc .vmem S1x1 .f32) (harg11 : arg11.IsWhole)
    (xt0 : TbBuf1 (F := F) c tbM1_0) (xt1 : TbBuf1 (F := F) c tbM1_1)
    (hc1 : ¬ k1_cond1 i = 1#1) (hc2 : ovW c i xt0 xt1)
    (x0 : Vec F S512x1 .f32) (x1 : Vec F S1x512 .f32) (x2 : Vec F S512x1 .f32) (x3 : Vec F S1x512 .f32)
    (x4 : Vec F S512x1 .i32) (x5 : Vec F S1x512 .i32) (a6 a7 : Vec F S1x1 .f32)
    (E : Set ℕ) (K : PUnit → sProp 𝕄) :
    iprop(owns (c : Thread nD τ) arg4 fullShare x0 ∗ owns (c : Thread nD τ) arg5 fullShare x1 ∗ owns (c : Thread nD τ) arg6 fullShare x2
        ∗ owns (c : Thread nD τ) arg7 fullShare x3 ∗ owns (c : Thread nD τ) arg8 fullShare x4 ∗ owns (c : Thread nD τ) arg9 fullShare x5
        ∗ owns (c : Thread nD τ) arg10 fullShare a6 ∗ owns (c : Thread nD τ) arg11 fullShare a7
        ∗ tbPt1 c tbM1_0 xt0 ∗ tbPt1 c tbM1_1 xt1
        ∗ (iprop(owns (c : Thread nD τ) arg4 fullShare x0 ∗ owns (c : Thread nD τ) arg5 fullShare x1 ∗ owns (c : Thread nD τ) arg6 fullShare x2
            ∗ owns (c : Thread nD τ) arg7 fullShare x3 ∗ owns (c : Thread nD τ) arg8 fullShare x4 ∗ owns (c : Thread nD τ) arg9 fullShare x5
            ∗ owns (c : Thread nD τ) arg10 fullShare (k1_pay8 x0 x1 x2 x3 x4 x5 a6)
            ∗ owns (c : Thread nD τ) arg11 fullShare (k1_pay3 (k1_pay7 x0 x1 x2 x3 x4 x5) a7)
            ∗ tbPt1 c tbM1_0 xt0 ∗ tbPt1 c tbM1_1 xt1) -∗ K ⟨⟩))
      ⊢ wp frame (wpE (defs₀ (F := F)) Variants.none c none) E
          (cc1__kernel_b i tbM1_0 htbM1_0 tbM1_1 htbM1_1 arg4 harg4 arg5 harg5 arg6 harg6 arg7 harg7 arg8 harg8 arg9 harg9 arg10 harg10 arg11 harg11) K := by
  simp only [cc1__kernel_b_eq_skeleton]; unfold cc1__kernel_b_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, HT0, HT1, Hk⟩
  obtain rfl := harg4.eq_unread hf0; obtain rfl := harg5.eq_unread hf1; obtain rfl := harg6.eq_unread hf2
  obtain rfl := harg7.eq_unread hf3; obtain rfl := harg8.eq_unread hf4; obtain rfl := harg9.eq_unread hf5
  obtain rfl := harg10.eq_unread hf6; obtain rfl := harg11.eq_unread hf7
  sl_exec (disch := first | exact hc1 | (sl_unfold_run_names; exact hc2))
  sl_step
  iapply Hk
  isplitl [H0]; · iexists _; isplitr; · ipureintro; exact harg4.read_unread _
                  iexact H0
  isplitl [H1]; · iexists _; isplitr; · ipureintro; exact harg5.read_unread _
                  iexact H1
  isplitl [H2]; · iexists _; isplitr; · ipureintro; exact harg6.read_unread _
                  iexact H2
  isplitl [H3]; · iexists _; isplitr; · ipureintro; exact harg7.read_unread _
                  iexact H3
  isplitl [H4]; · iexists _; isplitr; · ipureintro; exact harg8.read_unread _
                  iexact H4
  isplitl [H5]; · iexists _; isplitr; · ipureintro; exact harg9.read_unread _
                  iexact H5
  isplitl [H6]
  · iexists _; isplitr
    swap; · iexact H6
    ipureintro
    rw [View.read_writes_eq_canon _ _ _ (fun y => ⟨_, List.mem_singleton_self _, View.mem_set_unit_zero hz2 inb_S1x1_S1x1_0_0 y⟩)]
    sl_unfold_run_names
    rw [View.canon_unit_zero hz2]
    simp only [View.readAt_eq_ld, harg4.read_unread, harg5.read_unread, harg6.read_unread, harg7.read_unread, harg8.read_unread,
      harg9.read_unread, harg10.read_unread, View.ld_unit_zero (S := S512x1) hz2, View.ld_unit_zero (S := S1x512) hz2, View.ld_unit_zero (S := S1x1) hz2]
  isplitl [H7]
  · iexists _; isplitr
    swap; · iexact H7
    ipureintro
    rw [View.read_writes_eq_canon _ _ _ (fun y => ⟨_, List.mem_singleton_self _, View.mem_set_unit_zero hz2 inb_S1x1_S1x1_0_0 y⟩)]
    sl_unfold_run_names
    rw [View.canon_unit_zero hz2]
    simp only [View.readAt_eq_ld, harg4.read_unread, harg5.read_unread, harg6.read_unread, harg7.read_unread, harg8.read_unread,
      harg9.read_unread, harg11.read_unread, View.ld_unit_zero (S := S512x1) hz2, View.ld_unit_zero (S := S1x512) hz2, View.ld_unit_zero (S := S1x1) hz2]
  isplitl [HT0]; · iexact HT0
  iexact HT1

end Cert.Kernel.Hand
end
-- ==== Proof.KReg1c.lean ====
/- Region 1, the kernel body at the first point when the overlap test holds there: the accumulators are cleared
   and the first tile pair's sums added to the cleared values. -/
import proofs.«413598_j523986010373_2_alg».proof.Proof.KReg1a
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

set_option maxHeartbeats 1000000 in
/-- The body at the first point when the overlap test holds there: both accumulators are cleared, then the tile
    pair's two sums are added to the cleared values. -/
theorem runA (c : Dev nD) (i : grid1.Coords)
    (arg4 : Memref sig .tc .vmem S512x1 .f32) (harg4 : arg4.IsWhole) (arg5 : Memref sig .tc .vmem S1x512 .f32) (harg5 : arg5.IsWhole)
    (arg6 : Memref sig .tc .vmem S512x1 .f32) (harg6 : arg6.IsWhole) (arg7 : Memref sig .tc .vmem S1x512 .f32) (harg7 : arg7.IsWhole)
    (arg8 : Memref sig .tc .vmem S512x1 .i32) (harg8 : arg8.IsWhole) (arg9 : Memref sig .tc .vmem S1x512 .i32) (harg9 : arg9.IsWhole)
    (arg10 : Memref sig .tc .vmem S1x1 .f32) (harg10 : arg10.IsWhole) (arg11 : Memref sig .tc .vmem S1x1 .f32) (harg11 : arg11.IsWhole)
    (xt0 : TbBuf1 (F := F) c tbM1_0) (xt1 : TbBuf1 (F := F) c tbM1_1)
    (hc1 : k1_cond1 i = 1#1) (hc2 : ovW c i xt0 xt1)
    (x0 : Vec F S512x1 .f32) (x1 : Vec F S1x512 .f32) (x2 : Vec F S512x1 .f32) (x3 : Vec F S1x512 .f32)
    (x4 : Vec F S512x1 .i32) (x5 : Vec F S1x512 .i32)
    (E : Set ℕ) (K : PUnit → sProp 𝕄) :
    iprop(owns (c : Thread nD τ) arg4 fullShare x0 ∗ owns (c : Thread nD τ) arg5 fullShare x1 ∗ owns (c : Thread nD τ) arg6 fullShare x2
        ∗ owns (c : Thread nD τ) arg7 fullShare x3 ∗ owns (c : Thread nD τ) arg8 fullShare x4 ∗ owns (c : Thread nD τ) arg9 fullShare x5
        ∗ (∃ d, owns (c : Thread nD τ) arg10 fullShare d) ∗ (∃ d, owns (c : Thread nD τ) arg11 fullShare d)
        ∗ tbPt1 c tbM1_0 xt0 ∗ tbPt1 c tbM1_1 xt1
        ∗ (iprop(owns (c : Thread nD τ) arg4 fullShare x0 ∗ owns (c : Thread nD τ) arg5 fullShare x1 ∗ owns (c : Thread nD τ) arg6 fullShare x2
            ∗ owns (c : Thread nD τ) arg7 fullShare x3 ∗ owns (c : Thread nD τ) arg8 fullShare x4 ∗ owns (c : Thread nD τ) arg9 fullShare x5
            ∗ owns (c : Thread nD τ) arg10 fullShare (k1_pay8 x0 x1 x2 x3 x4 x5 (k1_pay1 (F := F)))
            ∗ owns (c : Thread nD τ) arg11 fullShare (k1_pay3 (k1_pay7 x0 x1 x2 x3 x4 x5) (k1_pay2 (F := F)))
            ∗ tbPt1 c tbM1_0 xt0 ∗ tbPt1 c tbM1_1 xt1) -∗ K ⟨⟩))
      ⊢ wp frame (wpE (defs₀ (F := F)) Variants.none c none) E
          (cc1__kernel_b i tbM1_0 htbM1_0 tbM1_1 htbM1_1 arg4 harg4 arg5 harg5 arg6 harg6 arg7 harg7 arg8 harg8 arg9 harg9 arg10 harg10 arg11 harg11) K := by
  simp only [cc1__kernel_b_eq_skeleton]; unfold cc1__kernel_b_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, HT0, HT1, Hk⟩
  obtain rfl := harg4.eq_unread hf0; obtain rfl := harg5.eq_unread hf1; obtain rfl := harg6.eq_unread hf2
  obtain rfl := harg7.eq_unread hf3; obtain rfl := harg8.eq_unread hf4; obtain rfl := harg9.eq_unread hf5
  sl_exec (disch := first | exact hc1 | (sl_unfold_run_names; exact hc2))
  sl_step
  iapply Hk
  isplitl [H0]; · iexists _; isplitr; · ipureintro; exact harg4.read_unread _
                  iexact H0
  isplitl [H1]; · iexists _; isplitr; · ipureintro; exact harg5.read_unread _
                  iexact H1
  isplitl [H2]; · iexists _; isplitr; · ipureintro; exact harg6.read_unread _
                  iexact H2
  isplitl [H3]; · iexists _; isplitr; · ipureintro; exact harg7.read_unread _
                  iexact H3
  isplitl [H4]; · iexists _; isplitr; · ipureintro; exact harg8.read_unread _
                  iexact H4
  isplitl [H5]; · iexists _; isplitr; · ipureintro; exact harg9.read_unread _
                  iexact H5
  isplitl [H6]
  · iexists _; isplitr
    swap; · iexact H6
    ipureintro
    rw [View.read_writes_eq_canon _ _ _ (fun y => ⟨_, List.mem_cons_self, View.mem_set_unit_zero hz2 inb_S1x1_S1x1_0_0 y⟩)]
    sl_unfold_run_names
    rw [View.canon_cons_unit_zero hz2]
    simp only [View.readAt_eq_ld, harg4.read_unread, harg5.read_unread, harg6.read_unread, harg7.read_unread, harg8.read_unread,
      harg9.read_unread, View.ld_unit_zero (S := S512x1) hz2, View.ld_unit_zero (S := S1x512) hz2, View.ld_unit_zero (S := S1x1) hz2,
      View.readCov_unit_zero (S := S1x1) _ hz2]
  isplitl [H7]
  · iexists _; isplitr
    swap; · iexact H7
    ipureintro
    rw [View.read_writes_eq_canon _ _ _ (fun y => ⟨_, List.mem_cons_self, View.mem_set_unit_zero hz2 inb_S1x1_S1x1_0_0 y⟩)]
    sl_unfold_run_names
    rw [View.canon_cons_unit_zero hz2]
    simp only [View.readAt_eq_ld, harg4.read_unread, harg5.read_unread, harg6.read_unread, harg7.read_unread, harg8.read_unread,
      harg9.read_unread, View.ld_unit_zero (S := S512x1) hz2, View.ld_unit_zero (S := S1x512) hz2, View.ld_unit_zero (S := S1x1) hz2,
      View.readCov_unit_zero (S := S1x1) _ hz2]
  isplitl [HT0]; · iexact HT0
  iexact HT1

end Cert.Kernel.Hand

end
-- ==== Proof.KReg1.lean ====
/- Region 1 (the second kernel call): its schedule, what the body finds in each window's buffer at each point, and
   the body obligation.  The grid is 16 x 16.  The six input windows hold their blocks at every point.  The two
   one-element accumulators keep one block index throughout, so they are written back only after the last
   point; the body clears them at the first point, adds a tile pair's sums at each point whose two label ranges
   overlap, and stores nothing into them at the others, where the running sums are carried unchanged. -/
import proofs.«413598_j523986010373_2_alg».proof.Proof.KReg1Defs
import Idealize.ShloMosaic.Lib.Pipeline.Value
import Idealize.ShloMosaic.Lib.Pipeline.TableIdle
import proofs.«413598_j523986010373_2_alg».proof.Proof.KReg1b
import proofs.«413598_j523986010373_2_alg».proof.Proof.KReg1c
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

variable (pf : pre1.Contents (Elt F)) (V : (c : Dev nD) → (b : Ref sig .tc) → Buf (Elt F) ((c : Thread nD τ).loc b))

/-! ## The schedule of the second pipeline -/

/-- The grid has 256 points, whatever the tables hold. -/
theorem N1 : (cfgT pf).N = 256 := N_1

/-- The clearing condition holds at the first point only: decided over the grid. -/
theorem hcond1 : ∀ t : Fin (cfgT pf).N, k1_cond1 ((cfgT pf).grid.coords t) = 1#1 ↔ t.val = 0 :=
  (by decide +kernel : ∀ t : Fin grid1.N, k1_cond1 (grid1.coords t) = 1#1 ↔ t.val = 0)

/-- The two accumulators' block index never moves, so neither is written back before the last point. -/
theorem flush1_6 (t : Fin (cfgT pf).N) (h : t.val + 1 < (cfgT pf).N) : ((cfgT pf).win 6).flush t = false := by
  unfold Window.flush
  rw [Bool.and_eq_false_iff]; right
  rw [Bool.or_eq_false_iff]
  exact ⟨decide_eq_false (Nat.ne_of_lt (show t.val + 1 < (cfgT pf).grid.N from h)), decide_eq_false (fun ⟨_, hne⟩ => hne rfl)⟩
theorem flush1_7 (t : Fin (cfgT pf).N) (h : t.val + 1 < (cfgT pf).N) : ((cfgT pf).win 7).flush t = false := by
  unfold Window.flush
  rw [Bool.and_eq_false_iff]; right
  rw [Bool.or_eq_false_iff]
  exact ⟨decide_eq_false (Nat.ne_of_lt (show t.val + 1 < (cfgT pf).grid.N from h)), decide_eq_false (fun ⟨_, hne⟩ => hne rfl)⟩

/-- Where the body stores nothing into the accumulators: at a later point that fails the overlap test. -/
theorem idle1_6_iff (t : Fin (cfgT pf).N) : (cfgT pf).idle 6 ((cfgT pf).grid.coords t) = true ↔ t.val ≠ 0 ∧ ¬ ovAt pf t := by
  show (!(k1_cond1 ((cfgT pf).grid.coords t) == 1#1) && !(k1_cond2 (pf.atD 1 (k1_off1 ((cfgT pf).grid.coords t))) (pf.atD 0 (k1_off2 ((cfgT pf).grid.coords t))) (pf.atD 0 (k1_off1 ((cfgT pf).grid.coords t))) (pf.atD 1 (k1_off2 ((cfgT pf).grid.coords t))) == 1#1)) = true ↔ _
  unfold ovAt
  rw [Bool.and_eq_true, Bool.not_eq_true', Bool.not_eq_true', beq_eq_false_iff_ne, beq_eq_false_iff_ne, ne_eq, ne_eq, hcond1 pf t]
theorem idle1_7_iff (t : Fin (cfgT pf).N) : (cfgT pf).idle 7 ((cfgT pf).grid.coords t) = true ↔ t.val ≠ 0 ∧ ¬ ovAt pf t := by
  show (!(k1_cond1 ((cfgT pf).grid.coords t) == 1#1) && !(k1_cond2 (pf.atD 1 (k1_off1 ((cfgT pf).grid.coords t))) (pf.atD 0 (k1_off2 ((cfgT pf).grid.coords t))) (pf.atD 0 (k1_off1 ((cfgT pf).grid.coords t))) (pf.atD 1 (k1_off2 ((cfgT pf).grid.coords t))) == 1#1)) = true ↔ _
  unfold ovAt
  rw [Bool.and_eq_true, Bool.not_eq_true', Bool.not_eq_true', beq_eq_false_iff_ne, beq_eq_false_iff_ne, ne_eq, ne_eq, hcond1 pf t]

theorem idle1_6_false (t : Fin (cfgT pf).N) (h : t.val = 0 ∨ ovAt pf t) : (cfgT pf).idle 6 ((cfgT pf).grid.coords t) = false := by
  rw [← Bool.not_eq_true, idle1_6_iff]; rintro ⟨h0, hov⟩; rcases h with h | h
  · exact h0 h
  · exact hov h
theorem idle1_7_false (t : Fin (cfgT pf).N) (h : t.val = 0 ∨ ovAt pf t) : (cfgT pf).idle 7 ((cfgT pf).grid.coords t) = false := by
  rw [← Bool.not_eq_true, idle1_7_iff]; rintro ⟨h0, hov⟩; rcases h with h | h
  · exact h0 h
  · exact hov h

/-- After the first point the accumulators' buffers always hold what the body stored: the first point stores. -/
theorem fresh1_6 : ∀ n, n + 1 < (cfgT pf).N → (cfgT pf).fresh 6 (n + 1) = false
  | 0, h => by
    rw [Cfg.fresh_succ _ 6 0 (by omega), flush1_6 pf ⟨0, by omega⟩ h, Bool.false_or, idle1_6_false pf ⟨0, by omega⟩ (.inl rfl), Bool.false_and]
  | n + 1, h => by
    rw [Cfg.fresh_succ _ 6 (n + 1) (by omega), flush1_6 pf ⟨n + 1, by omega⟩ h, Bool.false_or, fresh1_6 n (by omega), Bool.and_false]
theorem fresh1_7 : ∀ n, n + 1 < (cfgT pf).N → (cfgT pf).fresh 7 (n + 1) = false
  | 0, h => by
    rw [Cfg.fresh_succ _ 7 0 (by omega), flush1_7 pf ⟨0, by omega⟩ h, Bool.false_or, idle1_7_false pf ⟨0, by omega⟩ (.inl rfl), Bool.false_and]
  | n + 1, h => by
    rw [Cfg.fresh_succ _ 7 (n + 1) (by omega), flush1_7 pf ⟨n + 1, by omega⟩ h, Bool.false_or, fresh1_7 n (by omega), Bool.and_false]

/-! ## The running sums, point by point -/

theorem accs1_pos_nov (c : Dev nD) (t : Fin (cfgT pf).N) (ht : t.val ≠ 0) (hov : ¬ ovAt pf t) :
    accs1 pf V c t.val t.isLt = accs1 pf V c (t.val - 1) (Nat.lt_of_le_of_lt (Nat.sub_le _ _) t.isLt) := by
  obtain ⟨n, hn⟩ := t
  cases n with
  | zero => exact absurd rfl ht
  | succ n => rw [accs1_succ pf V c n hn, if_neg hov]; rfl

theorem accs1_pos_ov (c : Dev nD) (t : Fin (cfgT pf).N) (ht : t.val ≠ 0) (hov : ovAt pf t) :
    accs1 pf V c t.val t.isLt =
      (k1_pay8 (iblk1 pf V c 0 t) (iblk1 pf V c 1 t) (iblk1 pf V c 2 t) (iblk1 pf V c 3 t) (iblk1 pf V c 4 t) (iblk1 pf V c 5 t)
          (accs1 pf V c (t.val - 1) (Nat.lt_of_le_of_lt (Nat.sub_le _ _) t.isLt)).1,
        k1_pay3 (k1_pay7 (iblk1 pf V c 0 t) (iblk1 pf V c 1 t) (iblk1 pf V c 2 t) (iblk1 pf V c 3 t) (iblk1 pf V c 4 t) (iblk1 pf V c 5 t))
          (accs1 pf V c (t.val - 1) (Nat.lt_of_le_of_lt (Nat.sub_le _ _) t.isLt)).2) := by
  obtain ⟨n, hn⟩ := t
  cases n with
  | zero => exact absurd rfl ht
  | succ n => rw [accs1_succ pf V c n hn, if_pos hov]; rfl

theorem accs1_zero_ov (c : Dev nD) (t : Fin (cfgT pf).N) (ht : t.val = 0) (hov : ovAt pf t) :
    accs1 pf V c t.val t.isLt =
      (k1_pay8 (iblk1 pf V c 0 t) (iblk1 pf V c 1 t) (iblk1 pf V c 2 t) (iblk1 pf V c 3 t) (iblk1 pf V c 4 t) (iblk1 pf V c 5 t) k1_pay1,
        k1_pay3 (k1_pay7 (iblk1 pf V c 0 t) (iblk1 pf V c 1 t) (iblk1 pf V c 2 t) (iblk1 pf V c 3 t) (iblk1 pf V c 4 t) (iblk1 pf V c 5 t)) k1_pay2) := by
  obtain ⟨n, hn⟩ := t
  cases n with
  | succ n => exact absurd ht (Nat.succ_ne_zero n)
  | zero => rw [accs1_zero pf V c hn, if_pos hov]

theorem accs1_zero_nov (c : Dev nD) (t : Fin (cfgT pf).N) (ht : t.val = 0) (hov : ¬ ovAt pf t) :
    accs1 pf V c t.val t.isLt = (k1_pay1, k1_pay2) := by
  obtain ⟨n, hn⟩ := t
  cases n with
  | succ n => exact absurd ht (Nat.succ_ne_zero n)
  | zero => rw [accs1_zero pf V c hn, if_neg hov]

/-! ## What the body finds in each window's buffer -/

theorem before1_0 (c : Dev nD) (t : Fin (cfgT pf).N) (d) : (dat1 pf V c).before 0 t d = iblk1 pf V c 0 t :=
  ((dat1 pf V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin (cfgT pf).N) (d) : (dat1 pf V c).before 1 t d = iblk1 pf V c 1 t :=
  ((dat1 pf V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin (cfgT pf).N) (d) : (dat1 pf V c).before 2 t d = iblk1 pf V c 2 t :=
  ((dat1 pf V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin (cfgT pf).N) (d) : (dat1 pf V c).before 3 t d = iblk1 pf V c 3 t :=
  ((dat1 pf V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
theorem before1_4 (c : Dev nD) (t : Fin (cfgT pf).N) (d) : (dat1 pf V c).before 4 t d = iblk1 pf V c 4 t :=
  ((dat1 pf V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)
theorem before1_5 (c : Dev nD) (t : Fin (cfgT pf).N) (d) : (dat1 pf V c).before 5 t d = iblk1 pf V c 5 t :=
  ((dat1 pf V c).before_in_eq_fetched 5 rfl (fun _ => rfl) (fun _ _ _ => rfl) (fun t => by rw [after1_5]; unfold Dat.blockOf iblk1; rw [A_eq1]; try rfl) t d).trans
    (by unfold Dat.fetched Dat.blockOf iblk1; rw [A_eq1]; try rfl)

/-- At a later point each accumulator's buffer holds the running sum of the point before: it is never written
    back in between, and through a stretch of points that store nothing the sum is carried unchanged. -/
theorem before1_6 (c : Dev nD) (t : Fin (cfgT pf).N) (ht : t.val ≠ 0) (d) :
    (dat1 pf V c).before 6 t d = (accs1 pf V c (t.val - 1) (Nat.lt_of_le_of_lt (Nat.sub_le _ _) t.isLt)).1 := by
  have hfr : (cfgT pf).fresh 6 t.val = false := by
    obtain ⟨n, hn⟩ : ∃ n, t.val = n + 1 := ⟨t.val - 1, by omega⟩
    rw [hn]; exact fresh1_6 pf n (by have := t.isLt; omega)
  rw [(dat1 pf V c).before_out_traj 6 rfl (fun _ _ => rfl)
    (fun t ht hi _ => by rw [after1_6, after1_6, accs1_pos_nov pf V c t ht ((idle1_6_iff pf t).mp hi).2]) t.val t rfl d,
    hfr, if_neg Bool.false_ne_true, after1_6]
theorem before1_7 (c : Dev nD) (t : Fin (cfgT pf).N) (ht : t.val ≠ 0) (d) :
    (dat1 pf V c).before 7 t d = (accs1 pf V c (t.val - 1) (Nat.lt_of_le_of_lt (Nat.sub_le _ _) t.isLt)).2 := by
  have hfr : (cfgT pf).fresh 7 t.val = false := by
    obtain ⟨n, hn⟩ : ∃ n, t.val = n + 1 := ⟨t.val - 1, by omega⟩
    rw [hn]; exact fresh1_7 pf n (by have := t.isLt; omega)
  rw [(dat1 pf V c).before_out_traj 7 rfl (fun _ _ => rfl)
    (fun t ht hi _ => by rw [after1_7, after1_7, accs1_pos_nov pf V c t ht ((idle1_7_iff pf t).mp hi).2]) t.val t rfl d,
    hfr, if_neg Bool.false_ne_true, after1_7]

/-! ## The tables as the body is handed them -/

/-- The tables' halves in the invariant, table by table. -/
theorem PhiT1_eq (c : Dev nD) : (Pipeline.ΦT pre1 pf c : sProp 𝕄) = iprop(tbPt1 c tbM1_0 (pf 0) ∗ tbPt1 c tbM1_1 (pf 1)) := by
  unfold Pipeline.ΦT Pipeline.prefHeld
  rw [show (Finset.univ : Finset (Fin 2)) = insert (0 : Fin 2) {(1 : Fin 2)} from by decide,
    bigSep_insert (by decide), bigSep_singleton]
  rfl

/-- A scalar load of a table reads the contents' element at the load's offsets. -/
theorem tword0_eq (c : Dev nD) (off : Fin 1 → ℕ) (h : ∀ a, off a + S1.size a ≤ S16.size a) :
    tword c tbM1_0 (pf 0) off h = pf.atD 0 off := by
  have e : ∀ b : Fin 1, off b + 1 ≤ S16.size b := fun b => by
    obtain rfl : b = 0 := Subsingleton.elim _ _
    exact h 0
  have h' : ∀ a : Fin (pre1.ref 0).ty.shape.rank, off a + 1 ≤ (pre1.ref 0).ty.shape.size a := fun a => e a
  unfold Pipeline.Prefetch.Contents.atD
  rw [dif_pos h']
  rfl
theorem tword1_eq (c : Dev nD) (off : Fin 1 → ℕ) (h : ∀ a, off a + S1.size a ≤ S16.size a) :
    tword c tbM1_1 (pf 1) off h = pf.atD 1 off := by
  have e : ∀ b : Fin 1, off b + 1 ≤ S16.size b := fun b => by
    obtain rfl : b = 0 := Subsingleton.elim _ _
    exact h 0
  have h' : ∀ a : Fin (pre1.ref 1).ty.shape.rank, off a + 1 ≤ (pre1.ref 1).ty.shape.size a := fun a => e a
  unfold Pipeline.Prefetch.Contents.atD
  rw [dif_pos h']
  rfl

/-- The overlap test on the loaded words is the test on the tables' contents. -/
theorem ovW_iff (c : Dev nD) (t : Fin (cfgT pf).N) : ovW c ((cfgT pf).grid.coords t) (pf 0) (pf 1) ↔ ovAt pf t := by
  unfold ovW ovAt
  rw [tword0_eq, tword0_eq, tword1_eq, tword1_eq]

/-! ## The body obligation, at a generic point -/

/-- The post the body obligation states for a window's buffer, at a point where the body stores into it. -/
theorem leavesExact_live {cfg : Pipeline.Cfg sig Λ₀} {c : Dev nD} (dat : Dat τ (Elt F) Unit ℕ (UR sig nD τ) ℕ cfg c)
    (w : Fin cfg.W) (t : Fin cfg.N) (hi : cfg.idle w (cfg.grid.coords t) = false) :
    (dat.leavesExact w t : sProp 𝕄) = owns (c : Thread nD τ) ((cfg.win w).stage (cfg.slots t w)) fullShare (dat.after w t) := by
  unfold Dat.leavesExact; rw [hi]

/-- At a point where the body stores nothing into a window's buffer, handing the buffer back as found meets that
    post, provided what was found is what the proof data name for the point (needed only where the point writes
    the block back). -/
theorem leavesExact_of_before {cfg : Pipeline.Cfg sig Λ₀} {c : Dev nD} (dat : Dat τ (Elt F) Unit ℕ (UR sig nD τ) ℕ cfg c)
    (w : Fin cfg.W) (t : Fin cfg.N) (hi : cfg.idle w (cfg.grid.coords t) = true)
    (d : (cfg.win w).block.Idx → Elt F (cfg.win w).elt) (h : dat.before w t d = dat.after w t) :
    owns (c : Thread nD τ) ((cfg.win w).stage (cfg.slots t w)) fullShare (dat.before w t d) ⊢ (dat.leavesExact w t : sProp 𝕄) := by
  unfold Dat.leavesExact; rw [hi]
  cases (cfg.win w).flush t
  · iintro H; iexists d; iexact H
  · rw [h]

/-- Each window's current staging memref at point `t`, spelled as the pipeline passes it, and its wholeness. -/
abbrev ms1_0 (t : Fin (cfgT pf).N) : Memref sig .tc .vmem S512x1 .f32 := spec1_0.stage ((cfgT pf).slots t 0)
abbrev hs1_0 (t : Fin (cfgT pf).N) : (ms1_0 pf t).IsWhole := hstage1_0 (((cfgT pf).slots t 0).cast nbuf1_0)
abbrev ms1_1 (t : Fin (cfgT pf).N) : Memref sig .tc .vmem S1x512 .f32 := spec1_1.stage ((cfgT pf).slots t 1)
abbrev hs1_1 (t : Fin (cfgT pf).N) : (ms1_1 pf t).IsWhole := hstage1_1 (((cfgT pf).slots t 1).cast nbuf1_1)
abbrev ms1_2 (t : Fin (cfgT pf).N) : Memref sig .tc .vmem S512x1 .f32 := spec1_2.stage ((cfgT pf).slots t 2)
abbrev hs1_2 (t : Fin (cfgT pf).N) : (ms1_2 pf t).IsWhole := hstage1_2 (((cfgT pf).slots t 2).cast nbuf1_2)
abbrev ms1_3 (t : Fin (cfgT pf).N) : Memref sig .tc .vmem S1x512 .f32 := spec1_3.stage ((cfgT pf).slots t 3)
abbrev hs1_3 (t : Fin (cfgT pf).N) : (ms1_3 pf t).IsWhole := hstage1_3 (((cfgT pf).slots t 3).cast nbuf1_3)
abbrev ms1_4 (t : Fin (cfgT pf).N) : Memref sig .tc .vmem S512x1 .i32 := spec1_4.stage ((cfgT pf).slots t 4)
abbrev hs1_4 (t : Fin (cfgT pf).N) : (ms1_4 pf t).IsWhole := hstage1_4 (((cfgT pf).slots t 4).cast nbuf1_4)
abbrev ms1_5 (t : Fin (cfgT pf).N) : Memref sig .tc .vmem S1x512 .i32 := spec1_5.stage ((cfgT pf).slots t 5)
abbrev hs1_5 (t : Fin (cfgT pf).N) : (ms1_5 pf t).IsWhole := hstage1_5 (((cfgT pf).slots t 5).cast nbuf1_5)
abbrev ms1_6 (t : Fin (cfgT pf).N) : Memref sig .tc .vmem S1x1 .f32 := spec1_6.stage ((cfgT pf).slots t 6)
abbrev hs1_6 (t : Fin (cfgT pf).N) : (ms1_6 pf t).IsWhole := hstage1_6 (((cfgT pf).slots t 6).cast nbuf1_6)
abbrev ms1_7 (t : Fin (cfgT pf).N) : Memref sig .tc .vmem S1x1 .f32 := spec1_7.stage ((cfgT pf).slots t 7)
abbrev hs1_7 (t : Fin (cfgT pf).N) : (ms1_7 pf t).IsWhole := hstage1_7 (((cfgT pf).slots t 7).cast nbuf1_7)

/-- The kernel body at point `t`, on what the pipeline calls it with. -/
abbrev bodyAt1 (t : Fin (cfgT pf).N) : Prog (TpuEff nD τ sig (Elt F) Λ₀ .tc) PUnit :=
  cc1__kernel_b ((cfgT pf).grid.coords t) tbM1_0 htbM1_0 tbM1_1 htbM1_1 (ms1_0 pf t) (hs1_0 pf t) (ms1_1 pf t) (hs1_1 pf t) (ms1_2 pf t) (hs1_2 pf t) (ms1_3 pf t) (hs1_3 pf t) (ms1_4 pf t) (hs1_4 pf t) (ms1_5 pf t) (hs1_5 pf t) (ms1_6 pf t) (hs1_6 pf t) (ms1_7 pf t) (hs1_7 pf t)

/-- What the body is called with at point `t`, the windows one by one, -/
def bodyPre1 (c : Dev nD) (t : Fin (cfgT pf).N) : sProp 𝕄 :=
  iprop((dat1 pf V c).Φ t.castSucc ∗ (dat1 pf V c).owesAt () t.castSucc
    ∗ (∃ d, owns (c : Thread nD τ) (ms1_0 pf t) fullShare ((dat1 pf V c).before 0 t d))
    ∗ (∃ d, owns (c : Thread nD τ) (ms1_1 pf t) fullShare ((dat1 pf V c).before 1 t d))
    ∗ (∃ d, owns (c : Thread nD τ) (ms1_2 pf t) fullShare ((dat1 pf V c).before 2 t d))
    ∗ (∃ d, owns (c : Thread nD τ) (ms1_3 pf t) fullShare ((dat1 pf V c).before 3 t d))
    ∗ (∃ d, owns (c : Thread nD τ) (ms1_4 pf t) fullShare ((dat1 pf V c).before 4 t d))
    ∗ (∃ d, owns (c : Thread nD τ) (ms1_5 pf t) fullShare ((dat1 pf V c).before 5 t d))
    ∗ (∃ d, owns (c : Thread nD τ) (ms1_6 pf t) fullShare ((dat1 pf V c).before 6 t d))
    ∗ (∃ d, owns (c : Thread nD τ) (ms1_7 pf t) fullShare ((dat1 pf V c).before 7 t d)))

/-- and what it returns. -/
def bodyPost1 (c : Dev nD) (t : Fin (cfgT pf).N) : sProp 𝕄 :=
  iprop((dat1 pf V c).Φ t.succ ∗ (dat1 pf V c).owesAt () t.succ
    ∗ owns (c : Thread nD τ) (ms1_0 pf t) fullShare ((dat1 pf V c).after 0 t)
    ∗ owns (c : Thread nD τ) (ms1_1 pf t) fullShare ((dat1 pf V c).after 1 t)
    ∗ owns (c : Thread nD τ) (ms1_2 pf t) fullShare ((dat1 pf V c).after 2 t)
    ∗ owns (c : Thread nD τ) (ms1_3 pf t) fullShare ((dat1 pf V c).after 3 t)
    ∗ owns (c : Thread nD τ) (ms1_4 pf t) fullShare ((dat1 pf V c).after 4 t)
    ∗ owns (c : Thread nD τ) (ms1_5 pf t) fullShare ((dat1 pf V c).after 5 t)
    ∗ (dat1 pf V c).leavesExact 6 t ∗ (dat1 pf V c).leavesExact 7 t)

set_option maxHeartbeats 1600000 in
/-- The body at any point: the inputs' buffers hold their blocks; the two conditions in closed form say which of
    the four cases the point is in; at a later point the accumulators hold the running sums of the point before;
    so the case's triple applies; the invariant's scoped rest passes through unread, the tables' halves are lent
    to the loads and returned; the core owes nothing throughout. -/
theorem sound_body1 (c : Dev nD) (t : Fin (cfgT pf).N) :
    bodyPre1 pf V c t ⊢ wp frame (wpE (defs₀ (F := F)) Variants.none c none) Set.univ (bodyAt1 pf t) (fun _ => bodyPost1 pf V c t) := by
  unfold bodyPre1 bodyPost1 bodyAt1
  simp only [before1_0, before1_1, before1_2, before1_3, before1_4, before1_5]
  rw [show (dat1 pf V c).Φ t.succ = (dat1 pf V c).Φ t.castSucc from rfl,
    show (dat1 pf V c).owesAt () t.succ = (dat1 pf V c).owesAt () t.castSucc from rfl,
    after1_0, after1_1, after1_2, after1_3, after1_4, after1_5]
  rw [show (dat1 pf V c).Φ t.castSucc = iprop(Pipeline.ΦA spec1 c ∗ Pipeline.ΦT pre1 pf c) from rfl, PhiT1_eq]
  by_cases h0 : t.val = 0
  · have hc1 : k1_cond1 ((cfgT pf).grid.coords t) = 1#1 := (hcond1 pf t).mpr h0
    rw [leavesExact_live _ 6 t (idle1_6_false pf t (.inl h0)), leavesExact_live _ 7 t (idle1_7_false pf t (.inl h0)), after1_6, after1_7]
    by_cases hov : ovAt pf t
    · -- the first point, the overlap test holding there
      rw [accs1_zero_ov pf V c t h0 hov]
      iintro ⟨⟨HΦ, HT0, HT1⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (runA c ((cfgT pf).grid.coords t) (ms1_0 pf t) (hs1_0 pf t) (ms1_1 pf t) (hs1_1 pf t) (ms1_2 pf t) (hs1_2 pf t) (ms1_3 pf t) (hs1_3 pf t) (ms1_4 pf t) (hs1_4 pf t) (ms1_5 pf t) (hs1_5 pf t) (ms1_6 pf t) (hs1_6 pf t) (ms1_7 pf t) (hs1_7 pf t) (pf 0) (pf 1) hc1 ((ovW_iff pf c t).mpr hov)
        (iblk1 pf V c 0 t) (iblk1 pf V c 1 t) (iblk1 pf V c 2 t) (iblk1 pf V c 3 t) (iblk1 pf V c 4 t) (iblk1 pf V c 5 t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HT0]; · iexact HT0
      isplitl [HT1]; · iexact HT1
      iintro ⟨H0, H1, H2, H3, H4, H5, H6, H7, HT0, HT1⟩
      isplitl [HΦ HT0 HT1]
      · isplitl [HΦ]; · iexact HΦ
        isplitl [HT0]; · iexact HT0
        iexact HT1
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · -- the first point, the overlap test failing there
      rw [accs1_zero_nov pf V c t h0 hov]
      iintro ⟨⟨HΦ, HT0, HT1⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (runC c ((cfgT pf).grid.coords t) (ms1_0 pf t) (hs1_0 pf t) (ms1_1 pf t) (hs1_1 pf t) (ms1_2 pf t) (hs1_2 pf t) (ms1_3 pf t) (hs1_3 pf t) (ms1_4 pf t) (hs1_4 pf t) (ms1_5 pf t) (hs1_5 pf t) (ms1_6 pf t) (hs1_6 pf t) (ms1_7 pf t) (hs1_7 pf t) (pf 0) (pf 1) hc1 (fun h => hov ((ovW_iff pf c t).mp h)) Set.univ _)
      isplitl [H6]; · iexists _; iexact H6
      isplitl [H7]; · iexists _; iexact H7
      isplitl [HT0]; · iexact HT0
      isplitl [HT1]; · iexact HT1
      iintro ⟨H6, H7, HT0, HT1⟩
      isplitl [HΦ HT0 HT1]
      · isplitl [HΦ]; · iexact HΦ
        isplitl [HT0]; · iexact HT0
        iexact HT1
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
  · have hc1 : ¬ k1_cond1 ((cfgT pf).grid.coords t) = 1#1 := fun h => h0 ((hcond1 pf t).mp h)
    by_cases hov : ovAt pf t
    · -- a later point that passes the overlap test
      rw [leavesExact_live _ 6 t (idle1_6_false pf t (.inr hov)), leavesExact_live _ 7 t (idle1_7_false pf t (.inr hov)), after1_6, after1_7,
        accs1_pos_ov pf V c t h0 hov]
      simp only [before1_6 pf V c t h0, before1_7 pf V c t h0]
      iintro ⟨⟨HΦ, HT0, HT1⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (runB c ((cfgT pf).grid.coords t) (ms1_0 pf t) (hs1_0 pf t) (ms1_1 pf t) (hs1_1 pf t) (ms1_2 pf t) (hs1_2 pf t) (ms1_3 pf t) (hs1_3 pf t) (ms1_4 pf t) (hs1_4 pf t) (ms1_5 pf t) (hs1_5 pf t) (ms1_6 pf t) (hs1_6 pf t) (ms1_7 pf t) (hs1_7 pf t) (pf 0) (pf 1) hc1 ((ovW_iff pf c t).mpr hov)
        (iblk1 pf V c 0 t) (iblk1 pf V c 1 t) (iblk1 pf V c 2 t) (iblk1 pf V c 3 t) (iblk1 pf V c 4 t) (iblk1 pf V c 5 t) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HT0]; · iexact HT0
      isplitl [HT1]; · iexact HT1
      iintro ⟨H0, H1, H2, H3, H4, H5, H6, H7, HT0, HT1⟩
      isplitl [HΦ HT0 HT1]
      · isplitl [HΦ]; · iexact HΦ
        isplitl [HT0]; · iexact HT0
        iexact HT1
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · -- a later point that fails it: the body stores nothing, the running sums are carried
      have hb6 : ∀ d, (dat1 pf V c).before 6 t d = (dat1 pf V c).after 6 t := fun d => by
        rw [before1_6 pf V c t h0, after1_6, accs1_pos_nov pf V c t h0 hov]
      have hb7 : ∀ d, (dat1 pf V c).before 7 t d = (dat1 pf V c).after 7 t := fun d => by
        rw [before1_7 pf V c t h0, after1_7, accs1_pos_nov pf V c t h0 hov]
      have hl6 : ∀ d, owns (c : Thread nD τ) (ms1_6 pf t) fullShare ((dat1 pf V c).before 6 t d) ⊢ ((dat1 pf V c).leavesExact 6 t : sProp 𝕄) :=
        fun d => leavesExact_of_before (dat1 pf V c) 6 t ((idle1_6_iff pf t).mpr ⟨h0, hov⟩) d (hb6 d)
      have hl7 : ∀ d, owns (c : Thread nD τ) (ms1_7 pf t) fullShare ((dat1 pf V c).before 7 t d) ⊢ ((dat1 pf V c).leavesExact 7 t : sProp 𝕄) :=
        fun d => leavesExact_of_before (dat1 pf V c) 7 t ((idle1_7_iff pf t).mpr ⟨h0, hov⟩) d (hb7 d)
      iintro ⟨⟨HΦ, HT0, HT1⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (runD c ((cfgT pf).grid.coords t) (ms1_0 pf t) (hs1_0 pf t) (ms1_1 pf t) (hs1_1 pf t) (ms1_2 pf t) (hs1_2 pf t) (ms1_3 pf t) (hs1_3 pf t) (ms1_4 pf t) (hs1_4 pf t) (ms1_5 pf t) (hs1_5 pf t) (ms1_6 pf t) (hs1_6 pf t) (ms1_7 pf t) (hs1_7 pf t) (pf 0) (pf 1) hc1 (fun h => hov ((ovW_iff pf c t).mp h)) Set.univ _)
      isplitl [HT0]; · iexact HT0
      isplitl [HT1]; · iexact HT1
      iintro ⟨HT0, HT1⟩
      isplitl [HΦ HT0 HT1]
      · isplitl [HΦ]; · iexact HΦ
        isplitl [HT0]; · iexact HT0
        iexact HT1
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · ihave H6' := (hl6 d6) $$ H6
        iexact H6'
      ihave H7' := (hl7 d7) $$ H7
      iexact H7'

/-- The library's body obligation, at every point. -/
theorem body_obligation1 (c : Dev nD) : BodyObligation (dat1 (F := F) pf V c) (defs₀ (F := F)) Variants.none () Set.univ := fun t => by
  rw [bigSep_W1, bigSep_W1]
  exact sound_body1 pf V c t

end Cert.Kernel.Hand

end
-- ==== Proof.KValueCond.lean ====
import proofs.«413598_j523986010373_2_alg».proof.Proof.Gen.Kernel.Launch
import proofs.«413598_j523986010373_2_alg».proof.Proof.Gen.Kernel.Regions
import Idealize.ShloMosaic.Lib.Pipeline.Frame
import Idealize.ShloMosaic.Lib.Pipeline.Regions

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

/-! ## The result buffer, given the regions' records

The program is a chain of seven items: the first kernel region, three host stretches, the second kernel region, two
host stretches. Between two items each core holds every unscoped buffer whole at the valuation `V0 … V7` of that
point: the launch memory, then what a region leaves (the unknowns `outs`), then `StableHlo.after` each host
stretch. The last host stretch writes the result buffer `main_v18`; so at the end the memory holds, at
`main_v18`, the last valuation's word for it, and every argument as launched. -/

set_option backward.isDefEq.respectTransparency.types false in
/-- THE CONDITIONAL VALUE. Given, per kernel region, a segment record entered from the thread state before it
    (every unscoped buffer held at `V0`, resp. `V4`, beside the rest) and left at the one after it (`V1`, resp.
    `V5`), every weakly fair execution of @main from memory `m` with zero counters terminates, and every final
    memory holds the result buffer `main_v18` at `V7 m outs c main_v18` and each argument as launched. -/
theorem value_cond {Ix : Type} [DecidableEq Ix] {U : Type} [URA U] {Lvl : Type} [Preorder Lvl]
    (m : (ℓ : Loc nD τ sig) → Buf (Elt F) ℓ)
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F)) (a : (p : Fin 2) → (pcfgs (F := F) p).Adm)
    (pdats : (p : Fin 2) → (c : Dev nD) → Dat τ (Elt F) Ix ℕ U Lvl (Pipeline.pin (pcfgs (F := F)) a p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells (Pipeline.pin (pcfgs (F := F)) a) (cellOf_inj a)) (Pipeline.launchToks (Pipeline.pin (pcfgs (F := F)) a) (cellOf_inj a)))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) a pdats ι defs₀ 𝒱₀ L lv 0)
    (hpre0 : ∀ c : Dev nD, iprop(StableHlo.held (c : Thread nD τ) (Pipeline.ucRefs τ sig) (V0 m c) ∗ E 0 c) ⊢ R0.pre c)
    (hpost0 : ∀ c : Dev nD, R0.post c ⊢ iprop(StableHlo.held (c : Thread nD τ) (Pipeline.ucRefs τ sig) (V1 m outs c) ∗ E 1 c))
    (R1 : RegionSeg (pcfgs (F := F)) a pdats ι defs₀ 𝒱₀ L lv 1)
    (hpre1 : ∀ c : Dev nD, iprop(StableHlo.held (c : Thread nD τ) (Pipeline.ucRefs τ sig) (V4 m outs c) ∗ E 1 c) ⊢ R1.pre c)
    (hpost1 : ∀ c : Dev nD, R1.post c ⊢ iprop(StableHlo.held (c : Thread nD τ) (Pipeline.ucRefs τ sig) (V5 m outs c) ∗ E 2 c)) :
    θ_run defs (onTc (τ := τ) (main (F := F))) ⟨m, fun _ => 0, ρ⟩ (fun r => ∀ c : Dev nD,
      r.2.mem ((c.tc : Thread nD τ).loc main_v18) = V7 m outs c main_v18
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine Pipeline.θ_run_regions_kit_dev (pcfgs (F := F)) a pdats ι (cellOf_inj a) EP defs₀ 𝒱₀ L lv m ρ main
    (segs m outs 𝒱₀ L lv E ι a pdats R0 R1)
    (fun c Q => by
      rewrite [main_chain c, Seg.run_eq_chain,
        show (segs m outs 𝒱₀ L lv E ι a pdats R0 R1 c).map Seg.prog = [
          Prog.lift (.customCall (Pipeline.entry 0) ()),
          StableHlo.seq hostOps1,
          StableHlo.seq hostOps1_1,
          StableHlo.seq hostOps1_2,
          Prog.lift (.customCall (Pipeline.entry 1) ()),
          StableHlo.seq hostOps2,
          StableHlo.seq hostOps2_1 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V7 m outs c))
    (hch := fun c => ⟨hpre0 c, hpost0 c, .rfl, .rfl, hpre1 c, hpost1 c, .rfl, sep_mono .rfl (hE2 c)⟩)
    (hinit := ?_) (QY := fun c s => s.mem ((c.tc : Thread nD τ).loc main_v18) = V7 m outs c main_v18 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5))
    (hfin := fun c s' => ?_) (hQ := fun _ h => h)
  · -- the launch: the unscoped buffers are held at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: the result buffer and each argument's buffer read off the last valuation
    unfold StableHlo.held
    iintro ⟨Hh, HSI⟩
    ihave Hr := (pointsTo_read_all (Pipeline.ucRefs τ sig) (fun b => ((c : Thread nD τ).1, b)) (V7 m outs c) s') $$ [Hh HSI]
    · isplitl [Hh] <;> iassumption
    icases Hr with ⟨%h, HSI⟩
    imodintro
    isplitr
    · ipureintro
      exact ⟨h (Proc.devRef .tc main_v18) (Finset.mem_filter.mpr ⟨StableHlo.devRef_mem_tcRefs main_v18, by decide⟩),
        (h (Proc.devRef .tc main_arg0) (Finset.mem_filter.mpr ⟨StableHlo.devRef_mem_tcRefs main_arg0, by decide⟩)).trans (V7_main_arg0 m outs c),
        (h (Proc.devRef .tc main_arg1) (Finset.mem_filter.mpr ⟨StableHlo.devRef_mem_tcRefs main_arg1, by decide⟩)).trans (V7_main_arg1 m outs c),
        (h (Proc.devRef .tc main_arg2) (Finset.mem_filter.mpr ⟨StableHlo.devRef_mem_tcRefs main_arg2, by decide⟩)).trans (V7_main_arg2 m outs c),
        (h (Proc.devRef .tc main_arg3) (Finset.mem_filter.mpr ⟨StableHlo.devRef_mem_tcRefs main_arg3, by decide⟩)).trans (V7_main_arg3 m outs c),
        (h (Proc.devRef .tc main_arg4) (Finset.mem_filter.mpr ⟨StableHlo.devRef_mem_tcRefs main_arg4, by decide⟩)).trans (V7_main_arg4 m outs c),
        (h (Proc.devRef .tc main_arg5) (Finset.mem_filter.mpr ⟨StableHlo.devRef_mem_tcRefs main_arg5, by decide⟩)).trans (V7_main_arg5 m outs c)⟩
    · iexact HSI

end Cert.Kernel.Hand

end
-- ==== Proof.KRun.lean ====
import proofs.«413598_j523986010373_2_alg».proof.Proof.Gen.Kernel.Launch
import proofs.«413598_j523986010373_2_alg».proof.Proof.Gen.Kernel.Skeleton
import proofs.«413598_j523986010373_2_alg».proof.Proof.Gen.Kernel.Points
import proofs.«413598_j523986010373_2_alg».proof.Proof.Gen.Kernel.Regions
import proofs.«413598_j523986010373_2_alg».proof.Proof.KReg0
import proofs.«413598_j523986010373_2_alg».proof.Proof.KReg1Defs
import proofs.«413598_j523986010373_2_alg».proof.Proof.KReg1
import proofs.«413598_j523986010373_2_alg».proof.Proof.KValueCond
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

/-! ## An assertion riding in a pipeline's invariant

A body that runs from the invariant `Φ t` to `Φ (t + 1)` also runs from `Φ t ∗ L` to `Φ (t + 1) ∗ L`, for any
assertion `L` (the frame rule); the contents the windows' buffers hold do not depend on the invariant. -/

section Ride

variable {cfgR : Pipeline.Cfg sig Λ₀} {cR : Dev nD}

/-- The proof data `dat` with the assertion `L` held in its invariant at every point, beside what it states. -/
def ride (dat : Dat τ (Elt F) Unit ℕ (UR sig nD τ) ℕ cfgR cR) (L : sProp 𝕄) : Dat τ (Elt F) Unit ℕ (UR sig nD τ) ℕ cfgR cR where
  A := dat.A
  after := dat.after
  Φ t := iprop(dat.Φ t ∗ L)
  q := dat.q
  owed := dat.owed
  recorded := dat.recorded

/-- What a window's buffer holds when the body runs does not depend on the invariant. -/
theorem ride_before (dat : Dat τ (Elt F) Unit ℕ (UR sig nD τ) ℕ cfgR cR) (L : sProp 𝕄) (w : Fin cfgR.W) :
    ∀ (n : ℕ) (t : Fin cfgR.N), t.val = n → ∀ d, (ride dat L).before w t d = dat.before w t d := by
  intro n
  induction n using Nat.strong_induction_on with
  | _ n ih =>
    intro t ht d
    unfold Dat.before
    by_cases hf : (cfgR.win w).fetch t = true
    · rw [if_pos hf, if_pos hf]; rfl
    · rw [if_neg hf, if_neg hf]
      by_cases h0 : t.val = 0
      · rw [if_pos h0, if_pos h0]
      · rw [if_neg h0, if_neg h0]
        simp only [Dat.found_eq_before]
        rw [ih (t.val - 1) (by omega) ⟨t.val - 1, by omega⟩ rfl d]
        rfl

/-- The arrays' contents after the write-backs do not depend on the invariant. -/
theorem ride_arrAt (dat : Dat τ (Elt F) Unit ℕ (UR sig nD τ) ℕ cfgR cR) (L : sProp 𝕄) (w : Fin cfgR.W) (n : ℕ) :
    (ride dat L).arrAt w n = dat.arrAt w n := by
  induction n with
  | zero => rfl
  | succ n ih => unfold Dat.arrAt; rw [ih]; rfl

/-- The body obligation with `L` riding along: the frame rule around the body's triple. -/
theorem ride_obligation {dat : Dat τ (Elt F) Unit ℕ (UR sig nD τ) ℕ cfgR cR} (L : sProp 𝕄)
    (h : BodyObligation dat (defs₀ (F := F)) Variants.none () Set.univ) :
    BodyObligation (ride dat L) (defs₀ (F := F)) Variants.none () Set.univ := fun t => by
  have hb : ∀ w d, (ride dat L).before w t d = dat.before w t d := fun w d => ride_before dat L w _ t rfl d
  have h' := h t
  simp only [hb]
  refine BI.Entails.trans ?_ ((sep_mono_left (Q := L) h').trans ((wp_frame_r _ _ _ (R := L)).trans (wp_mono _ _ _ fun _ => ?_)))
  · show iprop(iprop(dat.Φ t.castSucc ∗ L) ∗ dat.owesAt () t.castSucc ∗ _) ⊢ _
    iintro ⟨⟨HΦ, HL⟩, HO, HB⟩
    isplitr [HL]
    · isplitl [HΦ]; · iexact HΦ
      isplitl [HO]; · iexact HO
      iexact HB
    · iexact HL
  · show _ ⊢ iprop(iprop(dat.Φ t.succ ∗ L) ∗ dat.owesAt () t.succ ∗ _)
    iintro ⟨⟨HΦ, HO, HB⟩, HL⟩
    isplitl [HΦ HL]
    · isplitl [HΦ]; · iexact HΦ
      iexact HL
    isplitl [HO]; · iexact HO
    iexact HB

end Ride

variable (m : (ℓ : Loc nD τ sig) → Buf (Elt F) ℓ) (ρ : Dev nD → PrngReg)

/-! ## The buffers' contents at the two regions' ends

The first region is entered from the launch memory. It leaves its two output arrays at what its write-backs
fold to and every other buffer as it was; three host stretches later the second region is entered, with the
two tables at what the third stretch reduced the labels to, and leaves its two accumulators' arrays at what
its write-backs fold to. -/

/-- The first region's entry contents: the launch memory. -/
abbrev Vent0 : (c : Dev nD) → (b : Ref sig .tc) → Buf (Elt F) ((c : Thread nD τ).loc b) := fun c b => V0 m c b

/-- Core `c`'s buffers when the first region is left: its arrays at what the pipeline leaves, the rest as entered. -/
def left0 (c : Dev nD) : Valuation τ sig (Elt F) :=
  Pipeline.withArrays spec0 c (V0 m c) fun w => (dat0 (Vent0 m) c).arrAt w cfg0.N

/-- What the first region leaves, as the unknowns of the valuations between the items (read at item 1 only). -/
def outs0 : Gen.Outs (F := F) := fun _ r c => left0 m c (Proc.devRef .tc r)

/-- The second region's entry contents: the first region's leavings after the three host stretches. -/
abbrev Vent1 : (c : Dev nD) → (b : Ref sig .tc) → Buf (Elt F) ((c : Thread nD τ).loc b) := fun c b => V4 m (outs0 m) c b

/-- The two tables the second region is entered with (one core: core 0's). -/
def pfOf : pre1.Contents (Elt F) := fun k => V4 m (outs0 m) (0 : Dev nD) (pre1.ref k)

/-- Core `c`'s buffers when the second region is left. -/
def left1 (c : Dev nD) : Valuation τ sig (Elt F) :=
  Pipeline.withArrays spec1 c (V4 m (outs0 m) c) fun w => (dat1 (pfOf m) (Vent1 m) c).arrAt w (cfgT (pfOf m)).N

/-- WHAT THE REGIONS LEAVE: after item 4 (the second region) the second region's leavings, before it the first's. -/
def outsOf : Gen.Outs (F := F) := fun J r c =>
  if J = 5 then left1 m c (Proc.devRef .tc r) else left0 m c (Proc.devRef .tc r)

theorem outsOf_one (r : Ref sig .tc) (c : Dev nD) : outsOf m 1 r c = outs0 m 1 r c := rfl

/-- The valuations up to the second region's entry read the unknowns at item 1 only. -/
theorem V4_outsOf (c : Dev nD) : V4 m (outsOf m) c = V4 m (outs0 m) c := rfl

theorem Vent1_eq (c : Dev nD) (b : Ref sig .tc) : Vent1 m c b = V4 m (outsOf m) c b := rfl
theorem pfOf_eq (k : Fin pre1.K) : pfOf m k = V4 m (outsOf m) (0 : Dev nD) (pre1.ref k) := rfl
/-- On every core the tables hold those contents (there is one core). -/
theorem tab_eq (c : Dev nD) : (fun k => Vent1 m c (pre1.ref k)) = pfOf m := by
  obtain rfl : c = 0 := Subsingleton.elim _ _; rfl

theorem outs_v0_0 (c : Dev nD) : outsOf m 1 main_v0_0 c = (dat0 (Vent0 m) c).arrAt 4 cfg0.N :=
by
  show left0 m c (Proc.devRef .tc (Pipeline.arrRef spec0 4)) = _
  unfold left0; exact Pipeline.withArrays_arr spec0 winFacts0.arr_inj c _ _ 4
theorem outs_v0_1 (c : Dev nD) : outsOf m 1 main_v0_1 c = (dat0 (Vent0 m) c).arrAt 5 cfg0.N :=
by
  show left0 m c (Proc.devRef .tc (Pipeline.arrRef spec0 5)) = _
  unfold left0; exact Pipeline.withArrays_arr spec0 winFacts0.arr_inj c _ _ 5
theorem outs_v12_0 (c : Dev nD) : outsOf m 5 main_v12_0 c = (dat1 (pfOf m) (Vent1 m) c).arrAt 6 (cfgT (pfOf m)).N :=
by
  show left1 m c (Proc.devRef .tc (Pipeline.arrRef spec1 6)) = _
  unfold left1; exact Pipeline.withArrays_arr spec1 winFacts1.arr_inj c _ _ 6
theorem outs_v12_1 (c : Dev nD) : outsOf m 5 main_v12_1 c = (dat1 (pfOf m) (Vent1 m) c).arrAt 7 (cfgT (pfOf m)).N :=
by
  show left1 m c (Proc.devRef .tc (Pipeline.arrRef spec1 7)) = _
  unfold left1; exact Pipeline.withArrays_arr spec1 winFacts1.arr_inj c _ _ 7

/-! ### The valuations after a region at the buffers it may change -/

theorem V1_at0 (outs : Gen.Outs (F := F)) (c : Dev nD) : V1 m outs c main_v0_0 = outs 1 main_v0_0 c := by
  simp only [V1]
  rw [Function.update_of_ne (StableHlo.devRef_ne_of_ne (by decide) : (Proc.devRef .tc main_v0_0 : DevRef τ sig) ≠ Proc.devRef .tc main_v0_1),
    Function.update_self]
theorem V1_at1 (outs : Gen.Outs (F := F)) (c : Dev nD) : V1 m outs c main_v0_1 = outs 1 main_v0_1 c := by
  simp only [V1, Function.update_self]
theorem V5_at0 (outs : Gen.Outs (F := F)) (c : Dev nD) : V5 m outs c main_v12_0 = outs 5 main_v12_0 c := by
  simp only [V5]
  rw [Function.update_of_ne (StableHlo.devRef_ne_of_ne (by decide) : (Proc.devRef .tc main_v12_0 : DevRef τ sig) ≠ Proc.devRef .tc main_v12_1),
    Function.update_self]
theorem V5_at1 (outs : Gen.Outs (F := F)) (c : Dev nD) : V5 m outs c main_v12_1 = outs 5 main_v12_1 c := by
  simp only [V5, Function.update_self]

/-- When the first region is left each of its arrays holds what the valuation after it says: the inputs as
    entered (no write-back touches an input), the two outputs at the unknowns. -/
theorem hF0 (c : Dev nD) : ∀ w : Fin cfg0.W, (dat0 (Vent0 m) c).arrAt w cfg0.N = V1 m (outsOf m) c (Pipeline.arrRef spec0 w)
  | ⟨0, _⟩ => ((dat0 (Vent0 m) c).arrAt_in 0 rfl _).trans ((A_eq0 (Vent0 m) c 0).trans (V1_of m (outsOf m) c main_arg0 (by decide)).symm)
  | ⟨1, _⟩ => ((dat0 (Vent0 m) c).arrAt_in 1 rfl _).trans ((A_eq0 (Vent0 m) c 1).trans (V1_of m (outsOf m) c main_arg1 (by decide)).symm)
  | ⟨2, _⟩ => ((dat0 (Vent0 m) c).arrAt_in 2 rfl _).trans ((A_eq0 (Vent0 m) c 2).trans (V1_of m (outsOf m) c main_arg2 (by decide)).symm)
  | ⟨3, _⟩ => ((dat0 (Vent0 m) c).arrAt_in 3 rfl _).trans ((A_eq0 (Vent0 m) c 3).trans (V1_of m (outsOf m) c main_arg3 (by decide)).symm)
  | ⟨4, _⟩ => (outs_v0_0 m c).symm.trans (V1_at0 m (outsOf m) c).symm
  | ⟨5, _⟩ => (outs_v0_1 m c).symm.trans (V1_at1 m (outsOf m) c).symm
/-- and every other buffer what it held at entry. -/
theorem hrest0 (c : Dev nD) : ∀ b, b ∉ Finset.univ.image (Pipeline.arrRef spec0) → V1 m (outsOf m) c b = Vent0 m c b :=
  fun b hb => V1_of m (outsOf m) c b fun h => by
    rcases List.mem_cons.mp h with rfl | h
    · exact hb (Finset.mem_image.mpr ⟨4, Finset.mem_univ _, rfl⟩)
    · rcases List.mem_cons.mp h with rfl | h
      · exact hb (Finset.mem_image.mpr ⟨5, Finset.mem_univ _, rfl⟩)
      · exact absurd h List.not_mem_nil

/-- The same for the second region. -/
theorem hF1 (c : Dev nD) : ∀ w : Fin (cfgT (pfOf m)).W,
    (dat1 (pfOf m) (Vent1 m) c).arrAt w (cfgT (pfOf m)).N = V5 m (outsOf m) c (Pipeline.arrRef spec1 w)
  | ⟨0, _⟩ => ((dat1 (pfOf m) (Vent1 m) c).arrAt_in 0 rfl _).trans ((A_eq1 (pfOf m) (Vent1 m) c 0).trans (V5_of m (outsOf m) c main_v0_0 (by decide)).symm)
  | ⟨1, _⟩ => ((dat1 (pfOf m) (Vent1 m) c).arrAt_in 1 rfl _).trans ((A_eq1 (pfOf m) (Vent1 m) c 1).trans (V5_of m (outsOf m) c main_v8 (by decide)).symm)
  | ⟨2, _⟩ => ((dat1 (pfOf m) (Vent1 m) c).arrAt_in 2 rfl _).trans ((A_eq1 (pfOf m) (Vent1 m) c 2).trans (V5_of m (outsOf m) c main_v0_1 (by decide)).symm)
  | ⟨3, _⟩ => ((dat1 (pfOf m) (Vent1 m) c).arrAt_in 3 rfl _).trans ((A_eq1 (pfOf m) (Vent1 m) c 3).trans (V5_of m (outsOf m) c main_v9 (by decide)).symm)
  | ⟨4, _⟩ => ((dat1 (pfOf m) (Vent1 m) c).arrAt_in 4 rfl _).trans ((A_eq1 (pfOf m) (Vent1 m) c 4).trans (V5_of m (outsOf m) c main_v10 (by decide)).symm)
  | ⟨5, _⟩ => ((dat1 (pfOf m) (Vent1 m) c).arrAt_in 5 rfl _).trans ((A_eq1 (pfOf m) (Vent1 m) c 5).trans (V5_of m (outsOf m) c main_v11 (by decide)).symm)
  | ⟨6, _⟩ => (outs_v12_0 m c).symm.trans (V5_at0 m (outsOf m) c).symm
  | ⟨7, _⟩ => (outs_v12_1 m c).symm.trans (V5_at1 m (outsOf m) c).symm
theorem hrest1 (c : Dev nD) : ∀ b, b ∉ Finset.univ.image (Pipeline.arrRef spec1) → V5 m (outsOf m) c b = Vent1 m c b :=
  fun b hb => V5_of m (outsOf m) c b fun h => by
    rcases List.mem_cons.mp h with rfl | h
    · exact hb (Finset.mem_image.mpr ⟨6, Finset.mem_univ _, rfl⟩)
    · rcases List.mem_cons.mp h with rfl | h
      · exact hb (Finset.mem_image.mpr ⟨7, Finset.mem_univ _, rfl⟩)
      · exact absurd h List.not_mem_nil

/-! ## The proof data family and the thread state -/

/-- The tables' other half, at the contents the second region is entered with: what the pipeline's invariant
    holds beside the half the body loads from, so that the region can give the tables back whole. -/
abbrev tabL (c : Dev nD) : sProp 𝕄 :=
  Pipeline.prefHeld (Ix := Unit) (Name := ℕ) (U := UR sig nD τ) (Lvl := ℕ) pre1 c (fun _ => fullShare.left) (pfOf m)

/-- The second pipeline's proof data in the run: `dat1` at the entry contents, the tables' other half riding in
    the invariant. -/
def dat1K (c : Dev nD) : Dat τ (Elt F) Unit ℕ (UR sig nD τ) ℕ (cfgT (pfOf m)) c :=
  ride (dat1 (pfOf m) (Vent1 m) c) (tabL m c)

theorem dat1K_arrAt (c : Dev nD) (w : Fin (cfgT (pfOf m)).W) (n : ℕ) :
    (dat1K m c).arrAt w n = (dat1 (pfOf m) (Vent1 m) c).arrAt w n := ride_arrAt _ _ w n

/-- The tables' admissible contents: the first pipeline has no table, the second is entered with `pfOf`. -/
def adm : (p : Fin 2) → (pcfgs (F := F) p).Adm
  | ⟨0, _⟩ => cfg0.toPCfg_adm
  | ⟨1, _⟩ => adm1 (pfOf m)

/-- Every pipeline's proof data, each at its region's entry contents. -/
def pdats : (p : Fin 2) → (c : Dev nD) → Dat τ (Elt F) Unit ℕ (UR sig nD τ) ℕ (Pipeline.pin (pcfgs (F := F)) (adm m) p) c
  | ⟨0, _⟩ => fun c => dat0 (Vent0 m) c
  | ⟨1, _⟩ => fun c => dat1K m c

abbrev 𝒱R : Variants := Variants.none
/-- No core owes another anything: no level is assigned. -/
abbrev LR : GSem nD τ sig → Finset Unit := fun _ => ∅
abbrev lvR : GSem nD τ sig → Unit → ℕ := fun _ _ => 0
/-- What rides beside the buffers through every item: the core's generator register at some state and its
    `owes`, at nothing. -/
abbrev Rst (c : Dev nD) : sProp 𝕄 := iprop((∃ r, prngReg c r) ∗ ∃ W, owes (c : Thread nD τ) (0 : CellTallies nD τ sig Unit) W)
abbrev ER : Fin 3 → Dev nD → sProp 𝕄 := fun _ c => Rst c

/-! ## The regions as segments -/

set_option backward.isDefEq.respectTransparency.types false in
/-- THE FIRST REGION over the thread state: entered from every unscoped buffer at the launch memory, left at the
    valuation after it. Its arrays are split out of the unscoped buffers and put back at what the pipeline leaves;
    the generator register goes into the invariant and comes back; nothing is owed; the kernel has no semaphore
    of its own. -/
def reg0 : Pipeline.RegionSeg (pcfgs (F := F)) (adm m) (pdats m) () defs₀ 𝒱R LR lvR 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 (Vent0 m) c).loose
  hwaits := Pipeline.hwaits_of_owed_zero (pcfgs (F := F)) (adm m) (pdats m) () LR lvR 0 fun _ _ => rfl
  pre c := iprop(StableHlo.held (c : Thread nD τ) (Pipeline.ucRefs τ sig) (V0 m c) ∗ Rst c)
  post c := iprop(StableHlo.held (c : Thread nD τ) (Pipeline.ucRefs τ sig) (V1 m (outsOf m) c) ∗ Rst c)
  X c := iprop(∃ r, prngReg c r)
  Y c := iprop(∃ r, prngReg c r)
  Z c := Pipeline.unscopedRest (Ix := Unit) (Name := ℕ) (U := UR sig nD τ) (Lvl := ℕ) spec0 c (Vent0 m c)
  hentry c := by
    rw [Pipeline.ownSems0_none]
    have hsplit := Pipeline.arrays_of_unscopedBufs (p := 0) (pcfgs (F := F)) (adm m) (pdats m) (launch0 (F := F)).win (launch0 (F := F)).arr_whole c
      ((pdats m 0 c).share_full fun _ => rfl) (Vent0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) (adm m) (Ix := Unit) (Name := ℕ) (U := UR sig nD τ) (Lvl := ℕ)
      (launch0 (F := F)).win (launch0 (F := F)).arr_whole c (pdats m) ((pdats m 0 c).share_full fun _ => rfl)
      (Vent0 m c) (fun b => V1 m (outsOf m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE SECOND REGION over the thread state: entered from every unscoped buffer at the valuation before it, left
    at the valuation after it. Its arrays and its two tables are split out of the unscoped buffers; the tables go
    into the invariant whole (the body loads from one half, the other rides along) and come back whole; the arrays
    are put back at what the pipeline leaves, the tables as they were. -/
def reg1 : Pipeline.RegionSeg (pcfgs (F := F)) (adm m) (pdats m) () defs₀ 𝒱R LR lvR 1 where
  win := (launch1 (F := F)).win.to₀
  block_pos := (launch1 (F := F)).block_pos
  stage_whole := (launch1 (F := F)).stage_whole
  K := PEmpty
  osem k := k.elim
  ho := Pipeline.OwnSemFacts.none _
  hbody c := (ride_obligation (tabL m c) (body_obligation1 (pfOf m) (Vent1 m) c)).loose
  hwaits := Pipeline.hwaits_of_owed_zero (pcfgs (F := F)) (adm m) (pdats m) () LR lvR 1 fun _ _ => rfl
  pre c := iprop(StableHlo.held (c : Thread nD τ) (Pipeline.ucRefs τ sig) (V4 m (outs0 m) c) ∗ Rst c)
  post c := iprop(StableHlo.held (c : Thread nD τ) (Pipeline.ucRefs τ sig) (V5 m (outsOf m) c) ∗ Rst c)
  X c := iprop(∃ r, prngReg c r)
  Y c := iprop((∃ r, prngReg c r)
    ∗ Pipeline.prefHeld (Ix := Unit) (Name := ℕ) (U := UR sig nD τ) (Lvl := ℕ) pre1 c (fun _ => fullShare) (pfOf m))
  Z c := Pipeline.unscopedRestP (Ix := Unit) (Name := ℕ) (U := UR sig nD τ) (Lvl := ℕ) pre1 spec1 c (Vent1 m c)
  hentry c := by
    rw [Pipeline.ownSems0_none]
    have hsplit := Pipeline.arrays_of_unscopedBufs (p := 1) (pcfgs (F := F)) (adm m) (pdats m) (launch1 (F := F)).win (launch1 (F := F)).arr_whole c
      ((pdats m 1 c).share_full fun _ => rfl) (Vent1 m c) fun _ => rfl
    rw [Pipeline.unscopedBufs_held, Pipeline.unscopedRest_split (win := (Pipeline.pin (pcfgs (F := F)) (adm m) 1).spec) preFacts1 c (Vent1 m c), tab_eq m c] at hsplit
    iintro ⟨⟨Hub, Hp, HO⟩, -, -⟩
    ihave H := hsplit $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    show iprop((∃ r, prngReg c r)
        ∗ Pipeline.prefHeld (Ix := Unit) (Name := ℕ) (U := UR sig nD τ) (Lvl := ℕ) pre1 c (fun _ => fullShare) (pfOf m)
        ∗ Pipeline.scopedRest (Ix := Unit) (Name := ℕ) (U := UR sig nD τ) (Lvl := ℕ) (Val := Elt F) spec1 c)
      ⊢ iprop(iprop(Pipeline.ΦA spec1 c ∗ Pipeline.ΦT pre1 (pfOf m) c) ∗ tabL m c)
    unfold Pipeline.ΦA
    iintro ⟨Hp, Ht, Hr⟩
    ihave Ht2 := (Pipeline.prefHeld_share pre1 c (PosShare.mem_left_op_right fullShare) (pfOf m)).1 $$ Ht
    icases Ht2 with ⟨HtL, HtR⟩
    isplitr [HtL]
    · isplitl [Hr Hp]
      · isplitl [Hr]; · iexact Hr
        iexact Hp
      · iexact HtR
    · iexact HtL
  hout c := by
    rw [Pipeline.ownSems0_none,
      show (pdats m 1 c).Φ (Fin.last _) = iprop(iprop(Pipeline.ΦA spec1 c ∗ Pipeline.ΦT pre1 (pfOf m) c) ∗ tabL m c) from rfl]
    unfold Pipeline.ΦA
    iintro ⟨⟨⟨Hr, Hp⟩, HtR⟩, HtL⟩
    isplitl [Hp HtR HtL]
    · isplitl [Hp]; · iexact Hp
      iapply (Pipeline.prefHeld_share pre1 c (PosShare.mem_left_op_right fullShare) (pfOf m)).2
      isplitl [HtL]; · iexact HtL
      iexact HtR
    isplitr; · iempintro
    iexact Hr
  hexit c := by
    have hjoin := Pipeline.unscopedBufs_of_arrays (p := 1) (pcfgs (F := F)) (adm m) (Ix := Unit) (Name := ℕ) (U := UR sig nD τ) (Lvl := ℕ)
      (launch1 (F := F)).win (launch1 (F := F)).arr_whole c (pdats m) ((pdats m 1 c).share_full fun _ => rfl)
      (Vent1 m c) (fun b => V5 m (outsOf m) c b) ((pdats m 1 c).arrAt · (cfgT (pfOf m)).N)
      (fun w => (dat1K_arrAt m c w _).trans (hF1 m c w)) (hrest1 m c)
    rw [Pipeline.unscopedBufs_held, Pipeline.unscopedRest_split (win := (Pipeline.pin (pcfgs (F := F)) (adm m) 1).spec) preFacts1 c (Vent1 m c), tab_eq m c] at hjoin
    iintro ⟨Ha, HO, ⟨Hp, Ht⟩, Hrest⟩
    imodintro
    isplitl [Ha Ht Hrest]
    · iapply hjoin
      isplitl [Ha]; · iexact Ha
      isplitl [Ht]; · iexact Ht
      iexact Hrest
    isplitl [Hp]; · iexact Hp
    unfold Pipeline.Dat.owesAt Pipeline.owesWithin
    icases HO with ⟨%W, -, HO⟩; iexists W; iexact HO

/-! ## The run -/

set_option backward.isDefEq.respectTransparency.types false in
/-- THE RUN, WITH THE RESULT. At the compiled mesh, from any memory with zero counters, every weakly fair execution
    of @main on the TensorCores terminates, nothing faulting, and every final memory holds the result buffer
    `main_v18` at what the last valuation says of it — the two host stretches after the second region applied to
    what the regions leave (`outsOf`) — and every argument as launched. -/
theorem run_value : θ_run defs (onTc (τ := τ) (main (F := F))) ⟨m, fun _ => 0, ρ⟩ (fun r => ∀ c : Dev nD,
      r.2.mem ((c.tc : Thread nD τ).loc main_v18) = V7 m (outsOf m) c main_v18
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  value_cond m emb₁ () 𝒱R LR lvR (fun _ _ => rfl) ρ (outsOf m) (adm m) (pdats m)
    (O₀ := 0) (G := fun _ => iprop(emp))
    (u₀ := initOf (Pipeline.cells (Pipeline.pin (pcfgs (F := F)) (adm m)) (cellOf_inj (adm m)))
      (Pipeline.launchToks (Pipeline.pin (pcfgs (F := F)) (adm m)) (cellOf_inj (adm m))))
    (hu₀ := by
      iintro Hu; imodintro
      isplitl [Hu]
      · iapply (show (ownU (initOf (Pipeline.cells (Pipeline.pin (pcfgs (F := F)) (adm m)) (cellOf_inj (adm m)))
              (Pipeline.launchToks (Pipeline.pin (pcfgs (F := F)) (adm m)) (cellOf_inj (adm m)))) : sProp 𝕄)
            ⊢ BI.own (emb₁ (initOf (Pipeline.cells (Pipeline.pin (pcfgs (F := F)) (adm m)) (cellOf_inj (adm m)))
              (Pipeline.launchToks (Pipeline.pin (pcfgs (F := F)) (adm m)) (cellOf_inj (adm m))))) from .rfl)
        iexact Hu
      iapply (show (BI.emp : sProp 𝕄) ⊢ bigSep Finset.univ (fun _ : Dev nD => (BI.emp : sProp 𝕄)) from by rw [BI.bigSep_emp_const])
      iempintro)
    (E := ER)
    (hE0 := by
      refine Pipeline.initEach LR lvR fun c => ?_
      iintro ⟨⟨-, HO, -, Hp, -⟩, -⟩
      imodintro
      isplitl [Hp]; · iexists _; iexact Hp
      iexists ∅; iexact HO)
    (hE2 := fun c => by iintro ⟨-, HO⟩; iexact HO)
    (R0 := reg0 m) (hpre0 := fun c => .rfl) (hpost0 := fun c => .rfl)
    (R1 := reg1 m) (hpre1 := fun c => by rw [V4_outsOf]; exact .rfl) (hpost1 := fun c => .rfl)

/-- THE FRAME: every weakly fair execution of @main from memory `m` with zero counters terminates and every final
    memory holds each argument as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => (h c).2) (run_value m ρ)

end Cert.Kernel.Hand

end
-- ==== Proof.Reg0.lean ====
import proofs.«413598_j523986010373_2_alg».proof.Proof.Gen.KernelIdeal.Launch
import proofs.«413598_j523986010373_2_alg».proof.Proof.Gen.KernelIdeal.Skeleton
import proofs.«413598_j523986010373_2_alg».proof.Proof.Gen.KernelIdeal.Points
import proofs.«413598_j523986010373_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0 of the program: the first kernel call (row-wise squared distances of two pairs of
    arrays), stated at the buffer contents `V` the TensorCore holds when the region is entered. -/

variable (V : (c : Dev nD) → (b : Ref sig .tc) → Buf (Elt F) ((c : Thread nD τ).loc b))

/-- The block of window `w` at grid point `t`: rows `1024·t … 1024·t+1023` of the window's array as `V` has it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The rectangles the body touches: each is the whole staging buffer -/

abbrev rIn512 : Rect S1024x512 := Rect.unit (s := S1024x512) ![0, 0] S1024x512.size inb_S1024x512_S1024x512_0_0
abbrev rIn2 : Rect S1024x2 := Rect.unit (s := S1024x2) ![0, 0] S1024x2.size inb_S1024x2_S1024x2_0_0
abbrev rOut : Rect S1024x1 := Rect.unit (s := S1024x1) ![0, 0] S1024x1.size inb_S1024x1_S1024x1_0_0

/-! ## What the body leaves in the two output buffers -/

/-- The first output's buffer after the body: one store over the whole buffer, of the row sums of the squared
    differences of the two wide inputs. -/
def out0_4 (x0 x1 : Vec F S1024x512 .f32) : Vec F S1024x1 .f32 :=
  View.canon [⟨rOut, k0_pay1 (View.ld x0 rIn512) (View.ld x1 rIn512)⟩]

/-- The second output's buffer after the body: one store over the whole buffer, of the square roots of the row sums of
    the squared differences of the two narrow inputs. -/
def out0_5 (x2 x3 : Vec F S1024x2 .f32) : Vec F S1024x1 .f32 :=
  View.canon [⟨rOut, k0_pay2 (View.ld x2 rIn2) (View.ld x3 rIn2)⟩]

/-- A single store over the whole of a 1024×1 buffer covers every index of it. -/
theorem coverOut (p : Vec F S1024x1 .f32) (y : S1024x1.Idx) :
    ∃ pc ∈ ([⟨rOut, p⟩] : List (View.Piece (Elt F) S1024x1 .f32)), y ∈ pc.1.set :=
  View.cover_of_tiled [⟨rOut, p⟩] S1024x1.size (by rfl) y

/-! ## The body's triple -/

set_option maxHeartbeats 1000000 in
/-- The body on whole staging memrefs — the four inputs' at read contents `x0 … x3`, the two outputs' at anything — runs
    to the continuation with the inputs' as they were and the outputs' at `out0_4 x0 x1` and `out0_5 x2 x3`. The body
    also reads each output buffer once before it stores there; the value read is not used. -/
theorem sound_kernel0 (c : Dev nD) (E : Set ℕ) (i : grid0.Coords)
    (arg1 : Memref sig .tc .vmem S1024x512 .f32) (harg1 : arg1.IsWhole) (arg2 : Memref sig .tc .vmem S1024x512 .f32) (harg2 : arg2.IsWhole)
    (arg3 : Memref sig .tc .vmem S1024x2 .f32) (harg3 : arg3.IsWhole) (arg4 : Memref sig .tc .vmem S1024x2 .f32) (harg4 : arg4.IsWhole)
    (arg5 : Memref sig .tc .vmem S1024x1 .f32) (harg5 : arg5.IsWhole) (arg6 : Memref sig .tc .vmem S1024x1 .f32) (harg6 : arg6.IsWhole)
    (x0 x1 : Vec F S1024x512 .f32) (x2 x3 : Vec F S1024x2 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out0_4 x0 x1) ∗ owns (c : Thread nD τ) arg6 fullShare (out0_5 x2 x3)) -∗ K ⟨⟩))
      ⊢ wp frame (wpE (defs₀ (F := F)) Variants.none c none) E (cc0__kernel_a i arg1 harg1 arg2 harg2 arg3 harg3 arg4 harg4 arg5 harg5 arg6 harg6) K := by
  simp only [cc0__kernel_a_eq_skeleton]; unfold cc0__kernel_a_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf1 hf2 hf3 hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (coverOut _)
  · iexists _; isplitr
    swap; · iexact H6
    ipureintro
    exact View.read_writes_eq_canon _ _ _ (coverOut _)

/-! ## The inputs' staging buffers hold their blocks -/

/-- An input window's current staging buffer holds its block at every point, whether the pipeline fetched it at that
    point or not (an unfetched input's block index has not moved): for any proof data whose array for the window is
    `V`'s and whose body leaves the block in place. The four inputs tile their arrays and are never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The pipeline's proof data -/

/-- The proof data of the region's pipeline on core `c`: the arrays as the region finds them (`V`); after the body at
    point `t` each input's buffer still at its block, the first output's at `out0_4` of the wide inputs' blocks and the
    second's at `out0_5` of the narrow inputs' blocks; the invariant is the scoped rest and the generator register,
    untouched; nothing is owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 2 t) (iblk0 V c 3 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 2 t) (iblk0 V c 3 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`: the invariant, what the core owes, and the six windows' current staging
    buffers one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it hands back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' buffers hold their blocks, so the body's triple applies at those blocks; the
    invariant and what the core owes do not change from a point to the next and pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation for the region's pipeline, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.Reg1Defs.lean ====
/- Region 1 (the second kernel call): its proof data.  The kernel walks a 16 x 16 grid of tile pairs;
   at the first point it clears two one-element accumulators, and at every point whose two tiles' label
   ranges overlap (a test on four words of the two prefetched tables) it adds the tile pair's two sums to
   them.  Everything here is stated at any contents `pf` of the tables and any contents `V` of the
   core's buffers when the region is entered. -/
import proofs.«413598_j523986010373_2_alg».proof.Proof.Gen.KernelIdeal.Launch
import proofs.«413598_j523986010373_2_alg».proof.Proof.Gen.KernelIdeal.Skeleton
import proofs.«413598_j523986010373_2_alg».proof.Proof.Gen.KernelIdeal.Points
import proofs.«413598_j523986010373_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

variable (pf : pre1.Contents (Elt F)) (V : (c : Dev nD) → (b : Ref sig .tc) → Buf (Elt F) ((c : Thread nD τ).loc b))

/-- The tables' contents as admissible contents: the pipeline asks nothing of them. -/
abbrev adm1 : (pcfg1 (F := F)).Adm := ⟨pf, trivial⟩
/-- The pipeline at those contents. -/
abbrev cfgT : Pipeline.Cfg sig Λ₀ := cfg1 (adm1 pf)

/-- Window `w`'s block at point `t`, read off its array as the region finds it. -/
def iblk1 (c : Dev nD) (w : Fin (cfgT pf).W) (t : Fin (cfgT pf).N) :
    (((cfgT pf).win w).xblock ((cfgT pf).grid.coords t)).Idx → Elt F ((cfgT pf).win w).elt :=
  (((cfgT pf).win w).blk t).view.read (Elt F) (V c (Pipeline.arrRef spec1 w))

/-- The overlap test at point `t`: row tile's largest label is at least the column tile's smallest, and the
    row tile's smallest at most the column tile's largest (the four words are read from the two tables at
    the point's two coordinates). -/
def ovAt (t : Fin (cfgT pf).N) : Prop :=
  k1_cond2 (pf.atD 1 (k1_off1 ((cfgT pf).grid.coords t))) (pf.atD 0 (k1_off2 ((cfgT pf).grid.coords t)))
    (pf.atD 0 (k1_off1 ((cfgT pf).grid.coords t))) (pf.atD 1 (k1_off2 ((cfgT pf).grid.coords t))) = 1#1

instance (t : Fin (cfgT pf).N) : Decidable (ovAt pf t) := by unfold ovAt; infer_instance

/-- THE TWO RUNNING SUMS.  What the two accumulators hold after the body at position `n`: cleared at the
    first point, and at every point that passes the overlap test the tile pair's weighted sum added to the
    first and its count added to the second; at the other points unchanged. -/
def accs1 (c : Dev nD) : (n : ℕ) → n < (cfgT pf).N → Vec F S1x1 .f32 × Vec F S1x1 .f32
  | 0, h0 =>
    if ovAt pf ⟨0, h0⟩ then
      (k1_pay8 (iblk1 pf V c 0 ⟨0, h0⟩) (iblk1 pf V c 1 ⟨0, h0⟩) (iblk1 pf V c 2 ⟨0, h0⟩) (iblk1 pf V c 3 ⟨0, h0⟩)
          (iblk1 pf V c 4 ⟨0, h0⟩) (iblk1 pf V c 5 ⟨0, h0⟩) k1_pay1,
        k1_pay3 (k1_pay7 (iblk1 pf V c 0 ⟨0, h0⟩) (iblk1 pf V c 1 ⟨0, h0⟩) (iblk1 pf V c 2 ⟨0, h0⟩) (iblk1 pf V c 3 ⟨0, h0⟩)
          (iblk1 pf V c 4 ⟨0, h0⟩) (iblk1 pf V c 5 ⟨0, h0⟩)) k1_pay2)
    else (k1_pay1, k1_pay2)
  | n + 1, h =>
    if ovAt pf ⟨n + 1, h⟩ then
      (k1_pay8 (iblk1 pf V c 0 ⟨n + 1, h⟩) (iblk1 pf V c 1 ⟨n + 1, h⟩) (iblk1 pf V c 2 ⟨n + 1, h⟩) (iblk1 pf V c 3 ⟨n + 1, h⟩)
          (iblk1 pf V c 4 ⟨n + 1, h⟩) (iblk1 pf V c 5 ⟨n + 1, h⟩) (accs1 c n (Nat.lt_of_succ_lt h)).1,
        k1_pay3 (k1_pay7 (iblk1 pf V c 0 ⟨n + 1, h⟩) (iblk1 pf V c 1 ⟨n + 1, h⟩) (iblk1 pf V c 2 ⟨n + 1, h⟩) (iblk1 pf V c 3 ⟨n + 1, h⟩)
          (iblk1 pf V c 4 ⟨n + 1, h⟩) (iblk1 pf V c 5 ⟨n + 1, h⟩)) (accs1 c n (Nat.lt_of_succ_lt h)).2)
    else accs1 c n (Nat.lt_of_succ_lt h)

theorem accs1_zero (c : Dev nD) (h0 : 0 < (cfgT pf).N) :
    accs1 pf V c 0 h0 =
      (if ovAt pf ⟨0, h0⟩ then
        (k1_pay8 (iblk1 pf V c 0 ⟨0, h0⟩) (iblk1 pf V c 1 ⟨0, h0⟩) (iblk1 pf V c 2 ⟨0, h0⟩) (iblk1 pf V c 3 ⟨0, h0⟩)
            (iblk1 pf V c 4 ⟨0, h0⟩) (iblk1 pf V c 5 ⟨0, h0⟩) k1_pay1,
          k1_pay3 (k1_pay7 (iblk1 pf V c 0 ⟨0, h0⟩) (iblk1 pf V c 1 ⟨0, h0⟩) (iblk1 pf V c 2 ⟨0, h0⟩) (iblk1 pf V c 3 ⟨0, h0⟩)
            (iblk1 pf V c 4 ⟨0, h0⟩) (iblk1 pf V c 5 ⟨0, h0⟩)) k1_pay2)
      else (k1_pay1, k1_pay2)) := by
  rw [accs1]

theorem accs1_succ (c : Dev nD) (n : ℕ) (h : n + 1 < (cfgT pf).N) :
    accs1 pf V c (n + 1) h =
      (if ovAt pf ⟨n + 1, h⟩ then
        (k1_pay8 (iblk1 pf V c 0 ⟨n + 1, h⟩) (iblk1 pf V c 1 ⟨n + 1, h⟩) (iblk1 pf V c 2 ⟨n + 1, h⟩) (iblk1 pf V c 3 ⟨n + 1, h⟩)
            (iblk1 pf V c 4 ⟨n + 1, h⟩) (iblk1 pf V c 5 ⟨n + 1, h⟩) (accs1 pf V c n (Nat.lt_of_succ_lt h)).1,
          k1_pay3 (k1_pay7 (iblk1 pf V c 0 ⟨n + 1, h⟩) (iblk1 pf V c 1 ⟨n + 1, h⟩) (iblk1 pf V c 2 ⟨n + 1, h⟩) (iblk1 pf V c 3 ⟨n + 1, h⟩)
            (iblk1 pf V c 4 ⟨n + 1, h⟩) (iblk1 pf V c 5 ⟨n + 1, h⟩)) (accs1 pf V c n (Nat.lt_of_succ_lt h)).2)
      else accs1 pf V c n (Nat.lt_of_succ_lt h)) := by
  rw [accs1]

/-- The proof data of the second pipeline on core `c`: the arrays as the region finds them; after the body at
    point `t` each input's buffer at its block and the two accumulators at the running sums; the invariant is
    the core's scoped rest with the generator register, and the tables' halves; nothing owed; full shares. -/
def dat1 (c : Dev nD) : Dat τ (Elt F) Unit ℕ (UR sig nD τ) ℕ (cfgT pf) c where
  A w := V c (Pipeline.arrRef spec1 w)
  after w t := match w with
    | ⟨0, _⟩ => iblk1 pf V c 0 t
    | ⟨1, _⟩ => iblk1 pf V c 1 t
    | ⟨2, _⟩ => iblk1 pf V c 2 t
    | ⟨3, _⟩ => iblk1 pf V c 3 t
    | ⟨4, _⟩ => iblk1 pf V c 4 t
    | ⟨5, _⟩ => iblk1 pf V c 5 t
    | ⟨6, _⟩ => (accs1 pf V c t.val t.isLt).1
    | ⟨7, _⟩ => (accs1 pf V c t.val t.isLt).2
  Φ _ := iprop(Pipeline.ΦA spec1 c ∗ Pipeline.ΦT pre1 pf c)
  q _ := fullShare
  owed _ := 0

theorem A_eq1 (c : Dev nD) (w : Fin (cfgT pf).W) : (dat1 pf V c).A w = V c (Pipeline.arrRef spec1 w) := by
  dsimp only [dat1]

theorem after1_0 (c : Dev nD) (t : Fin (cfgT pf).N) : (dat1 pf V c).after 0 t = iblk1 pf V c 0 t := by dsimp only [dat1]; try rfl
theorem after1_1 (c : Dev nD) (t : Fin (cfgT pf).N) : (dat1 pf V c).after 1 t = iblk1 pf V c 1 t := by dsimp only [dat1]; try rfl
theorem after1_2 (c : Dev nD) (t : Fin (cfgT pf).N) : (dat1 pf V c).after 2 t = iblk1 pf V c 2 t := by dsimp only [dat1]; try rfl
theorem after1_3 (c : Dev nD) (t : Fin (cfgT pf).N) : (dat1 pf V c).after 3 t = iblk1 pf V c 3 t := by dsimp only [dat1]; try rfl
theorem after1_4 (c : Dev nD) (t : Fin (cfgT pf).N) : (dat1 pf V c).after 4 t = iblk1 pf V c 4 t := by dsimp only [dat1]; try rfl
theorem after1_5 (c : Dev nD) (t : Fin (cfgT pf).N) : (dat1 pf V c).after 5 t = iblk1 pf V c 5 t := by dsimp only [dat1]; try rfl
theorem after1_6 (c : Dev nD) (t : Fin (cfgT pf).N) : (dat1 pf V c).after 6 t = (accs1 pf V c t.val t.isLt).1 := by dsimp only [dat1]; try rfl
theorem after1_7 (c : Dev nD) (t : Fin (cfgT pf).N) : (dat1 pf V c).after 7 t = (accs1 pf V c t.val t.isLt).2 := by dsimp only [dat1]; try rfl

end Cert.KernelIdeal.Hand

end
-- ==== Proof.Reg1a.lean ====
/- Region 1, the kernel body as a program: what one call of it does to the buffers it is handed, case by case.
   The body first tests whether the grid point is the first one (then it clears the two accumulators), then
   loads four words of the two prefetched tables and tests whether the row tile's and the column tile's label
   ranges overlap (then it adds the tile pair's two sums to the accumulators).  This module holds what the
   four cases share and the two cases that do no arithmetic; the two that do are siblings of it. -/
import proofs.«413598_j523986010373_2_alg».proof.Proof.Gen.KernelIdeal.Launch
import proofs.«413598_j523986010373_2_alg».proof.Proof.Gen.KernelIdeal.Skeleton
import proofs.«413598_j523986010373_2_alg».proof.Proof.Gen.KernelIdeal.Points
import proofs.«413598_j523986010373_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import Idealize.ShloMosaic.Lib.Pipeline.TableIdle
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

abbrev tbM1_0 : Memref sig .tc .smem S16 .i32 := Memref.whole main_v6
abbrev htbM1_0 : tbM1_0.IsWhole := Memref.isWhole_whole _
abbrev tbM1_1 : Memref sig .tc .smem S16 .i32 := Memref.whole main_v7
abbrev htbM1_1 : tbM1_1.IsWhole := Memref.isWhole_whole _
abbrev TbBuf1 (c : Dev nD) {S : Shape} {e : EltTy} (M : Memref sig .tc .smem S e) : Type := Buf (Elt F) (M.view.loc (c : Thread nD τ))
abbrev tbPt1 (c : Dev nD) {S : Shape} {e : EltTy} (M : Memref sig .tc .smem S e) (f : TbBuf1 (F := F) c M) : sProp 𝕄 :=
  M.view.loc (c : Thread nD τ) ↦{fullShare.right} f

/-- The word of a table at one offset, as a scalar load of the body reads it. -/
abbrev tword (c : Dev nD) (M : Memref sig .tc .smem S16 .i32) (xt : TbBuf1 (F := F) c M) (off : Fin 1 → ℕ)
    (h : ∀ a, off a + S1.size a ≤ S16.size a) : Elt F .i32 :=
  M.view.readAt (Elt F) (Rect.unit (s := S16) off S1.size h).toLoadRect xt (Shape.Idx.first (numel1_S1.symm ▸ Nat.one_pos))

/-- The overlap test on the four words the body loads at point `i`. -/
abbrev ovW (c : Dev nD) (i : grid1.Coords) (xt0 : TbBuf1 (F := F) c tbM1_0) (xt1 : TbBuf1 (F := F) c tbM1_1) : Prop :=
  k1_cond2 (tword c tbM1_1 xt1 (k1_off1 i) (k1_off1_inb i)) (tword c tbM1_0 xt0 (k1_off2 i) (k1_off2_inb i))
    (tword c tbM1_0 xt0 (k1_off1 i) (k1_off1_inb i)) (tword c tbM1_1 xt1 (k1_off2 i) (k1_off2_inb i)) = 1#1

theorem hz2 : (![0, 0] : Fin 2 → ℕ) = fun _ => 0 := funext fun a => by
  match a with
  | ⟨0, _⟩ => rfl
  | ⟨1, _⟩ => rfl

set_option maxHeartbeats 1000000 in
/-- The body at a point that neither clears nor passes the overlap test: it loads the four table words and
    touches nothing else. -/
theorem runD (c : Dev nD) (i : grid1.Coords)
    (arg4 : Memref sig .tc .vmem S512x1 .f32) (harg4 : arg4.IsWhole) (arg5 : Memref sig .tc .vmem S1x512 .f32) (harg5 : arg5.IsWhole)
    (arg6 : Memref sig .tc .vmem S512x1 .f32) (harg6 : arg6.IsWhole) (arg7 : Memref sig .tc .vmem S1x512 .f32) (harg7 : arg7.IsWhole)
    (arg8 : Memref sig .tc .vmem S512x1 .i32) (harg8 : arg8.IsWhole) (arg9 : Memref sig .tc .vmem S1x512 .i32) (harg9 : arg9.IsWhole)
    (arg10 : Memref sig .tc .vmem S1x1 .f32) (harg10 : arg10.IsWhole) (arg11 : Memref sig .tc .vmem S1x1 .f32) (harg11 : arg11.IsWhole)
    (xt0 : TbBuf1 (F := F) c tbM1_0) (xt1 : TbBuf1 (F := F) c tbM1_1)
    (hc1 : ¬ k1_cond1 i = 1#1) (hc2 : ¬ ovW c i xt0 xt1)
    (E : Set ℕ) (K : PUnit → sProp 𝕄) :
    iprop(tbPt1 c tbM1_0 xt0 ∗ tbPt1 c tbM1_1 xt1
        ∗ (iprop(tbPt1 c tbM1_0 xt0 ∗ tbPt1 c tbM1_1 xt1) -∗ K ⟨⟩))
      ⊢ wp frame (wpE (defs₀ (F := F)) Variants.none c none) E
          (cc1__kernel_b i tbM1_0 htbM1_0 tbM1_1 htbM1_1 arg4 harg4 arg5 harg5 arg6 harg6 arg7 harg7 arg8 harg8 arg9 harg9 arg10 harg10 arg11 harg11) K := by
  simp only [cc1__kernel_b_eq_skeleton]; unfold cc1__kernel_b_skel
  simp only [k1_part1_eq_skeleton]
  iintro ⟨HT0, HT1, Hk⟩
  sl_exec (disch := first | exact hc1 | (sl_unfold_run_names; exact hc2))
  sl_step
  iapply Hk
  isplitl [HT0]; · iexact HT0
  iexact HT1

set_option maxHeartbeats 1000000 in
/-- The body at the first point when the overlap test fails there: both accumulators are cleared. -/
theorem runC (c : Dev nD) (i : grid1.Coords)
    (arg4 : Memref sig .tc .vmem S512x1 .f32) (harg4 : arg4.IsWhole) (arg5 : Memref sig .tc .vmem S1x512 .f32) (harg5 : arg5.IsWhole)
    (arg6 : Memref sig .tc .vmem S512x1 .f32) (harg6 : arg6.IsWhole) (arg7 : Memref sig .tc .vmem S1x512 .f32) (harg7 : arg7.IsWhole)
    (arg8 : Memref sig .tc .vmem S512x1 .i32) (harg8 : arg8.IsWhole) (arg9 : Memref sig .tc .vmem S1x512 .i32) (harg9 : arg9.IsWhole)
    (arg10 : Memref sig .tc .vmem S1x1 .f32) (harg10 : arg10.IsWhole) (arg11 : Memref sig .tc .vmem S1x1 .f32) (harg11 : arg11.IsWhole)
    (xt0 : TbBuf1 (F := F) c tbM1_0) (xt1 : TbBuf1 (F := F) c tbM1_1)
    (hc1 : k1_cond1 i = 1#1) (hc2 : ¬ ovW c i xt0 xt1)
    (E : Set ℕ) (K : PUnit → sProp 𝕄) :
    iprop((∃ d, owns (c : Thread nD τ) arg10 fullShare d) ∗ (∃ d, owns (c : Thread nD τ) arg11 fullShare d)
        ∗ tbPt1 c tbM1_0 xt0 ∗ tbPt1 c tbM1_1 xt1
        ∗ (iprop(owns (c : Thread nD τ) arg10 fullShare (k1_pay1 (F := F)) ∗ owns (c : Thread nD τ) arg11 fullShare (k1_pay2 (F := F))
            ∗ tbPt1 c tbM1_0 xt0 ∗ tbPt1 c tbM1_1 xt1) -∗ K ⟨⟩))
      ⊢ wp frame (wpE (defs₀ (F := F)) Variants.none c none) E
          (cc1__kernel_b i tbM1_0 htbM1_0 tbM1_1 htbM1_1 arg4 harg4 arg5 harg5 arg6 harg6 arg7 harg7 arg8 harg8 arg9 harg9 arg10 harg10 arg11 harg11) K := by
  simp only [cc1__kernel_b_eq_skeleton]; unfold cc1__kernel_b_skel
  simp only [k1_part1_eq_skeleton]
  unfold owns
  iintro ⟨⟨%d6, %f6, -, H6⟩, ⟨%d7, %f7, -, H7⟩, HT0, HT1, Hk⟩
  sl_exec (disch := first | exact hc1 | (sl_unfold_run_names; exact hc2))
  sl_step
  iapply Hk
  isplitl [H6]
  · iexists _; isplitr
    swap; · iexact H6
    ipureintro
    rw [View.read_writes_eq_canon _ _ _ (fun y => ⟨_, List.mem_singleton_self _, View.mem_set_unit_zero hz2 inb_S1x1_S1x1_0_0 y⟩)]
    exact View.canon_unit_zero hz2 _ _
  isplitl [H7]
  · iexists _; isplitr
    swap; · iexact H7
    ipureintro
    rw [View.read_writes_eq_canon _ _ _ (fun y => ⟨_, List.mem_singleton_self _, View.mem_set_unit_zero hz2 inb_S1x1_S1x1_0_0 y⟩)]
    exact View.canon_unit_zero hz2 _ _
  isplitl [HT0]; · iexact HT0
  iexact HT1

end Cert.KernelIdeal.Hand

end
-- ==== Proof.Reg1b.lean ====
/- Region 1, the kernel body at a later point that passes the overlap test: each accumulator is read, the tile
   pair's sum added, and the result stored back. -/
import proofs.«413598_j523986010373_2_alg».proof.Proof.Reg1a
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

set_option maxHeartbeats 1000000 in
/-- The body at a later point whose two tiles' label ranges overlap: the accumulators hold `a6`, `a7` when it is
    called and the two updated sums when it returns; the input blocks and the tables are handed back as found. -/
theorem runB (c : Dev nD) (i : grid1.Coords)
    (arg4 : Memref sig .tc .vmem S512x1 .f32) (harg4 : arg4.IsWhole) (arg5 : Memref sig .tc .vmem S1x512 .f32) (harg5 : arg5.IsWhole)
    (arg6 : Memref sig .tc .vmem S512x1 .f32) (harg6 : arg6.IsWhole) (arg7 : Memref sig .tc .vmem S1x512 .f32) (harg7 : arg7.IsWhole)
    (arg8 : Memref sig .tc .vmem S512x1 .i32) (harg8 : arg8.IsWhole) (arg9 : Memref sig .tc .vmem S1x512 .i32) (harg9 : arg9.IsWhole)
    (arg10 : Memref sig .tc .vmem S1x1 .f32) (harg10 : arg10.IsWhole) (arg11 : Memref sig .tc .vmem S1x1 .f32) (harg11 : arg11.IsWhole)
    (xt0 : TbBuf1 (F := F) c tbM1_0) (xt1 : TbBuf1 (F := F) c tbM1_1)
    (hc1 : ¬ k1_cond1 i = 1#1) (hc2 : ovW c i xt0 xt1)
    (x0 : Vec F S512x1 .f32) (x1 : Vec F S1x512 .f32) (x2 : Vec F S512x1 .f32) (x3 : Vec F S1x512 .f32)
    (x4 : Vec F S512x1 .i32) (x5 : Vec F S1x512 .i32) (a6 a7 : Vec F S1x1 .f32)
    (E : Set ℕ) (K : PUnit → sProp 𝕄) :
    iprop(owns (c : Thread nD τ) arg4 fullShare x0 ∗ owns (c : Thread nD τ) arg5 fullShare x1 ∗ owns (c : Thread nD τ) arg6 fullShare x2
        ∗ owns (c : Thread nD τ) arg7 fullShare x3 ∗ owns (c : Thread nD τ) arg8 fullShare x4 ∗ owns (c : Thread nD τ) arg9 fullShare x5
        ∗ owns (c : Thread nD τ) arg10 fullShare a6 ∗ owns (c : Thread nD τ) arg11 fullShare a7
        ∗ tbPt1 c tbM1_0 xt0 ∗ tbPt1 c tbM1_1 xt1
        ∗ (iprop(owns (c : Thread nD τ) arg4 fullShare x0 ∗ owns (c : Thread nD τ) arg5 fullShare x1 ∗ owns (c : Thread nD τ) arg6 fullShare x2
            ∗ owns (c : Thread nD τ) arg7 fullShare x3 ∗ owns (c : Thread nD τ) arg8 fullShare x4 ∗ owns (c : Thread nD τ) arg9 fullShare x5
            ∗ owns (c : Thread nD τ) arg10 fullShare (k1_pay8 x0 x1 x2 x3 x4 x5 a6)
            ∗ owns (c : Thread nD τ) arg11 fullShare (k1_pay3 (k1_pay7 x0 x1 x2 x3 x4 x5) a7)
            ∗ tbPt1 c tbM1_0 xt0 ∗ tbPt1 c tbM1_1 xt1) -∗ K ⟨⟩))
      ⊢ wp frame (wpE (defs₀ (F := F)) Variants.none c none) E
          (cc1__kernel_b i tbM1_0 htbM1_0 tbM1_1 htbM1_1 arg4 harg4 arg5 harg5 arg6 harg6 arg7 harg7 arg8 harg8 arg9 harg9 arg10 harg10 arg11 harg11) K := by
  simp only [cc1__kernel_b_eq_skeleton]; unfold cc1__kernel_b_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, HT0, HT1, Hk⟩
  obtain rfl := harg4.eq_unread hf0; obtain rfl := harg5.eq_unread hf1; obtain rfl := harg6.eq_unread hf2
  obtain rfl := harg7.eq_unread hf3; obtain rfl := harg8.eq_unread hf4; obtain rfl := harg9.eq_unread hf5
  obtain rfl := harg10.eq_unread hf6; obtain rfl := harg11.eq_unread hf7
  sl_exec (disch := first | exact hc1 | (sl_unfold_run_names; exact hc2))
  sl_step
  iapply Hk
  isplitl [H0]; · iexists _; isplitr; · ipureintro; exact harg4.read_unread _
                  iexact H0
  isplitl [H1]; · iexists _; isplitr; · ipureintro; exact harg5.read_unread _
                  iexact H1
  isplitl [H2]; · iexists _; isplitr; · ipureintro; exact harg6.read_unread _
                  iexact H2
  isplitl [H3]; · iexists _; isplitr; · ipureintro; exact harg7.read_unread _
                  iexact H3
  isplitl [H4]; · iexists _; isplitr; · ipureintro; exact harg8.read_unread _
                  iexact H4
  isplitl [H5]; · iexists _; isplitr; · ipureintro; exact harg9.read_unread _
                  iexact H5
  isplitl [H6]
  · iexists _; isplitr
    swap; · iexact H6
    ipureintro
    rw [View.read_writes_eq_canon _ _ _ (fun y => ⟨_, List.mem_singleton_self _, View.mem_set_unit_zero hz2 inb_S1x1_S1x1_0_0 y⟩)]
    sl_unfold_run_names
    rw [View.canon_unit_zero hz2]
    simp only [View.readAt_eq_ld, harg4.read_unread, harg5.read_unread, harg6.read_unread, harg7.read_unread, harg8.read_unread,
      harg9.read_unread, harg10.read_unread, View.ld_unit_zero (S := S512x1) hz2, View.ld_unit_zero (S := S1x512) hz2, View.ld_unit_zero (S := S1x1) hz2]
  isplitl [H7]
  · iexists _; isplitr
    swap; · iexact H7
    ipureintro
    rw [View.read_writes_eq_canon _ _ _ (fun y => ⟨_, List.mem_singleton_self _, View.mem_set_unit_zero hz2 inb_S1x1_S1x1_0_0 y⟩)]
    sl_unfold_run_names
    rw [View.canon_unit_zero hz2]
    simp only [View.readAt_eq_ld, harg4.read_unread, harg5.read_unread, harg6.read_unread, harg7.read_unread, harg8.read_unread,
      harg9.read_unread, harg11.read_unread, View.ld_unit_zero (S := S512x1) hz2, View.ld_unit_zero (S := S1x512) hz2, View.ld_unit_zero (S := S1x1) hz2]
  isplitl [HT0]; · iexact HT0
  iexact HT1

end Cert.KernelIdeal.Hand
end
-- ==== Proof.Reg1c.lean ====
/- Region 1, the kernel body at the first point when the overlap test holds there: the accumulators are cleared
   and the first tile pair's sums added to the cleared values. -/
import proofs.«413598_j523986010373_2_alg».proof.Proof.Reg1a
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

set_option maxHeartbeats 1000000 in
/-- The body at the first point when the overlap test holds there: both accumulators are cleared, then the tile
    pair's two sums are added to the cleared values. -/
theorem runA (c : Dev nD) (i : grid1.Coords)
    (arg4 : Memref sig .tc .vmem S512x1 .f32) (harg4 : arg4.IsWhole) (arg5 : Memref sig .tc .vmem S1x512 .f32) (harg5 : arg5.IsWhole)
    (arg6 : Memref sig .tc .vmem S512x1 .f32) (harg6 : arg6.IsWhole) (arg7 : Memref sig .tc .vmem S1x512 .f32) (harg7 : arg7.IsWhole)
    (arg8 : Memref sig .tc .vmem S512x1 .i32) (harg8 : arg8.IsWhole) (arg9 : Memref sig .tc .vmem S1x512 .i32) (harg9 : arg9.IsWhole)
    (arg10 : Memref sig .tc .vmem S1x1 .f32) (harg10 : arg10.IsWhole) (arg11 : Memref sig .tc .vmem S1x1 .f32) (harg11 : arg11.IsWhole)
    (xt0 : TbBuf1 (F := F) c tbM1_0) (xt1 : TbBuf1 (F := F) c tbM1_1)
    (hc1 : k1_cond1 i = 1#1) (hc2 : ovW c i xt0 xt1)
    (x0 : Vec F S512x1 .f32) (x1 : Vec F S1x512 .f32) (x2 : Vec F S512x1 .f32) (x3 : Vec F S1x512 .f32)
    (x4 : Vec F S512x1 .i32) (x5 : Vec F S1x512 .i32)
    (E : Set ℕ) (K : PUnit → sProp 𝕄) :
    iprop(owns (c : Thread nD τ) arg4 fullShare x0 ∗ owns (c : Thread nD τ) arg5 fullShare x1 ∗ owns (c : Thread nD τ) arg6 fullShare x2
        ∗ owns (c : Thread nD τ) arg7 fullShare x3 ∗ owns (c : Thread nD τ) arg8 fullShare x4 ∗ owns (c : Thread nD τ) arg9 fullShare x5
        ∗ (∃ d, owns (c : Thread nD τ) arg10 fullShare d) ∗ (∃ d, owns (c : Thread nD τ) arg11 fullShare d)
        ∗ tbPt1 c tbM1_0 xt0 ∗ tbPt1 c tbM1_1 xt1
        ∗ (iprop(owns (c : Thread nD τ) arg4 fullShare x0 ∗ owns (c : Thread nD τ) arg5 fullShare x1 ∗ owns (c : Thread nD τ) arg6 fullShare x2
            ∗ owns (c : Thread nD τ) arg7 fullShare x3 ∗ owns (c : Thread nD τ) arg8 fullShare x4 ∗ owns (c : Thread nD τ) arg9 fullShare x5
            ∗ owns (c : Thread nD τ) arg10 fullShare (k1_pay8 x0 x1 x2 x3 x4 x5 (k1_pay1 (F := F)))
            ∗ owns (c : Thread nD τ) arg11 fullShare (k1_pay3 (k1_pay7 x0 x1 x2 x3 x4 x5) (k1_pay2 (F := F)))
            ∗ tbPt1 c tbM1_0 xt0 ∗ tbPt1 c tbM1_1 xt1) -∗ K ⟨⟩))
      ⊢ wp frame (wpE (defs₀ (F := F)) Variants.none c none) E
          (cc1__kernel_b i tbM1_0 htbM1_0 tbM1_1 htbM1_1 arg4 harg4 arg5 harg5 arg6 harg6 arg7 harg7 arg8 harg8 arg9 harg9 arg10 harg10 arg11 harg11) K := by
  simp only [cc1__kernel_b_eq_skeleton]; unfold cc1__kernel_b_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, HT0, HT1, Hk⟩
  obtain rfl := harg4.eq_unread hf0; obtain rfl := harg5.eq_unread hf1; obtain rfl := harg6.eq_unread hf2
  obtain rfl := harg7.eq_unread hf3; obtain rfl := harg8.eq_unread hf4; obtain rfl := harg9.eq_unread hf5
  sl_exec (disch := first | exact hc1 | (sl_unfold_run_names; exact hc2))
  sl_step
  iapply Hk
  isplitl [H0]; · iexists _; isplitr; · ipureintro; exact harg4.read_unread _
                  iexact H0
  isplitl [H1]; · iexists _; isplitr; · ipureintro; exact harg5.read_unread _
                  iexact H1
  isplitl [H2]; · iexists _; isplitr; · ipureintro; exact harg6.read_unread _
                  iexact H2
  isplitl [H3]; · iexists _; isplitr; · ipureintro; exact harg7.read_unread _
                  iexact H3
  isplitl [H4]; · iexists _; isplitr; · ipureintro; exact harg8.read_unread _
                  iexact H4
  isplitl [H5]; · iexists _; isplitr; · ipureintro; exact harg9.read_unread _
                  iexact H5
  isplitl [H6]
  · iexists _; isplitr
    swap; · iexact H6
    ipureintro
    rw [View.read_writes_eq_canon _ _ _ (fun y => ⟨_, List.mem_cons_self, View.mem_set_unit_zero hz2 inb_S1x1_S1x1_0_0 y⟩)]
    sl_unfold_run_names
    rw [View.canon_cons_unit_zero hz2]
    simp only [View.readAt_eq_ld, harg4.read_unread, harg5.read_unread, harg6.read_unread, harg7.read_unread, harg8.read_unread,
      harg9.read_unread, View.ld_unit_zero (S := S512x1) hz2, View.ld_unit_zero (S := S1x512) hz2, View.ld_unit_zero (S := S1x1) hz2,
      View.readCov_unit_zero (S := S1x1) _ hz2]
  isplitl [H7]
  · iexists _; isplitr
    swap; · iexact H7
    ipureintro
    rw [View.read_writes_eq_canon _ _ _ (fun y => ⟨_, List.mem_cons_self, View.mem_set_unit_zero hz2 inb_S1x1_S1x1_0_0 y⟩)]
    sl_unfold_run_names
    rw [View.canon_cons_unit_zero hz2]
    simp only [View.readAt_eq_ld, harg4.read_unread, harg5.read_unread, harg6.read_unread, harg7.read_unread, harg8.read_unread,
      harg9.read_unread, View.ld_unit_zero (S := S512x1) hz2, View.ld_unit_zero (S := S1x512) hz2, View.ld_unit_zero (S := S1x1) hz2,
      View.readCov_unit_zero (S := S1x1) _ hz2]
  isplitl [HT0]; · iexact HT0
  iexact HT1

end Cert.KernelIdeal.Hand

end
-- ==== Proof.Reg1.lean ====
/- Region 1 (the second kernel call): its schedule, what the body finds in each window's buffer at each point, and
   the body obligation.  The grid is 16 x 16.  The six input windows hold their blocks at every point.  The two
   one-element accumulators keep one block index throughout, so they are written back only after the last
   point; the body clears them at the first point, adds a tile pair's sums at each point whose two label ranges
   overlap, and stores nothing into them at the others, where the running sums are carried unchanged. -/
import proofs.«413598_j523986010373_2_alg».proof.Proof.Reg1Defs
import Idealize.ShloMosaic.Lib.Pipeline.Value
import Idealize.ShloMosaic.Lib.Pipeline.TableIdle
import proofs.«413598_j523986010373_2_alg».proof.Proof.Reg1b
import proofs.«413598_j523986010373_2_alg».proof.Proof.Reg1c
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

variable (pf : pre1.Contents (Elt F)) (V : (c : Dev nD) → (b : Ref sig .tc) → Buf (Elt F) ((c : Thread nD τ).loc b))

/-! ## The schedule of the second pipeline -/

/-- The grid has 256 points, whatever the tables hold. -/
theorem N1 : (cfgT pf).N = 256 := N_1

/-- The clearing condition holds at the first point only: decided over the grid. -/
theorem hcond1 : ∀ t : Fin (cfgT pf).N, k1_cond1 ((cfgT pf).grid.coords t) = 1#1 ↔ t.val = 0 :=
  (by decide +kernel : ∀ t : Fin grid1.N, k1_cond1 (grid1.coords t) = 1#1 ↔ t.val = 0)

/-- The two accumulators' block index never moves, so neither is written back before the last point. -/
theorem flush1_6 (t : Fin (cfgT pf).N) (h : t.val + 1 < (cfgT pf).N) : ((cfgT pf).win 6).flush t = false := by
  unfold Window.flush
  rw [Bool.and_eq_false_iff]; right
  rw [Bool.or_eq_false_iff]
  exact ⟨decide_eq_false (Nat.ne_of_lt (show t.val + 1 < (cfgT pf).grid.N from h)), decide_eq_false (fun ⟨_, hne⟩ => hne rfl)⟩
theorem flush1_7 (t : Fin (cfgT pf).N) (h : t.val + 1 < (cfgT pf).N) : ((cfgT pf).win 7).flush t = false := by
  unfold Window.flush
  rw [Bool.and_eq_false_iff]; right
  rw [Bool.or_eq_false_iff]
  exact ⟨decide_eq_false (Nat.ne_of_lt (show t.val + 1 < (cfgT pf).grid.N from h)), decide_eq_false (fun ⟨_, hne⟩ => hne rfl)⟩

/-- Where the body stores nothing into the accumulators: at a later point that fails the overlap test. -/
theorem idle1_6_iff (t : Fin (cfgT pf).N) : (cfgT pf).idle 6 ((cfgT pf).grid.coords t) = true ↔ t.val ≠ 0 ∧ ¬ ovAt pf t := by
  show (!(k1_cond1 ((cfgT pf).grid.coords t) == 1#1) && !(k1_cond2 (pf.atD 1 (k1_off1 ((cfgT pf).grid.coords t))) (pf.atD 0 (k1_off2 ((cfgT pf).grid.coords t))) (pf.atD 0 (k1_off1 ((cfgT pf).grid.coords t))) (pf.atD 1 (k1_off2 ((cfgT pf).grid.coords t))) == 1#1)) = true ↔ _
  unfold ovAt
  rw [Bool.and_eq_true, Bool.not_eq_true', Bool.not_eq_true', beq_eq_false_iff_ne, beq_eq_false_iff_ne, ne_eq, ne_eq, hcond1 pf t]
theorem idle1_7_iff (t : Fin (cfgT pf).N) : (cfgT pf).idle 7 ((cfgT pf).grid.coords t) = true ↔ t.val ≠ 0 ∧ ¬ ovAt pf t := by
  show (!(k1_cond1 ((cfgT pf).grid.coords t) == 1#1) && !(k1_cond2 (pf.atD 1 (k1_off1 ((cfgT pf).grid.coords t))) (pf.atD 0 (k1_off2 ((cfgT pf).grid.coords t))) (pf.atD 0 (k1_off1 ((cfgT pf).grid.coords t))) (pf.atD 1 (k1_off2 ((cfgT pf).grid.coords t))) == 1#1)) = true ↔ _
  unfold ovAt
  rw [Bool.and_eq_true, Bool.not_eq_true', Bool.not_eq_true', beq_eq_false_iff_ne, beq_eq_false_iff_ne, ne_eq, ne_eq, hcond1 pf t]

theorem idle1_6_false (t : Fin (cfgT pf).N) (h : t.val = 0 ∨ ovAt pf t) : (cfgT pf).idle 6 ((cfgT pf).grid.coords t) = false := by
  rw [← Bool.not_eq_true, idle1_6_iff]; rintro ⟨h0, hov⟩; rcases h with h | h
  · exact h0 h
  · exact hov h
theorem idle1_7_false (t : Fin (cfgT pf).N) (h : t.val = 0 ∨ ovAt pf t) : (cfgT pf).idle 7 ((cfgT pf).grid.coords t) = false := by
  rw [← Bool.not_eq_true, idle1_7_iff]; rintro ⟨h0, hov⟩; rcases h with h | h
  · exact h0 h
  · exact hov h

/-- After the first point the accumulators' buffers always hold what the body stored: the first point stores. -/
theorem fresh1_6 : ∀ n, n + 1 < (cfgT pf).N → (cfgT pf).fresh 6 (n + 1) = false
  | 0, h => by
    rw [Cfg.fresh_succ _ 6 0 (by omega), flush1_6 pf ⟨0, by omega⟩ h, Bool.false_or, idle1_6_false pf ⟨0, by omega⟩ (.inl rfl), Bool.false_and]
  | n + 1, h => by
    rw [Cfg.fresh_succ _ 6 (n + 1) (by omega), flush1_6 pf ⟨n + 1, by omega⟩ h, Bool.false_or, fresh1_6 n (by omega), Bool.and_false]
theorem fresh1_7 : ∀ n, n + 1 < (cfgT pf).N → (cfgT pf).fresh 7 (n + 1) = false
  | 0, h => by
    rw [Cfg.fresh_succ _ 7 0 (by omega), flush1_7 pf ⟨0, by omega⟩ h, Bool.false_or, idle1_7_false pf ⟨0, by omega⟩ (.inl rfl), Bool.false_and]
  | n + 1, h => by
    rw [Cfg.fresh_succ _ 7 (n + 1) (by omega), flush1_7 pf ⟨n + 1, by omega⟩ h, Bool.false_or, fresh1_7 n (by omega), Bool.and_false]

/-! ## The running sums, point by point -/

theorem accs1_pos_nov (c : Dev nD) (t : Fin (cfgT pf).N) (ht : t.val ≠ 0) (hov : ¬ ovAt pf t) :
    accs1 pf V c t.val t.isLt = accs1 pf V c (t.val - 1) (Nat.lt_of_le_of_lt (Nat.sub_le _ _) t.isLt) := by
  obtain ⟨n, hn⟩ := t
  cases n with
  | zero => exact absurd rfl ht
  | succ n => rw [accs1_succ pf V c n hn, if_neg hov]; rfl

theorem accs1_pos_ov (c : Dev nD) (t : Fin (cfgT pf).N) (ht : t.val ≠ 0) (hov : ovAt pf t) :
    accs1 pf V c t.val t.isLt =
      (k1_pay8 (iblk1 pf V c 0 t) (iblk1 pf V c 1 t) (iblk1 pf V c 2 t) (iblk1 pf V c 3 t) (iblk1 pf V c 4 t) (iblk1 pf V c 5 t)
          (accs1 pf V c (t.val - 1) (Nat.lt_of_le_of_lt (Nat.sub_le _ _) t.isLt)).1,
        k1_pay3 (k1_pay7 (iblk1 pf V c 0 t) (iblk1 pf V c 1 t) (iblk1 pf V c 2 t) (iblk1 pf V c 3 t) (iblk1 pf V c 4 t) (iblk1 pf V c 5 t))
          (accs1 pf V c (t.val - 1) (Nat.lt_of_le_of_lt (Nat.sub_le _ _) t.isLt)).2) := by
  obtain ⟨n, hn⟩ := t
  cases n with
  | zero => exact absurd rfl ht
  | succ n => rw [accs1_succ pf V c n hn, if_pos hov]; rfl

theorem accs1_zero_ov (c : Dev nD) (t : Fin (cfgT pf).N) (ht : t.val = 0) (hov : ovAt pf t) :
    accs1 pf V c t.val t.isLt =
      (k1_pay8 (iblk1 pf V c 0 t) (iblk1 pf V c 1 t) (iblk1 pf V c 2 t) (iblk1 pf V c 3 t) (iblk1 pf V c 4 t) (iblk1 pf V c 5 t) k1_pay1,
        k1_pay3 (k1_pay7 (iblk1 pf V c 0 t) (iblk1 pf V c 1 t) (iblk1 pf V c 2 t) (iblk1 pf V c 3 t) (iblk1 pf V c 4 t) (iblk1 pf V c 5 t)) k1_pay2) := by
  obtain ⟨n, hn⟩ := t
  cases n with
  | succ n => exact absurd ht (Nat.succ_ne_zero n)
  | zero => rw [accs1_zero pf V c hn, if_pos hov]

theorem accs1_zero_nov (c : Dev nD) (t : Fin (cfgT pf).N) (ht : t.val = 0) (hov : ¬ ovAt pf t) :
    accs1 pf V c t.val t.isLt = (k1_pay1, k1_pay2) := by
  obtain ⟨n, hn⟩ := t
  cases n with
  | succ n => exact absurd ht (Nat.succ_ne_zero n)
  | zero => rw [accs1_zero pf V c hn, if_neg hov]

/-! ## What the body finds in each window's buffer -/

theorem before1_0 (c : Dev nD) (t : Fin (cfgT pf).N) (d) : (dat1 pf V c).before 0 t d = iblk1 pf V c 0 t :=
  ((dat1 pf V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin (cfgT pf).N) (d) : (dat1 pf V c).before 1 t d = iblk1 pf V c 1 t :=
  ((dat1 pf V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin (cfgT pf).N) (d) : (dat1 pf V c).before 2 t d = iblk1 pf V c 2 t :=
  ((dat1 pf V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin (cfgT pf).N) (d) : (dat1 pf V c).before 3 t d = iblk1 pf V c 3 t :=
  ((dat1 pf V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
theorem before1_4 (c : Dev nD) (t : Fin (cfgT pf).N) (d) : (dat1 pf V c).before 4 t d = iblk1 pf V c 4 t :=
  ((dat1 pf V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)
theorem before1_5 (c : Dev nD) (t : Fin (cfgT pf).N) (d) : (dat1 pf V c).before 5 t d = iblk1 pf V c 5 t :=
  ((dat1 pf V c).before_in_eq_fetched 5 rfl (fun _ => rfl) (fun _ _ _ => rfl) (fun t => by rw [after1_5]; unfold Dat.blockOf iblk1; rw [A_eq1]; try rfl) t d).trans
    (by unfold Dat.fetched Dat.blockOf iblk1; rw [A_eq1]; try rfl)

/-- At a later point each accumulator's buffer holds the running sum of the point before: it is never written
    back in between, and through a stretch of points that store nothing the sum is carried unchanged. -/
theorem before1_6 (c : Dev nD) (t : Fin (cfgT pf).N) (ht : t.val ≠ 0) (d) :
    (dat1 pf V c).before 6 t d = (accs1 pf V c (t.val - 1) (Nat.lt_of_le_of_lt (Nat.sub_le _ _) t.isLt)).1 := by
  have hfr : (cfgT pf).fresh 6 t.val = false := by
    obtain ⟨n, hn⟩ : ∃ n, t.val = n + 1 := ⟨t.val - 1, by omega⟩
    rw [hn]; exact fresh1_6 pf n (by have := t.isLt; omega)
  rw [(dat1 pf V c).before_out_traj 6 rfl (fun _ _ => rfl)
    (fun t ht hi _ => by rw [after1_6, after1_6, accs1_pos_nov pf V c t ht ((idle1_6_iff pf t).mp hi).2]) t.val t rfl d,
    hfr, if_neg Bool.false_ne_true, after1_6]
theorem before1_7 (c : Dev nD) (t : Fin (cfgT pf).N) (ht : t.val ≠ 0) (d) :
    (dat1 pf V c).before 7 t d = (accs1 pf V c (t.val - 1) (Nat.lt_of_le_of_lt (Nat.sub_le _ _) t.isLt)).2 := by
  have hfr : (cfgT pf).fresh 7 t.val = false := by
    obtain ⟨n, hn⟩ : ∃ n, t.val = n + 1 := ⟨t.val - 1, by omega⟩
    rw [hn]; exact fresh1_7 pf n (by have := t.isLt; omega)
  rw [(dat1 pf V c).before_out_traj 7 rfl (fun _ _ => rfl)
    (fun t ht hi _ => by rw [after1_7, after1_7, accs1_pos_nov pf V c t ht ((idle1_7_iff pf t).mp hi).2]) t.val t rfl d,
    hfr, if_neg Bool.false_ne_true, after1_7]

/-! ## The tables as the body is handed them -/

/-- The tables' halves in the invariant, table by table. -/
theorem PhiT1_eq (c : Dev nD) : (Pipeline.ΦT pre1 pf c : sProp 𝕄) = iprop(tbPt1 c tbM1_0 (pf 0) ∗ tbPt1 c tbM1_1 (pf 1)) := by
  unfold Pipeline.ΦT Pipeline.prefHeld
  rw [show (Finset.univ : Finset (Fin 2)) = insert (0 : Fin 2) {(1 : Fin 2)} from by decide,
    bigSep_insert (by decide), bigSep_singleton]
  rfl

/-- A scalar load of a table reads the contents' element at the load's offsets. -/
theorem tword0_eq (c : Dev nD) (off : Fin 1 → ℕ) (h : ∀ a, off a + S1.size a ≤ S16.size a) :
    tword c tbM1_0 (pf 0) off h = pf.atD 0 off := by
  have e : ∀ b : Fin 1, off b + 1 ≤ S16.size b := fun b => by
    obtain rfl : b = 0 := Subsingleton.elim _ _
    exact h 0
  have h' : ∀ a : Fin (pre1.ref 0).ty.shape.rank, off a + 1 ≤ (pre1.ref 0).ty.shape.size a := fun a => e a
  unfold Pipeline.Prefetch.Contents.atD
  rw [dif_pos h']
  rfl
theorem tword1_eq (c : Dev nD) (off : Fin 1 → ℕ) (h : ∀ a, off a + S1.size a ≤ S16.size a) :
    tword c tbM1_1 (pf 1) off h = pf.atD 1 off := by
  have e : ∀ b : Fin 1, off b + 1 ≤ S16.size b := fun b => by
    obtain rfl : b = 0 := Subsingleton.elim _ _
    exact h 0
  have h' : ∀ a : Fin (pre1.ref 1).ty.shape.rank, off a + 1 ≤ (pre1.ref 1).ty.shape.size a := fun a => e a
  unfold Pipeline.Prefetch.Contents.atD
  rw [dif_pos h']
  rfl

/-- The overlap test on the loaded words is the test on the tables' contents. -/
theorem ovW_iff (c : Dev nD) (t : Fin (cfgT pf).N) : ovW c ((cfgT pf).grid.coords t) (pf 0) (pf 1) ↔ ovAt pf t := by
  unfold ovW ovAt
  rw [tword0_eq, tword0_eq, tword1_eq, tword1_eq]

/-! ## The body obligation, at a generic point -/

/-- The post the body obligation states for a window's buffer, at a point where the body stores into it. -/
theorem leavesExact_live {cfg : Pipeline.Cfg sig Λ₀} {c : Dev nD} (dat : Dat τ (Elt F) Unit ℕ (UR sig nD τ) ℕ cfg c)
    (w : Fin cfg.W) (t : Fin cfg.N) (hi : cfg.idle w (cfg.grid.coords t) = false) :
    (dat.leavesExact w t : sProp 𝕄) = owns (c : Thread nD τ) ((cfg.win w).stage (cfg.slots t w)) fullShare (dat.after w t) := by
  unfold Dat.leavesExact; rw [hi]

/-- At a point where the body stores nothing into a window's buffer, handing the buffer back as found meets that
    post, provided what was found is what the proof data name for the point (needed only where the point writes
    the block back). -/
theorem leavesExact_of_before {cfg : Pipeline.Cfg sig Λ₀} {c : Dev nD} (dat : Dat τ (Elt F) Unit ℕ (UR sig nD τ) ℕ cfg c)
    (w : Fin cfg.W) (t : Fin cfg.N) (hi : cfg.idle w (cfg.grid.coords t) = true)
    (d : (cfg.win w).block.Idx → Elt F (cfg.win w).elt) (h : dat.before w t d = dat.after w t) :
    owns (c : Thread nD τ) ((cfg.win w).stage (cfg.slots t w)) fullShare (dat.before w t d) ⊢ (dat.leavesExact w t : sProp 𝕄) := by
  unfold Dat.leavesExact; rw [hi]
  cases (cfg.win w).flush t
  · iintro H; iexists d; iexact H
  · rw [h]

/-- Each window's current staging memref at point `t`, spelled as the pipeline passes it, and its wholeness. -/
abbrev ms1_0 (t : Fin (cfgT pf).N) : Memref sig .tc .vmem S512x1 .f32 := spec1_0.stage ((cfgT pf).slots t 0)
abbrev hs1_0 (t : Fin (cfgT pf).N) : (ms1_0 pf t).IsWhole := hstage1_0 (((cfgT pf).slots t 0).cast nbuf1_0)
abbrev ms1_1 (t : Fin (cfgT pf).N) : Memref sig .tc .vmem S1x512 .f32 := spec1_1.stage ((cfgT pf).slots t 1)
abbrev hs1_1 (t : Fin (cfgT pf).N) : (ms1_1 pf t).IsWhole := hstage1_1 (((cfgT pf).slots t 1).cast nbuf1_1)
abbrev ms1_2 (t : Fin (cfgT pf).N) : Memref sig .tc .vmem S512x1 .f32 := spec1_2.stage ((cfgT pf).slots t 2)
abbrev hs1_2 (t : Fin (cfgT pf).N) : (ms1_2 pf t).IsWhole := hstage1_2 (((cfgT pf).slots t 2).cast nbuf1_2)
abbrev ms1_3 (t : Fin (cfgT pf).N) : Memref sig .tc .vmem S1x512 .f32 := spec1_3.stage ((cfgT pf).slots t 3)
abbrev hs1_3 (t : Fin (cfgT pf).N) : (ms1_3 pf t).IsWhole := hstage1_3 (((cfgT pf).slots t 3).cast nbuf1_3)
abbrev ms1_4 (t : Fin (cfgT pf).N) : Memref sig .tc .vmem S512x1 .i32 := spec1_4.stage ((cfgT pf).slots t 4)
abbrev hs1_4 (t : Fin (cfgT pf).N) : (ms1_4 pf t).IsWhole := hstage1_4 (((cfgT pf).slots t 4).cast nbuf1_4)
abbrev ms1_5 (t : Fin (cfgT pf).N) : Memref sig .tc .vmem S1x512 .i32 := spec1_5.stage ((cfgT pf).slots t 5)
abbrev hs1_5 (t : Fin (cfgT pf).N) : (ms1_5 pf t).IsWhole := hstage1_5 (((cfgT pf).slots t 5).cast nbuf1_5)
abbrev ms1_6 (t : Fin (cfgT pf).N) : Memref sig .tc .vmem S1x1 .f32 := spec1_6.stage ((cfgT pf).slots t 6)
abbrev hs1_6 (t : Fin (cfgT pf).N) : (ms1_6 pf t).IsWhole := hstage1_6 (((cfgT pf).slots t 6).cast nbuf1_6)
abbrev ms1_7 (t : Fin (cfgT pf).N) : Memref sig .tc .vmem S1x1 .f32 := spec1_7.stage ((cfgT pf).slots t 7)
abbrev hs1_7 (t : Fin (cfgT pf).N) : (ms1_7 pf t).IsWhole := hstage1_7 (((cfgT pf).slots t 7).cast nbuf1_7)

/-- The kernel body at point `t`, on what the pipeline calls it with. -/
abbrev bodyAt1 (t : Fin (cfgT pf).N) : Prog (TpuEff nD τ sig (Elt F) Λ₀ .tc) PUnit :=
  cc1__kernel_b ((cfgT pf).grid.coords t) tbM1_0 htbM1_0 tbM1_1 htbM1_1 (ms1_0 pf t) (hs1_0 pf t) (ms1_1 pf t) (hs1_1 pf t) (ms1_2 pf t) (hs1_2 pf t) (ms1_3 pf t) (hs1_3 pf t) (ms1_4 pf t) (hs1_4 pf t) (ms1_5 pf t) (hs1_5 pf t) (ms1_6 pf t) (hs1_6 pf t) (ms1_7 pf t) (hs1_7 pf t)

/-- What the body is called with at point `t`, the windows one by one, -/
def bodyPre1 (c : Dev nD) (t : Fin (cfgT pf).N) : sProp 𝕄 :=
  iprop((dat1 pf V c).Φ t.castSucc ∗ (dat1 pf V c).owesAt () t.castSucc
    ∗ (∃ d, owns (c : Thread nD τ) (ms1_0 pf t) fullShare ((dat1 pf V c).before 0 t d))
    ∗ (∃ d, owns (c : Thread nD τ) (ms1_1 pf t) fullShare ((dat1 pf V c).before 1 t d))
    ∗ (∃ d, owns (c : Thread nD τ) (ms1_2 pf t) fullShare ((dat1 pf V c).before 2 t d))
    ∗ (∃ d, owns (c : Thread nD τ) (ms1_3 pf t) fullShare ((dat1 pf V c).before 3 t d))
    ∗ (∃ d, owns (c : Thread nD τ) (ms1_4 pf t) fullShare ((dat1 pf V c).before 4 t d))
    ∗ (∃ d, owns (c : Thread nD τ) (ms1_5 pf t) fullShare ((dat1 pf V c).before 5 t d))
    ∗ (∃ d, owns (c : Thread nD τ) (ms1_6 pf t) fullShare ((dat1 pf V c).before 6 t d))
    ∗ (∃ d, owns (c : Thread nD τ) (ms1_7 pf t) fullShare ((dat1 pf V c).before 7 t d)))

/-- and what it returns. -/
def bodyPost1 (c : Dev nD) (t : Fin (cfgT pf).N) : sProp 𝕄 :=
  iprop((dat1 pf V c).Φ t.succ ∗ (dat1 pf V c).owesAt () t.succ
    ∗ owns (c : Thread nD τ) (ms1_0 pf t) fullShare ((dat1 pf V c).after 0 t)
    ∗ owns (c : Thread nD τ) (ms1_1 pf t) fullShare ((dat1 pf V c).after 1 t)
    ∗ owns (c : Thread nD τ) (ms1_2 pf t) fullShare ((dat1 pf V c).after 2 t)
    ∗ owns (c : Thread nD τ) (ms1_3 pf t) fullShare ((dat1 pf V c).after 3 t)
    ∗ owns (c : Thread nD τ) (ms1_4 pf t) fullShare ((dat1 pf V c).after 4 t)
    ∗ owns (c : Thread nD τ) (ms1_5 pf t) fullShare ((dat1 pf V c).after 5 t)
    ∗ (dat1 pf V c).leavesExact 6 t ∗ (dat1 pf V c).leavesExact 7 t)

set_option maxHeartbeats 1600000 in
/-- The body at any point: the inputs' buffers hold their blocks; the two conditions in closed form say which of
    the four cases the point is in; at a later point the accumulators hold the running sums of the point before;
    so the case's triple applies; the invariant's scoped rest passes through unread, the tables' halves are lent
    to the loads and returned; the core owes nothing throughout. -/
theorem sound_body1 (c : Dev nD) (t : Fin (cfgT pf).N) :
    bodyPre1 pf V c t ⊢ wp frame (wpE (defs₀ (F := F)) Variants.none c none) Set.univ (bodyAt1 pf t) (fun _ => bodyPost1 pf V c t) := by
  unfold bodyPre1 bodyPost1 bodyAt1
  simp only [before1_0, before1_1, before1_2, before1_3, before1_4, before1_5]
  rw [show (dat1 pf V c).Φ t.succ = (dat1 pf V c).Φ t.castSucc from rfl,
    show (dat1 pf V c).owesAt () t.succ = (dat1 pf V c).owesAt () t.castSucc from rfl,
    after1_0, after1_1, after1_2, after1_3, after1_4, after1_5]
  rw [show (dat1 pf V c).Φ t.castSucc = iprop(Pipeline.ΦA spec1 c ∗ Pipeline.ΦT pre1 pf c) from rfl, PhiT1_eq]
  by_cases h0 : t.val = 0
  · have hc1 : k1_cond1 ((cfgT pf).grid.coords t) = 1#1 := (hcond1 pf t).mpr h0
    rw [leavesExact_live _ 6 t (idle1_6_false pf t (.inl h0)), leavesExact_live _ 7 t (idle1_7_false pf t (.inl h0)), after1_6, after1_7]
    by_cases hov : ovAt pf t
    · -- the first point, the overlap test holding there
      rw [accs1_zero_ov pf V c t h0 hov]
      iintro ⟨⟨HΦ, HT0, HT1⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (runA c ((cfgT pf).grid.coords t) (ms1_0 pf t) (hs1_0 pf t) (ms1_1 pf t) (hs1_1 pf t) (ms1_2 pf t) (hs1_2 pf t) (ms1_3 pf t) (hs1_3 pf t) (ms1_4 pf t) (hs1_4 pf t) (ms1_5 pf t) (hs1_5 pf t) (ms1_6 pf t) (hs1_6 pf t) (ms1_7 pf t) (hs1_7 pf t) (pf 0) (pf 1) hc1 ((ovW_iff pf c t).mpr hov)
        (iblk1 pf V c 0 t) (iblk1 pf V c 1 t) (iblk1 pf V c 2 t) (iblk1 pf V c 3 t) (iblk1 pf V c 4 t) (iblk1 pf V c 5 t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HT0]; · iexact HT0
      isplitl [HT1]; · iexact HT1
      iintro ⟨H0, H1, H2, H3, H4, H5, H6, H7, HT0, HT1⟩
      isplitl [HΦ HT0 HT1]
      · isplitl [HΦ]; · iexact HΦ
        isplitl [HT0]; · iexact HT0
        iexact HT1
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · -- the first point, the overlap test failing there
      rw [accs1_zero_nov pf V c t h0 hov]
      iintro ⟨⟨HΦ, HT0, HT1⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (runC c ((cfgT pf).grid.coords t) (ms1_0 pf t) (hs1_0 pf t) (ms1_1 pf t) (hs1_1 pf t) (ms1_2 pf t) (hs1_2 pf t) (ms1_3 pf t) (hs1_3 pf t) (ms1_4 pf t) (hs1_4 pf t) (ms1_5 pf t) (hs1_5 pf t) (ms1_6 pf t) (hs1_6 pf t) (ms1_7 pf t) (hs1_7 pf t) (pf 0) (pf 1) hc1 (fun h => hov ((ovW_iff pf c t).mp h)) Set.univ _)
      isplitl [H6]; · iexists _; iexact H6
      isplitl [H7]; · iexists _; iexact H7
      isplitl [HT0]; · iexact HT0
      isplitl [HT1]; · iexact HT1
      iintro ⟨H6, H7, HT0, HT1⟩
      isplitl [HΦ HT0 HT1]
      · isplitl [HΦ]; · iexact HΦ
        isplitl [HT0]; · iexact HT0
        iexact HT1
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
  · have hc1 : ¬ k1_cond1 ((cfgT pf).grid.coords t) = 1#1 := fun h => h0 ((hcond1 pf t).mp h)
    by_cases hov : ovAt pf t
    · -- a later point that passes the overlap test
      rw [leavesExact_live _ 6 t (idle1_6_false pf t (.inr hov)), leavesExact_live _ 7 t (idle1_7_false pf t (.inr hov)), after1_6, after1_7,
        accs1_pos_ov pf V c t h0 hov]
      simp only [before1_6 pf V c t h0, before1_7 pf V c t h0]
      iintro ⟨⟨HΦ, HT0, HT1⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (runB c ((cfgT pf).grid.coords t) (ms1_0 pf t) (hs1_0 pf t) (ms1_1 pf t) (hs1_1 pf t) (ms1_2 pf t) (hs1_2 pf t) (ms1_3 pf t) (hs1_3 pf t) (ms1_4 pf t) (hs1_4 pf t) (ms1_5 pf t) (hs1_5 pf t) (ms1_6 pf t) (hs1_6 pf t) (ms1_7 pf t) (hs1_7 pf t) (pf 0) (pf 1) hc1 ((ovW_iff pf c t).mpr hov)
        (iblk1 pf V c 0 t) (iblk1 pf V c 1 t) (iblk1 pf V c 2 t) (iblk1 pf V c 3 t) (iblk1 pf V c 4 t) (iblk1 pf V c 5 t) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HT0]; · iexact HT0
      isplitl [HT1]; · iexact HT1
      iintro ⟨H0, H1, H2, H3, H4, H5, H6, H7, HT0, HT1⟩
      isplitl [HΦ HT0 HT1]
      · isplitl [HΦ]; · iexact HΦ
        isplitl [HT0]; · iexact HT0
        iexact HT1
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · -- a later point that fails it: the body stores nothing, the running sums are carried
      have hb6 : ∀ d, (dat1 pf V c).before 6 t d = (dat1 pf V c).after 6 t := fun d => by
        rw [before1_6 pf V c t h0, after1_6, accs1_pos_nov pf V c t h0 hov]
      have hb7 : ∀ d, (dat1 pf V c).before 7 t d = (dat1 pf V c).after 7 t := fun d => by
        rw [before1_7 pf V c t h0, after1_7, accs1_pos_nov pf V c t h0 hov]
      have hl6 : ∀ d, owns (c : Thread nD τ) (ms1_6 pf t) fullShare ((dat1 pf V c).before 6 t d) ⊢ ((dat1 pf V c).leavesExact 6 t : sProp 𝕄) :=
        fun d => leavesExact_of_before (dat1 pf V c) 6 t ((idle1_6_iff pf t).mpr ⟨h0, hov⟩) d (hb6 d)
      have hl7 : ∀ d, owns (c : Thread nD τ) (ms1_7 pf t) fullShare ((dat1 pf V c).before 7 t d) ⊢ ((dat1 pf V c).leavesExact 7 t : sProp 𝕄) :=
        fun d => leavesExact_of_before (dat1 pf V c) 7 t ((idle1_7_iff pf t).mpr ⟨h0, hov⟩) d (hb7 d)
      iintro ⟨⟨HΦ, HT0, HT1⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (runD c ((cfgT pf).grid.coords t) (ms1_0 pf t) (hs1_0 pf t) (ms1_1 pf t) (hs1_1 pf t) (ms1_2 pf t) (hs1_2 pf t) (ms1_3 pf t) (hs1_3 pf t) (ms1_4 pf t) (hs1_4 pf t) (ms1_5 pf t) (hs1_5 pf t) (ms1_6 pf t) (hs1_6 pf t) (ms1_7 pf t) (hs1_7 pf t) (pf 0) (pf 1) hc1 (fun h => hov ((ovW_iff pf c t).mp h)) Set.univ _)
      isplitl [HT0]; · iexact HT0
      isplitl [HT1]; · iexact HT1
      iintro ⟨HT0, HT1⟩
      isplitl [HΦ HT0 HT1]
      · isplitl [HΦ]; · iexact HΦ
        isplitl [HT0]; · iexact HT0
        iexact HT1
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · ihave H6' := (hl6 d6) $$ H6
        iexact H6'
      ihave H7' := (hl7 d7) $$ H7
      iexact H7'

/-- The library's body obligation, at every point. -/
theorem body_obligation1 (c : Dev nD) : BodyObligation (dat1 (F := F) pf V c) (defs₀ (F := F)) Variants.none () Set.univ := fun t => by
  rw [bigSep_W1, bigSep_W1]
  exact sound_body1 pf V c t

end Cert.KernelIdeal.Hand

end
-- ==== Proof.ValueCond.lean ====
import proofs.«413598_j523986010373_2_alg».proof.Proof.Gen.KernelIdeal.Launch
import proofs.«413598_j523986010373_2_alg».proof.Proof.Gen.KernelIdeal.Regions
import Idealize.ShloMosaic.Lib.Pipeline.Frame
import Idealize.ShloMosaic.Lib.Pipeline.Regions

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

/-! ## The result buffer, given the regions' records

The program is a chain of seven items: the first kernel region, three host stretches, the second kernel region, two
host stretches. Between two items each core holds every unscoped buffer whole at the valuation `V0 … V7` of that
point: the launch memory, then what a region leaves (the unknowns `outs`), then `StableHlo.after` each host
stretch. The last host stretch writes the result buffer `main_v18`; so at the end the memory holds, at
`main_v18`, the last valuation's word for it, and every argument as launched. -/

set_option backward.isDefEq.respectTransparency.types false in
/-- THE CONDITIONAL VALUE. Given, per kernel region, a segment record entered from the thread state before it
    (every unscoped buffer held at `V0`, resp. `V4`, beside the rest) and left at the one after it (`V1`, resp.
    `V5`), every weakly fair execution of @main from memory `m` with zero counters terminates, and every final
    memory holds the result buffer `main_v18` at `V7 m outs c main_v18` and each argument as launched. -/
theorem value_cond {Ix : Type} [DecidableEq Ix] {U : Type} [URA U] {Lvl : Type} [Preorder Lvl]
    (m : (ℓ : Loc nD τ sig) → Buf (Elt F) ℓ)
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F)) (a : (p : Fin 2) → (pcfgs (F := F) p).Adm)
    (pdats : (p : Fin 2) → (c : Dev nD) → Dat τ (Elt F) Ix ℕ U Lvl (Pipeline.pin (pcfgs (F := F)) a p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells (Pipeline.pin (pcfgs (F := F)) a) (cellOf_inj a)) (Pipeline.launchToks (Pipeline.pin (pcfgs (F := F)) a) (cellOf_inj a)))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) a pdats ι defs₀ 𝒱₀ L lv 0)
    (hpre0 : ∀ c : Dev nD, iprop(StableHlo.held (c : Thread nD τ) (Pipeline.ucRefs τ sig) (V0 m c) ∗ E 0 c) ⊢ R0.pre c)
    (hpost0 : ∀ c : Dev nD, R0.post c ⊢ iprop(StableHlo.held (c : Thread nD τ) (Pipeline.ucRefs τ sig) (V1 m outs c) ∗ E 1 c))
    (R1 : RegionSeg (pcfgs (F := F)) a pdats ι defs₀ 𝒱₀ L lv 1)
    (hpre1 : ∀ c : Dev nD, iprop(StableHlo.held (c : Thread nD τ) (Pipeline.ucRefs τ sig) (V4 m outs c) ∗ E 1 c) ⊢ R1.pre c)
    (hpost1 : ∀ c : Dev nD, R1.post c ⊢ iprop(StableHlo.held (c : Thread nD τ) (Pipeline.ucRefs τ sig) (V5 m outs c) ∗ E 2 c)) :
    θ_run defs (onTc (τ := τ) (main (F := F))) ⟨m, fun _ => 0, ρ⟩ (fun r => ∀ c : Dev nD,
      r.2.mem ((c.tc : Thread nD τ).loc main_v18) = V7 m outs c main_v18
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine Pipeline.θ_run_regions_kit_dev (pcfgs (F := F)) a pdats ι (cellOf_inj a) EP defs₀ 𝒱₀ L lv m ρ main
    (segs m outs 𝒱₀ L lv E ι a pdats R0 R1)
    (fun c Q => by
      rewrite [main_chain c, Seg.run_eq_chain,
        show (segs m outs 𝒱₀ L lv E ι a pdats R0 R1 c).map Seg.prog = [
          Prog.lift (.customCall (Pipeline.entry 0) ()),
          StableHlo.seq hostOps1,
          StableHlo.seq hostOps1_1,
          StableHlo.seq hostOps1_2,
          Prog.lift (.customCall (Pipeline.entry 1) ()),
          StableHlo.seq hostOps2,
          StableHlo.seq hostOps2_1 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V7 m outs c))
    (hch := fun c => ⟨hpre0 c, hpost0 c, .rfl, .rfl, hpre1 c, hpost1 c, .rfl, sep_mono .rfl (hE2 c)⟩)
    (hinit := ?_) (QY := fun c s => s.mem ((c.tc : Thread nD τ).loc main_v18) = V7 m outs c main_v18 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5))
    (hfin := fun c s' => ?_) (hQ := fun _ h => h)
  · -- the launch: the unscoped buffers are held at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: the result buffer and each argument's buffer read off the last valuation
    unfold StableHlo.held
    iintro ⟨Hh, HSI⟩
    ihave Hr := (pointsTo_read_all (Pipeline.ucRefs τ sig) (fun b => ((c : Thread nD τ).1, b)) (V7 m outs c) s') $$ [Hh HSI]
    · isplitl [Hh] <;> iassumption
    icases Hr with ⟨%h, HSI⟩
    imodintro
    isplitr
    · ipureintro
      exact ⟨h (Proc.devRef .tc main_v18) (Finset.mem_filter.mpr ⟨StableHlo.devRef_mem_tcRefs main_v18, by decide⟩),
        (h (Proc.devRef .tc main_arg0) (Finset.mem_filter.mpr ⟨StableHlo.devRef_mem_tcRefs main_arg0, by decide⟩)).trans (V7_main_arg0 m outs c),
        (h (Proc.devRef .tc main_arg1) (Finset.mem_filter.mpr ⟨StableHlo.devRef_mem_tcRefs main_arg1, by decide⟩)).trans (V7_main_arg1 m outs c),
        (h (Proc.devRef .tc main_arg2) (Finset.mem_filter.mpr ⟨StableHlo.devRef_mem_tcRefs main_arg2, by decide⟩)).trans (V7_main_arg2 m outs c),
        (h (Proc.devRef .tc main_arg3) (Finset.mem_filter.mpr ⟨StableHlo.devRef_mem_tcRefs main_arg3, by decide⟩)).trans (V7_main_arg3 m outs c),
        (h (Proc.devRef .tc main_arg4) (Finset.mem_filter.mpr ⟨StableHlo.devRef_mem_tcRefs main_arg4, by decide⟩)).trans (V7_main_arg4 m outs c),
        (h (Proc.devRef .tc main_arg5) (Finset.mem_filter.mpr ⟨StableHlo.devRef_mem_tcRefs main_arg5, by decide⟩)).trans (V7_main_arg5 m outs c)⟩
    · iexact HSI

end Cert.KernelIdeal.Hand

end
-- ==== Proof.Run.lean ====
import proofs.«413598_j523986010373_2_alg».proof.Proof.Gen.KernelIdeal.Launch
import proofs.«413598_j523986010373_2_alg».proof.Proof.Gen.KernelIdeal.Skeleton
import proofs.«413598_j523986010373_2_alg».proof.Proof.Gen.KernelIdeal.Points
import proofs.«413598_j523986010373_2_alg».proof.Proof.Gen.KernelIdeal.Regions
import proofs.«413598_j523986010373_2_alg».proof.Proof.Reg0
import proofs.«413598_j523986010373_2_alg».proof.Proof.Reg1Defs
import proofs.«413598_j523986010373_2_alg».proof.Proof.Reg1
import proofs.«413598_j523986010373_2_alg».proof.Proof.ValueCond
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

/-! ## An assertion riding in a pipeline's invariant

A body that runs from the invariant `Φ t` to `Φ (t + 1)` also runs from `Φ t ∗ L` to `Φ (t + 1) ∗ L`, for any
assertion `L` (the frame rule); the contents the windows' buffers hold do not depend on the invariant. -/

section Ride

variable {cfgR : Pipeline.Cfg sig Λ₀} {cR : Dev nD}

/-- The proof data `dat` with the assertion `L` held in its invariant at every point, beside what it states. -/
def ride (dat : Dat τ (Elt F) Unit ℕ (UR sig nD τ) ℕ cfgR cR) (L : sProp 𝕄) : Dat τ (Elt F) Unit ℕ (UR sig nD τ) ℕ cfgR cR where
  A := dat.A
  after := dat.after
  Φ t := iprop(dat.Φ t ∗ L)
  q := dat.q
  owed := dat.owed
  recorded := dat.recorded

/-- What a window's buffer holds when the body runs does not depend on the invariant. -/
theorem ride_before (dat : Dat τ (Elt F) Unit ℕ (UR sig nD τ) ℕ cfgR cR) (L : sProp 𝕄) (w : Fin cfgR.W) :
    ∀ (n : ℕ) (t : Fin cfgR.N), t.val = n → ∀ d, (ride dat L).before w t d = dat.before w t d := by
  intro n
  induction n using Nat.strong_induction_on with
  | _ n ih =>
    intro t ht d
    unfold Dat.before
    by_cases hf : (cfgR.win w).fetch t = true
    · rw [if_pos hf, if_pos hf]; rfl
    · rw [if_neg hf, if_neg hf]
      by_cases h0 : t.val = 0
      · rw [if_pos h0, if_pos h0]
      · rw [if_neg h0, if_neg h0]
        simp only [Dat.found_eq_before]
        rw [ih (t.val - 1) (by omega) ⟨t.val - 1, by omega⟩ rfl d]
        rfl

/-- The arrays' contents after the write-backs do not depend on the invariant. -/
theorem ride_arrAt (dat : Dat τ (Elt F) Unit ℕ (UR sig nD τ) ℕ cfgR cR) (L : sProp 𝕄) (w : Fin cfgR.W) (n : ℕ) :
    (ride dat L).arrAt w n = dat.arrAt w n := by
  induction n with
  | zero => rfl
  | succ n ih => unfold Dat.arrAt; rw [ih]; rfl

/-- The body obligation with `L` riding along: the frame rule around the body's triple. -/
theorem ride_obligation {dat : Dat τ (Elt F) Unit ℕ (UR sig nD τ) ℕ cfgR cR} (L : sProp 𝕄)
    (h : BodyObligation dat (defs₀ (F := F)) Variants.none () Set.univ) :
    BodyObligation (ride dat L) (defs₀ (F := F)) Variants.none () Set.univ := fun t => by
  have hb : ∀ w d, (ride dat L).before w t d = dat.before w t d := fun w d => ride_before dat L w _ t rfl d
  have h' := h t
  simp only [hb]
  refine BI.Entails.trans ?_ ((sep_mono_left (Q := L) h').trans ((wp_frame_r _ _ _ (R := L)).trans (wp_mono _ _ _ fun _ => ?_)))
  · show iprop(iprop(dat.Φ t.castSucc ∗ L) ∗ dat.owesAt () t.castSucc ∗ _) ⊢ _
    iintro ⟨⟨HΦ, HL⟩, HO, HB⟩
    isplitr [HL]
    · isplitl [HΦ]; · iexact HΦ
      isplitl [HO]; · iexact HO
      iexact HB
    · iexact HL
  · show _ ⊢ iprop(iprop(dat.Φ t.succ ∗ L) ∗ dat.owesAt () t.succ ∗ _)
    iintro ⟨⟨HΦ, HO, HB⟩, HL⟩
    isplitl [HΦ HL]
    · isplitl [HΦ]; · iexact HΦ
      iexact HL
    isplitl [HO]; · iexact HO
    iexact HB

end Ride

variable (m : (ℓ : Loc nD τ sig) → Buf (Elt F) ℓ) (ρ : Dev nD → PrngReg)

/-! ## The buffers' contents at the two regions' ends

The first region is entered from the launch memory. It leaves its two output arrays at what its write-backs
fold to and every other buffer as it was; three host stretches later the second region is entered, with the
two tables at what the third stretch reduced the labels to, and leaves its two accumulators' arrays at what
its write-backs fold to. -/

/-- The first region's entry contents: the launch memory. -/
abbrev Vent0 : (c : Dev nD) → (b : Ref sig .tc) → Buf (Elt F) ((c : Thread nD τ).loc b) := fun c b => V0 m c b

/-- Core `c`'s buffers when the first region is left: its arrays at what the pipeline leaves, the rest as entered. -/
def left0 (c : Dev nD) : Valuation τ sig (Elt F) :=
  Pipeline.withArrays spec0 c (V0 m c) fun w => (dat0 (Vent0 m) c).arrAt w cfg0.N

/-- What the first region leaves, as the unknowns of the valuations between the items (read at item 1 only). -/
def outs0 : Gen.Outs (F := F) := fun _ r c => left0 m c (Proc.devRef .tc r)

/-- The second region's entry contents: the first region's leavings after the three host stretches. -/
abbrev Vent1 : (c : Dev nD) → (b : Ref sig .tc) → Buf (Elt F) ((c : Thread nD τ).loc b) := fun c b => V4 m (outs0 m) c b

/-- The two tables the second region is entered with (one core: core 0's). -/
def pfOf : pre1.Contents (Elt F) := fun k => V4 m (outs0 m) (0 : Dev nD) (pre1.ref k)

/-- Core `c`'s buffers when the second region is left. -/
def left1 (c : Dev nD) : Valuation τ sig (Elt F) :=
  Pipeline.withArrays spec1 c (V4 m (outs0 m) c) fun w => (dat1 (pfOf m) (Vent1 m) c).arrAt w (cfgT (pfOf m)).N

/-- WHAT THE REGIONS LEAVE: after item 4 (the second region) the second region's leavings, before it the first's. -/
def outsOf : Gen.Outs (F := F) := fun J r c =>
  if J = 5 then left1 m c (Proc.devRef .tc r) else left0 m c (Proc.devRef .tc r)

theorem outsOf_one (r : Ref sig .tc) (c : Dev nD) : outsOf m 1 r c = outs0 m 1 r c := rfl

/-- The valuations up to the second region's entry read the unknowns at item 1 only. -/
theorem V4_outsOf (c : Dev nD) : V4 m (outsOf m) c = V4 m (outs0 m) c := rfl

theorem Vent1_eq (c : Dev nD) (b : Ref sig .tc) : Vent1 m c b = V4 m (outsOf m) c b := rfl
theorem pfOf_eq (k : Fin pre1.K) : pfOf m k = V4 m (outsOf m) (0 : Dev nD) (pre1.ref k) := rfl
/-- On every core the tables hold those contents (there is one core). -/
theorem tab_eq (c : Dev nD) : (fun k => Vent1 m c (pre1.ref k)) = pfOf m := by
  obtain rfl : c = 0 := Subsingleton.elim _ _; rfl

theorem outs_v0_0 (c : Dev nD) : outsOf m 1 main_v0_0 c = (dat0 (Vent0 m) c).arrAt 4 cfg0.N :=
by
  show left0 m c (Proc.devRef .tc (Pipeline.arrRef spec0 4)) = _
  unfold left0; exact Pipeline.withArrays_arr spec0 winFacts0.arr_inj c _ _ 4
theorem outs_v0_1 (c : Dev nD) : outsOf m 1 main_v0_1 c = (dat0 (Vent0 m) c).arrAt 5 cfg0.N :=
by
  show left0 m c (Proc.devRef .tc (Pipeline.arrRef spec0 5)) = _
  unfold left0; exact Pipeline.withArrays_arr spec0 winFacts0.arr_inj c _ _ 5
theorem outs_v12_0 (c : Dev nD) : outsOf m 5 main_v12_0 c = (dat1 (pfOf m) (Vent1 m) c).arrAt 6 (cfgT (pfOf m)).N :=
by
  show left1 m c (Proc.devRef .tc (Pipeline.arrRef spec1 6)) = _
  unfold left1; exact Pipeline.withArrays_arr spec1 winFacts1.arr_inj c _ _ 6
theorem outs_v12_1 (c : Dev nD) : outsOf m 5 main_v12_1 c = (dat1 (pfOf m) (Vent1 m) c).arrAt 7 (cfgT (pfOf m)).N :=
by
  show left1 m c (Proc.devRef .tc (Pipeline.arrRef spec1 7)) = _
  unfold left1; exact Pipeline.withArrays_arr spec1 winFacts1.arr_inj c _ _ 7

/-! ### The valuations after a region at the buffers it may change -/

theorem V1_at0 (outs : Gen.Outs (F := F)) (c : Dev nD) : V1 m outs c main_v0_0 = outs 1 main_v0_0 c := by
  simp only [V1]
  rw [Function.update_of_ne (StableHlo.devRef_ne_of_ne (by decide) : (Proc.devRef .tc main_v0_0 : DevRef τ sig) ≠ Proc.devRef .tc main_v0_1),
    Function.update_self]
theorem V1_at1 (outs : Gen.Outs (F := F)) (c : Dev nD) : V1 m outs c main_v0_1 = outs 1 main_v0_1 c := by
  simp only [V1, Function.update_self]
theorem V5_at0 (outs : Gen.Outs (F := F)) (c : Dev nD) : V5 m outs c main_v12_0 = outs 5 main_v12_0 c := by
  simp only [V5]
  rw [Function.update_of_ne (StableHlo.devRef_ne_of_ne (by decide) : (Proc.devRef .tc main_v12_0 : DevRef τ sig) ≠ Proc.devRef .tc main_v12_1),
    Function.update_self]
theorem V5_at1 (outs : Gen.Outs (F := F)) (c : Dev nD) : V5 m outs c main_v12_1 = outs 5 main_v12_1 c := by
  simp only [V5, Function.update_self]

/-- When the first region is left each of its arrays holds what the valuation after it says: the inputs as
    entered (no write-back touches an input), the two outputs at the unknowns. -/
theorem hF0 (c : Dev nD) : ∀ w : Fin cfg0.W, (dat0 (Vent0 m) c).arrAt w cfg0.N = V1 m (outsOf m) c (Pipeline.arrRef spec0 w)
  | ⟨0, _⟩ => ((dat0 (Vent0 m) c).arrAt_in 0 rfl _).trans ((A_eq0 (Vent0 m) c 0).trans (V1_of m (outsOf m) c main_arg0 (by decide)).symm)
  | ⟨1, _⟩ => ((dat0 (Vent0 m) c).arrAt_in 1 rfl _).trans ((A_eq0 (Vent0 m) c 1).trans (V1_of m (outsOf m) c main_arg1 (by decide)).symm)
  | ⟨2, _⟩ => ((dat0 (Vent0 m) c).arrAt_in 2 rfl _).trans ((A_eq0 (Vent0 m) c 2).trans (V1_of m (outsOf m) c main_arg2 (by decide)).symm)
  | ⟨3, _⟩ => ((dat0 (Vent0 m) c).arrAt_in 3 rfl _).trans ((A_eq0 (Vent0 m) c 3).trans (V1_of m (outsOf m) c main_arg3 (by decide)).symm)
  | ⟨4, _⟩ => (outs_v0_0 m c).symm.trans (V1_at0 m (outsOf m) c).symm
  | ⟨5, _⟩ => (outs_v0_1 m c).symm.trans (V1_at1 m (outsOf m) c).symm
/-- and every other buffer what it held at entry. -/
theorem hrest0 (c : Dev nD) : ∀ b, b ∉ Finset.univ.image (Pipeline.arrRef spec0) → V1 m (outsOf m) c b = Vent0 m c b :=
  fun b hb => V1_of m (outsOf m) c b fun h => by
    rcases List.mem_cons.mp h with rfl | h
    · exact hb (Finset.mem_image.mpr ⟨4, Finset.mem_univ _, rfl⟩)
    · rcases List.mem_cons.mp h with rfl | h
      · exact hb (Finset.mem_image.mpr ⟨5, Finset.mem_univ _, rfl⟩)
      · exact absurd h List.not_mem_nil

/-- The same for the second region. -/
theorem hF1 (c : Dev nD) : ∀ w : Fin (cfgT (pfOf m)).W,
    (dat1 (pfOf m) (Vent1 m) c).arrAt w (cfgT (pfOf m)).N = V5 m (outsOf m) c (Pipeline.arrRef spec1 w)
  | ⟨0, _⟩ => ((dat1 (pfOf m) (Vent1 m) c).arrAt_in 0 rfl _).trans ((A_eq1 (pfOf m) (Vent1 m) c 0).trans (V5_of m (outsOf m) c main_v0_0 (by decide)).symm)
  | ⟨1, _⟩ => ((dat1 (pfOf m) (Vent1 m) c).arrAt_in 1 rfl _).trans ((A_eq1 (pfOf m) (Vent1 m) c 1).trans (V5_of m (outsOf m) c main_v8 (by decide)).symm)
  | ⟨2, _⟩ => ((dat1 (pfOf m) (Vent1 m) c).arrAt_in 2 rfl _).trans ((A_eq1 (pfOf m) (Vent1 m) c 2).trans (V5_of m (outsOf m) c main_v0_1 (by decide)).symm)
  | ⟨3, _⟩ => ((dat1 (pfOf m) (Vent1 m) c).arrAt_in 3 rfl _).trans ((A_eq1 (pfOf m) (Vent1 m) c 3).trans (V5_of m (outsOf m) c main_v9 (by decide)).symm)
  | ⟨4, _⟩ => ((dat1 (pfOf m) (Vent1 m) c).arrAt_in 4 rfl _).trans ((A_eq1 (pfOf m) (Vent1 m) c 4).trans (V5_of m (outsOf m) c main_v10 (by decide)).symm)
  | ⟨5, _⟩ => ((dat1 (pfOf m) (Vent1 m) c).arrAt_in 5 rfl _).trans ((A_eq1 (pfOf m) (Vent1 m) c 5).trans (V5_of m (outsOf m) c main_v11 (by decide)).symm)
  | ⟨6, _⟩ => (outs_v12_0 m c).symm.trans (V5_at0 m (outsOf m) c).symm
  | ⟨7, _⟩ => (outs_v12_1 m c).symm.trans (V5_at1 m (outsOf m) c).symm
theorem hrest1 (c : Dev nD) : ∀ b, b ∉ Finset.univ.image (Pipeline.arrRef spec1) → V5 m (outsOf m) c b = Vent1 m c b :=
  fun b hb => V5_of m (outsOf m) c b fun h => by
    rcases List.mem_cons.mp h with rfl | h
    · exact hb (Finset.mem_image.mpr ⟨6, Finset.mem_univ _, rfl⟩)
    · rcases List.mem_cons.mp h with rfl | h
      · exact hb (Finset.mem_image.mpr ⟨7, Finset.mem_univ _, rfl⟩)
      · exact absurd h List.not_mem_nil

/-! ## The proof data family and the thread state -/

/-- The tables' other half, at the contents the second region is entered with: what the pipeline's invariant
    holds beside the half the body loads from, so that the region can give the tables back whole. -/
abbrev tabL (c : Dev nD) : sProp 𝕄 :=
  Pipeline.prefHeld (Ix := Unit) (Name := ℕ) (U := UR sig nD τ) (Lvl := ℕ) pre1 c (fun _ => fullShare.left) (pfOf m)

/-- The second pipeline's proof data in the run: `dat1` at the entry contents, the tables' other half riding in
    the invariant. -/
def dat1K (c : Dev nD) : Dat τ (Elt F) Unit ℕ (UR sig nD τ) ℕ (cfgT (pfOf m)) c :=
  ride (dat1 (pfOf m) (Vent1 m) c) (tabL m c)

theorem dat1K_arrAt (c : Dev nD) (w : Fin (cfgT (pfOf m)).W) (n : ℕ) :
    (dat1K m c).arrAt w n = (dat1 (pfOf m) (Vent1 m) c).arrAt w n := ride_arrAt _ _ w n

/-- The tables' admissible contents: the first pipeline has no table, the second is entered with `pfOf`. -/
def adm : (p : Fin 2) → (pcfgs (F := F) p).Adm
  | ⟨0, _⟩ => cfg0.toPCfg_adm
  | ⟨1, _⟩ => adm1 (pfOf m)

/-- Every pipeline's proof data, each at its region's entry contents. -/
def pdats : (p : Fin 2) → (c : Dev nD) → Dat τ (Elt F) Unit ℕ (UR sig nD τ) ℕ (Pipeline.pin (pcfgs (F := F)) (adm m) p) c
  | ⟨0, _⟩ => fun c => dat0 (Vent0 m) c
  | ⟨1, _⟩ => fun c => dat1K m c

abbrev 𝒱R : Variants := Variants.none
/-- No core owes another anything: no level is assigned. -/
abbrev LR : GSem nD τ sig → Finset Unit := fun _ => ∅
abbrev lvR : GSem nD τ sig → Unit → ℕ := fun _ _ => 0
/-- What rides beside the buffers through every item: the core's generator register at some state and its
    `owes`, at nothing. -/
abbrev Rst (c : Dev nD) : sProp 𝕄 := iprop((∃ r, prngReg c r) ∗ ∃ W, owes (c : Thread nD τ) (0 : CellTallies nD τ sig Unit) W)
abbrev ER : Fin 3 → Dev nD → sProp 𝕄 := fun _ c => Rst c

/-! ## The regions as segments -/

set_option backward.isDefEq.respectTransparency.types false in
/-- THE FIRST REGION over the thread state: entered from every unscoped buffer at the launch memory, left at the
    valuation after it. Its arrays are split out of the unscoped buffers and put back at what the pipeline leaves;
    the generator register goes into the invariant and comes back; nothing is owed; the kernel has no semaphore
    of its own. -/
def reg0 : Pipeline.RegionSeg (pcfgs (F := F)) (adm m) (pdats m) () defs₀ 𝒱R LR lvR 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 (Vent0 m) c).loose
  hwaits := Pipeline.hwaits_of_owed_zero (pcfgs (F := F)) (adm m) (pdats m) () LR lvR 0 fun _ _ => rfl
  pre c := iprop(StableHlo.held (c : Thread nD τ) (Pipeline.ucRefs τ sig) (V0 m c) ∗ Rst c)
  post c := iprop(StableHlo.held (c : Thread nD τ) (Pipeline.ucRefs τ sig) (V1 m (outsOf m) c) ∗ Rst c)
  X c := iprop(∃ r, prngReg c r)
  Y c := iprop(∃ r, prngReg c r)
  Z c := Pipeline.unscopedRest (Ix := Unit) (Name := ℕ) (U := UR sig nD τ) (Lvl := ℕ) spec0 c (Vent0 m c)
  hentry c := by
    rw [Pipeline.ownSems0_none]
    have hsplit := Pipeline.arrays_of_unscopedBufs (p := 0) (pcfgs (F := F)) (adm m) (pdats m) (launch0 (F := F)).win (launch0 (F := F)).arr_whole c
      ((pdats m 0 c).share_full fun _ => rfl) (Vent0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) (adm m) (Ix := Unit) (Name := ℕ) (U := UR sig nD τ) (Lvl := ℕ)
      (launch0 (F := F)).win (launch0 (F := F)).arr_whole c (pdats m) ((pdats m 0 c).share_full fun _ => rfl)
      (Vent0 m c) (fun b => V1 m (outsOf m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE SECOND REGION over the thread state: entered from every unscoped buffer at the valuation before it, left
    at the valuation after it. Its arrays and its two tables are split out of the unscoped buffers; the tables go
    into the invariant whole (the body loads from one half, the other rides along) and come back whole; the arrays
    are put back at what the pipeline leaves, the tables as they were. -/
def reg1 : Pipeline.RegionSeg (pcfgs (F := F)) (adm m) (pdats m) () defs₀ 𝒱R LR lvR 1 where
  win := (launch1 (F := F)).win.to₀
  block_pos := (launch1 (F := F)).block_pos
  stage_whole := (launch1 (F := F)).stage_whole
  K := PEmpty
  osem k := k.elim
  ho := Pipeline.OwnSemFacts.none _
  hbody c := (ride_obligation (tabL m c) (body_obligation1 (pfOf m) (Vent1 m) c)).loose
  hwaits := Pipeline.hwaits_of_owed_zero (pcfgs (F := F)) (adm m) (pdats m) () LR lvR 1 fun _ _ => rfl
  pre c := iprop(StableHlo.held (c : Thread nD τ) (Pipeline.ucRefs τ sig) (V4 m (outs0 m) c) ∗ Rst c)
  post c := iprop(StableHlo.held (c : Thread nD τ) (Pipeline.ucRefs τ sig) (V5 m (outsOf m) c) ∗ Rst c)
  X c := iprop(∃ r, prngReg c r)
  Y c := iprop((∃ r, prngReg c r)
    ∗ Pipeline.prefHeld (Ix := Unit) (Name := ℕ) (U := UR sig nD τ) (Lvl := ℕ) pre1 c (fun _ => fullShare) (pfOf m))
  Z c := Pipeline.unscopedRestP (Ix := Unit) (Name := ℕ) (U := UR sig nD τ) (Lvl := ℕ) pre1 spec1 c (Vent1 m c)
  hentry c := by
    rw [Pipeline.ownSems0_none]
    have hsplit := Pipeline.arrays_of_unscopedBufs (p := 1) (pcfgs (F := F)) (adm m) (pdats m) (launch1 (F := F)).win (launch1 (F := F)).arr_whole c
      ((pdats m 1 c).share_full fun _ => rfl) (Vent1 m c) fun _ => rfl
    rw [Pipeline.unscopedBufs_held, Pipeline.unscopedRest_split (win := (Pipeline.pin (pcfgs (F := F)) (adm m) 1).spec) preFacts1 c (Vent1 m c), tab_eq m c] at hsplit
    iintro ⟨⟨Hub, Hp, HO⟩, -, -⟩
    ihave H := hsplit $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    show iprop((∃ r, prngReg c r)
        ∗ Pipeline.prefHeld (Ix := Unit) (Name := ℕ) (U := UR sig nD τ) (Lvl := ℕ) pre1 c (fun _ => fullShare) (pfOf m)
        ∗ Pipeline.scopedRest (Ix := Unit) (Name := ℕ) (U := UR sig nD τ) (Lvl := ℕ) (Val := Elt F) spec1 c)
      ⊢ iprop(iprop(Pipeline.ΦA spec1 c ∗ Pipeline.ΦT pre1 (pfOf m) c) ∗ tabL m c)
    unfold Pipeline.ΦA
    iintro ⟨Hp, Ht, Hr⟩
    ihave Ht2 := (Pipeline.prefHeld_share pre1 c (PosShare.mem_left_op_right fullShare) (pfOf m)).1 $$ Ht
    icases Ht2 with ⟨HtL, HtR⟩
    isplitr [HtL]
    · isplitl [Hr Hp]
      · isplitl [Hr]; · iexact Hr
        iexact Hp
      · iexact HtR
    · iexact HtL
  hout c := by
    rw [Pipeline.ownSems0_none,
      show (pdats m 1 c).Φ (Fin.last _) = iprop(iprop(Pipeline.ΦA spec1 c ∗ Pipeline.ΦT pre1 (pfOf m) c) ∗ tabL m c) from rfl]
    unfold Pipeline.ΦA
    iintro ⟨⟨⟨Hr, Hp⟩, HtR⟩, HtL⟩
    isplitl [Hp HtR HtL]
    · isplitl [Hp]; · iexact Hp
      iapply (Pipeline.prefHeld_share pre1 c (PosShare.mem_left_op_right fullShare) (pfOf m)).2
      isplitl [HtL]; · iexact HtL
      iexact HtR
    isplitr; · iempintro
    iexact Hr
  hexit c := by
    have hjoin := Pipeline.unscopedBufs_of_arrays (p := 1) (pcfgs (F := F)) (adm m) (Ix := Unit) (Name := ℕ) (U := UR sig nD τ) (Lvl := ℕ)
      (launch1 (F := F)).win (launch1 (F := F)).arr_whole c (pdats m) ((pdats m 1 c).share_full fun _ => rfl)
      (Vent1 m c) (fun b => V5 m (outsOf m) c b) ((pdats m 1 c).arrAt · (cfgT (pfOf m)).N)
      (fun w => (dat1K_arrAt m c w _).trans (hF1 m c w)) (hrest1 m c)
    rw [Pipeline.unscopedBufs_held, Pipeline.unscopedRest_split (win := (Pipeline.pin (pcfgs (F := F)) (adm m) 1).spec) preFacts1 c (Vent1 m c), tab_eq m c] at hjoin
    iintro ⟨Ha, HO, ⟨Hp, Ht⟩, Hrest⟩
    imodintro
    isplitl [Ha Ht Hrest]
    · iapply hjoin
      isplitl [Ha]; · iexact Ha
      isplitl [Ht]; · iexact Ht
      iexact Hrest
    isplitl [Hp]; · iexact Hp
    unfold Pipeline.Dat.owesAt Pipeline.owesWithin
    icases HO with ⟨%W, -, HO⟩; iexists W; iexact HO

/-! ## The run -/

set_option backward.isDefEq.respectTransparency.types false in
/-- THE RUN, WITH THE RESULT. At the compiled mesh, from any memory with zero counters, every weakly fair execution
    of @main on the TensorCores terminates, nothing faulting, and every final memory holds the result buffer
    `main_v18` at what the last valuation says of it — the two host stretches after the second region applied to
    what the regions leave (`outsOf`) — and every argument as launched. -/
theorem run_value : θ_run defs (onTc (τ := τ) (main (F := F))) ⟨m, fun _ => 0, ρ⟩ (fun r => ∀ c : Dev nD,
      r.2.mem ((c.tc : Thread nD τ).loc main_v18) = V7 m (outsOf m) c main_v18
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  value_cond m emb₁ () 𝒱R LR lvR (fun _ _ => rfl) ρ (outsOf m) (adm m) (pdats m)
    (O₀ := 0) (G := fun _ => iprop(emp))
    (u₀ := initOf (Pipeline.cells (Pipeline.pin (pcfgs (F := F)) (adm m)) (cellOf_inj (adm m)))
      (Pipeline.launchToks (Pipeline.pin (pcfgs (F := F)) (adm m)) (cellOf_inj (adm m))))
    (hu₀ := by
      iintro Hu; imodintro
      isplitl [Hu]
      · iapply (show (ownU (initOf (Pipeline.cells (Pipeline.pin (pcfgs (F := F)) (adm m)) (cellOf_inj (adm m)))
              (Pipeline.launchToks (Pipeline.pin (pcfgs (F := F)) (adm m)) (cellOf_inj (adm m)))) : sProp 𝕄)
            ⊢ BI.own (emb₁ (initOf (Pipeline.cells (Pipeline.pin (pcfgs (F := F)) (adm m)) (cellOf_inj (adm m)))
              (Pipeline.launchToks (Pipeline.pin (pcfgs (F := F)) (adm m)) (cellOf_inj (adm m))))) from .rfl)
        iexact Hu
      iapply (show (BI.emp : sProp 𝕄) ⊢ bigSep Finset.univ (fun _ : Dev nD => (BI.emp : sProp 𝕄)) from by rw [BI.bigSep_emp_const])
      iempintro)
    (E := ER)
    (hE0 := by
      refine Pipeline.initEach LR lvR fun c => ?_
      iintro ⟨⟨-, HO, -, Hp, -⟩, -⟩
      imodintro
      isplitl [Hp]; · iexists _; iexact Hp
      iexists ∅; iexact HO)
    (hE2 := fun c => by iintro ⟨-, HO⟩; iexact HO)
    (R0 := reg0 m) (hpre0 := fun c => .rfl) (hpost0 := fun c => .rfl)
    (R1 := reg1 m) (hpre1 := fun c => by rw [V4_outsOf]; exact .rfl) (hpost1 := fun c => .rfl)

/-- THE FRAME: every weakly fair execution of @main from memory `m` with zero counters terminates and every final
    memory holds each argument as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => (h c).2) (run_value m ρ)

end Cert.KernelIdeal.Hand

end
-- ==== Proof.Spec.lean ====
import Idealize.ShloMosaic.PureOps.Ideal
import Idealize.ShloMosaic.PureOps.Ideal.Laws
import Idealize.ShloMosaic.Lib.ValueIdx

/-!
The two programs as mathematics, over the extended reals.

There are 8192 edges. Edge `r` has a high-dimensional pair of rows `A r`, `B r` (512 entries each) and a
low-dimensional pair `P r`, `Q r` (2 entries each), a group id `seg r` (a 32-bit word read as a signed integer) and a
flag `tmp r` (one bit).  From these:

* `dh2 r` is the squared distance of the high-dimensional pair, `dh r` its square root;
* `dl r` is the distance (with the root) of the low-dimensional pair.

An ordered pair of edges `(r, c)` is a *violation* when the two edges are in the same group, both flagged, `r` is strictly
closer than `c` in the high dimension and at least as far as `c` in the low one.  The result is the mean of `dl r - dl c`
over the violations, and `0` when there is none.

The reference says this directly (`maskR`, `rLoss`, `rCount`, `rResult`).

The kernel differs in four ways, none of which changes the value when every group id is non-negative:
it compares the squared high-dimensional distances (the root is strictly increasing on `[0, ⊤]`); it folds "same group and
both flagged" into ONE equality of keys, where the key of a flagged edge is its group id and the key of an unflagged edge `r`
is `-1 - r`, a negative number no other edge has (`key`, `maskK`); it adds the `16 × 16` tiles of `512 × 512` pairs one
after the other, in row-major order of the tiles, and SKIPS a tile whenever a test `ov i j` on the tiles' ranges of group ids
fails (`termLoss`, `accLoss`) — a skipped tile holds no pair of equal group ids (`hov` below), so no violation; and it
counts in the extended reals and divides by `max count 1`, which is `count` whenever the count is positive.
-/

noncomputable section

namespace Cert.Spec

open Idealize.ShloMosaic

/-- The six inputs, each as a plain function of its coordinates. -/
structure Inputs where
  /-- `edge_to` -/
  A : Fin 8192 → Fin 512 → EReal
  /-- `edge_from` -/
  B : Fin 8192 → Fin 512 → EReal
  /-- `embedding_to` -/
  P : Fin 8192 → Fin 2 → EReal
  /-- `embedding_from` -/
  Q : Fin 8192 → Fin 2 → EReal
  /-- `segment_ids`, a signed 32-bit word -/
  seg : Fin 8192 → BitVec 32
  /-- `is_temporal` -/
  tmp : Fin 8192 → BitVec 1

/-- The inputs read off the six argument arrays. -/
def ofArrays (a0 a1 : (⟨2, ![8192, 512]⟩ : Shape).Idx → EReal) (a2 a3 : (⟨2, ![8192, 2]⟩ : Shape).Idx → EReal)
    (a4 : (⟨1, ![8192]⟩ : Shape).Idx → BitVec 32) (a5 : (⟨1, ![8192]⟩ : Shape).Idx → BitVec 1) : Inputs where
  A r k := a0 (ValueIdx.ix2 r k)
  B r k := a1 (ValueIdx.ix2 r k)
  P r k := a2 (ValueIdx.ix2 r k)
  Q r k := a3 (ValueIdx.ix2 r k)
  seg r := a4 (ValueIdx.ix1 r)
  tmp r := a5 (ValueIdx.ix1 r)

variable (x : Inputs)

/-- The squared distance of edge `r`'s high-dimensional pair. -/
def dh2 (r : Fin 8192) : EReal := ∑ k : Fin 512, (x.A r k - x.B r k) * (x.A r k - x.B r k)
/-- The squared distance of edge `r`'s low-dimensional pair. -/
def dl2 (r : Fin 8192) : EReal := ∑ k : Fin 2, (x.P r k - x.Q r k) * (x.P r k - x.Q r k)
/-- The distance of edge `r`'s high-dimensional pair. -/
def dh (r : Fin 8192) : EReal := Ideal.sqrt (dh2 x r)
/-- The distance of edge `r`'s low-dimensional pair. -/
def dl (r : Fin 8192) : EReal := Ideal.sqrt (dl2 x r)

/-! ## The reference -/

/-- `(r, c)` is a violation, as the reference tests it. -/
def maskR (r c : Fin 8192) : Prop :=
  x.seg r = x.seg c ∧ (x.tmp r = 1#1 ∧ x.tmp c = 1#1) ∧ dh x r < dh x c ∧ dl x c ≤ dl x r

instance (r c : Fin 8192) : Decidable (maskR x r c) := by unfold maskR; infer_instance

/-- The sum of `dl r - dl c` over the violations. -/
def rLoss : EReal := ∑ r : Fin 8192, ∑ c : Fin 8192, if maskR x r c then dl x r - dl x c else 0
/-- The number of violations. -/
def rCount : ℕ := ∑ r : Fin 8192, ∑ c : Fin 8192, if maskR x r c then 1 else 0
/-- The reference's result. -/
def rResult : EReal := if 0 < rCount x then Ideal.div (rLoss x) (((rCount x : ℕ) : ℝ) : EReal) else 0

/-! ## The kernel -/

/-- The key of edge `r`: its group id when flagged, else `-1 - r`. -/
def key (r : Fin 8192) : BitVec 32 :=
  if x.tmp r = 1#1 then x.seg r else 4294967295#32 - BitVec.ofNat 32 r.val

/-- `(r, c)` is a violation, as the kernel tests it. -/
def maskK (r c : Fin 8192) : Prop := key x r = key x c ∧ dh2 x r < dh2 x c ∧ dl x c ≤ dl x r

instance (r c : Fin 8192) : Decidable (maskK x r c) := by unfold maskK; infer_instance

/-- The kernel's mask as a number. -/
def maskKf (r c : Fin 8192) : EReal := if maskK x r c then 1 else 0

/-- Edge `a` of tile `i`. -/
def row (i : Fin 16) (a : Fin 512) : Fin 8192 := ⟨512 * i.val + a.val, by omega⟩

/-- What tile `(i, j)` adds to the sum of differences: rows first, then the column of row sums. -/
def tileLoss (i j : Fin 16) : EReal :=
  ∑ a : Fin 512, ∑ b : Fin 512, maskKf x (row i a) (row j b) * (dl x (row i a) - dl x (row j b))
/-- What tile `(i, j)` adds to the count. -/
def tileCount (i j : Fin 16) : EReal := ∑ a : Fin 512, ∑ b : Fin 512, maskKf x (row i a) (row j b)

/-- The tile row and the tile column of grid point `t` (row-major, 16 columns). -/
def ti (t : ℕ) (h : t < 256) : Fin 16 := ⟨t / 16, by omega⟩
def tj (t : ℕ) (_ : t < 256) : Fin 16 := ⟨t % 16, by omega⟩

variable (ov : Fin 16 → Fin 16 → Prop) [∀ i j, Decidable (ov i j)]

/-- What grid point `t` adds to the sum of differences: its tile's share when the tile is not skipped. -/
def termLoss (t : ℕ) : EReal :=
  if h : t < 256 then (if ov (ti t h) (tj t h) then tileLoss x (ti t h) (tj t h) else 0) else 0
/-- What grid point `t` adds to the count. -/
def termCount (t : ℕ) : EReal :=
  if h : t < 256 then (if ov (ti t h) (tj t h) then tileCount x (ti t h) (tj t h) else 0) else 0

/-- The accumulated sum of differences before grid point `n`. -/
def accLoss (n : ℕ) : EReal := ∑ t ∈ Finset.range n, termLoss x ov t
/-- The accumulated count before grid point `n`. -/
def accCount (n : ℕ) : EReal := ∑ t ∈ Finset.range n, termCount x ov t

/-- The kernel's result: the accumulated sum over the accumulated count (or `1` if that is larger) when the count is
    positive, else `0`. -/
def kResult : EReal :=
  if 0 < accCount x ov 256 then Ideal.div (accLoss x ov 256) (max (accCount x ov 256) 1) else 0

end Cert.Spec

end
-- ==== Proof.Bridge.lean ====
import proofs.«413598_j523986010373_2_alg».proof.Proof.Spec

/-!
The kernel's result equals the reference's.

The argument has four parts.

* The two tests of a violation agree on every ordered pair of edges when every group id is non-negative
  (`maskK_iff_maskR`): the key of a flagged edge is its group id, a non-negative signed word; the key of an unflagged
  edge `r` is the signed word `-1 - r`, negative, and `r ↦ -1 - r` is injective; so two keys are equal exactly when both
  edges are flagged and in the same group, or both are unflagged and are the same edge, and in the second case the strict
  comparison of the edge with itself fails.  The squared distances compare as the distances do, because a sum of squares
  is non-negative and the root is strictly increasing on `[0, ⊤]`.
* Each tile's share is the double sum over the tile of the reference's summand (`tileLoss_eq`, `tileCount_eq`), and a
  skipped tile's share is `0` because no pair in it has equal group ids (`termLoss_eq`, `termCount_eq`).
* The `256` grid points are the `16 × 16` tiles and the `16 × 512` positions are the `8192` edges (`sum_grid`,
  `sum_tiles`), so the accumulated sums are the reference's double sums (`accLoss_eq`, `accCount_eq`).
* The count, a natural number, is positive in the extended reals exactly when it is positive, and then it is at least
  `1`, so dividing by the larger of it and `1` is dividing by it.
-/

noncomputable section

namespace Cert.Spec

open Idealize.ShloMosaic

/-! ## Squares, sums of squares and the root -/

/-- A square is non-negative in the extended reals (also `⊥ * ⊥ = ⊤`). -/
theorem ereal_mul_self_nonneg (d : EReal) : 0 ≤ d * d := by
  induction d using EReal.rec with
  | bot => simp
  | coe r => rw [← EReal.coe_mul]; exact_mod_cast mul_self_nonneg r
  | top => simp

/-- The squared high-dimensional distance is non-negative. -/
theorem dh2_nonneg (x : Inputs) (r : Fin 8192) : 0 ≤ dh2 x r :=
  Finset.sum_nonneg fun _ _ => ereal_mul_self_nonneg _

/-- The root is strictly increasing on `[0, ⊤]`. -/
theorem sqrt_lt_sqrt_iff {a b : EReal} (ha : 0 ≤ a) (hb : 0 ≤ b) :
    Ideal.sqrt a < Ideal.sqrt b ↔ a < b := by
  induction a using EReal.rec with
  | bot => exact absurd ha (by simp)
  | top => simp
  | coe r =>
    have hr : 0 ≤ r := by exact_mod_cast ha
    induction b using EReal.rec with
    | bot => exact absurd hb (by simp)
    | top => simp [Ideal.sqrt_coe, not_lt.2 hr]
    | coe s =>
      have hs : 0 ≤ s := by exact_mod_cast hb
      simp only [Ideal.sqrt_coe, not_lt.2 hr, not_lt.2 hs, if_false, EReal.coe_lt_coe_iff]
      exact Real.sqrt_lt_sqrt_iff hr

/-- The squared distances compare as the distances do. -/
theorem dh2_lt_iff (x : Inputs) (r c : Fin 8192) : dh2 x r < dh2 x c ↔ dh x r < dh x c :=
  (sqrt_lt_sqrt_iff (dh2_nonneg x r) (dh2_nonneg x c)).symm

/-! ## Keys -/

/-- The key of an unflagged edge, `-1 - n`, is negative as a signed word. -/
theorem unflagged_toInt_neg (n : ℕ) (hn : n < 8192) :
    (4294967295#32 - BitVec.ofNat 32 n).toInt < 0 := by
  rw [BitVec.toInt_neg_iff, BitVec.toNat_sub, BitVec.toNat_ofNat, BitVec.toNat_ofNat]
  omega

/-- `n ↦ -1 - n` is injective on the edges. -/
theorem unflagged_inj (n m : ℕ) (hn : n < 8192) (hm : m < 8192)
    (h : 4294967295#32 - BitVec.ofNat 32 n = 4294967295#32 - BitVec.ofNat 32 m) : n = m := by
  have h' := congrArg BitVec.toNat h
  rw [BitVec.toNat_sub, BitVec.toNat_sub, BitVec.toNat_ofNat, BitVec.toNat_ofNat, BitVec.toNat_ofNat] at h'
  omega

section

variable (x : Inputs)

theorem key_flagged {r : Fin 8192} (h : x.tmp r = 1#1) : key x r = x.seg r := by
  simp [key, h]

theorem key_unflagged {r : Fin 8192} (h : ¬ x.tmp r = 1#1) :
    key x r = 4294967295#32 - BitVec.ofNat 32 r.val := by
  simp [key, h]

/-- Two keys are equal exactly when both edges are flagged and in the same group, or both are unflagged and are the same
    edge. -/
theorem key_eq_iff (hseg : ∀ r : Fin 8192, 0 ≤ (x.seg r).toInt) (r c : Fin 8192) :
    key x r = key x c ↔
      (x.tmp r = 1#1 ∧ x.tmp c = 1#1 ∧ x.seg r = x.seg c) ∨ (¬ x.tmp r = 1#1 ∧ ¬ x.tmp c = 1#1 ∧ r = c) := by
  by_cases hr : x.tmp r = 1#1 <;> by_cases hc : x.tmp c = 1#1
  · rw [key_flagged x hr, key_flagged x hc]; simp [hr, hc]
  · rw [key_flagged x hr, key_unflagged x hc]
    have h1 := hseg r
    have h2 := unflagged_toInt_neg c.val c.isLt
    constructor
    · intro h; rw [h] at h1; omega
    · simp [hr, hc]
  · rw [key_unflagged x hr, key_flagged x hc]
    have h1 := hseg c
    have h2 := unflagged_toInt_neg r.val r.isLt
    constructor
    · intro h; rw [← h] at h1; omega
    · simp [hr, hc]
  · rw [key_unflagged x hr, key_unflagged x hc]
    constructor
    · intro h; exact Or.inr ⟨hr, hc, Fin.ext (unflagged_inj _ _ r.isLt c.isLt h)⟩
    · rintro (⟨h, _⟩ | ⟨_, _, h⟩)
      · exact absurd h hr
      · rw [h]

/-- The two tests of a violation agree when every group id is non-negative. -/
theorem maskK_iff_maskR (hseg : ∀ r : Fin 8192, 0 ≤ (x.seg r).toInt) (r c : Fin 8192) :
    maskK x r c ↔ maskR x r c := by
  unfold maskK maskR
  rw [key_eq_iff x hseg, dh2_lt_iff]
  constructor
  · rintro ⟨(⟨hr, hc, hs⟩ | ⟨_, _, h⟩), hlt, hle⟩
    · exact ⟨hs, ⟨hr, hc⟩, hlt, hle⟩
    · rw [h] at hlt; exact absurd hlt (lt_irrefl _)
  · rintro ⟨hs, ⟨hr, hc⟩, hlt, hle⟩
    exact ⟨Or.inl ⟨hr, hc, hs⟩, hlt, hle⟩

/-! ## Tiles -/

/-- The mask as a number times `d` is `d` on a violation and `0` elsewhere. -/
theorem maskKf_mul (r c : Fin 8192) (d : EReal) : maskKf x r c * d = if maskK x r c then d else 0 := by
  unfold maskKf; split_ifs <;> simp

/-- A tile's share of the sum of differences, with the reference's test. -/
theorem tileLoss_eq (hseg : ∀ r : Fin 8192, 0 ≤ (x.seg r).toInt) (i j : Fin 16) :
    tileLoss x i j
      = ∑ a : Fin 512, ∑ b : Fin 512,
          if maskR x (row i a) (row j b) then dl x (row i a) - dl x (row j b) else 0 := by
  unfold tileLoss
  refine Finset.sum_congr rfl fun a _ => Finset.sum_congr rfl fun b _ => ?_
  rw [maskKf_mul]
  exact if_congr (maskK_iff_maskR x hseg _ _) rfl rfl

/-- A tile's share of the count, with the reference's test. -/
theorem tileCount_eq (hseg : ∀ r : Fin 8192, 0 ≤ (x.seg r).toInt) (i j : Fin 16) :
    tileCount x i j
      = ∑ a : Fin 512, ∑ b : Fin 512, if maskR x (row i a) (row j b) then (1 : EReal) else 0 := by
  unfold tileCount maskKf
  refine Finset.sum_congr rfl fun a _ => Finset.sum_congr rfl fun b _ => ?_
  exact if_congr (maskK_iff_maskR x hseg _ _) rfl rfl

variable (ov : Fin 16 → Fin 16 → Prop) [∀ i j, Decidable (ov i j)]

/-- A grid point's share of the sum of differences is its tile's double sum whether or not the tile is skipped: a skipped
    tile holds no pair of equal group ids, so no violation. -/
theorem termLoss_eq (hseg : ∀ r : Fin 8192, 0 ≤ (x.seg r).toInt)
    (hov : ∀ i j : Fin 16, ¬ ov i j → ∀ a b : Fin 512, x.seg (row i a) ≠ x.seg (row j b)) (t : ℕ) :
    termLoss x ov t
      = if h : t < 256 then
          ∑ a : Fin 512, ∑ b : Fin 512,
            if maskR x (row (ti t h) a) (row (tj t h) b)
              then dl x (row (ti t h) a) - dl x (row (tj t h) b) else 0
        else 0 := by
  unfold termLoss
  split_ifs with h ho
  · exact tileLoss_eq x hseg _ _
  · symm
    refine Finset.sum_eq_zero fun a _ => Finset.sum_eq_zero fun b _ => ?_
    exact if_neg fun hm => hov _ _ ho a b hm.1
  · rfl

/-- The same for the count. -/
theorem termCount_eq (hseg : ∀ r : Fin 8192, 0 ≤ (x.seg r).toInt)
    (hov : ∀ i j : Fin 16, ¬ ov i j → ∀ a b : Fin 512, x.seg (row i a) ≠ x.seg (row j b)) (t : ℕ) :
    termCount x ov t
      = if h : t < 256 then
          ∑ a : Fin 512, ∑ b : Fin 512,
            if maskR x (row (ti t h) a) (row (tj t h) b) then (1 : EReal) else 0
        else 0 := by
  unfold termCount
  split_ifs with h ho
  · exact tileCount_eq x hseg _ _
  · symm
    refine Finset.sum_eq_zero fun a _ => Finset.sum_eq_zero fun b _ => ?_
    exact if_neg fun hm => hov _ _ ho a b hm.1
  · rfl

/-! ## Re-indexing -/

/-- The edges are the pairs (tile, position in the tile). -/
def rowEquiv : Fin 16 × Fin 512 ≃ Fin 8192 where
  toFun p := row p.1 p.2
  invFun r := (⟨r.val / 512, by omega⟩, ⟨r.val % 512, by omega⟩)
  left_inv p := by
    rcases p with ⟨i, a⟩
    refine Prod.ext (Fin.ext ?_) (Fin.ext ?_) <;> simp only [row] <;> omega
  right_inv r := by
    refine Fin.ext ?_
    simp only [row]; omega

/-- A sum over tiles and positions is a sum over edges. -/
theorem sum_row {M : Type*} [AddCommMonoid M] (f : Fin 8192 → M) :
    ∑ i : Fin 16, ∑ a : Fin 512, f (row i a) = ∑ r : Fin 8192, f r := by
  rw [← rowEquiv.sum_comp f, Fintype.sum_prod_type]
  rfl

/-- A sum over tile pairs and position pairs is a sum over ordered pairs of edges. -/
theorem sum_tiles {M : Type*} [AddCommMonoid M] (g : Fin 8192 → Fin 8192 → M) :
    ∑ i : Fin 16, ∑ j : Fin 16, ∑ a : Fin 512, ∑ b : Fin 512, g (row i a) (row j b)
      = ∑ r : Fin 8192, ∑ c : Fin 8192, g r c := by
  rw [← sum_row (fun r => ∑ c : Fin 8192, g r c)]
  refine Finset.sum_congr rfl fun i _ => ?_
  rw [Finset.sum_comm]
  refine Finset.sum_congr rfl fun a _ => ?_
  exact sum_row (fun c => g (row i a) c)

/-- The grid points are the pairs (tile row, tile column), row-major. -/
def gridEquiv : Fin 16 × Fin 16 ≃ Fin 256 where
  toFun p := ⟨16 * p.1.val + p.2.val, by omega⟩
  invFun t := (ti t.val t.isLt, tj t.val t.isLt)
  left_inv p := by
    rcases p with ⟨i, j⟩
    refine Prod.ext (Fin.ext ?_) (Fin.ext ?_) <;> simp only [ti, tj] <;> omega
  right_inv t := by
    refine Fin.ext ?_
    simp only [ti, tj]; omega

/-- A sum over the first `256` grid points of a function of the point's tile is the sum over the tiles. -/
theorem sum_grid {M : Type*} [AddCommMonoid M] (G : Fin 16 → Fin 16 → M) :
    ∑ t ∈ Finset.range 256, (if h : t < 256 then G (ti t h) (tj t h) else 0)
      = ∑ i : Fin 16, ∑ j : Fin 16, G i j := by
  rw [Finset.sum_range, ← gridEquiv.sum_comp, Fintype.sum_prod_type]
  refine Finset.sum_congr rfl fun i _ => Finset.sum_congr rfl fun j _ => ?_
  rw [dif_pos (gridEquiv (i, j)).isLt]
  have h := gridEquiv.left_inv (i, j)
  have h1 := congrArg Prod.fst h
  have h2 := congrArg Prod.snd h
  simp only [gridEquiv, Equiv.coe_fn_mk] at h1 h2 ⊢
  rw [h1, h2]

/-! ## The accumulated sums -/

/-- The accumulated sum of differences is the reference's. -/
theorem accLoss_eq (hseg : ∀ r : Fin 8192, 0 ≤ (x.seg r).toInt)
    (hov : ∀ i j : Fin 16, ¬ ov i j → ∀ a b : Fin 512, x.seg (row i a) ≠ x.seg (row j b)) :
    accLoss x ov 256 = rLoss x := by
  unfold accLoss rLoss
  rw [Finset.sum_congr rfl fun t _ => termLoss_eq x ov hseg hov t]
  rw [sum_grid fun i j => ∑ a : Fin 512, ∑ b : Fin 512,
    if maskR x (row i a) (row j b) then dl x (row i a) - dl x (row j b) else 0]
  exact sum_tiles fun r c => if maskR x r c then dl x r - dl x c else 0

/-- A natural-number sum, cast into the extended reals, is the sum of the casts. -/
theorem coe_natCast_sum {ι : Type*} (s : Finset ι) (f : ι → ℕ) :
    (((∑ i ∈ s, f i : ℕ) : ℝ) : EReal) = ∑ i ∈ s, (((f i : ℕ) : ℝ) : EReal) := by
  classical
  induction s using Finset.induction_on with
  | empty => simp
  | insert a s ha ih => rw [Finset.sum_insert ha, Finset.sum_insert ha, Nat.cast_add, EReal.coe_add, ih]

/-- The accumulated count is the number of violations. -/
theorem accCount_eq (hseg : ∀ r : Fin 8192, 0 ≤ (x.seg r).toInt)
    (hov : ∀ i j : Fin 16, ¬ ov i j → ∀ a b : Fin 512, x.seg (row i a) ≠ x.seg (row j b)) :
    accCount x ov 256 = (((rCount x : ℕ) : ℝ) : EReal) := by
  unfold accCount rCount
  rw [Finset.sum_congr rfl fun t _ => termCount_eq x ov hseg hov t]
  rw [sum_grid fun i j => ∑ a : Fin 512, ∑ b : Fin 512,
    if maskR x (row i a) (row j b) then (1 : EReal) else 0]
  rw [sum_tiles fun r c => if maskR x r c then (1 : EReal) else 0, coe_natCast_sum]
  refine Finset.sum_congr rfl fun r _ => ?_
  rw [coe_natCast_sum]
  refine Finset.sum_congr rfl fun c _ => ?_
  split_ifs <;> simp

end

/-! ## The result -/

/-- The kernel's result is the reference's, when every group id is non-negative and the kernel skips only tiles that hold
    no pair of equal group ids. -/
theorem kResult_eq_rResult (x : Inputs) (ov : Fin 16 → Fin 16 → Prop) [∀ i j, Decidable (ov i j)]
    (hseg : ∀ r : Fin 8192, 0 ≤ (x.seg r).toInt)
    (hov : ∀ i j : Fin 16, ¬ ov i j → ∀ a b : Fin 512, x.seg (row i a) ≠ x.seg (row j b)) :
    kResult x ov = rResult x := by
  unfold kResult rResult
  rw [accLoss_eq x ov hseg hov, accCount_eq x ov hseg hov]
  by_cases h : 0 < rCount x
  · have hpos : (0 : EReal) < (((rCount x : ℕ) : ℝ) : EReal) := by
      rw [EReal.coe_pos]; exact_mod_cast h
    have hone : (1 : EReal) ≤ (((rCount x : ℕ) : ℝ) : EReal) := by
      rw [← EReal.coe_one, EReal.coe_le_coe_iff]; exact_mod_cast h
    rw [if_pos hpos, if_pos h, max_eq_left hone]
  · have hnot : ¬ (0 : EReal) < (((rCount x : ℕ) : ℝ) : EReal) := by
      rw [EReal.coe_pos]; exact_mod_cast h
    rw [if_neg hnot, if_neg h]

end Cert.Spec

end
-- ==== Proof.PreFacts.lean ====
import proofs.«413598_j523986010373_2_alg».proof.Pre_finite_inputs
import Idealize.ShloMosaic.Lib.ReduceAll
import Idealize.ShloMosaic.Lib.ValueIdx

/-!
What the precondition says of the group ids.

The precondition is a conjunction of five tests, the last of which is "every group id, read as a signed integer, is at
least `0`": the signed comparison of the group ids with the constant `0`, reduced over all edges by `and` from `1`.  When the
whole conjunction is `1` so is its last conjunct; a reduction by `and` that is `1` met only `1`s; and the comparison at edge
`r` being `1` says `0 ≤` the group id of `r`.
-/

namespace Cert.PreFacts

open Idealize.ShloMosaic

/-- Under the precondition every group id is non-negative as a signed integer. -/
theorem seg_nonneg [Cert.Pre_finite_inputs.Facts] {F : FTy → Type} [FloatOps F]
    (a0 a1 : FVec F Cert.Pre_finite_inputs.S8192x512 .f32) (a2 a3 : FVec F Cert.Pre_finite_inputs.S8192x2 .f32)
    (a4 : IVec Cert.Pre_finite_inputs.S8192 32) (a5 : IVec Cert.Pre_finite_inputs.S8192 1)
    (h : Cert.Pre_finite_inputs.fn (F := F) a0 a1 a2 a3 a4 a5 = fun _ => 1#1) (r : Fin 8192) :
    0 ≤ (a4 (ValueIdx.ix1 r)).toInt := by
  haveI : Subsingleton Cert.Pre_finite_inputs.S_.Idx := ⟨fun a b => funext fun d => d.elim0⟩
  have h0 := congrFun h ValueIdx.ix0
  have h1 : IntOp.andi _
      (Host.reduce IntOp.andi
        (cmpi .sge a4 (broadcastInDim Cert.Pre_finite_inputs.S8192 ![] Cert.Pre_finite_inputs.Facts.bcast_S_S8192
          (constantI Cert.Pre_finite_inputs.S_ 32 0#32)))
        (constantI Cert.Pre_finite_inputs.S_ 1 1#1) Cert.Pre_finite_inputs.Facts.reducesTo_S8192_S_d0
        Cert.Pre_finite_inputs.Facts.h_S_ ValueIdx.ix0) = 1#1 := h0
  have h2 := (IntOp.andi_eq_one.1 h1).2
  have h3 := Host.reduce_andi_all _ _ _ _ _ h2 (ValueIdx.ix1 r)
  have h4 : IntOp.cmpi .sge (a4 (ValueIdx.ix1 r)) 0#32 = 1#1 := h3
  rw [IntOp.cmpi_sge] at h4
  exact h4

end Cert.PreFacts
-- ==== Proof.Overlap.lean ====
import proofs.«413598_j523986010373_2_alg».proof.KernelIdeal
import Idealize.ShloMosaic.Lib.Affine

/-!
The test by which the second kernel skips a tile pair.  For the tile row `i` and the tile column `j` the kernel reads four
words — the largest group id of row tile `i`, the smallest of column tile `j`, the smallest of row tile `i`, the largest of
column tile `j` — and runs the pair's work exactly when `max i ≥ min j` and `min i ≤ max j` as signed numbers: when the two
tiles' ranges of group ids meet.  If some edge of row tile `i` and some edge of column tile `j` have the SAME group id `s`,
then `min j ≤ s ≤ max i` and `min i ≤ s ≤ max j`, so the test holds: a skipped pair of tiles holds no pair of equal group ids.
-/

namespace Cert.KernelIdeal.Overlap

open Idealize.ShloMosaic Cert.KernelIdeal

/-- The overlap test holds when both signed comparisons do. -/
theorem cond2_of_le (a b c d : BitVec 32) (h1 : b.toInt ≤ a.toInt) (h2 : c.toInt ≤ d.toInt) :
    k1_cond2 a b c d = 1#1 := by
  have e1 : Scalar.cmpi .sge a b = 1#1 := IntOp.cmpi_sge.mpr h1
  have e2 : Scalar.cmpi .sle c d = 1#1 := IntOp.cmpi_sle.mpr h2
  unfold k1_cond2
  simp only [e1, e2]
  decide

/-- A common value `s` of the two tiles' ranges makes the test hold. -/
theorem cond2_of_common (maxI minJ minI maxJ s : BitVec 32)
    (h1 : minJ.toInt ≤ s.toInt) (h2 : s.toInt ≤ maxI.toInt) (h3 : minI.toInt ≤ s.toInt) (h4 : s.toInt ≤ maxJ.toInt) :
    k1_cond2 maxI minJ minI maxJ = 1#1 :=
  cond2_of_le _ _ _ _ (le_trans h1 h2) (le_trans h3 h4)

end Cert.KernelIdeal.Overlap
-- ==== Proof.HostRead.lean ====
/-
  What the buffers hold between the items of the program, read off the host operations: before the second region the two
  distance arrays as the first region left them and as rows, the key of each edge (the group id where the mask bit is set,
  else minus one minus the edge's position) as a column and as a row, the two tables of per-tile least and greatest group
  id bounding every group id of their tile, the arguments as launched; after the last host operation the result, the
  accumulated sum over the count where the count is positive and zero otherwise.
-/
import proofs.«413598_j523986010373_2_alg».proof.Proof.Gen.KernelIdeal.Regions
import Idealize.ShloMosaic.Lib.StableHlo.Run
import Idealize.ShloMosaic.Lib.ValueIdx
import Idealize.ShloMosaic.Lib.Pipeline.Value
import Idealize.ShloMosaic.Lib.ValueLayout
import Idealize.ShloMosaic.Lib.IdealHost
import Idealize.ShloMosaic.PureOps.Ideal.Laws

noncomputable section

namespace Cert.KernelIdeal.HostRead

open Cert.KernelIdeal Cert.KernelIdeal.Gen
open Idealize.ShloMosaic Idealize.ShloMosaic.TcCoe Idealize.ShloMosaic.ValueIdx

variable (m : (ℓ : Loc nD τ sig) → Buf (Elt Ideal) ℓ) (outs : Outs (F := Ideal))

/-- The first region's first output is what the region left there. -/
theorem V1_v0_0 (c : Dev nD) : V1 m outs c (Proc.devRef .tc main_v0_0) = outs 1 main_v0_0 c := by
  simp only [V1, Function.update_of_ne (StableHlo.devRef_ne_of_ne (by decide) : (Proc.devRef .tc main_v0_0 : DevRef τ sig) ≠ Proc.devRef .tc main_v0_1), Function.update_self]
/-- The first region's second output is what the region left there. -/
theorem V1_v0_1 (c : Dev nD) : V1 m outs c (Proc.devRef .tc main_v0_1) = outs 1 main_v0_1 c := by
  simp only [V1, Function.update_self]

theorem v0_0_kept (c : Dev nD) : V4 m outs c main_v0_0 = outs 1 main_v0_0 c := by
  rw [V4_of m outs c main_v0_0 (by decide), V3_of m outs c main_v0_0 (by decide), V2_of m outs c main_v0_0 (by decide)]
  exact V1_v0_0 m outs c

theorem v0_1_kept (c : Dev nD) : V4 m outs c main_v0_1 = outs 1 main_v0_1 c := by
  rw [V4_of m outs c main_v0_1 (by decide), V3_of m outs c main_v0_1 (by decide), V2_of m outs c main_v0_1 (by decide)]
  exact V1_v0_1 m outs c

theorem arg0_kept4 (c : Dev nD) : V4 m outs c main_arg0 = m ((c : Thread nD τ).loc main_arg0) :=
  (V4_of m outs c main_arg0 (by decide)).trans <| (V3_of m outs c main_arg0 (by decide)).trans <| (V2_of m outs c main_arg0 (by decide)).trans <| (V1_of m outs c main_arg0 (by decide)).trans rfl
theorem arg1_kept4 (c : Dev nD) : V4 m outs c main_arg1 = m ((c : Thread nD τ).loc main_arg1) :=
  (V4_of m outs c main_arg1 (by decide)).trans <| (V3_of m outs c main_arg1 (by decide)).trans <| (V2_of m outs c main_arg1 (by decide)).trans <| (V1_of m outs c main_arg1 (by decide)).trans rfl
theorem arg2_kept4 (c : Dev nD) : V4 m outs c main_arg2 = m ((c : Thread nD τ).loc main_arg2) :=
  (V4_of m outs c main_arg2 (by decide)).trans <| (V3_of m outs c main_arg2 (by decide)).trans <| (V2_of m outs c main_arg2 (by decide)).trans <| (V1_of m outs c main_arg2 (by decide)).trans rfl
theorem arg3_kept4 (c : Dev nD) : V4 m outs c main_arg3 = m ((c : Thread nD τ).loc main_arg3) :=
  (V4_of m outs c main_arg3 (by decide)).trans <| (V3_of m outs c main_arg3 (by decide)).trans <| (V2_of m outs c main_arg3 (by decide)).trans <| (V1_of m outs c main_arg3 (by decide)).trans rfl
theorem arg4_kept4 (c : Dev nD) : V4 m outs c main_arg4 = m ((c : Thread nD τ).loc main_arg4) :=
  (V4_of m outs c main_arg4 (by decide)).trans <| (V3_of m outs c main_arg4 (by decide)).trans <| (V2_of m outs c main_arg4 (by decide)).trans <| (V1_of m outs c main_arg4 (by decide)).trans rfl
theorem arg5_kept4 (c : Dev nD) : V4 m outs c main_arg5 = m ((c : Thread nD τ).loc main_arg5) :=
  (V4_of m outs c main_arg5 (by decide)).trans <| (V3_of m outs c main_arg5 (by decide)).trans <| (V2_of m outs c main_arg5 (by decide)).trans <| (V1_of m outs c main_arg5 (by decide)).trans rfl

/-- The first reshaped distance array, as a reshape of the first region's first output. -/
theorem v8_eq (c : Dev nD) : (V4 m outs c main_v8 : S1x8192.Idx → EReal) = shapeCast S1x8192 (outs 1 main_v0_0 c : S8192x1.Idx → EReal) shapeCasts_S8192x1_S1x8192 := by
  show StableHlo.after hostOps1_2 _ (Proc.devRef .tc main_v8) = _
  after_results
  rw [V1_v0_0]
  rfl

/-- The second reshaped distance array, as a reshape of the first region's second output. -/
theorem v9_eq (c : Dev nD) : (V4 m outs c main_v9 : S1x8192.Idx → EReal) = shapeCast S1x8192 (outs 1 main_v0_1 c : S8192x1.Idx → EReal) shapeCasts_S8192x1_S1x8192 := by
  show StableHlo.after hostOps1_2 _ (Proc.devRef .tc main_v9) = _
  after_results
  rw [V1_v0_1]
  rfl

/-- A column of 8192 entries reshaped to a row: entry `r` of the row is entry `r` of the column. -/
theorem col_to_row_apply {α : Type} (x : S8192x1.Idx → α) (r : Fin 8192) :
    shapeCast S1x8192 x shapeCasts_S8192x1_S1x8192 (ix2 (0 : Fin 1) r) = x (ix2 r (0 : Fin 1)) := by
  refine shapeCast_apply (s := S8192x1) (t := S1x8192) _ _ (ix2 (0 : Fin 1) r) (ix2 r (0 : Fin 1)) ?_
  rw [Shape.rowMajor_val_two, Shape.rowMajor_val_two]
  show r.val * 1 + 0 = 0 * 8192 + r.val
  omega

theorem v8_apply (c : Dev nD) (r : Fin 8192) :
    (V4 m outs c main_v8 : S1x8192.Idx → EReal) (ix2 (0 : Fin 1) r) = (outs 1 main_v0_0 c : S8192x1.Idx → EReal) (ix2 r (0 : Fin 1)) := by
  rw [v8_eq]
  exact col_to_row_apply _ r

theorem v9_apply (c : Dev nD) (r : Fin 8192) :
    (V4 m outs c main_v9 : S1x8192.Idx → EReal) (ix2 (0 : Fin 1) r) = (outs 1 main_v0_1 c : S8192x1.Idx → EReal) (ix2 r (0 : Fin 1)) := by
  rw [v9_eq]
  exact col_to_row_apply _ r

/-- The key array: the group id where the mask bit is set, else minus one minus the position. -/
def keyVec (seg : S8192.Idx → BitVec 32) (tmp : S8192.Idx → BitVec 1) : S8192.Idx → BitVec 32 :=
  select tmp seg (subi (broadcastInDim S8192 ![] bcast_S_S8192 (constantI S_ 32 4294967295#32)) (iotaInDim S8192 32 0))

/-- The key array at a position. -/
theorem keyVec_apply (seg : S8192.Idx → BitVec 32) (tmp : S8192.Idx → BitVec 1) (r : Fin 8192) :
    keyVec seg tmp (ValueIdx.ix1 r) = if tmp (ValueIdx.ix1 r) = 1#1 then seg (ValueIdx.ix1 r) else 4294967295#32 - BitVec.ofNat 32 r.val := by
  show Scalar.select (tmp (ValueIdx.ix1 r)) (seg (ValueIdx.ix1 r))
    (IntOp.subi (broadcastInDim S8192 ![] bcast_S_S8192 (constantI S_ 32 4294967295#32) (ValueIdx.ix1 r)) (iotaInDim S8192 32 0 (ValueIdx.ix1 r))) = _
  rw [broadcastInDim_scalar_apply, iotaInDim_apply]
  rfl

/-- No item before the second region writes the group-id argument. -/
theorem V1_arg4 (c : Dev nD) : V1 m outs c (Proc.devRef .tc main_arg4) = m ((c : Thread nD τ).loc main_arg4) :=
  (V1_of m outs c main_arg4 (by decide)).trans rfl
/-- No item before the second region writes the mask argument. -/
theorem V1_arg5 (c : Dev nD) : V1 m outs c (Proc.devRef .tc main_arg5) = m ((c : Thread nD τ).loc main_arg5) :=
  (V1_of m outs c main_arg5 (by decide)).trans rfl

/-- The key as a column: a reshape of the key array. -/
theorem v10_eq (c : Dev nD) : (V4 m outs c main_v10 : S8192x1.Idx → BitVec 32)
    = shapeCast S8192x1 (keyVec (m ((c : Thread nD τ).loc main_arg4)) (m ((c : Thread nD τ).loc main_arg5))) shapeCasts_S8192_S8192x1 := by
  show StableHlo.after hostOps1_2 _ (Proc.devRef .tc main_v10) = _
  after_results
  dsimp only
  rw [V1_arg4, V1_arg5]
  rfl

/-- The key as a row: a reshape of the key array. -/
theorem v11_eq (c : Dev nD) : (V4 m outs c main_v11 : S1x8192.Idx → BitVec 32)
    = shapeCast S1x8192 (keyVec (m ((c : Thread nD τ).loc main_arg4)) (m ((c : Thread nD τ).loc main_arg5))) shapeCasts_S8192_S1x8192 := by
  show StableHlo.after hostOps1_2 _ (Proc.devRef .tc main_v11) = _
  after_results
  dsimp only
  rw [V1_arg4, V1_arg5]
  rfl

/-- An array of 8192 entries reshaped to a column: entry `r` of the column is entry `r` of the array. -/
theorem arr_to_col_apply {α : Type} (x : S8192.Idx → α) (r : Fin 8192) :
    shapeCast S8192x1 x shapeCasts_S8192_S8192x1 (ix2 r (0 : Fin 1)) = x (ValueIdx.ix1 r) := by
  refine shapeCast_apply (s := S8192) (t := S8192x1) _ _ (ix2 r (0 : Fin 1)) (ValueIdx.ix1 r) ?_
  rw [Shape.rowMajor_val_one, Shape.rowMajor_val_two]
  show r.val = r.val * 1 + 0
  omega

/-- An array of 8192 entries reshaped to a row: entry `r` of the row is entry `r` of the array. -/
theorem arr_to_row_apply {α : Type} (x : S8192.Idx → α) (r : Fin 8192) :
    shapeCast S1x8192 x shapeCasts_S8192_S1x8192 (ix2 (0 : Fin 1) r) = x (ValueIdx.ix1 r) := by
  refine shapeCast_apply (s := S8192) (t := S1x8192) _ _ (ix2 (0 : Fin 1) r) (ValueIdx.ix1 r) ?_
  rw [Shape.rowMajor_val_one, Shape.rowMajor_val_two]
  show r.val = 0 * 8192 + r.val
  omega

theorem key_row_apply (c : Dev nD) (r : Fin 8192) :
    (V4 m outs c main_v10 : S8192x1.Idx → BitVec 32) (ix2 r (0 : Fin 1))
      = if (m ((c : Thread nD τ).loc main_arg5) : S8192.Idx → BitVec 1) (ValueIdx.ix1 r) = 1#1
        then (m ((c : Thread nD τ).loc main_arg4) : S8192.Idx → BitVec 32) (ValueIdx.ix1 r)
        else 4294967295#32 - BitVec.ofNat 32 r.val := by
  rw [v10_eq, arr_to_col_apply, keyVec_apply]

theorem key_col_apply (c : Dev nD) (r : Fin 8192) :
    (V4 m outs c main_v11 : S1x8192.Idx → BitVec 32) (ix2 (0 : Fin 1) r)
      = if (m ((c : Thread nD τ).loc main_arg5) : S8192.Idx → BitVec 1) (ValueIdx.ix1 r) = 1#1
        then (m ((c : Thread nD τ).loc main_arg4) : S8192.Idx → BitVec 32) (ValueIdx.ix1 r)
        else 4294967295#32 - BitVec.ofNat 32 r.val := by
  rw [v11_eq, arr_to_row_apply, keyVec_apply]

/-- The signed minimum of two words, read as integers. -/
theorem minsi_toInt (x y : BitVec 32) : (IntOp.minsi x y).toInt = min x.toInt y.toInt := by
  simp only [IntOp.minsi, BitVec.slt, decide_eq_true_eq]
  split_ifs with h
  · exact (min_eq_left (le_of_lt h)).symm
  · exact (min_eq_right (not_lt.mp h)).symm

/-- The signed maximum of two words, read as integers. -/
theorem maxsi_toInt (x y : BitVec 32) : (IntOp.maxsi x y).toInt = max x.toInt y.toInt := by
  simp only [IntOp.maxsi, BitVec.slt, decide_eq_true_eq]
  split_ifs with h
  · exact (max_eq_left (le_of_lt h)).symm
  · exact (max_eq_right (not_lt.mp h)).symm

/-- A fold of signed minima is at most every folded element. -/
theorem fold_minsi_le {ι : Type} (s : Finset ι) (b : BitVec 32) (f : ι → BitVec 32) (a : ι) (ha : a ∈ s) :
    (s.fold IntOp.minsi b f).toInt ≤ (f a).toInt := by
  rw [← Finset.fold_hom (op := IntOp.minsi) (op' := min) (m := BitVec.toInt) minsi_toInt]
  exact (Finset.fold_min_le _).mpr (Or.inr ⟨a, ha, le_refl _⟩)

/-- A fold of signed maxima is at least every folded element. -/
theorem le_fold_maxsi {ι : Type} (s : Finset ι) (b : BitVec 32) (f : ι → BitVec 32) (a : ι) (ha : a ∈ s) :
    (f a).toInt ≤ (s.fold IntOp.maxsi b f).toInt := by
  rw [← Finset.fold_hom (op := IntOp.maxsi) (op' := max) (m := BitVec.toInt) maxsi_toInt]
  exact (Finset.le_fold_max _).mpr (Or.inr ⟨a, ha, le_refl _⟩)

/-- The group ids cut into 16 tiles of 512. -/
def tiles (seg : S8192.Idx → BitVec 32) : S16x512.Idx → BitVec 32 := shapeCast S16x512 seg shapeCasts_S8192_S16x512

/-- Entry `a` of tile `i` is entry `512 i + a` of the array. -/
theorem tiles_apply (seg : S8192.Idx → BitVec 32) (i : Fin 16) (a : Fin 512) :
    tiles seg (ix2 i a) = seg (ValueIdx.ix1 ⟨512 * i.val + a.val, by omega⟩) := by
  refine shapeCast_apply (s := S8192) (t := S16x512) _ _ (ix2 i a) (ValueIdx.ix1 ⟨512 * i.val + a.val, by omega⟩) ?_
  rw [Shape.rowMajor_val_one, Shape.rowMajor_val_two]
  show 512 * i.val + a.val = i.val * 512 + a.val
  omega

/-- The table of per-tile minima: the reduce-min of the tiles along their entries, from the largest word. -/
theorem v6_eq (c : Dev nD) : (V4 m outs c main_v6 : S16.Idx → BitVec 32)
    = Host.reduce IntOp.minsi (tiles (m ((c : Thread nD τ).loc main_arg4))) (constantI S_ 32 2147483647#32) reducesTo_S16x512_S16_d1 h_S_ := by
  show StableHlo.after hostOps1_2 _ (Proc.devRef .tc main_v6) = _
  after_results
  dsimp only
  rw [V1_arg4]
  rfl

/-- The table of per-tile maxima: the reduce-max of the tiles along their entries, from the smallest word. -/
theorem v7_eq (c : Dev nD) : (V4 m outs c main_v7 : S16.Idx → BitVec 32)
    = Host.reduce IntOp.maxsi (tiles (m ((c : Thread nD τ).loc main_arg4))) (constantI S_ 32 2147483648#32) reducesTo_S16x512_S16_d1 h_S_ := by
  show StableHlo.after hostOps1_2 _ (Proc.devRef .tc main_v7) = _
  after_results
  dsimp only
  rw [V1_arg4]
  rfl

/-- A [16,512] array reduces along its entries to 16 values. -/
theorem reduces_tiles : S16x512.Reduces [1] S16 := by decide

/-- Tile `i` with entry `a` put back is the index `(i, a)`. -/
theorem lift_tiles (i : Fin 16) (a : Fin 512) : reduces_tiles.lift (ValueIdx.ix1 i) a = ix2 i a := by
  funext d
  match d with
  | ⟨0, _⟩ => rfl
  | ⟨1, _⟩ => rfl

/-- Entry `a` of tile `i`, reached through the reduction's own indexing, is entry `512 i + a` of the array. -/
theorem tiles_lift_apply (seg : S8192.Idx → BitVec 32) (i : Fin 16) (a : Fin 512) :
    (tiles seg ∘ reduces_tiles.lift (ValueIdx.ix1 i)) a = seg (ValueIdx.ix1 ⟨512 * i.val + a.val, by omega⟩) :=
  (congrArg (tiles seg) (lift_tiles i a)).trans (tiles_apply seg i a)

theorem tmin_le (c : Dev nD) (i : Fin 16) (a : Fin 512) :
    ((V4 m outs c main_v6 : S16.Idx → BitVec 32) (ValueIdx.ix1 i)).toInt
      ≤ ((m ((c : Thread nD τ).loc main_arg4) : S8192.Idx → BitVec 32) (ValueIdx.ix1 ⟨512 * i.val + a.val, by omega⟩)).toInt := by
  rw [v6_eq, Host.reduce_eq_fold_single IntOp.minsi _ _ reducesTo_S16x512_S16_d1 reduces_tiles h_S_ (ValueIdx.ix1 i)]
  exact (fold_minsi_le Finset.univ (constantI S_ 32 2147483647#32 (Shape.Idx.first h_S_))
    (tiles (m ((c : Thread nD τ).loc main_arg4)) ∘ reduces_tiles.lift (ValueIdx.ix1 i)) a (Finset.mem_univ a)).trans_eq
    (congrArg BitVec.toInt (tiles_lift_apply _ i a))

theorem le_tmax (c : Dev nD) (i : Fin 16) (a : Fin 512) :
    ((m ((c : Thread nD τ).loc main_arg4) : S8192.Idx → BitVec 32) (ValueIdx.ix1 ⟨512 * i.val + a.val, by omega⟩)).toInt
      ≤ ((V4 m outs c main_v7 : S16.Idx → BitVec 32) (ValueIdx.ix1 i)).toInt := by
  rw [v7_eq, Host.reduce_eq_fold_single IntOp.maxsi _ _ reducesTo_S16x512_S16_d1 reduces_tiles h_S_ (ValueIdx.ix1 i)]
  exact (congrArg BitVec.toInt (tiles_lift_apply _ i a)).symm.trans_le
    (le_fold_maxsi Finset.univ (constantI S_ 32 2147483648#32 (Shape.Idx.first h_S_))
      (tiles (m ((c : Thread nD τ).loc main_arg4)) ∘ reduces_tiles.lift (ValueIdx.ix1 i)) a (Finset.mem_univ a))

/-- The second region's first output is what the region left there. -/
theorem V5_v12_0 (c : Dev nD) : V5 m outs c (Proc.devRef .tc main_v12_0) = outs 5 main_v12_0 c := by
  simp only [V5, Function.update_of_ne (StableHlo.devRef_ne_of_ne (by decide) : (Proc.devRef .tc main_v12_0 : DevRef τ sig) ≠ Proc.devRef .tc main_v12_1), Function.update_self]
/-- The second region's second output is what the region left there. -/
theorem V5_v12_1 (c : Dev nD) : V5 m outs c (Proc.devRef .tc main_v12_1) = outs 5 main_v12_1 c := by
  simp only [V5, Function.update_self]

/-- A one-by-one array reshaped to a scalar: the scalar is the array's one entry. -/
theorem one_to_scalar_apply {α : Type} (x : S1x1.Idx → α) :
    shapeCast S_ x shapeCasts_S1x1_S_ ix0 = x (ix2 (0 : Fin 1) (0 : Fin 1)) := by
  refine shapeCast_apply (s := S1x1) (t := S_) _ _ ix0 (ix2 (0 : Fin 1) (0 : Fin 1)) ?_
  rw [Shape.rowMajor_val_two]
  show 0 * 1 + 0 = (Shape.rowMajorPi ![] ix0).val
  rw [Shape.rowMajorPi_zero]

/-- The mean: the accumulated sum over the count (at least one) where the count is positive, else zero. -/
def meanOf (los cnt : S_.Idx → EReal) : S_.Idx → EReal :=
  select (cmpf .ogt cnt (constant (F := Ideal) S_ .f32 0x00000000#32))
    (Host.divf (F := Ideal) los (maximumf cnt (constant (F := Ideal) S_ .f32 0x3F800000#32)))
    (constant (F := Ideal) S_ .f32 0x00000000#32)

/-- The result buffer holds the mean of the second region's two outputs, each reshaped to a scalar. -/
theorem v18_eq (c : Dev nD) : (V7 m outs c main_v18 : S_.Idx → EReal)
    = meanOf (shapeCast S_ (outs 5 main_v12_0 c : S1x1.Idx → EReal) shapeCasts_S1x1_S_) (shapeCast S_ (outs 5 main_v12_1 c : S1x1.Idx → EReal) shapeCasts_S1x1_S_) := by
  show StableHlo.after hostOps2_1 _ (Proc.devRef .tc main_v18) = _
  after_results
  dsimp only
  rw [V5_v12_0, V5_v12_1]
  rfl

/-- The mean as a number: the comparison with zero decided, the constants one and zero read. -/
theorem meanOf_apply (los cnt : S_.Idx → EReal) :
    meanOf los cnt ix0 = if 0 < cnt ix0 then Ideal.div (los ix0) (max (cnt ix0) 1) else 0 := by
  show Scalar.select (Ideal.cmp .ogt (cnt ix0) (Ideal.ofBits .f32 0x00000000#32))
    (Ideal.div (los ix0) (max (cnt ix0) (Ideal.ofBits .f32 0x3F800000#32))) (Ideal.ofBits .f32 0x00000000#32) = _
  rw [Ideal.ofBits_zero_f32, Ideal.ofBits_one_f32]
  by_cases h : 0 < cnt ix0
  · rw [if_pos h]
    show Scalar.select (BitVec.ofBool (decide (0 < cnt ix0))) _ _ = _
    rw [decide_eq_true h]
    exact select_one _ _
  · rw [if_neg h]
    show Scalar.select (BitVec.ofBool (decide (0 < cnt ix0))) _ _ = _
    rw [decide_eq_false h]
    exact select_zero _ _

theorem result_apply (c : Dev nD) :
    (V7 m outs c main_v18 : S_.Idx → EReal) ix0
      = (let cnt : EReal := (outs 5 main_v12_1 c : S1x1.Idx → EReal) (ix2 (0 : Fin 1) (0 : Fin 1))
         let los : EReal := (outs 5 main_v12_0 c : S1x1.Idx → EReal) (ix2 (0 : Fin 1) (0 : Fin 1))
         (if 0 < cnt then Ideal.div los (max cnt 1) else 0 : EReal)) := by
  rw [v18_eq, meanOf_apply, one_to_scalar_apply, one_to_scalar_apply]

end Cert.KernelIdeal.HostRead

end
-- ==== Proof.Payloads.lean ====
import proofs.«413598_j523986010373_2_alg».proof.Proof.Gen.KernelIdeal.Skeleton
import Idealize.ShloMosaic.PureOps.Ideal.Laws
import Idealize.ShloMosaic.Lib.ValueIdx
import Idealize.ShloMosaic.Lib.ValueLayout

/-!
The kernels' arithmetic at an index, over the extended reals.

The first kernel computes, for each row `r` of a block of 1024 edges, the squared distance of the high-dimensional pair
(`pay1_apply`: the sum over the 512 entries of the squared differences) and the distance of the low-dimensional pair
(`pay2_apply`: the root of the sum over the 2 entries of the squared differences).

The second kernel works on a tile of 512 row edges against 512 column edges.  Its mask at `(a, b)` is `1` when the pair is
a `hit` (equal keys, strictly smaller squared high-dimensional distance, low-dimensional distance at least as large) and
`0` otherwise (`pay6_apply`); the tile's count is the sum of the mask (`pay7_apply`), the tile's share of the sum of
differences is the sum of the mask times the difference of the low-dimensional distances, added to the accumulator
(`pay8_apply`); the running count adds the tile's count (`pay3_apply`); both accumulators start at zero (`pay1z`, `pay2z`).

The lemmas before them read the layout operations at an index given by coordinates: a sum over the columns of a matrix at a
row, a sum over the rows of a one-column matrix, a vector cast to a column, a column broadcast over the columns.
-/

noncomputable section

namespace Cert.KernelIdeal.Pay

open Cert.KernelIdeal Cert.KernelIdeal.Gen Idealize.ShloMosaic Idealize.ShloMosaic.ValueIdx

/-! ## Layout operations and sums at an index -/

/-- A sum over the columns of an `[n, m]` array, read at row `r`. -/
theorem rowSum_apply {n m : ℕ} (src : FVec Ideal ⟨2, ![n, m]⟩ .f32)
    (h : Shape.Reduces ⟨2, ![n, m]⟩ [1] ⟨1, ![n]⟩) (hφ : FKind.Formats .f32)
    (hacc : (0x00000000#32 : BitVec 32) = FKind.add.neutral .f32 hφ) (r : Fin n) :
    multiReduction .add [1] ⟨1, ![n]⟩ src 0x00000000#32 h hφ hacc (ValueIdx.ix1 r) = ∑ k : Fin m, src (ix2 r k) := by
  refine (Ideal.multiReduction_add_single src 0x00000000#32 h hφ hacc (ValueIdx.ix1 r)).trans ?_
  refine Finset.sum_congr rfl fun k _ => congrArg src ?_
  funext c
  match c with
  | ⟨0, _⟩ => rfl
  | ⟨1, _⟩ => rfl

/-- A sum over the rows of an `[n, 1]` array. -/
theorem colSum_apply {n : ℕ} (src : FVec Ideal ⟨2, ![n, 1]⟩ .f32)
    (h : Shape.Reduces ⟨2, ![n, 1]⟩ [0] ⟨1, ![1]⟩) (hφ : FKind.Formats .f32)
    (hacc : (0x00000000#32 : BitVec 32) = FKind.add.neutral .f32 hφ) (u : Fin 1) :
    multiReduction .add [0] ⟨1, ![1]⟩ src 0x00000000#32 h hφ hacc (ValueIdx.ix1 u) = ∑ a : Fin n, src (ix2 a u) := by
  refine (Ideal.multiReduction_add_single src 0x00000000#32 h hφ hacc (ValueIdx.ix1 u)).trans ?_
  refine Finset.sum_congr rfl fun k _ => congrArg src ?_
  funext c
  match c with
  | ⟨0, _⟩ => rfl
  | ⟨1, _⟩ => rfl

/-- An `[a]` array cast to a column `[a, 1]` reads, at `(i, 0)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ValueIdx.ix1 i) := by
  refine shapeCast_apply x h (ix2 i u) (ValueIdx.ix1 i) ?_
  rw [Shape.rowMajor_val_two, Shape.rowMajor_val_one]
  show i.val = i.val * 1 + u.val
  have := u.isLt
  omega

/-- A column `[a, 1]` broadcast to `[a, b]` reads, at `(p, c)`, the operand's row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The first kernel: squared high-dimensional distance and low-dimensional distance of a row -/

theorem pay1_apply (x0 x1 : Vec Ideal S1024x512 .f32) (r : Fin 1024) :
    k0_pay1 (F := Ideal) x0 x1 (ix2 r (0 : Fin 1))
      = ∑ k : Fin 512, (x0 (ix2 r k) - x1 (ix2 r k)) * (x0 (ix2 r k) - x1 (ix2 r k)) := by
  unfold k0_pay1
  rw [shapeCast_a_a1_apply]
  exact rowSum_apply _ _ _ _ r

theorem pay2_apply (x2 x3 : Vec Ideal S1024x2 .f32) (r : Fin 1024) :
    k0_pay2 (F := Ideal) x2 x3 (ix2 r (0 : Fin 1))
      = Ideal.sqrt (∑ k : Fin 2, (x2 (ix2 r k) - x3 (ix2 r k)) * (x2 (ix2 r k) - x3 (ix2 r k))) := by
  unfold k0_pay2
  show Ideal.sqrt (shapeCast S1024x1 _ _ (ix2 r (0 : Fin 1))) = _
  rw [shapeCast_a_a1_apply]
  exact congrArg Ideal.sqrt (rowSum_apply _ _ _ _ r)

/-! ## The second kernel: the mask of a tile, its count and its sum of differences -/

/-- The word of a conjunction of three one-bit tests, widened and read as a signed integer, is `1` when all three hold and
    `0` otherwise. -/
theorem mask_word (p q r : Bool) :
    ((IntOp.andi (IntOp.andi (BitVec.ofBool p) (BitVec.ofBool q)) (BitVec.ofBool r)).setWidth 32).toInt
      = if (p && q && r) = true then 1 else 0 := by
  cases p <;> cases q <;> cases r <;> decide

/-- The mask at one pair, as an extended real: `1` when the keys are equal, `u < v` and `z ≤ w`, else `0`. -/
theorem mask_scalar (k k' : BitVec 32) (u v w z : EReal) :
    (FloatOps.sitofp (F := Ideal) .f32
        ((IntOp.andi (IntOp.andi (IntOp.cmpi .eq k k') (FloatOps.cmpf (F := Ideal) (φ := .f32) .olt u v))
          (FloatOps.cmpf (F := Ideal) (φ := .f32) .oge w z)).setWidth 32) : EReal)
      = if k = k' ∧ u < v ∧ z ≤ w then 1 else 0 := by
  show ((((IntOp.andi (IntOp.andi (BitVec.ofBool (k == k')) (BitVec.ofBool (decide (u < v))))
      (BitVec.ofBool (decide (z ≤ w)))).setWidth 32).toInt : ℝ) : EReal) = _
  rw [mask_word]
  by_cases hk : k = k' <;> by_cases h1 : u < v <;> by_cases h2 : z ≤ w <;> simp [hk, h1, h2]

/-- Row `a` against column `b` is a hit: equal keys, strictly smaller squared high-dimensional distance, low-dimensional
    distance at least as large. -/
def hit (x0 : Vec Ideal S512x1 .f32) (x1 : Vec Ideal S1x512 .f32) (x2 : Vec Ideal S512x1 .f32)
    (x3 : Vec Ideal S1x512 .f32) (x4 : Vec Ideal S512x1 .i32) (x5 : Vec Ideal S1x512 .i32) (a b : Fin 512) : Prop :=
  x4 (ix2 a (0 : Fin 1)) = x5 (ix2 (0 : Fin 1) b) ∧ x0 (ix2 a (0 : Fin 1)) < x1 (ix2 (0 : Fin 1) b)
    ∧ x3 (ix2 (0 : Fin 1) b) ≤ x2 (ix2 a (0 : Fin 1))

instance (x0 : Vec Ideal S512x1 .f32) (x1 : Vec Ideal S1x512 .f32) (x2 : Vec Ideal S512x1 .f32)
    (x3 : Vec Ideal S1x512 .f32) (x4 : Vec Ideal S512x1 .i32) (x5 : Vec Ideal S1x512 .i32) (a b : Fin 512) :
    Decidable (hit x0 x1 x2 x3 x4 x5 a b) := by
  unfold hit; infer_instance

section

variable (x0 : Vec Ideal S512x1 .f32) (x1 : Vec Ideal S1x512 .f32) (x2 : Vec Ideal S512x1 .f32)
  (x3 : Vec Ideal S1x512 .f32) (x4 : Vec Ideal S512x1 .i32) (x5 : Vec Ideal S1x512 .i32)

/-- The mask of the tile at `(a, b)` is `1` on a hit and `0` elsewhere. -/
theorem pay6_apply (a b : Fin 512) :
    k1_pay6 (F := Ideal) x0 x1 x2 x3 x4 x5 (ix2 a b) = if hit x0 x1 x2 x3 x4 x5 a b then 1 else 0 := by
  unfold k1_pay6 k1_pay4 k1_pay5
  simp only [shapeCast_self]
  show FloatOps.sitofp (F := Ideal) .f32
      ((IntOp.andi (IntOp.andi (IntOp.cmpi .eq (broadcastTo S512x512 x4 _ (ix2 a b)) (broadcastTo S512x512 x5 _ (ix2 a b)))
          (FloatOps.cmpf (F := Ideal) (φ := .f32) .olt (broadcastTo S512x512 x0 _ (ix2 a b)) (broadcastTo S512x512 x1 _ (ix2 a b))))
        (FloatOps.cmpf (F := Ideal) (φ := .f32) .oge (broadcastTo S512x512 x2 _ (ix2 a b)) (broadcastTo S512x512 x3 _ (ix2 a b)))).setWidth 32)
    = _
  simp only [broadcastTo_a1_ab_apply, broadcastTo_1b_ab_apply]
  exact mask_scalar _ _ _ _ _ _

/-- The tile's count: the number of hits, as a sum of ones. -/
theorem pay7_apply :
    k1_pay7 (F := Ideal) x0 x1 x2 x3 x4 x5 (ix2 (0 : Fin 1) (0 : Fin 1))
      = ∑ a : Fin 512, ∑ b : Fin 512, if hit x0 x1 x2 x3 x4 x5 a b then (1 : EReal) else 0 := by
  unfold k1_pay7
  rw [shapeCast_a_1a_apply]
  refine (colSum_apply _ _ _ _ (0 : Fin 1)).trans (Finset.sum_congr rfl fun a _ => ?_)
  rw [shapeCast_a_a1_apply]
  refine (rowSum_apply _ _ _ _ a).trans (Finset.sum_congr rfl fun b _ => ?_)
  exact pay6_apply x0 x1 x2 x3 x4 x5 a b

/-- The tile's sum of differences, added to what was accumulated. -/
theorem pay8_apply (acc : Vec Ideal S1x1 .f32) :
    k1_pay8 (F := Ideal) x0 x1 x2 x3 x4 x5 acc (ix2 (0 : Fin 1) (0 : Fin 1))
      = acc (ix2 (0 : Fin 1) (0 : Fin 1))
        + ∑ a : Fin 512, ∑ b : Fin 512,
            (if hit x0 x1 x2 x3 x4 x5 a b then (1 : EReal) else 0) * (x2 (ix2 a (0 : Fin 1)) - x3 (ix2 (0 : Fin 1) b)) := by
  unfold k1_pay8 k1_pay4 k1_pay5
  simp only [shapeCast_self]
  rw [addf_apply, shapeCast_a_1a_apply]
  refine congrArg (acc (ix2 (0 : Fin 1) (0 : Fin 1)) + ·) ?_
  refine (colSum_apply _ _ _ _ (0 : Fin 1)).trans (Finset.sum_congr rfl fun a _ => ?_)
  rw [shapeCast_a_a1_apply]
  refine (rowSum_apply _ _ _ _ a).trans (Finset.sum_congr rfl fun b _ => ?_)
  rw [mulf_apply, subf_apply, broadcastTo_a1_ab_apply, broadcastTo_1b_ab_apply, pay6_apply]

end

/-- The running sum after a tile: what was accumulated plus the tile's share. -/
theorem pay3_apply (v54 : FVec Ideal S1x1 .f32) (acc : Vec Ideal S1x1 .f32) :
    k1_pay3 (F := Ideal) v54 acc (ix2 (0 : Fin 1) (0 : Fin 1))
      = acc (ix2 (0 : Fin 1) (0 : Fin 1)) + v54 (ix2 (0 : Fin 1) (0 : Fin 1)) := by
  unfold k1_pay3
  simp only [shapeCast_self]
  rfl

/-- The two accumulators start at zero. -/
theorem pay1z : k1_pay1 (F := Ideal) (ix2 (0 : Fin 1) (0 : Fin 1)) = 0 := by
  unfold k1_pay1
  exact Ideal.ofBits_zero_f32

theorem pay2z : k1_pay2 (F := Ideal) (ix2 (0 : Fin 1) (0 : Fin 1)) = 0 := by
  unfold k1_pay2
  exact Ideal.ofBits_zero_f32

end Cert.KernelIdeal.Pay

end
-- ==== Proof.KV0.lean ====
import proofs.«413598_j523986010373_2_alg».proof.Proof.Spec
import proofs.«413598_j523986010373_2_alg».proof.Proof.Reg0
import proofs.«413598_j523986010373_2_alg».proof.Proof.Payloads
import Idealize.ShloMosaic.Lib.ValueIdx
import Idealize.ShloMosaic.Lib.Pipeline.Value

set_option maxRecDepth 16384

/-!
What the first kernel call leaves in its two output arrays, row by row, over the extended reals.

The call runs on a grid of eight points; point `t` works on rows `1024·t … 1024·t + 1023` of every array. For each row
of its block the body stores the sum over the 512 columns of the squared differences of the two wide inputs (first
output) and the root of the sum over the 2 columns of the squared differences of the two narrow inputs (second output),
and every point writes both blocks back. So once the inputs' arrays are read as the edges' coordinates, row `r` of the
first output is the squared high-dimensional distance of edge `r` (`arr4_eq`) and row `r` of the second is its
low-dimensional distance (`arr5_eq`).

Per output: the block reads of the inputs (an entry of a block sits in the array at block index × block size + its own
coordinate), what a point writes back as the block of ONE function of the array's index, the cover of the array by the
eight blocks, and the array after the last write-back.
-/

noncomputable section

namespace Cert.KernelIdeal.KV

open Cert.KernelIdeal Cert.KernelIdeal.Gen Cert.KernelIdeal.Hand Cert.KernelIdeal.Pay Cert.Spec
open Idealize.ShloMosaic Idealize.ShloMosaic.TcCoe Idealize.ShloMosaic.ValueIdx Idealize.SL.Sem
open Idealize.ShloMosaic.Pipeline (Dat)

namespace Reg0

variable (V : (c : Dev nD) → (b : Ref sig .tc) → Buf (Elt Ideal) ((c : Thread nD τ).loc b))

theorem hz : (![0, 0] : Fin 2 → Nat) = fun _ => 0 := funext fun a => by fin_cases a <;> rfl

/-- The grid has eight points. -/
theorem N8 : cfg0.N = 8 := N_0

/-- Row `a` of the block of grid point `t` is row `1024·t + a` of the array. -/
def rowOf (t : Fin cfg0.N) (a : Fin 1024) : Fin 8192 :=
  ⟨1024 * t.val + a.val, by have h := t.isLt; have hN : cfg0.N = 8 := N8; omega⟩

/-- Every window's block index at point `t` is `(t, 0)`: the blocks go down the rows, one per point. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0) :=
  (by decide +kernel : ∀ t : Fin grid0.N, _)

/-- Entry `(a, k)` of the first wide input's block at point `t` is entry `(1024·t + a, k)` of its array. -/
theorem blk0_apply (c : Dev nD) (t : Fin cfg0.N) (a : Fin 1024) (k : Fin 512) :
    (iblk0 V c 0 t : Vec Ideal S1024x512 .f32) (ix2 a k) = (V c main_arg0 : S8192x512.Idx → EReal) (ix2 (rowOf t a) k) := by
  obtain ⟨⟨e0, e1⟩, -⟩ := idx_facts t
  unfold iblk0
  rw [View.read_apply]
  show (V c main_arg0 : S8192x512.Idx → EReal) _ = (V c main_arg0 : S8192x512.Idx → EReal) _
  congr 1
  funext d
  apply Fin.ext
  match d with
  | ⟨0, _⟩ => show win0_0.index t (0 : Fin 2) * 1024 + 1 * a.val = 1024 * t.val + a.val; rw [e0]; omega
  | ⟨1, _⟩ => show win0_0.index t (1 : Fin 2) * 512 + 1 * k.val = k.val; rw [e1]; omega

/-- Entry `(a, k)` of the second wide input's block at point `t`. -/
theorem blk1_apply (c : Dev nD) (t : Fin cfg0.N) (a : Fin 1024) (k : Fin 512) :
    (iblk0 V c 1 t : Vec Ideal S1024x512 .f32) (ix2 a k) = (V c main_arg1 : S8192x512.Idx → EReal) (ix2 (rowOf t a) k) := by
  obtain ⟨-, ⟨e0, e1⟩, -⟩ := idx_facts t
  unfold iblk0
  rw [View.read_apply]
  show (V c main_arg1 : S8192x512.Idx → EReal) _ = (V c main_arg1 : S8192x512.Idx → EReal) _
  congr 1
  funext d
  apply Fin.ext
  match d with
  | ⟨0, _⟩ => show win0_1.index t (0 : Fin 2) * 1024 + 1 * a.val = 1024 * t.val + a.val; rw [e0]; omega
  | ⟨1, _⟩ => show win0_1.index t (1 : Fin 2) * 512 + 1 * k.val = k.val; rw [e1]; omega

/-- What the first output's array is to hold: at row `r`, the squared distance of the high-dimensional pair of edge `r`. -/
abbrev G4 (x : Inputs) : S8192x1.Idx → EReal := fun i => dh2 x (i 0)

/-- Entry `a` of the first output's block at point `t`, read off any function of the array's index, is the function at
    row `1024·t + a`. -/
theorem read4_apply (G : S8192x1.Idx → EReal) (t : Fin cfg0.N) (a : Fin 1024) :
    ((cfg0.win 4).blk t).view.read (Elt Ideal) G (ix2 a (0 : Fin 1)) = G (ix2 (rowOf t a) (0 : Fin 1)) := by
  obtain ⟨-, -, -, -, ⟨e0, e1⟩, -⟩ := idx_facts t
  rw [View.read_apply]
  show G _ = G _
  congr 1
  funext d
  apply Fin.ext
  match d with
  | ⟨0, _⟩ => show win0_4.index t (0 : Fin 2) * 1024 + 1 * a.val = 1024 * t.val + a.val; rw [e0]; omega
  | ⟨1, _⟩ => show win0_4.index t (1 : Fin 2) * 1 + 1 * 0 = 0; rw [e1]

/-- What the body stores for row `a` at point `t` is the squared distance of edge `1024·t + a`. -/
theorem stored4_apply (x : Inputs) (c : Dev nD)
    (hA : ∀ (r : Fin 8192) (k : Fin 512), (V c main_arg0 : S8192x512.Idx → EReal) (ix2 r k) = x.A r k)
    (hB : ∀ (r : Fin 8192) (k : Fin 512), (V c main_arg1 : S8192x512.Idx → EReal) (ix2 r k) = x.B r k)
    (t : Fin cfg0.N) (a : Fin 1024) :
    k0_pay1 (F := Ideal) (iblk0 V c 0 t) (iblk0 V c 1 t) (ix2 a (0 : Fin 1)) = dh2 x (rowOf t a) := by
  refine (pay1_apply (iblk0 V c 0 t) (iblk0 V c 1 t) a).trans ?_
  unfold dh2
  refine Finset.sum_congr rfl fun k _ => ?_
  rw [blk0_apply V c t a k, blk1_apply V c t a k, hA, hB]

theorem flushed4_eq (x : Inputs) (c : Dev nD)
    (hA : ∀ (r : Fin 8192) (k : Fin 512), (V c main_arg0 : S8192x512.Idx → EReal) (ix2 r k) = x.A r k)
    (hB : ∀ (r : Fin 8192) (k : Fin 512), (V c main_arg1 : S8192x512.Idx → EReal) (ix2 r k) = x.B r k) (t : Fin cfg0.N) :
    (dat0 V c).flushed 4 t = ((cfg0.win 4).blk t).view.read (Elt Ideal) (G4 x) := by
  show (cfg0.win 4).cut (grid0.coords t) ((dat0 V c).after 4 t) = _
  rw [after0_4]
  unfold out0_4
  rw [View.canon_unit_zero hz]
  simp only [View.ld_unit_zero (S := S1024x512) hz]
  refine funext fun (j : S1024x1.Idx) => ?_
  obtain ⟨a, rfl⟩ : ∃ a : Fin 1024, j = ix2 a (0 : Fin 1) :=
    ⟨j 0, (eq_ix2 j).trans (congrArg (ix2 (j 0)) (Fin.eq_zero (j 1)))⟩
  show k0_pay1 (F := Ideal) (iblk0 V c 0 t) (iblk0 V c 1 t) (ix2 a (0 : Fin 1)) = _
  exact (stored4_apply V x c hA hB t a).trans (read4_apply (G4 x) t a).symm

/-- An index of the first output's array is in point `t`'s block iff each coordinate is in the block's range on its axis. -/
theorem mem_blk4 (t : Fin cfg0.N) (i : S8192x1.Idx) :
    i ∈ ((cfg0.win 4).blk t).view.set ↔ ∀ a : Fin 2, win0_4.index t a * S1024x1.size a ≤ (i a).val ∧ (i a).val < win0_4.index t a * S1024x1.size a + S1024x1.size a := by
  show i ∈ ((View.whole main_v0_0).slice (win0_4.rect t)).set ↔ _
  rw [View.set_slice_whole, Rect.mem_set_unit]
  exact Iff.rfl

/-- The point whose block holds row `n`. -/
def ptOf (n : ℕ) (h : n < 8192) : Fin cfg0.N := ⟨n / 1024, by have hN : cfg0.N = 8 := N8; omega⟩

/-- Row `r` of the first output's array lies in the block of point `r / 1024`, which that point writes back: the eight
    blocks of 1024 rows cover the 8192 rows. -/
theorem cover4 (i : S8192x1.Idx) :
    ∃ t : Fin cfg0.N, (cfg0.win 4).flush t = true ∧ i ∈ ((cfg0.win 4).blk t).view.set := by
  have hi0 : (i 0).val < 8192 := idx2_lt0 i
  have hi1 : (i 1).val < 1 := idx2_lt1 i
  obtain ⟨-, -, -, -, ⟨e0, e1⟩, -⟩ := idx_facts (ptOf (i 0).val hi0)
  have ev : (ptOf (i 0).val hi0).val = (i 0).val / 1024 := rfl
  refine ⟨ptOf (i 0).val hi0, flush0_4 _, ?_⟩
  rw [mem_blk4]
  intro a
  match a with
  | ⟨0, _⟩ =>
    show win0_4.index (ptOf (i 0).val hi0) (0 : Fin 2) * 1024 ≤ (i 0).val ∧ (i 0).val < win0_4.index (ptOf (i 0).val hi0) (0 : Fin 2) * 1024 + 1024
    rw [e0, ev]; omega
  | ⟨1, _⟩ =>
    show win0_4.index (ptOf (i 0).val hi0) (1 : Fin 2) * 1 ≤ (i 1).val ∧ (i 1).val < win0_4.index (ptOf (i 0).val hi0) (1 : Fin 2) * 1 + 1
    rw [e1]; omega

/-! ## The second output: the distance of the low-dimensional pair -/

/-- Entry `(a, k)` of the first narrow input's block at point `t` is entry `(1024·t + a, k)` of its array. -/
theorem blk2_apply (c : Dev nD) (t : Fin cfg0.N) (a : Fin 1024) (k : Fin 2) :
    (iblk0 V c 2 t : Vec Ideal S1024x2 .f32) (ix2 a k) = (V c main_arg2 : S8192x2.Idx → EReal) (ix2 (rowOf t a) k) := by
  obtain ⟨-, -, ⟨e0, e1⟩, -⟩ := idx_facts t
  unfold iblk0
  rw [View.read_apply]
  show (V c main_arg2 : S8192x2.Idx → EReal) _ = (V c main_arg2 : S8192x2.Idx → EReal) _
  congr 1
  funext d
  apply Fin.ext
  match d with
  | ⟨0, _⟩ => show win0_2.index t (0 : Fin 2) * 1024 + 1 * a.val = 1024 * t.val + a.val; rw [e0]; omega
  | ⟨1, _⟩ => show win0_2.index t (1 : Fin 2) * 2 + 1 * k.val = k.val; rw [e1]; omega

/-- Entry `(a, k)` of the second narrow input's block at point `t`. -/
theorem blk3_apply (c : Dev nD) (t : Fin cfg0.N) (a : Fin 1024) (k : Fin 2) :
    (iblk0 V c 3 t : Vec Ideal S1024x2 .f32) (ix2 a k) = (V c main_arg3 : S8192x2.Idx → EReal) (ix2 (rowOf t a) k) := by
  obtain ⟨-, -, -, ⟨e0, e1⟩, -⟩ := idx_facts t
  unfold iblk0
  rw [View.read_apply]
  show (V c main_arg3 : S8192x2.Idx → EReal) _ = (V c main_arg3 : S8192x2.Idx → EReal) _
  congr 1
  funext d
  apply Fin.ext
  match d with
  | ⟨0, _⟩ => show win0_3.index t (0 : Fin 2) * 1024 + 1 * a.val = 1024 * t.val + a.val; rw [e0]; omega
  | ⟨1, _⟩ => show win0_3.index t (1 : Fin 2) * 2 + 1 * k.val = k.val; rw [e1]; omega

/-- What the second output's array is to hold: at row `r`, the distance of the low-dimensional pair of edge `r`. -/
abbrev G5 (x : Inputs) : S8192x1.Idx → EReal := fun i => dl x (i 0)

/-- Entry `a` of the second output's block at point `t`, read off any function of the array's index, is the function at
    row `1024·t + a`. -/
theorem read5_apply (G : S8192x1.Idx → EReal) (t : Fin cfg0.N) (a : Fin 1024) :
    ((cfg0.win 5).blk t).view.read (Elt Ideal) G (ix2 a (0 : Fin 1)) = G (ix2 (rowOf t a) (0 : Fin 1)) := by
  obtain ⟨-, -, -, -, -, ⟨e0, e1⟩⟩ := idx_facts t
  rw [View.read_apply]
  show G _ = G _
  congr 1
  funext d
  apply Fin.ext
  match d with
  | ⟨0, _⟩ => show win0_5.index t (0 : Fin 2) * 1024 + 1 * a.val = 1024 * t.val + a.val; rw [e0]; omega
  | ⟨1, _⟩ => show win0_5.index t (1 : Fin 2) * 1 + 1 * 0 = 0; rw [e1]

/-- What the body stores for row `a` at point `t` is the distance of the low-dimensional pair of edge `1024·t + a`. -/
theorem stored5_apply (x : Inputs) (c : Dev nD)
    (hP : ∀ (r : Fin 8192) (k : Fin 2), (V c main_arg2 : S8192x2.Idx → EReal) (ix2 r k) = x.P r k)
    (hQ : ∀ (r : Fin 8192) (k : Fin 2), (V c main_arg3 : S8192x2.Idx → EReal) (ix2 r k) = x.Q r k)
    (t : Fin cfg0.N) (a : Fin 1024) :
    k0_pay2 (F := Ideal) (iblk0 V c 2 t) (iblk0 V c 3 t) (ix2 a (0 : Fin 1)) = dl x (rowOf t a) := by
  refine (pay2_apply (iblk0 V c 2 t) (iblk0 V c 3 t) a).trans ?_
  unfold dl dl2
  refine congrArg Ideal.sqrt (Finset.sum_congr rfl fun k _ => ?_)
  rw [blk2_apply V c t a k, blk3_apply V c t a k, hP, hQ]

/-- What point `t` writes back to the second output's array is block `t` of `G5`. -/
theorem flushed5_eq (x : Inputs) (c : Dev nD)
    (hP : ∀ (r : Fin 8192) (k : Fin 2), (V c main_arg2 : S8192x2.Idx → EReal) (ix2 r k) = x.P r k)
    (hQ : ∀ (r : Fin 8192) (k : Fin 2), (V c main_arg3 : S8192x2.Idx → EReal) (ix2 r k) = x.Q r k) (t : Fin cfg0.N) :
    (dat0 V c).flushed 5 t = ((cfg0.win 5).blk t).view.read (Elt Ideal) (G5 x) := by
  show (cfg0.win 5).cut (grid0.coords t) ((dat0 V c).after 5 t) = _
  rw [after0_5]
  unfold out0_5
  rw [View.canon_unit_zero hz]
  simp only [View.ld_unit_zero (S := S1024x2) hz]
  refine funext fun (j : S1024x1.Idx) => ?_
  obtain ⟨a, rfl⟩ : ∃ a : Fin 1024, j = ix2 a (0 : Fin 1) :=
    ⟨j 0, (eq_ix2 j).trans (congrArg (ix2 (j 0)) (Fin.eq_zero (j 1)))⟩
  show k0_pay2 (F := Ideal) (iblk0 V c 2 t) (iblk0 V c 3 t) (ix2 a (0 : Fin 1)) = _
  exact (stored5_apply V x c hP hQ t a).trans (read5_apply (G5 x) t a).symm

/-- An index of the second output's array is in point `t`'s block iff each coordinate is in the block's range on its axis. -/
theorem mem_blk5 (t : Fin cfg0.N) (i : S8192x1.Idx) :
    i ∈ ((cfg0.win 5).blk t).view.set ↔ ∀ a : Fin 2, win0_5.index t a * S1024x1.size a ≤ (i a).val ∧ (i a).val < win0_5.index t a * S1024x1.size a + S1024x1.size a := by
  show i ∈ ((View.whole main_v0_1).slice (win0_5.rect t)).set ↔ _
  rw [View.set_slice_whole, Rect.mem_set_unit]
  exact Iff.rfl

/-- Row `r` of the second output's array lies in the block of point `r / 1024`, which that point writes back. -/
theorem cover5 (i : S8192x1.Idx) :
    ∃ t : Fin cfg0.N, (cfg0.win 5).flush t = true ∧ i ∈ ((cfg0.win 5).blk t).view.set := by
  have hi0 : (i 0).val < 8192 := idx2_lt0 i
  have hi1 : (i 1).val < 1 := idx2_lt1 i
  obtain ⟨-, -, -, -, -, ⟨e0, e1⟩⟩ := idx_facts (ptOf (i 0).val hi0)
  have ev : (ptOf (i 0).val hi0).val = (i 0).val / 1024 := rfl
  refine ⟨ptOf (i 0).val hi0, flush0_5 _, ?_⟩
  rw [mem_blk5]
  intro a
  match a with
  | ⟨0, _⟩ =>
    show win0_5.index (ptOf (i 0).val hi0) (0 : Fin 2) * 1024 ≤ (i 0).val ∧ (i 0).val < win0_5.index (ptOf (i 0).val hi0) (0 : Fin 2) * 1024 + 1024
    rw [e0, ev]; omega
  | ⟨1, _⟩ =>
    show win0_5.index (ptOf (i 0).val hi0) (1 : Fin 2) * 1 ≤ (i 1).val ∧ (i 1).val < win0_5.index (ptOf (i 0).val hi0) (1 : Fin 2) * 1 + 1
    rw [e1]; omega

end Reg0

open Reg0

/-- After the region, row `r` of the first output's array holds the squared distance of the high-dimensional pair of
    edge `r`. -/
theorem arr4_eq (x : Inputs) (V : (c : Dev nD) → (b : Ref sig .tc) → Buf (Elt Ideal) ((c : Thread nD τ).loc b)) (c : Dev nD)
    (hA : ∀ (r : Fin 8192) (k : Fin 512), (V c main_arg0 : S8192x512.Idx → EReal) (ix2 r k) = x.A r k)
    (hB : ∀ (r : Fin 8192) (k : Fin 512), (V c main_arg1 : S8192x512.Idx → EReal) (ix2 r k) = x.B r k) (r : Fin 8192) :
    ((dat0 V c).arrAt 4 cfg0.N : S8192x1.Idx → EReal) (ix2 r (0 : Fin 1)) = dh2 x r :=
  congrFun ((dat0 V c).arrAt_eq_of_cover 4 (G4 x) (fun t _ => flushed4_eq V x c hA hB t) cover4) (ix2 r (0 : Fin 1))

/-- After the region, row `r` of the second output's array holds the distance of the low-dimensional pair of edge `r`. -/
theorem arr5_eq (x : Inputs) (V : (c : Dev nD) → (b : Ref sig .tc) → Buf (Elt Ideal) ((c : Thread nD τ).loc b)) (c : Dev nD)
    (hP : ∀ (r : Fin 8192) (k : Fin 2), (V c main_arg2 : S8192x2.Idx → EReal) (ix2 r k) = x.P r k)
    (hQ : ∀ (r : Fin 8192) (k : Fin 2), (V c main_arg3 : S8192x2.Idx → EReal) (ix2 r k) = x.Q r k) (r : Fin 8192) :
    ((dat0 V c).arrAt 5 cfg0.N : S8192x1.Idx → EReal) (ix2 r (0 : Fin 1)) = dl x r :=
  congrFun ((dat0 V c).arrAt_eq_of_cover 5 (G5 x) (fun t _ => flushed5_eq V x c hP hQ t) cover5) (ix2 r (0 : Fin 1))

end Cert.KernelIdeal.KV

end
-- ==== Proof.KV1.lean ====
/- The second kernel call, read as mathematics.  The kernel walks the 16 x 16 grid of tile pairs row-major; at point
   `t` it meets tile row `t / 16` and tile column `t % 16`.  Each of its six input windows hands it one block of 512
   entries: a row window the entries `512 * (t / 16) + a` of its array, a column window the entries `512 * (t % 16) + b`.
   On those blocks the tile pair's count of hits and its sum of differences are the specification's `tileCount` and
   `tileLoss`, and the test the kernel makes on four words of the two tables is the overlap test `ovOf` of the tile
   row against the tile column.  So after point `n` the two accumulators hold the specification's partial sums
   `accLoss` and `accCount` over the points up to `n`. -/
import proofs.«413598_j523986010373_2_alg».proof.Proof.Spec
import proofs.«413598_j523986010373_2_alg».proof.Proof.Reg1Defs
import proofs.«413598_j523986010373_2_alg».proof.Proof.Payloads
import Idealize.ShloMosaic.Lib.ValueIdx
import Idealize.ShloMosaic.Lib.Pipeline.Value
import Mathlib.Algebra.BigOperators.Group.Finset.Basic

noncomputable section

namespace Cert.KernelIdeal.KV

open Cert.KernelIdeal Cert.KernelIdeal.Gen Cert.KernelIdeal.Hand Cert.KernelIdeal.Pay Cert.Spec
open Idealize.ShloMosaic Idealize.ShloMosaic.ValueIdx Idealize.ShloMosaic.TcCoe

/-! ## The grid's points and the windows' block indices -/

/-- The grid is walked row-major with sixteen columns: point `t` is tile row `t / 16`, tile column `t % 16`. -/
theorem coords1 : ∀ t : Fin grid1.N, (grid1.coords t 0).val = t.val / 16 ∧ (grid1.coords t 1).val = t.val % 16 :=
  by decide +kernel

/-- The six input windows' block indices at a point: a row window's block is the tile row's, a column window's the
    tile column's. -/
theorem idx_facts : ∀ t : Fin grid1.N,
    (cc1_transform_0 (grid1.coords t) (0 : Fin 2) = t.val / 16 ∧ cc1_transform_0 (grid1.coords t) (1 : Fin 2) = 0)
    ∧ (cc1_transform_1 (grid1.coords t) (0 : Fin 2) = 0 ∧ cc1_transform_1 (grid1.coords t) (1 : Fin 2) = t.val % 16)
    ∧ (cc1_transform_2 (grid1.coords t) (0 : Fin 2) = t.val / 16 ∧ cc1_transform_2 (grid1.coords t) (1 : Fin 2) = 0)
    ∧ (cc1_transform_3 (grid1.coords t) (0 : Fin 2) = 0 ∧ cc1_transform_3 (grid1.coords t) (1 : Fin 2) = t.val % 16)
    ∧ (cc1_transform_4 (grid1.coords t) (0 : Fin 2) = t.val / 16 ∧ cc1_transform_4 (grid1.coords t) (1 : Fin 2) = 0)
    ∧ (cc1_transform_5 (grid1.coords t) (0 : Fin 2) = 0 ∧ cc1_transform_5 (grid1.coords t) (1 : Fin 2) = t.val % 16) :=
  by decide +kernel

/-! ## The overlap test -/

/-- the overlap test of tile row i against tile column j, on the tables' words -/
def ovOf (pf : pre1.Contents (Elt Ideal)) (i j : Fin 16) : Prop :=
  k1_cond2 (pf.atD 1 ![i.val]) (pf.atD 0 ![j.val]) (pf.atD 0 ![i.val]) (pf.atD 1 ![j.val]) = 1#1

instance (pf : pre1.Contents (Elt Ideal)) (i j : Fin 16) : Decidable (ovOf pf i j) := by unfold ovOf; infer_instance

section Points

variable (pf : pre1.Contents (Elt Ideal)) (V : (c : Dev nD) → (b : Ref sig .tc) → Buf (Elt Ideal) ((c : Thread nD τ).loc b))

/-- The grid has 256 points. -/
theorem N1 : (cfgT pf).N = 256 := Gen.N_1

/-- The first table offset at a point is its tile row. -/
theorem off1_at (t : Fin (cfgT pf).N) (ht : t.val < 256) : k1_off1 ((cfgT pf).grid.coords t) = ![(ti t.val ht).val] := by
  rw [k1_off1_eq]
  show ![(grid1.coords t 0).val] = ![t.val / 16]
  rw [(coords1 t).1]

/-- The second table offset at a point is its tile column. -/
theorem off2_at (t : Fin (cfgT pf).N) (ht : t.val < 256) : k1_off2 ((cfgT pf).grid.coords t) = ![(tj t.val ht).val] := by
  rw [k1_off2_eq]
  show ![(grid1.coords t 1).val] = ![t.val % 16]
  rw [(coords1 t).2]

/-- The test the kernel makes at a point is the overlap test of the point's tile row against its tile column. -/
theorem ovAt_iff (t : Fin (cfgT pf).N) (ht : t.val < 256) : ovAt pf t ↔ ovOf pf (ti t.val ht) (tj t.val ht) := by
  unfold ovAt ovOf
  rw [off1_at pf t ht, off2_at pf t ht]

/-! ## The block reads: a block's coordinate in its array is block index × block size + the coordinate inside the block -/

/-- Window 0's block at a point is rows `512 * (t / 16) …` of its array: the point's tile row. -/
theorem blk0 (c : Dev nD) (t : Fin (cfgT pf).N) (ht : t.val < 256) (a : Fin 512) :
    iblk1 pf V c 0 t (ix2 a (0 : Fin 1)) = V c main_v0_0 (ix2 (row (ti t.val ht) a) (0 : Fin 1)) := by
  show V c main_v0_0 ((((cfgT pf).win 0).blk t).view.emb (ix2 a (0 : Fin 1))) = _
  refine congrArg (V c main_v0_0) ?_
  obtain ⟨e0, e1⟩ := (idx_facts t).1
  funext d; apply Fin.ext
  match d with
  | ⟨0, _⟩ =>
    show cc1_transform_0 (grid1.coords t) (0 : Fin 2) * 512 + 1 * a.val = 512 * (t.val / 16) + a.val
    omega
  | ⟨1, _⟩ =>
    show cc1_transform_0 (grid1.coords t) (1 : Fin 2) * 1 + 1 * 0 = 0
    omega

/-- Window 1's block at a point is columns `512 * (t % 16) …` of its array: the point's tile column. -/
theorem blk1 (c : Dev nD) (t : Fin (cfgT pf).N) (ht : t.val < 256) (b : Fin 512) :
    iblk1 pf V c 1 t (ix2 (0 : Fin 1) b) = V c main_v8 (ix2 (0 : Fin 1) (row (tj t.val ht) b)) := by
  show V c main_v8 ((((cfgT pf).win 1).blk t).view.emb (ix2 (0 : Fin 1) b)) = _
  refine congrArg (V c main_v8) ?_
  obtain ⟨e0, e1⟩ := (idx_facts t).2.1
  funext d; apply Fin.ext
  match d with
  | ⟨0, _⟩ =>
    show cc1_transform_1 (grid1.coords t) (0 : Fin 2) * 1 + 1 * 0 = 0
    omega
  | ⟨1, _⟩ =>
    show cc1_transform_1 (grid1.coords t) (1 : Fin 2) * 512 + 1 * b.val = 512 * (t.val % 16) + b.val
    omega

/-- Window 2's block at a point is rows `512 * (t / 16) …` of its array: the point's tile row. -/
theorem blk2 (c : Dev nD) (t : Fin (cfgT pf).N) (ht : t.val < 256) (a : Fin 512) :
    iblk1 pf V c 2 t (ix2 a (0 : Fin 1)) = V c main_v0_1 (ix2 (row (ti t.val ht) a) (0 : Fin 1)) := by
  show V c main_v0_1 ((((cfgT pf).win 2).blk t).view.emb (ix2 a (0 : Fin 1))) = _
  refine congrArg (V c main_v0_1) ?_
  obtain ⟨e0, e1⟩ := (idx_facts t).2.2.1
  funext d; apply Fin.ext
  match d with
  | ⟨0, _⟩ =>
    show cc1_transform_2 (grid1.coords t) (0 : Fin 2) * 512 + 1 * a.val = 512 * (t.val / 16) + a.val
    omega
  | ⟨1, _⟩ =>
    show cc1_transform_2 (grid1.coords t) (1 : Fin 2) * 1 + 1 * 0 = 0
    omega

/-- Window 3's block at a point is columns `512 * (t % 16) …` of its array: the point's tile column. -/
theorem blk3 (c : Dev nD) (t : Fin (cfgT pf).N) (ht : t.val < 256) (b : Fin 512) :
    iblk1 pf V c 3 t (ix2 (0 : Fin 1) b) = V c main_v9 (ix2 (0 : Fin 1) (row (tj t.val ht) b)) := by
  show V c main_v9 ((((cfgT pf).win 3).blk t).view.emb (ix2 (0 : Fin 1) b)) = _
  refine congrArg (V c main_v9) ?_
  obtain ⟨e0, e1⟩ := (idx_facts t).2.2.2.1
  funext d; apply Fin.ext
  match d with
  | ⟨0, _⟩ =>
    show cc1_transform_3 (grid1.coords t) (0 : Fin 2) * 1 + 1 * 0 = 0
    omega
  | ⟨1, _⟩ =>
    show cc1_transform_3 (grid1.coords t) (1 : Fin 2) * 512 + 1 * b.val = 512 * (t.val % 16) + b.val
    omega

/-- Window 4's block at a point is rows `512 * (t / 16) …` of its array: the point's tile row. -/
theorem blk4 (c : Dev nD) (t : Fin (cfgT pf).N) (ht : t.val < 256) (a : Fin 512) :
    iblk1 pf V c 4 t (ix2 a (0 : Fin 1)) = V c main_v10 (ix2 (row (ti t.val ht) a) (0 : Fin 1)) := by
  show V c main_v10 ((((cfgT pf).win 4).blk t).view.emb (ix2 a (0 : Fin 1))) = _
  refine congrArg (V c main_v10) ?_
  obtain ⟨e0, e1⟩ := (idx_facts t).2.2.2.2.1
  funext d; apply Fin.ext
  match d with
  | ⟨0, _⟩ =>
    show cc1_transform_4 (grid1.coords t) (0 : Fin 2) * 512 + 1 * a.val = 512 * (t.val / 16) + a.val
    omega
  | ⟨1, _⟩ =>
    show cc1_transform_4 (grid1.coords t) (1 : Fin 2) * 1 + 1 * 0 = 0
    omega

/-- Window 5's block at a point is columns `512 * (t % 16) …` of its array: the point's tile column. -/
theorem blk5 (c : Dev nD) (t : Fin (cfgT pf).N) (ht : t.val < 256) (b : Fin 512) :
    iblk1 pf V c 5 t (ix2 (0 : Fin 1) b) = V c main_v11 (ix2 (0 : Fin 1) (row (tj t.val ht) b)) := by
  show V c main_v11 ((((cfgT pf).win 5).blk t).view.emb (ix2 (0 : Fin 1) b)) = _
  refine congrArg (V c main_v11) ?_
  obtain ⟨e0, e1⟩ := (idx_facts t).2.2.2.2.2
  funext d; apply Fin.ext
  match d with
  | ⟨0, _⟩ =>
    show cc1_transform_5 (grid1.coords t) (0 : Fin 2) * 1 + 1 * 0 = 0
    omega
  | ⟨1, _⟩ =>
    show cc1_transform_5 (grid1.coords t) (1 : Fin 2) * 512 + 1 * b.val = 512 * (t.val % 16) + b.val
    omega

/-! ## A tile pair's two sums -/

section Tile

variable (x : Inputs) (i j : Fin 16)
  (x0 : Vec Ideal S512x1 .f32) (x1 : Vec Ideal S1x512 .f32) (x2 : Vec Ideal S512x1 .f32)
  (x3 : Vec Ideal S1x512 .f32) (x4 : Vec Ideal S512x1 .i32) (x5 : Vec Ideal S1x512 .i32)
  (h0 : ∀ a : Fin 512, x0 (ix2 a (0 : Fin 1)) = dh2 x (row i a)) (h1 : ∀ b : Fin 512, x1 (ix2 (0 : Fin 1) b) = dh2 x (row j b))
  (h2 : ∀ a : Fin 512, x2 (ix2 a (0 : Fin 1)) = dl x (row i a)) (h3 : ∀ b : Fin 512, x3 (ix2 (0 : Fin 1) b) = dl x (row j b))
  (h4 : ∀ a : Fin 512, x4 (ix2 a (0 : Fin 1)) = key x (row i a)) (h5 : ∀ b : Fin 512, x5 (ix2 (0 : Fin 1) b) = key x (row j b))

include h0 h1 h2 h3 h4 h5

/-- On the blocks of tile row `i` and tile column `j`, a hit is a violation as the kernel tests it. -/
theorem hit_iff (a b : Fin 512) : hit x0 x1 x2 x3 x4 x5 a b ↔ maskK x (row i a) (row j b) := by
  unfold hit maskK
  rw [h0, h1, h2, h3, h4, h5]

/-- The number of hits of the two blocks is the tile pair's count. -/
theorem count_eq : (∑ a : Fin 512, ∑ b : Fin 512, if hit x0 x1 x2 x3 x4 x5 a b then (1 : EReal) else 0) = tileCount x i j := by
  unfold tileCount maskKf
  refine Finset.sum_congr rfl fun a _ => Finset.sum_congr rfl fun b _ => ?_
  exact if_congr (hit_iff x i j x0 x1 x2 x3 x4 x5 h0 h1 h2 h3 h4 h5 a b) rfl rfl

/-- The hits' sum of differences is the tile pair's. -/
theorem loss_eq : (∑ a : Fin 512, ∑ b : Fin 512,
      (if hit x0 x1 x2 x3 x4 x5 a b then (1 : EReal) else 0) * (x2 (ix2 a (0 : Fin 1)) - x3 (ix2 (0 : Fin 1) b))) = tileLoss x i j := by
  unfold tileLoss maskKf
  refine Finset.sum_congr rfl fun a _ => Finset.sum_congr rfl fun b _ => ?_
  rw [h2, h3, if_congr (hit_iff x i j x0 x1 x2 x3 x4 x5 h0 h1 h2 h3 h4 h5 a b) rfl rfl]

end Tile

/-! ## The two running sums -/

section Run

variable (x : Inputs) (c : Dev nD)
  (hdhR : ∀ r : Fin 8192, V c main_v0_0 (ix2 r (0 : Fin 1)) = dh2 x r) (hdhC : ∀ r : Fin 8192, V c main_v8 (ix2 (0 : Fin 1) r) = dh2 x r)
  (hdlR : ∀ r : Fin 8192, V c main_v0_1 (ix2 r (0 : Fin 1)) = dl x r) (hdlC : ∀ r : Fin 8192, V c main_v9 (ix2 (0 : Fin 1) r) = dl x r)
  (hkR : ∀ r : Fin 8192, V c main_v10 (ix2 r (0 : Fin 1)) = key x r) (hkC : ∀ r : Fin 8192, V c main_v11 (ix2 (0 : Fin 1) r) = key x r)

include hdhR hdhC hdlR hdlC hkR hkC

/-- ONE POINT.  Whatever the two accumulators hold before it, after point `t` the first holds that plus the point's
    share of the sum of differences and the second that plus its share of the count. -/
theorem step_eq (t : Fin (cfgT pf).N) (acc1 acc2 : Vec Ideal S1x1 .f32) :
    ((if ovAt pf t then
        (k1_pay8 (iblk1 pf V c 0 t) (iblk1 pf V c 1 t) (iblk1 pf V c 2 t) (iblk1 pf V c 3 t) (iblk1 pf V c 4 t) (iblk1 pf V c 5 t) acc1,
          k1_pay3 (k1_pay7 (iblk1 pf V c 0 t) (iblk1 pf V c 1 t) (iblk1 pf V c 2 t) (iblk1 pf V c 3 t) (iblk1 pf V c 4 t) (iblk1 pf V c 5 t)) acc2)
      else (acc1, acc2) : Vec Ideal S1x1 .f32 × Vec Ideal S1x1 .f32).1 (ix2 (0 : Fin 1) (0 : Fin 1))
        = acc1 (ix2 (0 : Fin 1) (0 : Fin 1)) + termLoss x (ovOf pf) t.val)
    ∧ ((if ovAt pf t then
        (k1_pay8 (iblk1 pf V c 0 t) (iblk1 pf V c 1 t) (iblk1 pf V c 2 t) (iblk1 pf V c 3 t) (iblk1 pf V c 4 t) (iblk1 pf V c 5 t) acc1,
          k1_pay3 (k1_pay7 (iblk1 pf V c 0 t) (iblk1 pf V c 1 t) (iblk1 pf V c 2 t) (iblk1 pf V c 3 t) (iblk1 pf V c 4 t) (iblk1 pf V c 5 t)) acc2)
      else (acc1, acc2) : Vec Ideal S1x1 .f32 × Vec Ideal S1x1 .f32).2 (ix2 (0 : Fin 1) (0 : Fin 1))
        = acc2 (ix2 (0 : Fin 1) (0 : Fin 1)) + termCount x (ovOf pf) t.val) := by
  have ht : t.val < 256 := (N1 pf) ▸ t.isLt
  have g0 : ∀ a : Fin 512, iblk1 pf V c 0 t (ix2 a (0 : Fin 1)) = dh2 x (row (ti t.val ht) a) := fun a => (blk0 pf V c t ht a).trans (hdhR _)
  have g1 : ∀ b : Fin 512, iblk1 pf V c 1 t (ix2 (0 : Fin 1) b) = dh2 x (row (tj t.val ht) b) := fun b => (blk1 pf V c t ht b).trans (hdhC _)
  have g2 : ∀ a : Fin 512, iblk1 pf V c 2 t (ix2 a (0 : Fin 1)) = dl x (row (ti t.val ht) a) := fun a => (blk2 pf V c t ht a).trans (hdlR _)
  have g3 : ∀ b : Fin 512, iblk1 pf V c 3 t (ix2 (0 : Fin 1) b) = dl x (row (tj t.val ht) b) := fun b => (blk3 pf V c t ht b).trans (hdlC _)
  have g4 : ∀ a : Fin 512, iblk1 pf V c 4 t (ix2 a (0 : Fin 1)) = key x (row (ti t.val ht) a) := fun a => (blk4 pf V c t ht a).trans (hkR _)
  have g5 : ∀ b : Fin 512, iblk1 pf V c 5 t (ix2 (0 : Fin 1) b) = key x (row (tj t.val ht) b) := fun b => (blk5 pf V c t ht b).trans (hkC _)
  have hL : termLoss x (ovOf pf) t.val = if ovOf pf (ti t.val ht) (tj t.val ht) then tileLoss x (ti t.val ht) (tj t.val ht) else 0 := by
    unfold termLoss; rw [dif_pos ht]
  have hC : termCount x (ovOf pf) t.val = if ovOf pf (ti t.val ht) (tj t.val ht) then tileCount x (ti t.val ht) (tj t.val ht) else 0 := by
    unfold termCount; rw [dif_pos ht]
  rw [hL, hC]
  by_cases hov : ovAt pf t
  · have hov' := (ovAt_iff pf t ht).mp hov
    rw [if_pos hov, if_pos hov', if_pos hov']
    constructor
    · refine (pay8_apply _ _ _ _ _ _ acc1).trans ?_
      exact congrArg (acc1 (ix2 (0 : Fin 1) (0 : Fin 1)) + ·)
        (loss_eq x (ti t.val ht) (tj t.val ht) _ _ _ _ _ _ g0 g1 g2 g3 g4 g5)
    · refine (pay3_apply _ acc2).trans ?_
      exact congrArg (acc2 (ix2 (0 : Fin 1) (0 : Fin 1)) + ·)
        ((pay7_apply _ _ _ _ _ _).trans (count_eq x (ti t.val ht) (tj t.val ht) _ _ _ _ _ _ g0 g1 g2 g3 g4 g5))
  · have hov' : ¬ ovOf pf (ti t.val ht) (tj t.val ht) := fun h => hov ((ovAt_iff pf t ht).mpr h)
    rw [if_neg hov, if_neg hov', if_neg hov']
    exact ⟨(add_zero _).symm, (add_zero _).symm⟩

end Run

end Points

/-- THE RUN.  After grid point `n` the first accumulator holds the sum of differences over the tile pairs of the points
    up to `n` that pass the overlap test, and the second their count. -/
theorem accs_eq (x : Inputs) (pf : pre1.Contents (Elt Ideal))
    (V : (c : Dev nD) → (b : Ref sig .tc) → Buf (Elt Ideal) ((c : Thread nD τ).loc b)) (c : Dev nD)
    (hdhR : ∀ r : Fin 8192, V c main_v0_0 (ix2 r (0 : Fin 1)) = dh2 x r) (hdhC : ∀ r : Fin 8192, V c main_v8 (ix2 (0 : Fin 1) r) = dh2 x r)
    (hdlR : ∀ r : Fin 8192, V c main_v0_1 (ix2 r (0 : Fin 1)) = dl x r) (hdlC : ∀ r : Fin 8192, V c main_v9 (ix2 (0 : Fin 1) r) = dl x r)
    (hkR : ∀ r : Fin 8192, V c main_v10 (ix2 r (0 : Fin 1)) = key x r) (hkC : ∀ r : Fin 8192, V c main_v11 (ix2 (0 : Fin 1) r) = key x r)
    (n : ℕ) (h : n < (cfgT pf).N) :
    (accs1 pf V c n h).1 (ix2 (0 : Fin 1) (0 : Fin 1)) = accLoss x (ovOf pf) (n + 1)
      ∧ (accs1 pf V c n h).2 (ix2 (0 : Fin 1) (0 : Fin 1)) = accCount x (ovOf pf) (n + 1) := by
  induction n with
  | zero =>
    rw [accs1_zero]
    obtain ⟨s1, s2⟩ := step_eq pf V x c hdhR hdhC hdlR hdlC hkR hkC ⟨0, h⟩ (k1_pay1 (F := Ideal)) (k1_pay2 (F := Ideal))
    refine ⟨s1.trans ?_, s2.trans ?_⟩
    · rw [pay1z, zero_add]; unfold accLoss; rw [Finset.sum_range_one]
    · rw [pay2z, zero_add]; unfold accCount; rw [Finset.sum_range_one]
  | succ n ih =>
    obtain ⟨i1, i2⟩ := ih (Nat.lt_of_succ_lt h)
    rw [accs1_succ]
    obtain ⟨s1, s2⟩ := step_eq pf V x c hdhR hdhC hdlR hdlC hkR hkC ⟨n + 1, h⟩ (accs1 pf V c n (Nat.lt_of_succ_lt h)).1 (accs1 pf V c n (Nat.lt_of_succ_lt h)).2
    refine ⟨s1.trans ?_, s2.trans ?_⟩
    · rw [i1]; unfold accLoss; rw [Finset.sum_range_succ _ (n + 1)]
    · rw [i2]; unfold accCount; rw [Finset.sum_range_succ _ (n + 1)]

end Cert.KernelIdeal.KV
end
-- ==== Proof.KV1b.lean ====
import proofs.«413598_j523986010373_2_alg».proof.Proof.Reg1Defs
import Idealize.ShloMosaic.Lib.Pipeline.Value
import Idealize.ShloMosaic.Lib.ValueIdx

/-!
The second kernel's two results, read off the pipeline.

The two one-element result arrays of the second kernel are output windows whose block index never changes, so the pipeline
writes each back once, at the last of the `256` grid points (`flush1_6`, `flush1_7`, decided over the grid with the tables'
contents a variable: the two index maps do not read the tables).  The block is the whole array, so after the run each array
holds what the body left in the window's buffer at the last point: the running sums after point `255` (`arr6_final`,
`arr7_final`).
-/

set_option maxRecDepth 16384

noncomputable section

namespace Cert.KernelIdeal.KV

open Cert.KernelIdeal Cert.KernelIdeal.Gen Cert.KernelIdeal.Hand
open Idealize.ShloMosaic Idealize.ShloMosaic.TcCoe Idealize.SL.Sem
open Idealize.ShloMosaic.Pipeline (Dat)

variable (pf : pre1.Contents (Elt Ideal))
  (V : (c : Dev nD) → (b : Ref sig .tc) → Buf (Elt Ideal) ((c : Thread nD τ).loc b)) (c : Dev nD)

/-- The second kernel's grid has `256` points. -/
theorem N_T : (cfgT pf).N = 256 := Gen.N_1

/-- The first accumulator's window, whose block never moves, is written back at the last point only. -/
theorem flush1_6 : ∀ t : Fin (cfgT pf).N, ((cfgT pf).win 6).flush t = decide (t.val = 255) :=
  (by decide +kernel : ∀ t : Fin grid1.N, Pipeline.Window.flushOf grid1 true cc1_transform_6 t = decide (t.val = 255))

/-- The second accumulator's window likewise. -/
theorem flush1_7 : ∀ t : Fin (cfgT pf).N, ((cfgT pf).win 7).flush t = decide (t.val = 255) :=
  (by decide +kernel : ∀ t : Fin grid1.N, Pipeline.Window.flushOf grid1 true cc1_transform_7 t = decide (t.val = 255))

/-- What the one write-back of the first accumulator writes is the running sum after the last point: the window's block
    is the whole one-element array, read through zero offsets. -/
theorem flushed6_eq (h : 255 < (cfgT pf).N) (t : Fin (cfgT pf).N) (hf : ((cfgT pf).win 6).flush t = true) :
    (dat1 pf V c).flushed 6 t = (((cfgT pf).win 6).blk t).view.read (Elt Ideal) (accs1 pf V c 255 h).1 := by
  have h3 : t.val = 255 := by
    have := flush1_6 pf t
    rw [hf] at this
    exact of_decide_eq_true this.symm
  obtain rfl : t = ⟨255, h⟩ := Fin.ext h3
  show ((cfgT pf).win 6).cut ((cfgT pf).grid.coords ⟨255, h⟩) ((dat1 pf V c).after 6 ⟨255, h⟩) = _
  rw [after1_6]
  have hz' : (fun a => ((cfgT pf).win 6).index ⟨255, h⟩ a * main_v12_0.ty.shape.size a) = fun _ => 0 :=
    funext fun a => by
      match a with
      | ⟨0, _⟩ => rfl
      | ⟨1, _⟩ => rfl
  exact (Memref.read_access_unit_zero (Elt Ideal) main_v12_0 hz' (fun a => by rw [congrFun hz' a]; simp) _).symm

/-- The first accumulator's array after the run holds the running sum after the last point: the one write-back, at the
    last point, writes the whole one-element array. -/
theorem arr6_whole (h : 255 < (cfgT pf).N) : (dat1 pf V c).arrAt 6 (cfgT pf).N = (accs1 pf V c 255 h).1 := by
  refine (dat1 pf V c).arrAt_eq_of_cover 6 ((accs1 pf V c 255 h).1) (flushed6_eq pf V c h) fun i => ?_
  refine ⟨⟨255, h⟩, (flush1_6 pf _).trans (decide_eq_true rfl), ?_⟩
  have hz' : (fun a => ((cfgT pf).win 6).index ⟨255, h⟩ a * main_v12_0.ty.shape.size a) = fun _ => 0 :=
    funext fun a => by
      match a with
      | ⟨0, _⟩ => rfl
      | ⟨1, _⟩ => rfl
  have hm : i ∈ (Rect.unit (fun a => ((cfgT pf).win 6).index ⟨255, h⟩ a * main_v12_0.ty.shape.size a)
      main_v12_0.ty.shape.size (fun a => by rw [congrFun hz' a]; exact Nat.le_of_eq (Nat.zero_add _))).set :=
    View.mem_set_unit_zero hz' _ i
  exact (Finset.ext_iff.1 (View.set_slice_whole main_v12_0 _) i).2 hm

/-- What the one write-back of the second accumulator writes is the running sum after the last point: the window's block
    is the whole one-element array, read through zero offsets. -/
theorem flushed7_eq (h : 255 < (cfgT pf).N) (t : Fin (cfgT pf).N) (hf : ((cfgT pf).win 7).flush t = true) :
    (dat1 pf V c).flushed 7 t = (((cfgT pf).win 7).blk t).view.read (Elt Ideal) (accs1 pf V c 255 h).2 := by
  have h3 : t.val = 255 := by
    have := flush1_7 pf t
    rw [hf] at this
    exact of_decide_eq_true this.symm
  obtain rfl : t = ⟨255, h⟩ := Fin.ext h3
  show ((cfgT pf).win 7).cut ((cfgT pf).grid.coords ⟨255, h⟩) ((dat1 pf V c).after 7 ⟨255, h⟩) = _
  rw [after1_7]
  have hz' : (fun a => ((cfgT pf).win 7).index ⟨255, h⟩ a * main_v12_1.ty.shape.size a) = fun _ => 0 :=
    funext fun a => by
      match a with
      | ⟨0, _⟩ => rfl
      | ⟨1, _⟩ => rfl
  exact (Memref.read_access_unit_zero (Elt Ideal) main_v12_1 hz' (fun a => by rw [congrFun hz' a]; simp) _).symm

/-- The second accumulator's array after the run holds the running sum after the last point: the one write-back, at the
    last point, writes the whole one-element array. -/
theorem arr7_whole (h : 255 < (cfgT pf).N) : (dat1 pf V c).arrAt 7 (cfgT pf).N = (accs1 pf V c 255 h).2 := by
  refine (dat1 pf V c).arrAt_eq_of_cover 7 ((accs1 pf V c 255 h).2) (flushed7_eq pf V c h) fun i => ?_
  refine ⟨⟨255, h⟩, (flush1_7 pf _).trans (decide_eq_true rfl), ?_⟩
  have hz' : (fun a => ((cfgT pf).win 7).index ⟨255, h⟩ a * main_v12_1.ty.shape.size a) = fun _ => 0 :=
    funext fun a => by
      match a with
      | ⟨0, _⟩ => rfl
      | ⟨1, _⟩ => rfl
  have hm : i ∈ (Rect.unit (fun a => ((cfgT pf).win 7).index ⟨255, h⟩ a * main_v12_1.ty.shape.size a)
      main_v12_1.ty.shape.size (fun a => by rw [congrFun hz' a]; exact Nat.le_of_eq (Nat.zero_add _))).set :=
    View.mem_set_unit_zero hz' _ i
  exact (Finset.ext_iff.1 (View.set_slice_whole main_v12_1 _) i).2 hm

/-- At its one index the first accumulator's array ends at the first running sum after the last point. -/
theorem arr6_final (h : 255 < (cfgT pf).N) :
    (dat1 pf V c).arrAt 6 (cfgT pf).N (ValueIdx.ix2 (0 : Fin 1) (0 : Fin 1))
      = (accs1 pf V c 255 h).1 (ValueIdx.ix2 (0 : Fin 1) (0 : Fin 1)) :=
  congrFun (arr6_whole pf V c h) _

/-- At its one index the second accumulator's array ends at the second running sum after the last point. -/
theorem arr7_final (h : 255 < (cfgT pf).N) :
    (dat1 pf V c).arrAt 7 (cfgT pf).N (ValueIdx.ix2 (0 : Fin 1) (0 : Fin 1))
      = (accs1 pf V c 255 h).2 (ValueIdx.ix2 (0 : Fin 1) (0 : Fin 1)) :=
  congrFun (arr7_whole pf V c h) _

end Cert.KernelIdeal.KV

end
-- ==== Proof.KValueCore.lean ====
import proofs.«413598_j523986010373_2_alg».proof.Defs
import proofs.«413598_j523986010373_2_alg».proof.Proof.Gen.Pre_finite_inputs
import proofs.«413598_j523986010373_2_alg».proof.Proof.Spec
import proofs.«413598_j523986010373_2_alg».proof.Proof.Bridge
import proofs.«413598_j523986010373_2_alg».proof.Proof.PreFacts
import proofs.«413598_j523986010373_2_alg».proof.Proof.Overlap
import proofs.«413598_j523986010373_2_alg».proof.Proof.HostRead
import proofs.«413598_j523986010373_2_alg».proof.Proof.KV0
import proofs.«413598_j523986010373_2_alg».proof.Proof.KV1
import proofs.«413598_j523986010373_2_alg».proof.Proof.KV1b

/-!
The kernel program's result is the reference's function of its six argument arrays.

Everything here is stated over ANY record `outs` of what the two kernels leave in their result arrays, ANY contents `pf` of
the two tables and any core `c`, with the facts the run supplies as hypotheses: the first kernel's two result arrays are its
pipeline's final arrays, the second kernel's likewise, and the tables are what the host computed before the second kernel.

* The first kernel's results are, row by row, the squared high-dimensional distance and the low-dimensional distance of the
  edges (`outs_dh2`, `outs_dl`); the host hands them to the second kernel as a column and as a row, together with the keys
  as a column and as a row (`in_dhR` … `in_keyC`).
* So the second kernel's two results are the accumulated sum of differences and the accumulated count over all `256` tile
  pairs (`outs_loss`, `outs_count`), and the program's result, their guarded quotient, is the kernel's result as the
  specification states it (`v18_eq_kResult`).
* The tables hold each tile's smallest and largest group id (`tab_min`, `tab_max`), so a tile pair that fails the overlap
  test holds no two edges of equal group id (`skip_no_equal`); the precondition makes every group id non-negative
  (`inputs_seg_nonneg`); so the kernel's result is the reference's (`v18_eq_rResult`, `run_spec_of`).
-/

set_option maxRecDepth 16384

noncomputable section

namespace Cert.KernelIdeal.KV

open Cert.KernelIdeal Cert.KernelIdeal.Gen Cert.KernelIdeal.Hand Cert.Spec
open Idealize.ShloMosaic Idealize.ShloMosaic.TcCoe Idealize.ShloMosaic.ValueIdx Idealize.SL.Sem

section Core

variable (m : (ℓ : Loc nD τ sig) → Buf (Elt Ideal) ℓ) (outs : Outs (F := Ideal))
  (pf : pre1.Contents (Elt Ideal)) (c : Dev nD)

/-- The inputs of core `c`: its six argument arrays as launched. -/
abbrev inputs : Inputs :=
  ofArrays (m ((c : Thread nD τ).loc main_arg0)) (m ((c : Thread nD τ).loc main_arg1))
    (m ((c : Thread nD τ).loc main_arg2)) (m ((c : Thread nD τ).loc main_arg3))
    (m ((c : Thread nD τ).loc main_arg4)) (m ((c : Thread nD τ).loc main_arg5))

/-- The core's buffers when the first kernel is entered: the launch memory. -/
abbrev Vin0 : (c : Dev nD) → (b : Ref sig .tc) → Buf (Elt Ideal) ((c : Thread nD τ).loc b) := fun c b => V0 m c b

/-- The core's buffers when the second kernel is entered. -/
abbrev Vin1 : (c : Dev nD) → (b : Ref sig .tc) → Buf (Elt Ideal) ((c : Thread nD τ).loc b) := fun c b => V4 m outs c b

/-! ## What the second kernel finds in its six inputs -/

section Inputs

variable (h00 : outs 1 main_v0_0 c = (dat0 (Vin0 m) c).arrAt 4 cfg0.N)
  (h01 : outs 1 main_v0_1 c = (dat0 (Vin0 m) c).arrAt 5 cfg0.N)

include h00 in
/-- The first kernel's first result, row `r`: the squared high-dimensional distance of edge `r`. -/
theorem outs_dh2 (r : Fin 8192) :
    (outs 1 main_v0_0 c : S8192x1.Idx → EReal) (ix2 r (0 : Fin 1)) = dh2 (inputs m c) r := by
  rw [h00]
  exact arr4_eq (inputs m c) (Vin0 m) c (fun _ _ => rfl) (fun _ _ => rfl) r

include h01 in
/-- The first kernel's second result, row `r`: the low-dimensional distance of edge `r`. -/
theorem outs_dl (r : Fin 8192) :
    (outs 1 main_v0_1 c : S8192x1.Idx → EReal) (ix2 r (0 : Fin 1)) = dl (inputs m c) r := by
  rw [h01]
  exact arr5_eq (inputs m c) (Vin0 m) c (fun _ _ => rfl) (fun _ _ => rfl) r

include h00 in
theorem in_dhR (r : Fin 8192) : Vin1 m outs c main_v0_0 (ix2 r (0 : Fin 1)) = dh2 (inputs m c) r :=
  (congrFun (HostRead.v0_0_kept m outs c) _).trans (outs_dh2 m outs c h00 r)

include h00 in
theorem in_dhC (r : Fin 8192) : Vin1 m outs c main_v8 (ix2 (0 : Fin 1) r) = dh2 (inputs m c) r :=
  (HostRead.v8_apply m outs c r).trans (outs_dh2 m outs c h00 r)

include h01 in
theorem in_dlR (r : Fin 8192) : Vin1 m outs c main_v0_1 (ix2 r (0 : Fin 1)) = dl (inputs m c) r :=
  (congrFun (HostRead.v0_1_kept m outs c) _).trans (outs_dl m outs c h01 r)

include h01 in
theorem in_dlC (r : Fin 8192) : Vin1 m outs c main_v9 (ix2 (0 : Fin 1) r) = dl (inputs m c) r :=
  (HostRead.v9_apply m outs c r).trans (outs_dl m outs c h01 r)

/-- The key column holds the keys. -/
theorem in_keyR (r : Fin 8192) : Vin1 m outs c main_v10 (ix2 r (0 : Fin 1)) = key (inputs m c) r :=
  HostRead.key_row_apply m outs c r

/-- The key row holds the keys. -/
theorem in_keyC (r : Fin 8192) : Vin1 m outs c main_v11 (ix2 (0 : Fin 1) r) = key (inputs m c) r :=
  HostRead.key_col_apply m outs c r

end Inputs

/-! ## The two accumulated sums and the result -/

section Result

variable (h00 : outs 1 main_v0_0 c = (dat0 (Vin0 m) c).arrAt 4 cfg0.N)
  (h01 : outs 1 main_v0_1 c = (dat0 (Vin0 m) c).arrAt 5 cfg0.N)
  (h120 : outs 5 main_v12_0 c = (dat1 pf (Vin1 m outs) c).arrAt 6 (cfgT pf).N)
  (h121 : outs 5 main_v12_1 c = (dat1 pf (Vin1 m outs) c).arrAt 7 (cfgT pf).N)

theorem last_lt : 255 < (cfgT pf).N := by rw [N_T]; decide

include h00 h01 h120 in
/-- The second kernel's first result is the accumulated sum of differences over all `256` grid points. -/
theorem outs_loss :
    (outs 5 main_v12_0 c : S1x1.Idx → EReal) (ix2 (0 : Fin 1) (0 : Fin 1)) = accLoss (inputs m c) (ovOf pf) 256 := by
  rw [h120, arr6_final pf (Vin1 m outs) c (last_lt pf)]
  exact (accs_eq (inputs m c) pf (Vin1 m outs) c (in_dhR m outs c h00) (in_dhC m outs c h00) (in_dlR m outs c h01)
    (in_dlC m outs c h01) (in_keyR m outs c) (in_keyC m outs c) 255 (last_lt pf)).1

include h00 h01 h121 in
/-- The second kernel's second result is the accumulated count over all `256` grid points. -/
theorem outs_count :
    (outs 5 main_v12_1 c : S1x1.Idx → EReal) (ix2 (0 : Fin 1) (0 : Fin 1)) = accCount (inputs m c) (ovOf pf) 256 := by
  rw [h121, arr7_final pf (Vin1 m outs) c (last_lt pf)]
  exact (accs_eq (inputs m c) pf (Vin1 m outs) c (in_dhR m outs c h00) (in_dhC m outs c h00) (in_dlR m outs c h01)
    (in_dlC m outs c h01) (in_keyR m outs c) (in_keyC m outs c) 255 (last_lt pf)).2

include h00 h01 h120 h121 in
/-- The program's result is the kernel's result as the specification states it. -/
theorem v18_eq_kResult :
    (V7 m outs c main_v18 : S_.Idx → EReal) ix0 = kResult (inputs m c) (ovOf pf) := by
  rw [HostRead.result_apply]
  dsimp only
  rw [outs_loss m outs pf c h00 h01 h120, outs_count m outs pf c h00 h01 h121]
  rfl

end Result

/-! ## The skipped tiles and the sign of the group ids -/

section Skip

variable (hpf : ∀ k, pf k = V4 m outs c (pre1.ref k))

include hpf in
/-- Word `i` of the first table is the smallest group id of tile `i` as the host computed it. -/
theorem tab_min (i : Fin 16) :
    pf.atD 0 ![i.val] = (V4 m outs c main_v6 : S16.Idx → BitVec 32) (ValueIdx.ix1 i) := by
  unfold Pipeline.Prefetch.Contents.atD
  rw [dif_pos (fun a => by
    match a with
    | ⟨0, _⟩ => show i.val + 1 ≤ 16; omega)]
  rw [hpf 0]
  refine congrArg (V4 m outs c main_v6 : S16.Idx → BitVec 32) (funext fun a => ?_)
  match a with
  | ⟨0, _⟩ => rfl

include hpf in
/-- Word `i` of the second table is the largest group id of tile `i` as the host computed it. -/
theorem tab_max (i : Fin 16) :
    pf.atD 1 ![i.val] = (V4 m outs c main_v7 : S16.Idx → BitVec 32) (ValueIdx.ix1 i) := by
  unfold Pipeline.Prefetch.Contents.atD
  rw [dif_pos (fun a => by
    match a with
    | ⟨0, _⟩ => show i.val + 1 ≤ 16; omega)]
  rw [hpf 1]
  refine congrArg (V4 m outs c main_v7 : S16.Idx → BitVec 32) (funext fun a => ?_)
  match a with
  | ⟨0, _⟩ => rfl

include hpf in
/-- A tile pair that fails the overlap test holds no two edges of equal group id: an equal id `s` of row tile `i` and
    column tile `j` lies between both tiles' smallest and largest ids, so the test holds. -/
theorem skip_no_equal (i j : Fin 16) (hno : ¬ ovOf pf i j) (a b : Fin 512) :
    (inputs m c).seg (row i a) ≠ (inputs m c).seg (row j b) := by
  intro he
  apply hno
  unfold ovOf
  rw [tab_max m outs pf c hpf i, tab_min m outs pf c hpf j, tab_min m outs pf c hpf i, tab_max m outs pf c hpf j]
  refine Overlap.cond2_of_common _ _ _ _ ((inputs m c).seg (row i a)) ?_ ?_ ?_ ?_
  · rw [he]; exact HostRead.tmin_le m outs c j b
  · exact HostRead.le_tmax m outs c i a
  · exact HostRead.tmin_le m outs c i a
  · rw [he]; exact HostRead.le_tmax m outs c j b

end Skip

/-- Under the precondition every group id of core `c` is non-negative. -/
theorem inputs_seg_nonneg (hpre : Cert.Pre_KernelIdeal m) (r : Fin 8192) : 0 ≤ ((inputs m c).seg r).toInt :=
  Cert.PreFacts.seg_nonneg _ _ _ _ _ _ (hpre c) r

/-- THE VALUE.  With the two kernels' results where the run puts them and the tables the host's, the program's result is
    the reference's function of core `c`'s six argument arrays. -/
theorem v18_eq_rResult (hpre : Cert.Pre_KernelIdeal m)
    (h00 : outs 1 main_v0_0 c = (dat0 (Vin0 m) c).arrAt 4 cfg0.N)
    (h01 : outs 1 main_v0_1 c = (dat0 (Vin0 m) c).arrAt 5 cfg0.N)
    (h120 : outs 5 main_v12_0 c = (dat1 pf (Vin1 m outs) c).arrAt 6 (cfgT pf).N)
    (h121 : outs 5 main_v12_1 c = (dat1 pf (Vin1 m outs) c).arrAt 7 (cfgT pf).N)
    (hpf : ∀ k, pf k = V4 m outs c (pre1.ref k)) :
    (V7 m outs c main_v18 : S_.Idx → EReal) = fun _ => rResult (inputs m c) := by
  funext j
  obtain rfl : j = ix0 := eq_ix0 j
  rw [v18_eq_kResult m outs pf c h00 h01 h120 h121]
  exact kResult_eq_rResult (inputs m c) (ovOf pf) (inputs_seg_nonneg m c hpre) (skip_no_equal m outs pf c hpf)

end Core

/-! ## The run -/

/-- The six argument arrays of core `c` end as launched. -/
abbrev ArgsKept (m : (ℓ : Loc nD τ sig) → Buf (Elt Ideal) ℓ) (mem : (ℓ : Loc nD τ sig) → Buf (Elt Ideal) ℓ) (c : Dev nD) : Prop :=
  mem ((c.tc : Thread nD τ).loc main_arg0) = m ((c.tc : Thread nD τ).loc main_arg0)
    ∧ mem ((c.tc : Thread nD τ).loc main_arg1) = m ((c.tc : Thread nD τ).loc main_arg1)
    ∧ mem ((c.tc : Thread nD τ).loc main_arg2) = m ((c.tc : Thread nD τ).loc main_arg2)
    ∧ mem ((c.tc : Thread nD τ).loc main_arg3) = m ((c.tc : Thread nD τ).loc main_arg3)
    ∧ mem ((c.tc : Thread nD τ).loc main_arg4) = m ((c.tc : Thread nD τ).loc main_arg4)
    ∧ mem ((c.tc : Thread nD τ).loc main_arg5) = m ((c.tc : Thread nD τ).loc main_arg5)

/-- A run whose result buffer ends at the program's value over SOME record `outs` of the kernels' results, tables `pf`
    and contents `V1` of the buffers at the second kernel's entry that are where the run puts them, ends at the reference's function of the argument arrays. -/
theorem run_spec_of (m : (ℓ : Loc nD τ sig) → Buf (Elt Ideal) ℓ) (ρ : Dev nD → PrngReg) (hpre : Cert.Pre_KernelIdeal m)
    (outs : Outs (F := Ideal)) (pf : pre1.Contents (Elt Ideal))
    (hpf : ∀ k, pf k = V4 m outs (0 : Dev nD) (pre1.ref k))
    (h00 : ∀ c, outs 1 main_v0_0 c = (dat0 (Vin0 m) c).arrAt 4 cfg0.N)
    (h01 : ∀ c, outs 1 main_v0_1 c = (dat0 (Vin0 m) c).arrAt 5 cfg0.N)
    (V1 : (c : Dev nD) → (b : Ref sig .tc) → Buf (Elt Ideal) ((c : Thread nD τ).loc b))
    (hV1 : ∀ c b, V1 c b = V4 m outs c b)
    (h120 : ∀ c, outs 5 main_v12_0 c = (dat1 pf V1 c).arrAt 6 (cfgT pf).N)
    (h121 : ∀ c, outs 5 main_v12_1 c = (dat1 pf V1 c).arrAt 7 (cfgT pf).N)
    (hrun : θ_run (Cert.KernelIdeal.defs (F := Ideal)) (onTc (τ := τ) (Cert.KernelIdeal.main (F := Ideal))) ⟨m, fun _ => 0, ρ⟩
      (fun r => ∀ c : Dev nD, r.2.mem ((c.tc : Thread nD τ).loc main_v18) = V7 m outs c main_v18 ∧ ArgsKept m r.2.mem c)) :
    θ_run (Cert.KernelIdeal.defs (F := Ideal)) (onTc (τ := τ) (Cert.KernelIdeal.main (F := Ideal))) ⟨m, fun _ => 0, ρ⟩
      (fun r => ∀ c : Dev nD,
        r.2.mem ((c.tc : Thread nD τ).loc main_v18)
          = (fun _ => Cert.Spec.rResult (Cert.Spec.ofArrays (m ((c.tc : Thread nD τ).loc main_arg0))
              (m ((c.tc : Thread nD τ).loc main_arg1)) (m ((c.tc : Thread nD τ).loc main_arg2))
              (m ((c.tc : Thread nD τ).loc main_arg3)) (m ((c.tc : Thread nD τ).loc main_arg4))
              (m ((c.tc : Thread nD τ).loc main_arg5))))
        ∧ ArgsKept m r.2.mem c) :=
  (θ_run _ _ _).mono (fun r h c => by
    obtain rfl : V1 = Vin1 m outs := funext fun c => funext fun b => hV1 c b
    obtain ⟨hv, hargs⟩ := h c
    refine ⟨hv.trans ?_, hargs⟩
    have hc : c = (0 : Dev nD) := Subsingleton.elim _ _
    exact v18_eq_rResult m outs pf c hpre (h00 c) (h01 c) (h120 c) (h121 c) (fun k => by rw [hc]; exact hpf k)) hrun

end Cert.KernelIdeal.KV

end
-- ==== Proof.KValue.lean ====
import proofs.«413598_j523986010373_2_alg».proof.Proof.KValueCore
import proofs.«413598_j523986010373_2_alg».proof.Proof.Run

/-!
The kernel program's run ends with its result buffer at the reference's function of the six argument arrays and the
arguments as launched: the run's own post (the result buffer at the program's value over the record of what the two kernels
left, the tables the host's) carried through `run_spec_of`.
-/

noncomputable section

namespace Cert.KernelIdeal.KV

open Cert.KernelIdeal Cert.KernelIdeal.Gen Cert.KernelIdeal.Hand Cert.Spec
open Idealize.ShloMosaic Idealize.ShloMosaic.TcCoe Idealize.SL.Sem

/-- From any memory that meets the precondition, with zero counters, every weakly fair execution of the kernel program
    terminates with the result buffer of each core at the reference's result on that core's six argument arrays, and the
    arguments unchanged. -/
theorem run_spec (m : (ℓ : Loc nD τ sig) → Buf (Elt Ideal) ℓ) (ρ : Dev nD → PrngReg) (hpre : Cert.Pre_KernelIdeal m) :
    θ_run (Cert.KernelIdeal.defs (F := Ideal)) (onTc (τ := τ) (Cert.KernelIdeal.main (F := Ideal))) ⟨m, fun _ => 0, ρ⟩
      (fun r => ∀ c : Dev nD,
        r.2.mem ((c.tc : Thread nD τ).loc main_v18)
          = (fun _ => Cert.Spec.rResult (Cert.Spec.ofArrays (m ((c.tc : Thread nD τ).loc main_arg0))
              (m ((c.tc : Thread nD τ).loc main_arg1)) (m ((c.tc : Thread nD τ).loc main_arg2))
              (m ((c.tc : Thread nD τ).loc main_arg3)) (m ((c.tc : Thread nD τ).loc main_arg4))
              (m ((c.tc : Thread nD τ).loc main_arg5))))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)) :=
  run_spec_of m ρ hpre (outsOf m) (pfOf m) (pfOf_eq m) (outs_v0_0 m) (outs_v0_1 m) (Vent1 m) (Vent1_eq m)
    (outs_v12_0 m) (outs_v12_1 m) (run_value m ρ)

end Cert.KernelIdeal.KV

end
-- ==== Proof.RefStages.lean ====
import proofs.«413598_j523986010373_2_alg».proof.Proof.RefRun
import proofs.«413598_j523986010373_2_alg».proof.Proof.RefRead
import Idealize.ShloMosaic.Lib.StableHlo.Run
import Idealize.ShloMosaic.Lib.Pipeline.Frame

/-!
The reference's run, stated over stages.

The reference is a straight line of 52 operations, and what a buffer holds after the line is the fold `after ops` of
the operations' results. The stages `val_<buffer>` name what each operation writes as a function of the six argument
arrays. Here the line is cut into six stretches and each stretch is read on its own, from ANY contents `V` of the
buffers: given that the buffers the stretch reads hold their stages, the buffers it writes that a later stretch reads
hold theirs, and a buffer it does not write keeps its contents. The whole line is the stretches one after the other,
so the result buffer ends at the stage `val_main_v39` of the six argument arrays. No step compares more than one
stretch's worth of operations.

* operations 1–10: the two distance columns `main_v1` (high-dimensional) and `main_v3` (low-dimensional);
* operations 11–20: the tests "same group" `main_v8` and "both flagged" `main_v13`;
* operations 21–30: the tests "strictly closer in the high dimension" `main_v18` and "at least as far in the low one"
  `main_v23`;
* operations 31–38: the mask `main_v26` and the differences `main_v31`;
* operations 39–46: the count `main_v33` and the sum `main_v35`;
* operations 47–52: the result `main_v39`.
-/

noncomputable section

namespace Cert.ReferenceIdeal.ValueP

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-! ## The six stretches -/

/-- Operations 1–10: the distances. -/
abbrev opsA : List (HloOp τ sig (Elt F)) :=
  [ binary main_arg0 main_arg1 main_v0 (subf : (⟨S8192x512, .f32⟩ : BufTy).Contents (Elt F) → (⟨S8192x512, .f32⟩ : BufTy).Contents (Elt F) → (⟨S8192x512, .f32⟩ : BufTy).Contents (Elt F)),
    TRef.binary (TRef.of (T := ⟨S8192x512, .f32⟩) main_v0) (TRef.of (T := ⟨S8192x512, .f32⟩) main_v0) (TRef.of (T := ⟨S8192x512, .f32⟩) main_call0_v0) mulf,
    TRef.nullary (TRef.of (T := ⟨S_, .f32⟩) main_call0_cst) (constant S_ .f32 0x00000000#32),
    TRef.binary (TRef.of (T := ⟨S8192x512, .f32⟩) main_call0_v0) (TRef.of (T := ⟨S_, .f32⟩) main_call0_cst) (TRef.of (T := ⟨S8192, .f32⟩) main_call0_v1) (fun x v => Host.reduceAdd x v reducesTo_S8192x512_S8192_d1 h_S_),
    TRef.unary (TRef.of (T := ⟨S8192, .f32⟩) main_call0_v1) (TRef.of (T := ⟨S8192, .f32⟩) main_v1) Host.sqrt,
    binary main_arg2 main_arg3 main_v2 (subf : (⟨S8192x2, .f32⟩ : BufTy).Contents (Elt F) → (⟨S8192x2, .f32⟩ : BufTy).Contents (Elt F) → (⟨S8192x2, .f32⟩ : BufTy).Contents (Elt F)),
    TRef.binary (TRef.of (T := ⟨S8192x2, .f32⟩) main_v2) (TRef.of (T := ⟨S8192x2, .f32⟩) main_v2) (TRef.of (T := ⟨S8192x2, .f32⟩) main_call1_v0) mulf,
    TRef.nullary (TRef.of (T := ⟨S_, .f32⟩) main_call1_cst) (constant S_ .f32 0x00000000#32),
    TRef.binary (TRef.of (T := ⟨S8192x2, .f32⟩) main_call1_v0) (TRef.of (T := ⟨S_, .f32⟩) main_call1_cst) (TRef.of (T := ⟨S8192, .f32⟩) main_call1_v1) (fun x v => Host.reduceAdd x v reducesTo_S8192x2_S8192_d1 h_S_),
    TRef.unary (TRef.of (T := ⟨S8192, .f32⟩) main_call1_v1) (TRef.of (T := ⟨S8192, .f32⟩) main_v3) Host.sqrt ]

/-- Operations 11–20: the group and flag tests. -/
abbrev opsB : List (HloOp τ sig (Elt F)) :=
  [ unary main_arg4 main_v4 (broadcastInDim S8192x1 ![0] bcast_S8192_S8192x1_0 : (⟨S8192, .i32⟩ : BufTy).Contents (Elt F) → (⟨S8192x1, .i32⟩ : BufTy).Contents (Elt F)),
    unary main_arg4 main_v5 (broadcastInDim S1x8192 ![1] bcast_S8192_S1x8192_1 : (⟨S8192, .i32⟩ : BufTy).Contents (Elt F) → (⟨S1x8192, .i32⟩ : BufTy).Contents (Elt F)),
    unary main_v4 main_v6 (broadcastInDim S8192x8192 ![0, 1] bcast_S8192x1_S8192x8192_0_1 : (⟨S8192x1, .i32⟩ : BufTy).Contents (Elt F) → (⟨S8192x8192, .i32⟩ : BufTy).Contents (Elt F)),
    unary main_v5 main_v7 (broadcastInDim S8192x8192 ![0, 1] bcast_S1x8192_S8192x8192_0_1 : (⟨S1x8192, .i32⟩ : BufTy).Contents (Elt F) → (⟨S8192x8192, .i32⟩ : BufTy).Contents (Elt F)),
    binary main_v6 main_v7 main_v8 (cmpi .eq : (⟨S8192x8192, .i32⟩ : BufTy).Contents (Elt F) → (⟨S8192x8192, .i32⟩ : BufTy).Contents (Elt F) → (⟨S8192x8192, .i1⟩ : BufTy).Contents (Elt F)),
    unary main_arg5 main_v9 (broadcastInDim S8192x1 ![0] bcast_S8192_S8192x1_0 : (⟨S8192, .i1⟩ : BufTy).Contents (Elt F) → (⟨S8192x1, .i1⟩ : BufTy).Contents (Elt F)),
    unary main_arg5 main_v10 (broadcastInDim S1x8192 ![1] bcast_S8192_S1x8192_1 : (⟨S8192, .i1⟩ : BufTy).Contents (Elt F) → (⟨S1x8192, .i1⟩ : BufTy).Contents (Elt F)),
    unary main_v9 main_v11 (broadcastInDim S8192x8192 ![0, 1] bcast_S8192x1_S8192x8192_0_1 : (⟨S8192x1, .i1⟩ : BufTy).Contents (Elt F) → (⟨S8192x8192, .i1⟩ : BufTy).Contents (Elt F)),
    unary main_v10 main_v12 (broadcastInDim S8192x8192 ![0, 1] bcast_S1x8192_S8192x8192_0_1 : (⟨S1x8192, .i1⟩ : BufTy).Contents (Elt F) → (⟨S8192x8192, .i1⟩ : BufTy).Contents (Elt F)),
    binary main_v11 main_v12 main_v13 (andi : (⟨S8192x8192, .i1⟩ : BufTy).Contents (Elt F) → (⟨S8192x8192, .i1⟩ : BufTy).Contents (Elt F) → (⟨S8192x8192, .i1⟩ : BufTy).Contents (Elt F)) ]

/-- Operations 21–30: the two distance tests. -/
abbrev opsC : List (HloOp τ sig (Elt F)) :=
  [ unary main_v1 main_v14 (broadcastInDim S8192x1 ![0] bcast_S8192_S8192x1_0 : (⟨S8192, .f32⟩ : BufTy).Contents (Elt F) → (⟨S8192x1, .f32⟩ : BufTy).Contents (Elt F)),
    unary main_v1 main_v15 (broadcastInDim S1x8192 ![1] bcast_S8192_S1x8192_1 : (⟨S8192, .f32⟩ : BufTy).Contents (Elt F) → (⟨S1x8192, .f32⟩ : BufTy).Contents (Elt F)),
    unary main_v14 main_v16 (broadcastInDim S8192x8192 ![0, 1] bcast_S8192x1_S8192x8192_0_1 : (⟨S8192x1, .f32⟩ : BufTy).Contents (Elt F) → (⟨S8192x8192, .f32⟩ : BufTy).Contents (Elt F)),
    unary main_v15 main_v17 (broadcastInDim S8192x8192 ![0, 1] bcast_S1x8192_S8192x8192_0_1 : (⟨S1x8192, .f32⟩ : BufTy).Contents (Elt F) → (⟨S8192x8192, .f32⟩ : BufTy).Contents (Elt F)),
    binary main_v16 main_v17 main_v18 (cmpf .olt : (⟨S8192x8192, .f32⟩ : BufTy).Contents (Elt F) → (⟨S8192x8192, .f32⟩ : BufTy).Contents (Elt F) → (⟨S8192x8192, .i1⟩ : BufTy).Contents (Elt F)),
    unary main_v3 main_v19 (broadcastInDim S8192x1 ![0] bcast_S8192_S8192x1_0 : (⟨S8192, .f32⟩ : BufTy).Contents (Elt F) → (⟨S8192x1, .f32⟩ : BufTy).Contents (Elt F)),
    unary main_v3 main_v20 (broadcastInDim S1x8192 ![1] bcast_S8192_S1x8192_1 : (⟨S8192, .f32⟩ : BufTy).Contents (Elt F) → (⟨S1x8192, .f32⟩ : BufTy).Contents (Elt F)),
    unary main_v19 main_v21 (broadcastInDim S8192x8192 ![0, 1] bcast_S8192x1_S8192x8192_0_1 : (⟨S8192x1, .f32⟩ : BufTy).Contents (Elt F) → (⟨S8192x8192, .f32⟩ : BufTy).Contents (Elt F)),
    unary main_v20 main_v22 (broadcastInDim S8192x8192 ![0, 1] bcast_S1x8192_S8192x8192_0_1 : (⟨S1x8192, .f32⟩ : BufTy).Contents (Elt F) → (⟨S8192x8192, .f32⟩ : BufTy).Contents (Elt F)),
    binary main_v21 main_v22 main_v23 (cmpf .oge : (⟨S8192x8192, .f32⟩ : BufTy).Contents (Elt F) → (⟨S8192x8192, .f32⟩ : BufTy).Contents (Elt F) → (⟨S8192x8192, .i1⟩ : BufTy).Contents (Elt F)) ]

/-- Operations 31–38: the mask and the differences. -/
abbrev opsD : List (HloOp τ sig (Elt F)) :=
  [ binary main_v8 main_v13 main_v24 (andi : (⟨S8192x8192, .i1⟩ : BufTy).Contents (Elt F) → (⟨S8192x8192, .i1⟩ : BufTy).Contents (Elt F) → (⟨S8192x8192, .i1⟩ : BufTy).Contents (Elt F)),
    binary main_v24 main_v18 main_v25 (andi : (⟨S8192x8192, .i1⟩ : BufTy).Contents (Elt F) → (⟨S8192x8192, .i1⟩ : BufTy).Contents (Elt F) → (⟨S8192x8192, .i1⟩ : BufTy).Contents (Elt F)),
    binary main_v25 main_v23 main_v26 (andi : (⟨S8192x8192, .i1⟩ : BufTy).Contents (Elt F) → (⟨S8192x8192, .i1⟩ : BufTy).Contents (Elt F) → (⟨S8192x8192, .i1⟩ : BufTy).Contents (Elt F)),
    unary main_v3 main_v27 (broadcastInDim S8192x1 ![0] bcast_S8192_S8192x1_0 : (⟨S8192, .f32⟩ : BufTy).Contents (Elt F) → (⟨S8192x1, .f32⟩ : BufTy).Contents (Elt F)),
    unary main_v3 main_v28 (broadcastInDim S1x8192 ![1] bcast_S8192_S1x8192_1 : (⟨S8192, .f32⟩ : BufTy).Contents (Elt F) → (⟨S1x8192, .f32⟩ : BufTy).Contents (Elt F)),
    unary main_v27 main_v29 (broadcastInDim S8192x8192 ![0, 1] bcast_S8192x1_S8192x8192_0_1 : (⟨S8192x1, .f32⟩ : BufTy).Contents (Elt F) → (⟨S8192x8192, .f32⟩ : BufTy).Contents (Elt F)),
    unary main_v28 main_v30 (broadcastInDim S8192x8192 ![0, 1] bcast_S1x8192_S8192x8192_0_1 : (⟨S1x8192, .f32⟩ : BufTy).Contents (Elt F) → (⟨S8192x8192, .f32⟩ : BufTy).Contents (Elt F)),
    binary main_v29 main_v30 main_v31 (subf : (⟨S8192x8192, .f32⟩ : BufTy).Contents (Elt F) → (⟨S8192x8192, .f32⟩ : BufTy).Contents (Elt F) → (⟨S8192x8192, .f32⟩ : BufTy).Contents (Elt F)) ]

/-- Operations 39–46: the count and the sum. -/
abbrev opsE : List (HloOp τ sig (Elt F)) :=
  [ unary main_v26 main_v32 ((extui 32 · natLt_1_32) : (⟨S8192x8192, .i1⟩ : BufTy).Contents (Elt F) → (⟨S8192x8192, .i32⟩ : BufTy).Contents (Elt F)),
    nullary main_c (constantI S_ 32 0#32),
    binary main_v32 main_c main_v33 ((fun x v => Host.reduce IntOp.addi x v reducesTo_S8192x8192_S_d0_1 h_S_) : (⟨S8192x8192, .i32⟩ : BufTy).Contents (Elt F) → (⟨S_, .i32⟩ : BufTy).Contents (Elt F) → (⟨S_, .i32⟩ : BufTy).Contents (Elt F)),
    nullary main_cst (constant S_ .f32 0x00000000#32),
    TRef.unary (TRef.of (T := ⟨S_, .f32⟩) main_cst) (TRef.of (T := ⟨S8192x8192, .f32⟩) main_call2_v0) (broadcastInDim S8192x8192 ![] bcast_S_S8192x8192),
    TRef.ternary (TRef.of (T := ⟨S8192x8192, .i1⟩) main_v26) (TRef.of (T := ⟨S8192x8192, .f32⟩) main_v31) (TRef.of (T := ⟨S8192x8192, .f32⟩) main_call2_v0) (TRef.of (T := ⟨S8192x8192, .f32⟩) main_v34) select,
    nullary main_cst_0 (constant S_ .f32 0x00000000#32),
    binary main_v34 main_cst_0 main_v35 ((fun x v => Host.reduceAdd x v reducesTo_S8192x8192_S_d0_1 h_S_) : (⟨S8192x8192, .f32⟩ : BufTy).Contents (Elt F) → (⟨S_, .f32⟩ : BufTy).Contents (Elt F) → (⟨S_, .f32⟩ : BufTy).Contents (Elt F)) ]

/-- Operations 47–52: the mean, or zero. The last operation is written over the plain references: it is the same
    operation, a typed reference only carrying its buffer's own type. -/
abbrev opsF : List (HloOp τ sig (Elt F)) :=
  [ nullary main_c_1 (constantI S_ 32 0#32),
    binary main_v33 main_c_1 main_v36 (cmpi .sgt : (⟨S_, .i32⟩ : BufTy).Contents (Elt F) → (⟨S_, .i32⟩ : BufTy).Contents (Elt F) → (⟨S_, .i1⟩ : BufTy).Contents (Elt F)),
    unary main_v33 main_v37 (sitofp .f32 : (⟨S_, .i32⟩ : BufTy).Contents (Elt F) → (⟨S_, .f32⟩ : BufTy).Contents (Elt F)),
    binary main_v35 main_v37 main_v38 (Host.divf : (⟨S_, .f32⟩ : BufTy).Contents (Elt F) → (⟨S_, .f32⟩ : BufTy).Contents (Elt F) → (⟨S_, .f32⟩ : BufTy).Contents (Elt F)),
    nullary main_cst_2 (constant S_ .f32 0x00000000#32),
    ternary main_v36 main_v38 main_cst_2 main_v39 (select : (⟨S_, .i1⟩ : BufTy).Contents (Elt F) → (⟨S_, .f32⟩ : BufTy).Contents (Elt F) → (⟨S_, .f32⟩ : BufTy).Contents (Elt F) → (⟨S_, .f32⟩ : BufTy).Contents (Elt F)) ]

set_option maxRecDepth 8192 in
/-- The line is the six stretches in order. -/
theorem ops_eq : (ops : List (HloOp τ sig (Elt F))) = opsA ++ (opsB ++ (opsC ++ (opsD ++ (opsE ++ opsF)))) := rfl

/-! ## Each stretch, from any contents -/

/-- Operations 1–10 leave the two distance columns, computed from the four float arguments, and keep the two integer
    arguments. -/
theorem stretchA (V : Valuation τ sig (Elt F)) :
    after opsA V (Proc.devRef .tc main_v1) = val_main_v1 (V (Proc.devRef .tc main_arg0)) (V (Proc.devRef .tc main_arg1))
    ∧ after opsA V (Proc.devRef .tc main_v3) = val_main_v3 (V (Proc.devRef .tc main_arg2)) (V (Proc.devRef .tc main_arg3))
    ∧ after opsA V (Proc.devRef .tc main_arg4) = V (Proc.devRef .tc main_arg4)
    ∧ after opsA V (Proc.devRef .tc main_arg5) = V (Proc.devRef .tc main_arg5) := by
  refine ⟨?_, ?_, ?_, ?_⟩ <;> after_results_simp <;> rfl

/-- Operations 11–20 leave the two integer tests, computed from the two integer arguments, and keep the distances. -/
theorem stretchB (V : Valuation τ sig (Elt F)) :
    after opsB V (Proc.devRef .tc main_v8) = val_main_v8 (V (Proc.devRef .tc main_arg4))
    ∧ after opsB V (Proc.devRef .tc main_v13) = val_main_v13 (V (Proc.devRef .tc main_arg5))
    ∧ after opsB V (Proc.devRef .tc main_v1) = V (Proc.devRef .tc main_v1)
    ∧ after opsB V (Proc.devRef .tc main_v3) = V (Proc.devRef .tc main_v3) := by
  refine ⟨?_, ?_, ?_, ?_⟩ <;> after_results_simp <;> rfl

/-- Operations 21–30 leave the two distance tests, and keep the low-dimensional distances and the integer tests. -/
theorem stretchC (V : Valuation τ sig (Elt F)) {x0 x1 : (⟨S8192x512, .f32⟩ : BufTy).Contents (Elt F)} {x2 x3 : (⟨S8192x2, .f32⟩ : BufTy).Contents (Elt F)}
    (h1 : V (Proc.devRef .tc main_v1) = val_main_v1 x0 x1) (h3 : V (Proc.devRef .tc main_v3) = val_main_v3 x2 x3) :
    after opsC V (Proc.devRef .tc main_v18) = val_main_v18 x0 x1
    ∧ after opsC V (Proc.devRef .tc main_v23) = val_main_v23 x2 x3
    ∧ after opsC V (Proc.devRef .tc main_v3) = V (Proc.devRef .tc main_v3)
    ∧ after opsC V (Proc.devRef .tc main_v8) = V (Proc.devRef .tc main_v8)
    ∧ after opsC V (Proc.devRef .tc main_v13) = V (Proc.devRef .tc main_v13) := by
  refine ⟨?_, ?_, ?_, ?_, ?_⟩ <;> after_results_simp
  · rw [h1]; rfl
  · rw [h3]; rfl

/-- Operations 31–38 leave the mask and the differences. -/
theorem stretchD (V : Valuation τ sig (Elt F)) {x0 x1 : (⟨S8192x512, .f32⟩ : BufTy).Contents (Elt F)} {x2 x3 : (⟨S8192x2, .f32⟩ : BufTy).Contents (Elt F)} {x4 : (⟨S8192, .i32⟩ : BufTy).Contents (Elt F)} {x5 : (⟨S8192, .i1⟩ : BufTy).Contents (Elt F)}
    (h8 : V (Proc.devRef .tc main_v8) = val_main_v8 x4) (h13 : V (Proc.devRef .tc main_v13) = val_main_v13 x5)
    (h18 : V (Proc.devRef .tc main_v18) = val_main_v18 x0 x1) (h23 : V (Proc.devRef .tc main_v23) = val_main_v23 x2 x3)
    (h3 : V (Proc.devRef .tc main_v3) = val_main_v3 x2 x3) :
    after opsD V (Proc.devRef .tc main_v26) = val_main_v26 x0 x1 x2 x3 x4 x5
    ∧ after opsD V (Proc.devRef .tc main_v31) = val_main_v31 x2 x3 := by
  refine ⟨?_, ?_⟩ <;> after_results_simp
  · rw [h8, h13, h18, h23]; rfl
  · rw [h3]; rfl

/-- Operations 39–46 leave the count and the sum. -/
theorem stretchE (V : Valuation τ sig (Elt F)) {x0 x1 : (⟨S8192x512, .f32⟩ : BufTy).Contents (Elt F)} {x2 x3 : (⟨S8192x2, .f32⟩ : BufTy).Contents (Elt F)} {x4 : (⟨S8192, .i32⟩ : BufTy).Contents (Elt F)} {x5 : (⟨S8192, .i1⟩ : BufTy).Contents (Elt F)}
    (h26 : V (Proc.devRef .tc main_v26) = val_main_v26 x0 x1 x2 x3 x4 x5) (h31 : V (Proc.devRef .tc main_v31) = val_main_v31 x2 x3) :
    after opsE V (Proc.devRef .tc main_v33) = val_main_v33 x0 x1 x2 x3 x4 x5
    ∧ after opsE V (Proc.devRef .tc main_v35) = val_main_v35 x0 x1 x2 x3 x4 x5 := by
  refine ⟨?_, ?_⟩ <;> after_results_simp
  · rw [h26]; rfl
  · rw [h26, h31]; rfl

/-- Operations 47–52 leave the result. -/
theorem stretchF (V : Valuation τ sig (Elt F)) {x0 x1 : (⟨S8192x512, .f32⟩ : BufTy).Contents (Elt F)} {x2 x3 : (⟨S8192x2, .f32⟩ : BufTy).Contents (Elt F)} {x4 : (⟨S8192, .i32⟩ : BufTy).Contents (Elt F)} {x5 : (⟨S8192, .i1⟩ : BufTy).Contents (Elt F)}
    (h33 : V (Proc.devRef .tc main_v33) = val_main_v33 x0 x1 x2 x3 x4 x5) (h35 : V (Proc.devRef .tc main_v35) = val_main_v35 x0 x1 x2 x3 x4 x5) :
    after opsF V (Proc.devRef .tc main_v39) = val_main_v39 x0 x1 x2 x3 x4 x5 := by
  after_results_simp
  rw [h33, h35]; rfl

/-! ## The whole line -/

/-- After the whole line, from any contents, the result buffer holds the last stage of the six argument buffers'
    contents. -/
theorem after_main_v39 (V : Valuation τ sig (Elt F)) :
    after ops V (Proc.devRef .tc main_v39)
      = val_main_v39 (V (Proc.devRef .tc main_arg0)) (V (Proc.devRef .tc main_arg1)) (V (Proc.devRef .tc main_arg2)) (V (Proc.devRef .tc main_arg3))
          (V (Proc.devRef .tc main_arg4)) (V (Proc.devRef .tc main_arg5)) := by
  rw [ops_eq, after_append, after_append, after_append, after_append, after_append]
  obtain ⟨a1, a3, a4, a5⟩ := stretchA V
  obtain ⟨b8, b13, b1, b3⟩ := stretchB (after opsA V)
  rw [a4] at b8; rw [a5] at b13; rw [a1] at b1; rw [a3] at b3
  obtain ⟨c18, c23, c3, c8, c13⟩ := stretchC (after opsB (after opsA V)) b1 b3
  rw [b3] at c3; rw [b8] at c8; rw [b13] at c13
  obtain ⟨d26, d31⟩ := stretchD (after opsC (after opsB (after opsA V))) c8 c13 c18 c23 c3
  obtain ⟨e33, e35⟩ := stretchE (after opsD (after opsC (after opsB (after opsA V)))) d26 d31
  exact stretchF _ e33 e35

set_option maxRecDepth 8192 in
/-- On every device, for any float values, from any memory with zero counters: every weakly fair execution of
    @main terminates with the result buffer at the last stage of the argument arrays and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v39)
        = val_main_v39 (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v39).trans (after_main_v39 _),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_after m ρ)

end Cert.ReferenceIdeal.ValueP

end
-- ==== Proof.RefCount.lean ====
/-
  The count of the reference's pair mask: the sum-reduction of the widened mask bits over both axes of the 8192 by 8192
  square is the word of the number of set bits, a number at most 2^26; such a word compares with zero and converts to a
  real as the number itself.
-/
import proofs.«413598_j523986010373_2_alg».proof.Proof.RefRead
import proofs.«413598_j523986010373_2_alg».proof.Proof.Spec
import Idealize.ShloMosaic.Lib.ValueIdx
import Idealize.ShloMosaic.Lib.StableHlo.Predicate
import Idealize.ShloMosaic.PureOps.Ideal.Laws

noncomputable section

namespace Cert.ReferenceIdeal.RefValue

open Cert.ReferenceIdeal Cert.ReferenceIdeal.Gen Cert.ReferenceIdeal.ReadP Idealize.ShloMosaic Idealize.ShloMosaic.ValueIdx

/-! (i) the integer count -/

theorem count_le (p : Fin 8192 → Fin 8192 → Prop) [∀ r c, Decidable (p r c)] :
    (∑ r : Fin 8192, ∑ c : Fin 8192, if p r c then 1 else 0) ≤ 2 ^ 26 := by
  calc (∑ r : Fin 8192, ∑ c : Fin 8192, if p r c then 1 else 0)
      ≤ ∑ r : Fin 8192, ∑ c : Fin 8192, 1 :=
        Finset.sum_le_sum fun r _ => Finset.sum_le_sum fun c _ => by split <;> omega
    _ = 2 ^ 26 := by
        simp only [Finset.sum_const, Finset.card_univ, Fintype.card_fin, smul_eq_mul]
        norm_num

/-- A widened mask bit's value, summed over a square index set, is the double sum over rows and columns. -/
theorem count_sum_bits (mask : IVec (⟨2, ![8192, 8192]⟩ : Shape) 1) (hw : 1 < 32) :
    ∑ i : (⟨2, ![8192, 8192]⟩ : Shape).Idx, (extui 32 mask hw i).toNat
      = ∑ r : Fin 8192, ∑ c : Fin 8192, if mask (ix2 r c) = 1#1 then 1 else 0 := by
  rw [sum_idx2]
  exact Finset.sum_congr rfl fun r _ => Finset.sum_congr rfl fun c _ =>
    StableHlo.Predicate.toNat_setWidth_bit (mask (ix2 r c))

theorem count_reduce (mask : IVec (⟨2, ![8192, 8192]⟩ : Shape) 1) (hw : 1 < 32)
    (h : (⟨2, ![8192, 8192]⟩ : Shape).ReducesTo [0, 1] ⟨0, ![]⟩) {u : Shape} (hu : 0 < u.numel) (j : (⟨0, ![]⟩ : Shape).Idx) :
    Host.reduce IntOp.addi (extui 32 mask hw) (constantI u 32 0#32) h hu j
      = BitVec.ofNat 32 (∑ r : Fin 8192, ∑ c : Fin 8192, if mask (ix2 r c) = 1#1 then 1 else 0) := by
  classical
  have hle := count_le (fun r c => mask (ix2 r c) = 1#1)
  have hall : (Finset.univ.filter fun i : (⟨2, ![8192, 8192]⟩ : Shape).Idx => h.drop i = j) = Finset.univ :=
    Finset.filter_true_of_mem fun i _ => funext fun d => d.elim0
  apply BitVec.eq_of_toNat_eq
  rw [Host.reduce_eq_fold]
  show (Finset.fold IntOp.addi 0#32 (extui 32 mask hw) (Finset.univ.filter fun i : (⟨2, ![8192, 8192]⟩ : Shape).Idx => h.drop i = j)).toNat = _
  rw [hall, StableHlo.Predicate.toNat_fold_addi _ _ (by rw [count_sum_bits]; omega), count_sum_bits, BitVec.toNat_ofNat]
  exact (Nat.mod_eq_of_lt (by omega)).symm

theorem sgt_ofNat (n : ℕ) (hn : n ≤ 2 ^ 26) :
    IntOp.cmpi .sgt (BitVec.ofNat 32 n) 0#32 = if 0 < n then 1#1 else 0#1 := by
  have hnat : (BitVec.ofNat 32 n).toNat = n := by rw [BitVec.toNat_ofNat]; exact Nat.mod_eq_of_lt (by omega)
  have hiff := StableHlo.Predicate.sgt_iff_toNat (a := BitVec.ofNat 32 n) (b := 0#32) (by omega) (by decide)
  rw [hnat] at hiff
  by_cases h : 0 < n
  · rw [if_pos h]; exact hiff.mpr h
  · rw [if_neg h]; exact eq_zero_of_ne_one fun e => h (hiff.mp e)

theorem sitofp_ofNat (n : ℕ) (hn : n ≤ 2 ^ 26) :
    FloatOps.sitofp (F := Ideal) .f32 (BitVec.ofNat 32 n) = (((n : ℕ) : ℝ) : EReal) := by
  show ((((BitVec.ofNat 32 n).toInt : ℤ) : ℝ) : EReal) = _
  rw [StableHlo.Predicate.toInt_ofNat_small n (by omega), Int.cast_natCast]

end Cert.ReferenceIdeal.RefValue

end
-- ==== Proof.RefDist.lean ====
import proofs.«413598_j523986010373_2_alg».proof.Proof.RefRead
import proofs.«413598_j523986010373_2_alg».proof.Proof.Spec
import Idealize.ShloMosaic.Lib.ValueIdx
import Idealize.ShloMosaic.Lib.StableHlo.Predicate
import Idealize.ShloMosaic.PureOps.Ideal.Laws

/-!
The reference's two distances, edge by edge, over the extended reals.

The reference subtracts the two arrays of a pair entry by entry, squares the differences, adds the squares along each
row starting from zero, and takes the root of every row sum. Read at edge `r` this is the root of the sum over the
columns of the squared differences of row `r`: the high-dimensional distance `dh` for the 512-column pair and the
low-dimensional distance `dl` for the 2-column pair.
-/

noncomputable section

namespace Cert.ReferenceIdeal.RefValue

open Cert.ReferenceIdeal Cert.ReferenceIdeal.Gen Cert.ReferenceIdeal.ReadP Idealize.ShloMosaic Idealize.ShloMosaic.ValueIdx

/-- Column `k` of row `r`, as the high-dimensional row sum indexes its operand. -/
theorem rowcol512 (r : Fin 8192) (k : Fin 512) : idx_main_call0_v1 (ix1 r) k = ix2 r k := by
  funext a
  match a with
  | ⟨0, _⟩ => rfl
  | ⟨1, _⟩ => rfl

/-- Column `k` of row `r`, as the low-dimensional row sum indexes its operand. -/
theorem rowcol2 (r : Fin 8192) (k : Fin 2) : idx_main_call1_v1 (ix1 r) k = ix2 r k := by
  funext a
  match a with
  | ⟨0, _⟩ => rfl
  | ⟨1, _⟩ => rfl

/-- The reference's high-dimensional distance of edge `r` is the root of the sum of the squared differences of row `r`. -/
theorem v1_at (a0 a1 : FVec Ideal S8192x512 .f32) (a2 a3 : FVec Ideal S8192x2 .f32) (a4 : IVec S8192 32) (a5 : IVec S8192 1)
    (r : Fin 8192) :
    val_main_v1 (F := Ideal) a0 a1 (ix1 r) = Cert.Spec.dh (Cert.Spec.ofArrays a0 a1 a2 a3 a4 a5) r := by
  rw [val_main_v1_apply, Ideal.hostUnary_sqrt_def, val_main_call0_v1_apply, val_main_call0_cst_apply, Ideal.ofBits_def,
    Ideal.ofBits_zero_f32, zero_add]
  unfold Cert.Spec.dh Cert.Spec.dh2
  refine congrArg Ideal.sqrt (Finset.sum_congr rfl fun k _ => ?_)
  rw [rowcol512, val_main_call0_v0_apply, val_main_v0_apply, Ideal.mulf_def, Ideal.subf_def]
  rfl

/-- The reference's low-dimensional distance of edge `r` is the root of the sum of the squared differences of row `r`. -/
theorem v3_at (a0 a1 : FVec Ideal S8192x512 .f32) (a2 a3 : FVec Ideal S8192x2 .f32) (a4 : IVec S8192 32) (a5 : IVec S8192 1)
    (r : Fin 8192) :
    val_main_v3 (F := Ideal) a2 a3 (ix1 r) = Cert.Spec.dl (Cert.Spec.ofArrays a0 a1 a2 a3 a4 a5) r := by
  rw [val_main_v3_apply, Ideal.hostUnary_sqrt_def, val_main_call1_v1_apply, val_main_call1_cst_apply, Ideal.ofBits_def,
    Ideal.ofBits_zero_f32, zero_add]
  unfold Cert.Spec.dl Cert.Spec.dl2
  refine congrArg Ideal.sqrt (Finset.sum_congr rfl fun k _ => ?_)
  rw [rowcol2, val_main_call1_v0_apply, val_main_v2_apply, Ideal.mulf_def, Ideal.subf_def]
  rfl

end Cert.ReferenceIdeal.RefValue

end
-- ==== Proof.RefMask.lean ====
/- The reference's mask and difference at one ordered pair of edges `(r, c)`.  The mask's element is the conjunction of
   four tests — equal group ids, both flags raised, `r` strictly closer than `c` in the high dimension, `r` at least
   as far as `c` in the low one — each read from a row vector or a column vector broadcast over the square; as a
   one-bit word it is `1` exactly on the specification's violations.  The difference's element is `dl r - dl c`. -/
import proofs.«413598_j523986010373_2_alg».proof.Proof.RefRead
import proofs.«413598_j523986010373_2_alg».proof.Proof.Spec
import Idealize.ShloMosaic.Lib.ValueIdx
import Idealize.ShloMosaic.Lib.StableHlo.Predicate
import Idealize.ShloMosaic.PureOps.Ideal.Laws

noncomputable section

namespace Cert.ReferenceIdeal.RefValue

open Cert.ReferenceIdeal Cert.ReferenceIdeal.Gen Cert.ReferenceIdeal.ReadP Idealize.ShloMosaic Idealize.ShloMosaic.ValueIdx

/-! (iii) the mask and the differences at a pair of edges -/

/-- Four tests joined by three conjunctions of one-bit words: the word is `1` exactly when all four hold (two equal
    labels, two raised flags, a strict comparison and a weak one of extended reals). -/
theorem mask_word (k k' : BitVec 32) (f f' : BitVec 1) (u v w z : EReal) :
    IntOp.andi (IntOp.andi (IntOp.andi (IntOp.cmpi .eq k k') (IntOp.andi f f'))
        (FloatOps.cmpf (F := Ideal) (φ := .f32) .olt u v)) (FloatOps.cmpf (F := Ideal) (φ := .f32) .oge w z)
      = if k = k' ∧ (f = 1#1 ∧ f' = 1#1) ∧ u < v ∧ z ≤ w then 1#1 else 0#1 := by
  show IntOp.andi (IntOp.andi (IntOp.andi (IntOp.cmpi .eq k k') (IntOp.andi f f')) (Ideal.cmp .olt u v)) (Ideal.cmp .oge w z) = _
  unfold Ideal.cmp IntOp.cmpi IntOp.andi
  have hb : (k == k') = decide (k = k') := by by_cases h : k = k' <;> simp [h]
  simp only [hb]
  rcases BitVec.eq_zero_or_eq_one f with rfl | rfl <;> rcases BitVec.eq_zero_or_eq_one f' with rfl | rfl <;>
    by_cases hk : k = k' <;> by_cases h1 : u < v <;> by_cases h2 : z ≤ w <;> simp [hk, h1, h2]

theorem v26_at (a0 a1 : FVec Ideal S8192x512 .f32) (a2 a3 : FVec Ideal S8192x2 .f32) (a4 : IVec S8192 32) (a5 : IVec S8192 1)
    (hdh : ∀ r : Fin 8192, val_main_v1 (F := Ideal) a0 a1 (ix1 r) = Cert.Spec.dh (Cert.Spec.ofArrays a0 a1 a2 a3 a4 a5) r)
    (hdl : ∀ r : Fin 8192, val_main_v3 (F := Ideal) a2 a3 (ix1 r) = Cert.Spec.dl (Cert.Spec.ofArrays a0 a1 a2 a3 a4 a5) r)
    (r c : Fin 8192) :
    val_main_v26 (F := Ideal) a0 a1 a2 a3 a4 a5 (ix2 r c)
      = if Cert.Spec.maskR (Cert.Spec.ofArrays a0 a1 a2 a3 a4 a5) r c then 1#1 else 0#1 := by
  have e6 : idx_main_v4 (idx_main_v6 (ix2 r c)) = ix1 r := funext fun a => match a with | ⟨0, _⟩ => rfl
  have e7 : idx_main_v5 (idx_main_v7 (ix2 r c)) = ix1 c := funext fun a => match a with | ⟨0, _⟩ => rfl
  have e11 : idx_main_v9 (idx_main_v11 (ix2 r c)) = ix1 r := funext fun a => match a with | ⟨0, _⟩ => rfl
  have e12 : idx_main_v10 (idx_main_v12 (ix2 r c)) = ix1 c := funext fun a => match a with | ⟨0, _⟩ => rfl
  have e16 : idx_main_v14 (idx_main_v16 (ix2 r c)) = ix1 r := funext fun a => match a with | ⟨0, _⟩ => rfl
  have e17 : idx_main_v15 (idx_main_v17 (ix2 r c)) = ix1 c := funext fun a => match a with | ⟨0, _⟩ => rfl
  have e21 : idx_main_v19 (idx_main_v21 (ix2 r c)) = ix1 r := funext fun a => match a with | ⟨0, _⟩ => rfl
  have e22 : idx_main_v20 (idx_main_v22 (ix2 r c)) = ix1 c := funext fun a => match a with | ⟨0, _⟩ => rfl
  rw [val_main_v26_apply, val_main_v25_apply, val_main_v24_apply, val_main_v23_apply, val_main_v18_apply,
    val_main_v13_apply, val_main_v8_apply,
    val_main_v6_apply, val_main_v4_apply, val_main_v7_apply, val_main_v5_apply,
    val_main_v11_apply, val_main_v9_apply, val_main_v12_apply, val_main_v10_apply,
    val_main_v16_apply, val_main_v14_apply, val_main_v17_apply, val_main_v15_apply,
    val_main_v21_apply, val_main_v19_apply, val_main_v22_apply, val_main_v20_apply,
    e6, e7, e11, e12, e16, e17, e21, e22, hdh, hdh, hdl, hdl]
  exact mask_word _ _ _ _ _ _ _ _

theorem v31_at (a0 a1 : FVec Ideal S8192x512 .f32) (a2 a3 : FVec Ideal S8192x2 .f32) (a4 : IVec S8192 32) (a5 : IVec S8192 1)
    (hdl : ∀ r : Fin 8192, val_main_v3 (F := Ideal) a2 a3 (ix1 r) = Cert.Spec.dl (Cert.Spec.ofArrays a0 a1 a2 a3 a4 a5) r)
    (r c : Fin 8192) :
    val_main_v31 (F := Ideal) a2 a3 (ix2 r c)
      = Cert.Spec.dl (Cert.Spec.ofArrays a0 a1 a2 a3 a4 a5) r - Cert.Spec.dl (Cert.Spec.ofArrays a0 a1 a2 a3 a4 a5) c := by
  have e29 : idx_main_v27 (idx_main_v29 (ix2 r c)) = ix1 r := funext fun a => match a with | ⟨0, _⟩ => rfl
  have e30 : idx_main_v28 (idx_main_v30 (ix2 r c)) = ix1 c := funext fun a => match a with | ⟨0, _⟩ => rfl
  rw [val_main_v31_apply, val_main_v29_apply, val_main_v27_apply, val_main_v30_apply, val_main_v28_apply, e29, e30, hdl, hdl]
  rfl

end Cert.ReferenceIdeal.RefValue

end
-- ==== Proof.RefValue.lean ====
import proofs.«413598_j523986010373_2_alg».proof.Defs
import proofs.«413598_j523986010373_2_alg».proof.Proof.RefRun
import proofs.«413598_j523986010373_2_alg».proof.Proof.RefRead
import proofs.«413598_j523986010373_2_alg».proof.Proof.RefStages
import proofs.«413598_j523986010373_2_alg».proof.Proof.Spec
import proofs.«413598_j523986010373_2_alg».proof.Proof.RefCount
import proofs.«413598_j523986010373_2_alg».proof.Proof.RefDist
import proofs.«413598_j523986010373_2_alg».proof.Proof.RefMask
import Idealize.ShloMosaic.Lib.ValueIdx
import Idealize.ShloMosaic.Lib.IdealHost
import Idealize.ShloMosaic.PureOps.Ideal.Laws

/-!
The reference's result is the mean of `dl r - dl c` over the violations.

The last stage of the reference is a select on "the count is positive" between the quotient of the sum by the count and
zero. Read at its one index:

* the summand at a pair of edges `(r, c)` is `dl r - dl c` when the pair is a violation and `0` otherwise (the mask
  and the differences at a pair, then the select);
* the float sum over both axes is the sum over every index of the `8192 × 8192` array, which is the double sum over
  the two coordinates: the sum of the summands, `rLoss`;
* the integer sum of the mask's bits is the word of the number of violations `rCount`, a number at most `2 ^ 26`, so the
  word is positive as a signed word exactly when the number is, and converts to the number;
* so the select is the definition of `rResult`.

Then the reference's run, whose result buffer holds that last stage of the argument arrays, ends with the result buffer
at `rResult` of the inputs read off the argument arrays.
-/

noncomputable section

namespace Cert.ReferenceIdeal.RefValue

open Cert.ReferenceIdeal Cert.ReferenceIdeal.Gen Cert.ReferenceIdeal.ReadP Idealize.ShloMosaic Idealize.ShloMosaic.TcCoe
  Idealize.SL.Sem Idealize.ShloMosaic.StableHlo Idealize.ShloMosaic.ValueIdx

/-- The zero pattern is the extended real zero. -/
theorem ofBits_zero : FloatOps.ofBits (F := Ideal) .f32 0x00000000#32 = (0 : EReal) := Ideal.ofBits_zero_f32

/-- The summand at a pair of edges: the difference of the low-dimensional distances on a violation, else zero. -/
theorem v34_at (a0 a1 : FVec Ideal S8192x512 .f32) (a2 a3 : FVec Ideal S8192x2 .f32) (a4 : IVec S8192 32) (a5 : IVec S8192 1) (r c : Fin 8192) :
    val_main_v34 (F := Ideal) a0 a1 a2 a3 a4 a5 (ix2 r c)
      = if Cert.Spec.maskR (Cert.Spec.ofArrays a0 a1 a2 a3 a4 a5) r c then Cert.Spec.dl (Cert.Spec.ofArrays a0 a1 a2 a3 a4 a5) r - Cert.Spec.dl (Cert.Spec.ofArrays a0 a1 a2 a3 a4 a5) c else 0 := by
  rw [val_main_v34_apply, v26_at a0 a1 a2 a3 a4 a5 (v1_at a0 a1 a2 a3 a4 a5) (v3_at a0 a1 a2 a3 a4 a5) r c, v31_at a0 a1 a2 a3 a4 a5 (v3_at a0 a1 a2 a3 a4 a5) r c,
    val_main_call2_v0_apply, val_main_cst_apply, ofBits_zero]
  by_cases h : Cert.Spec.maskR (Cert.Spec.ofArrays a0 a1 a2 a3 a4 a5) r c
  · rw [if_pos h, if_pos h]; rfl
  · rw [if_neg h, if_neg h]; rfl

/-- The float sum over both axes is the sum of the summands over the ordered pairs of edges. -/
theorem v35_eq (a0 a1 : FVec Ideal S8192x512 .f32) (a2 a3 : FVec Ideal S8192x2 .f32) (a4 : IVec S8192 32) (a5 : IVec S8192 1) (i : S_.Idx) :
    val_main_v35 (F := Ideal) a0 a1 a2 a3 a4 a5 i = Cert.Spec.rLoss (Cert.Spec.ofArrays a0 a1 a2 a3 a4 a5) := by
  rw [val_main_v35_apply, val_main_cst_0_apply, ofBits_zero, zero_add, sum_idx2]
  unfold Cert.Spec.rLoss
  exact Finset.sum_congr rfl fun r _ => Finset.sum_congr rfl fun c _ => v34_at a0 a1 a2 a3 a4 a5 r c

/-- The integer sum of the mask's bits is the word of the number of violations. -/
theorem v33_eq (a0 a1 : FVec Ideal S8192x512 .f32) (a2 a3 : FVec Ideal S8192x2 .f32) (a4 : IVec S8192 32) (a5 : IVec S8192 1) (i : S_.Idx) :
    val_main_v33 (F := Ideal) a0 a1 a2 a3 a4 a5 i = BitVec.ofNat 32 (Cert.Spec.rCount (Cert.Spec.ofArrays a0 a1 a2 a3 a4 a5)) := by
  show Host.reduce IntOp.addi (extui 32 (val_main_v26 (F := Ideal) a0 a1 a2 a3 a4 a5) natLt_1_32) (constantI S_ 32 0#32)
    reducesTo_S8192x8192_S_d0_1 h_S_ i = _
  rw [count_reduce]
  unfold Cert.Spec.rCount
  refine congrArg (BitVec.ofNat 32) (Finset.sum_congr rfl fun r _ => Finset.sum_congr rfl fun c _ => ?_)
  rw [v26_at a0 a1 a2 a3 a4 a5 (v1_at a0 a1 a2 a3 a4 a5) (v3_at a0 a1 a2 a3 a4 a5) r c]
  by_cases h : Cert.Spec.maskR (Cert.Spec.ofArrays a0 a1 a2 a3 a4 a5) r c
  · rw [if_pos h, if_pos rfl, if_pos h]
  · rw [if_neg h, if_neg (by decide), if_neg h]

/-- The number of violations is at most the number of ordered pairs of edges. -/
theorem rCount_le (a0 a1 : FVec Ideal S8192x512 .f32) (a2 a3 : FVec Ideal S8192x2 .f32) (a4 : IVec S8192 32) (a5 : IVec S8192 1) : Cert.Spec.rCount (Cert.Spec.ofArrays a0 a1 a2 a3 a4 a5) ≤ 2 ^ 26 := by
  unfold Cert.Spec.rCount
  exact count_le (fun r c => Cert.Spec.maskR (Cert.Spec.ofArrays a0 a1 a2 a3 a4 a5) r c)

/-- The reference's last stage is `rResult` of the inputs read off the argument arrays. -/
theorem result_eq (a0 a1 : FVec Ideal S8192x512 .f32) (a2 a3 : FVec Ideal S8192x2 .f32) (a4 : IVec S8192 32) (a5 : IVec S8192 1) :
    val_main_v39 (F := Ideal) a0 a1 a2 a3 a4 a5 = fun _ => Cert.Spec.rResult (Cert.Spec.ofArrays a0 a1 a2 a3 a4 a5) := by
  funext i
  rw [val_main_v39_apply, val_main_v36_apply, val_main_v38_apply, val_main_v37_apply, val_main_c_1_apply,
    val_main_cst_2_apply, ofBits_zero, v33_eq, v35_eq, sgt_ofNat _ (rCount_le a0 a1 a2 a3 a4 a5), sitofp_ofNat _ (rCount_le a0 a1 a2 a3 a4 a5)]
  unfold Cert.Spec.rResult
  by_cases h : 0 < Cert.Spec.rCount (Cert.Spec.ofArrays a0 a1 a2 a3 a4 a5)
  · rw [if_pos h, if_pos h]; rfl
  · rw [if_neg h, if_neg h]; rfl

/-! ## The run -/

/-- On every device, from any memory with zero counters: every weakly fair execution of the reference terminates with
    the result buffer at `rResult` of the inputs read off the argument arrays, and the arguments unchanged. -/
theorem run_spec (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v39)
        = (fun _ => Cert.Spec.rResult (Cert.Spec.ofArrays (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run (defs (F := Ideal)) _ _).mono
    (fun _ h c => ⟨(h c).1.trans (result_eq _ _ _ _ _ _), (h c).2⟩)
    (Cert.ReferenceIdeal.ValueP.run (F := Ideal) m ρ)

end Cert.ReferenceIdeal.RefValue

end
-- ==== Proof.lean ====
/-
  The certificate's five claims.

  The two programs compute, for 8192 edges in groups, the mean of `dl r - dl c` over the ordered pairs `(r, c)` of edges of one
  group, both flagged, with `r` strictly nearer than `c` in the high dimension and at least as far in the low one (`0` when
  there is no such pair); the precondition asks every float input finite and every group id non-negative.

  * The reference is a host program: its run gives its result as the composed term of its operations, and that term is
    `Spec.rResult` of the arguments (`RefValue.run_spec`); its frame is that run with the result dropped.
  * The kernel program is two pipelined regions among host operations.  Region 0 leaves, per edge, the squared high
    distance and the low distance; the host forms each edge's key (its group id if flagged, else the negative number
    `-1 - r`) and each tile's least and greatest group id; region 1 walks the `16 × 16` tile pairs, skips a pair whose
    ranges of group ids do not meet, and accumulates the pair's sum and count; the host divides.  Its run
    (`Hand.run_value`) names the result as a function of what the regions leave, the regions' proof data say what that is
    point by point, and read index by index it is `Spec.kResult`, which is `Spec.rResult` when no group id is negative
    (`KV.run_spec`).  The frames of the word-level program and of its idealization are the same text at the two instances.
  * The idealization rewrote nothing, so `preserves` has nothing to state.
-/
import proofs.«413598_j523986010373_2_alg».proof.Defs
import proofs.«413598_j523986010373_2_alg».proof.Proof.Gen.Kernel
import proofs.«413598_j523986010373_2_alg».proof.Proof.Gen.KernelIdeal
import proofs.«413598_j523986010373_2_alg».proof.Proof.Gen.ReferenceIdeal
import proofs.«413598_j523986010373_2_alg».proof.Proof.Gen.Pre_finite_inputs
import proofs.«413598_j523986010373_2_alg».proof.Proof.KRun
import proofs.«413598_j523986010373_2_alg».proof.Proof.Run
import proofs.«413598_j523986010373_2_alg».proof.Proof.KValue
import proofs.«413598_j523986010373_2_alg».proof.Proof.RefValue
import Idealize.ShloMosaic.Adequacy
import Idealize.ShloMosaic.Init

noncomputable section

namespace Cert.Proof

open Idealize.ShloMosaic Idealize.ShloMosaic.TcCoe Idealize.SL.Sem

/-- The word-level program runs to the end and leaves its arguments as launched. -/
theorem frame_k : Cert.frame_Kernel := fun m ρ _ => Cert.Kernel.Hand.frame (F := Bits) m ρ

/-- So does its idealization. -/
theorem frame_ki : Cert.frame_KernelIdeal := fun m ρ _ => Cert.KernelIdeal.Hand.frame (F := Ideal) m ρ

/-- The reference's frame is its run with the result dropped. -/
theorem frame_ri : Cert.frame_ReferenceIdeal := fun m ρ _ =>
  (θ_run Cert.ReferenceIdeal.defs _ _).mono (fun _ h c => (h c).2) (Cert.ReferenceIdeal.RefValue.run_spec m ρ)

/-- From memories that agree on the arguments both programs end at the same number: the reference's function of the
    arguments. -/
theorem algebraic : Cert.algebraic_KernelIdeal_ReferenceIdeal := by
  intro m ρ m' ρ' hpre hagree
  refine ⟨_, Cert.KernelIdeal.KV.run_spec m ρ hpre, ?_⟩
  refine (θ_run Cert.ReferenceIdeal.defs _ _).mono (fun _ h c => ⟨(h c).1.trans ?_, (h c).2⟩)
    (Cert.ReferenceIdeal.RefValue.run_spec m' ρ')
  rw [(hagree c).1, (hagree c).2.1, (hagree c).2.2.1, (hagree c).2.2.2.1, (hagree c).2.2.2.2.1, (hagree c).2.2.2.2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
